-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S4096x1024 : Shape := ⟨2, ![4096, 1024]⟩
abbrev S1x1024 : Shape := ⟨2, ![1, 1024]⟩
abbrev S1024x1024 : Shape := ⟨2, ![1024, 1024]⟩
abbrev S15x1x1024 : Shape := ⟨3, ![15, 1, 1024]⟩
abbrev S15 : Shape := ⟨1, ![15]⟩
abbrev S1024 : Shape := ⟨1, ![1024]⟩
abbrev S_ : Shape := ⟨0, ![]⟩
abbrev S1 : Shape := ⟨1, ![1]⟩
abbrev S1x1x1024 : Shape := ⟨3, ![1, 1, 1024]⟩
abbrev S15x1024 : Shape := ⟨2, ![15, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S15x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_dev1 (d19 : Dev nD) : Nat :=
  let c0_i32_17 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c1_i32_8 : BitVec 32 := 1#32
  let v23 : BitVec 32 := Scalar.addi v21 c1_i32_8
  let c16_i32_9 : BitVec 32 := 16#32
  let c0_i32_10 : BitVec 32 := 0#32
  let v24 : BitVec 1 := Scalar.cmpi .eq c16_i32_9 c0_i32_10
  let c1_i32_11 : BitVec 32 := 1#32
  let v25 : BitVec 32 := Scalar.select v24 c1_i32_11 c16_i32_9
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c1_i32_16 : BitVec 32 := 1#32
  let v34 : BitVec 32 := Scalar.muli v33 c1_i32_16
  let v35 : BitVec 32 := Scalar.addi c0_i32_17 v34
  v35.toNat
def k0_dev2 (d19 : Dev nD) : Nat :=
  let c0_i32_27 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c2_i32_18 : BitVec 32 := 2#32
  let v36 : BitVec 32 := Scalar.addi v21 c2_i32_18
  let c16_i32_19 : BitVec 32 := 16#32
  let c0_i32_20 : BitVec 32 := 0#32
  let v37 : BitVec 1 := Scalar.cmpi .eq c16_i32_19 c0_i32_20
  let c1_i32_21 : BitVec 32 := 1#32
  let v38 : BitVec 32 := Scalar.select v37 c1_i32_21 c16_i32_19
  let v39 : BitVec 32 := Scalar.remsi v36 v38
  let c0_i32_23 : BitVec 32 := 0#32
  let v41 : BitVec 1 := Scalar.cmpi .slt v39 c0_i32_23
  let c0_i32_24 : BitVec 32 := 0#32
  let v42 : BitVec 1 := Scalar.cmpi .slt v38 c0_i32_24
  let v43 : BitVec 1 := Scalar.xori v41 v42
  let c0_i32_22 : BitVec 32 := 0#32
  let v40 : BitVec 1 := Scalar.cmpi .ne v39 c0_i32_22
  let v44 : BitVec 1 := Scalar.andi v43 v40
  let v45 : BitVec 32 := Scalar.addi v39 v38
  let v46 : BitVec 32 := Scalar.select v44 v45 v39
  let c1_i32_26 : BitVec 32 := 1#32
  let v47 : BitVec 32 := Scalar.muli v46 c1_i32_26
  let v48 : BitVec 32 := Scalar.addi c0_i32_27 v47
  v48.toNat
def k0_dev3 (d19 : Dev nD) : Nat :=
  let c0_i32_37 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c3_i32_28 : BitVec 32 := 3#32
  let v49 : BitVec 32 := Scalar.addi v21 c3_i32_28
  let c16_i32_29 : BitVec 32 := 16#32
  let c0_i32_30 : BitVec 32 := 0#32
  let v50 : BitVec 1 := Scalar.cmpi .eq c16_i32_29 c0_i32_30
  let c1_i32_31 : BitVec 32 := 1#32
  let v51 : BitVec 32 := Scalar.select v50 c1_i32_31 c16_i32_29
  let v52 : BitVec 32 := Scalar.remsi v49 v51
  let c0_i32_33 : BitVec 32 := 0#32
  let v54 : BitVec 1 := Scalar.cmpi .slt v52 c0_i32_33
  let c0_i32_34 : BitVec 32 := 0#32
  let v55 : BitVec 1 := Scalar.cmpi .slt v51 c0_i32_34
  let v56 : BitVec 1 := Scalar.xori v54 v55
  let c0_i32_32 : BitVec 32 := 0#32
  let v53 : BitVec 1 := Scalar.cmpi .ne v52 c0_i32_32
  let v57 : BitVec 1 := Scalar.andi v56 v53
  let v58 : BitVec 32 := Scalar.addi v52 v51
  let v59 : BitVec 32 := Scalar.select v57 v58 v52
  let c1_i32_36 : BitVec 32 := 1#32
  let v60 : BitVec 32 := Scalar.muli v59 c1_i32_36
  let v61 : BitVec 32 := Scalar.addi c0_i32_37 v60
  v61.toNat
def k0_dev4 (d19 : Dev nD) : Nat :=
  let c0_i32_46 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c4_i32 : BitVec 32 := 4#32
  let v62 : BitVec 32 := Scalar.addi v21 c4_i32
  let c16_i32_38 : BitVec 32 := 16#32
  let c0_i32_39 : BitVec 32 := 0#32
  let v63 : BitVec 1 := Scalar.cmpi .eq c16_i32_38 c0_i32_39
  let c1_i32_40 : BitVec 32 := 1#32
  let v64 : BitVec 32 := Scalar.select v63 c1_i32_40 c16_i32_38
  let v65 : BitVec 32 := Scalar.remsi v62 v64
  let c0_i32_42 : BitVec 32 := 0#32
  let v67 : BitVec 1 := Scalar.cmpi .slt v65 c0_i32_42
  let c0_i32_43 : BitVec 32 := 0#32
  let v68 : BitVec 1 := Scalar.cmpi .slt v64 c0_i32_43
  let v69 : BitVec 1 := Scalar.xori v67 v68
  let c0_i32_41 : BitVec 32 := 0#32
  let v66 : BitVec 1 := Scalar.cmpi .ne v65 c0_i32_41
  let v70 : BitVec 1 := Scalar.andi v69 v66
  let v71 : BitVec 32 := Scalar.addi v65 v64
  let v72 : BitVec 32 := Scalar.select v70 v71 v65
  let c1_i32_45 : BitVec 32 := 1#32
  let v73 : BitVec 32 := Scalar.muli v72 c1_i32_45
  let v74 : BitVec 32 := Scalar.addi c0_i32_46 v73
  v74.toNat
def k0_dev5 (d19 : Dev nD) : Nat :=
  let c0_i32_55 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c5_i32 : BitVec 32 := 5#32
  let v75 : BitVec 32 := Scalar.addi v21 c5_i32
  let c16_i32_47 : BitVec 32 := 16#32
  let c0_i32_48 : BitVec 32 := 0#32
  let v76 : BitVec 1 := Scalar.cmpi .eq c16_i32_47 c0_i32_48
  let c1_i32_49 : BitVec 32 := 1#32
  let v77 : BitVec 32 := Scalar.select v76 c1_i32_49 c16_i32_47
  let v78 : BitVec 32 := Scalar.remsi v75 v77
  let c0_i32_51 : BitVec 32 := 0#32
  let v80 : BitVec 1 := Scalar.cmpi .slt v78 c0_i32_51
  let c0_i32_52 : BitVec 32 := 0#32
  let v81 : BitVec 1 := Scalar.cmpi .slt v77 c0_i32_52
  let v82 : BitVec 1 := Scalar.xori v80 v81
  let c0_i32_50 : BitVec 32 := 0#32
  let v79 : BitVec 1 := Scalar.cmpi .ne v78 c0_i32_50
  let v83 : BitVec 1 := Scalar.andi v82 v79
  let v84 : BitVec 32 := Scalar.addi v78 v77
  let v85 : BitVec 32 := Scalar.select v83 v84 v78
  let c1_i32_54 : BitVec 32 := 1#32
  let v86 : BitVec 32 := Scalar.muli v85 c1_i32_54
  let v87 : BitVec 32 := Scalar.addi c0_i32_55 v86
  v87.toNat
def k0_dev6 (d19 : Dev nD) : Nat :=
  let c0_i32_64 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c6_i32 : BitVec 32 := 6#32
  let v88 : BitVec 32 := Scalar.addi v21 c6_i32
  let c16_i32_56 : BitVec 32 := 16#32
  let c0_i32_57 : BitVec 32 := 0#32
  let v89 : BitVec 1 := Scalar.cmpi .eq c16_i32_56 c0_i32_57
  let c1_i32_58 : BitVec 32 := 1#32
  let v90 : BitVec 32 := Scalar.select v89 c1_i32_58 c16_i32_56
  let v91 : BitVec 32 := Scalar.remsi v88 v90
  let c0_i32_60 : BitVec 32 := 0#32
  let v93 : BitVec 1 := Scalar.cmpi .slt v91 c0_i32_60
  let c0_i32_61 : BitVec 32 := 0#32
  let v94 : BitVec 1 := Scalar.cmpi .slt v90 c0_i32_61
  let v95 : BitVec 1 := Scalar.xori v93 v94
  let c0_i32_59 : BitVec 32 := 0#32
  let v92 : BitVec 1 := Scalar.cmpi .ne v91 c0_i32_59
  let v96 : BitVec 1 := Scalar.andi v95 v92
  let v97 : BitVec 32 := Scalar.addi v91 v90
  let v98 : BitVec 32 := Scalar.select v96 v97 v91
  let c1_i32_63 : BitVec 32 := 1#32
  let v99 : BitVec 32 := Scalar.muli v98 c1_i32_63
  let v100 : BitVec 32 := Scalar.addi c0_i32_64 v99
  v100.toNat
def k0_dev7 (d19 : Dev nD) : Nat :=
  let c0_i32_73 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c7_i32 : BitVec 32 := 7#32
  let v101 : BitVec 32 := Scalar.addi v21 c7_i32
  let c16_i32_65 : BitVec 32 := 16#32
  let c0_i32_66 : BitVec 32 := 0#32
  let v102 : BitVec 1 := Scalar.cmpi .eq c16_i32_65 c0_i32_66
  let c1_i32_67 : BitVec 32 := 1#32
  let v103 : BitVec 32 := Scalar.select v102 c1_i32_67 c16_i32_65
  let v104 : BitVec 32 := Scalar.remsi v101 v103
  let c0_i32_69 : BitVec 32 := 0#32
  let v106 : BitVec 1 := Scalar.cmpi .slt v104 c0_i32_69
  let c0_i32_70 : BitVec 32 := 0#32
  let v107 : BitVec 1 := Scalar.cmpi .slt v103 c0_i32_70
  let v108 : BitVec 1 := Scalar.xori v106 v107
  let c0_i32_68 : BitVec 32 := 0#32
  let v105 : BitVec 1 := Scalar.cmpi .ne v104 c0_i32_68
  let v109 : BitVec 1 := Scalar.andi v108 v105
  let v110 : BitVec 32 := Scalar.addi v104 v103
  let v111 : BitVec 32 := Scalar.select v109 v110 v104
  let c1_i32_72 : BitVec 32 := 1#32
  let v112 : BitVec 32 := Scalar.muli v111 c1_i32_72
  let v113 : BitVec 32 := Scalar.addi c0_i32_73 v112
  v113.toNat
def k0_dev8 (d19 : Dev nD) : Nat :=
  let c0_i32_82 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c8_i32 : BitVec 32 := 8#32
  let v114 : BitVec 32 := Scalar.addi v21 c8_i32
  let c16_i32_74 : BitVec 32 := 16#32
  let c0_i32_75 : BitVec 32 := 0#32
  let v115 : BitVec 1 := Scalar.cmpi .eq c16_i32_74 c0_i32_75
  let c1_i32_76 : BitVec 32 := 1#32
  let v116 : BitVec 32 := Scalar.select v115 c1_i32_76 c16_i32_74
  let v117 : BitVec 32 := Scalar.remsi v114 v116
  let c0_i32_78 : BitVec 32 := 0#32
  let v119 : BitVec 1 := Scalar.cmpi .slt v117 c0_i32_78
  let c0_i32_79 : BitVec 32 := 0#32
  let v120 : BitVec 1 := Scalar.cmpi .slt v116 c0_i32_79
  let v121 : BitVec 1 := Scalar.xori v119 v120
  let c0_i32_77 : BitVec 32 := 0#32
  let v118 : BitVec 1 := Scalar.cmpi .ne v117 c0_i32_77
  let v122 : BitVec 1 := Scalar.andi v121 v118
  let v123 : BitVec 32 := Scalar.addi v117 v116
  let v124 : BitVec 32 := Scalar.select v122 v123 v117
  let c1_i32_81 : BitVec 32 := 1#32
  let v125 : BitVec 32 := Scalar.muli v124 c1_i32_81
  let v126 : BitVec 32 := Scalar.addi c0_i32_82 v125
  v126.toNat
def k0_dev9 (d19 : Dev nD) : Nat :=
  let c0_i32_91 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c9_i32 : BitVec 32 := 9#32
  let v127 : BitVec 32 := Scalar.addi v21 c9_i32
  let c16_i32_83 : BitVec 32 := 16#32
  let c0_i32_84 : BitVec 32 := 0#32
  let v128 : BitVec 1 := Scalar.cmpi .eq c16_i32_83 c0_i32_84
  let c1_i32_85 : BitVec 32 := 1#32
  let v129 : BitVec 32 := Scalar.select v128 c1_i32_85 c16_i32_83
  let v130 : BitVec 32 := Scalar.remsi v127 v129
  let c0_i32_87 : BitVec 32 := 0#32
  let v132 : BitVec 1 := Scalar.cmpi .slt v130 c0_i32_87
  let c0_i32_88 : BitVec 32 := 0#32
  let v133 : BitVec 1 := Scalar.cmpi .slt v129 c0_i32_88
  let v134 : BitVec 1 := Scalar.xori v132 v133
  let c0_i32_86 : BitVec 32 := 0#32
  let v131 : BitVec 1 := Scalar.cmpi .ne v130 c0_i32_86
  let v135 : BitVec 1 := Scalar.andi v134 v131
  let v136 : BitVec 32 := Scalar.addi v130 v129
  let v137 : BitVec 32 := Scalar.select v135 v136 v130
  let c1_i32_90 : BitVec 32 := 1#32
  let v138 : BitVec 32 := Scalar.muli v137 c1_i32_90
  let v139 : BitVec 32 := Scalar.addi c0_i32_91 v138
  v139.toNat
def k0_dev10 (d19 : Dev nD) : Nat :=
  let c0_i32_100 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c10_i32 : BitVec 32 := 10#32
  let v140 : BitVec 32 := Scalar.addi v21 c10_i32
  let c16_i32_92 : BitVec 32 := 16#32
  let c0_i32_93 : BitVec 32 := 0#32
  let v141 : BitVec 1 := Scalar.cmpi .eq c16_i32_92 c0_i32_93
  let c1_i32_94 : BitVec 32 := 1#32
  let v142 : BitVec 32 := Scalar.select v141 c1_i32_94 c16_i32_92
  let v143 : BitVec 32 := Scalar.remsi v140 v142
  let c0_i32_96 : BitVec 32 := 0#32
  let v145 : BitVec 1 := Scalar.cmpi .slt v143 c0_i32_96
  let c0_i32_97 : BitVec 32 := 0#32
  let v146 : BitVec 1 := Scalar.cmpi .slt v142 c0_i32_97
  let v147 : BitVec 1 := Scalar.xori v145 v146
  let c0_i32_95 : BitVec 32 := 0#32
  let v144 : BitVec 1 := Scalar.cmpi .ne v143 c0_i32_95
  let v148 : BitVec 1 := Scalar.andi v147 v144
  let v149 : BitVec 32 := Scalar.addi v143 v142
  let v150 : BitVec 32 := Scalar.select v148 v149 v143
  let c1_i32_99 : BitVec 32 := 1#32
  let v151 : BitVec 32 := Scalar.muli v150 c1_i32_99
  let v152 : BitVec 32 := Scalar.addi c0_i32_100 v151
  v152.toNat
def k0_dev11 (d19 : Dev nD) : Nat :=
  let c0_i32_109 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c11_i32 : BitVec 32 := 11#32
  let v153 : BitVec 32 := Scalar.addi v21 c11_i32
  let c16_i32_101 : BitVec 32 := 16#32
  let c0_i32_102 : BitVec 32 := 0#32
  let v154 : BitVec 1 := Scalar.cmpi .eq c16_i32_101 c0_i32_102
  let c1_i32_103 : BitVec 32 := 1#32
  let v155 : BitVec 32 := Scalar.select v154 c1_i32_103 c16_i32_101
  let v156 : BitVec 32 := Scalar.remsi v153 v155
  let c0_i32_105 : BitVec 32 := 0#32
  let v158 : BitVec 1 := Scalar.cmpi .slt v156 c0_i32_105
  let c0_i32_106 : BitVec 32 := 0#32
  let v159 : BitVec 1 := Scalar.cmpi .slt v155 c0_i32_106
  let v160 : BitVec 1 := Scalar.xori v158 v159
  let c0_i32_104 : BitVec 32 := 0#32
  let v157 : BitVec 1 := Scalar.cmpi .ne v156 c0_i32_104
  let v161 : BitVec 1 := Scalar.andi v160 v157
  let v162 : BitVec 32 := Scalar.addi v156 v155
  let v163 : BitVec 32 := Scalar.select v161 v162 v156
  let c1_i32_108 : BitVec 32 := 1#32
  let v164 : BitVec 32 := Scalar.muli v163 c1_i32_108
  let v165 : BitVec 32 := Scalar.addi c0_i32_109 v164
  v165.toNat
def k0_dev12 (d19 : Dev nD) : Nat :=
  let c0_i32_118 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c12_i32 : BitVec 32 := 12#32
  let v166 : BitVec 32 := Scalar.addi v21 c12_i32
  let c16_i32_110 : BitVec 32 := 16#32
  let c0_i32_111 : BitVec 32 := 0#32
  let v167 : BitVec 1 := Scalar.cmpi .eq c16_i32_110 c0_i32_111
  let c1_i32_112 : BitVec 32 := 1#32
  let v168 : BitVec 32 := Scalar.select v167 c1_i32_112 c16_i32_110
  let v169 : BitVec 32 := Scalar.remsi v166 v168
  let c0_i32_114 : BitVec 32 := 0#32
  let v171 : BitVec 1 := Scalar.cmpi .slt v169 c0_i32_114
  let c0_i32_115 : BitVec 32 := 0#32
  let v172 : BitVec 1 := Scalar.cmpi .slt v168 c0_i32_115
  let v173 : BitVec 1 := Scalar.xori v171 v172
  let c0_i32_113 : BitVec 32 := 0#32
  let v170 : BitVec 1 := Scalar.cmpi .ne v169 c0_i32_113
  let v174 : BitVec 1 := Scalar.andi v173 v170
  let v175 : BitVec 32 := Scalar.addi v169 v168
  let v176 : BitVec 32 := Scalar.select v174 v175 v169
  let c1_i32_117 : BitVec 32 := 1#32
  let v177 : BitVec 32 := Scalar.muli v176 c1_i32_117
  let v178 : BitVec 32 := Scalar.addi c0_i32_118 v177
  v178.toNat
def k0_dev13 (d19 : Dev nD) : Nat :=
  let c0_i32_127 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c13_i32 : BitVec 32 := 13#32
  let v179 : BitVec 32 := Scalar.addi v21 c13_i32
  let c16_i32_119 : BitVec 32 := 16#32
  let c0_i32_120 : BitVec 32 := 0#32
  let v180 : BitVec 1 := Scalar.cmpi .eq c16_i32_119 c0_i32_120
  let c1_i32_121 : BitVec 32 := 1#32
  let v181 : BitVec 32 := Scalar.select v180 c1_i32_121 c16_i32_119
  let v182 : BitVec 32 := Scalar.remsi v179 v181
  let c0_i32_123 : BitVec 32 := 0#32
  let v184 : BitVec 1 := Scalar.cmpi .slt v182 c0_i32_123
  let c0_i32_124 : BitVec 32 := 0#32
  let v185 : BitVec 1 := Scalar.cmpi .slt v181 c0_i32_124
  let v186 : BitVec 1 := Scalar.xori v184 v185
  let c0_i32_122 : BitVec 32 := 0#32
  let v183 : BitVec 1 := Scalar.cmpi .ne v182 c0_i32_122
  let v187 : BitVec 1 := Scalar.andi v186 v183
  let v188 : BitVec 32 := Scalar.addi v182 v181
  let v189 : BitVec 32 := Scalar.select v187 v188 v182
  let c1_i32_126 : BitVec 32 := 1#32
  let v190 : BitVec 32 := Scalar.muli v189 c1_i32_126
  let v191 : BitVec 32 := Scalar.addi c0_i32_127 v190
  v191.toNat
def k0_dev14 (d19 : Dev nD) : Nat :=
  let c0_i32_136 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c14_i32 : BitVec 32 := 14#32
  let v192 : BitVec 32 := Scalar.addi v21 c14_i32
  let c16_i32_128 : BitVec 32 := 16#32
  let c0_i32_129 : BitVec 32 := 0#32
  let v193 : BitVec 1 := Scalar.cmpi .eq c16_i32_128 c0_i32_129
  let c1_i32_130 : BitVec 32 := 1#32
  let v194 : BitVec 32 := Scalar.select v193 c1_i32_130 c16_i32_128
  let v195 : BitVec 32 := Scalar.remsi v192 v194
  let c0_i32_132 : BitVec 32 := 0#32
  let v197 : BitVec 1 := Scalar.cmpi .slt v195 c0_i32_132
  let c0_i32_133 : BitVec 32 := 0#32
  let v198 : BitVec 1 := Scalar.cmpi .slt v194 c0_i32_133
  let v199 : BitVec 1 := Scalar.xori v197 v198
  let c0_i32_131 : BitVec 32 := 0#32
  let v196 : BitVec 1 := Scalar.cmpi .ne v195 c0_i32_131
  let v200 : BitVec 1 := Scalar.andi v199 v196
  let v201 : BitVec 32 := Scalar.addi v195 v194
  let v202 : BitVec 32 := Scalar.select v200 v201 v195
  let c1_i32_135 : BitVec 32 := 1#32
  let v203 : BitVec 32 := Scalar.muli v202 c1_i32_135
  let v204 : BitVec 32 := Scalar.addi c0_i32_136 v203
  v204.toNat
def k0_dev15 (d19 : Dev nD) : Nat :=
  let c0_i32_145 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c15_i32 : BitVec 32 := 15#32
  let v205 : BitVec 32 := Scalar.addi v21 c15_i32
  let c16_i32_137 : BitVec 32 := 16#32
  let c0_i32_138 : BitVec 32 := 0#32
  let v206 : BitVec 1 := Scalar.cmpi .eq c16_i32_137 c0_i32_138
  let c1_i32_139 : BitVec 32 := 1#32
  let v207 : BitVec 32 := Scalar.select v206 c1_i32_139 c16_i32_137
  let v208 : BitVec 32 := Scalar.remsi v205 v207
  let c0_i32_141 : BitVec 32 := 0#32
  let v210 : BitVec 1 := Scalar.cmpi .slt v208 c0_i32_141
  let c0_i32_142 : BitVec 32 := 0#32
  let v211 : BitVec 1 := Scalar.cmpi .slt v207 c0_i32_142
  let v212 : BitVec 1 := Scalar.xori v210 v211
  let c0_i32_140 : BitVec 32 := 0#32
  let v209 : BitVec 1 := Scalar.cmpi .ne v208 c0_i32_140
  let v213 : BitVec 1 := Scalar.andi v212 v209
  let v214 : BitVec 32 := Scalar.addi v208 v207
  let v215 : BitVec 32 := Scalar.select v213 v214 v208
  let c1_i32_144 : BitVec 32 := 1#32
  let v216 : BitVec 32 := Scalar.muli v215 c1_i32_144
  let v217 : BitVec 32 := Scalar.addi c0_i32_145 v216
  v217.toNat
def k0_cond5 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_7 : BitVec 32 := 0#32
  let v18 : BitVec 1 := Scalar.cmpi .ne v17 c0_i32_7
  v18

def k0_dev16 (d19 : Dev nD) : Nat :=
  let c0_i32_19 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c1_i32_8 : BitVec 32 := 1#32
  let v22 : BitVec 32 := Scalar.addi v21 c1_i32_8
  let c16_i32_9 : BitVec 32 := 16#32
  let c0_i32_10 : BitVec 32 := 0#32
  let v23 : BitVec 1 := Scalar.cmpi .eq c16_i32_9 c0_i32_10
  let c1_i32_11 : BitVec 32 := 1#32
  let v24 : BitVec 32 := Scalar.select v23 c1_i32_11 c16_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c1_i32_18 : BitVec 32 := 1#32
  let v33 : BitVec 32 := Scalar.muli v32 c1_i32_18
  let v34 : BitVec 32 := Scalar.addi c0_i32_19 v33
  v34.toNat
def k0_dev17 (d19 : Dev nD) : Nat :=
  let c0_i32_33 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c2_i32_22 : BitVec 32 := 2#32
  let v41 : BitVec 32 := Scalar.addi v21 c2_i32_22
  let c16_i32_23 : BitVec 32 := 16#32
  let c0_i32_24 : BitVec 32 := 0#32
  let v42 : BitVec 1 := Scalar.cmpi .eq c16_i32_23 c0_i32_24
  let c1_i32_25 : BitVec 32 := 1#32
  let v43 : BitVec 32 := Scalar.select v42 c1_i32_25 c16_i32_23
  let v44 : BitVec 32 := Scalar.remsi v41 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_dev18 (d19 : Dev nD) : Nat :=
  let c0_i32_47 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c3_i32_36 : BitVec 32 := 3#32
  let v60 : BitVec 32 := Scalar.addi v21 c3_i32_36
  let c16_i32_37 : BitVec 32 := 16#32
  let c0_i32_38 : BitVec 32 := 0#32
  let v61 : BitVec 1 := Scalar.cmpi .eq c16_i32_37 c0_i32_38
  let c1_i32_39 : BitVec 32 := 1#32
  let v62 : BitVec 32 := Scalar.select v61 c1_i32_39 c16_i32_37
  let v63 : BitVec 32 := Scalar.remsi v60 v62
  let c0_i32_41 : BitVec 32 := 0#32
  let v65 : BitVec 1 := Scalar.cmpi .slt v63 c0_i32_41
  let c0_i32_42 : BitVec 32 := 0#32
  let v66 : BitVec 1 := Scalar.cmpi .slt v62 c0_i32_42
  let v67 : BitVec 1 := Scalar.xori v65 v66
  let c0_i32_40 : BitVec 32 := 0#32
  let v64 : BitVec 1 := Scalar.cmpi .ne v63 c0_i32_40
  let v68 : BitVec 1 := Scalar.andi v67 v64
  let v69 : BitVec 32 := Scalar.addi v63 v62
  let v70 : BitVec 32 := Scalar.select v68 v69 v63
  let c1_i32_46 : BitVec 32 := 1#32
  let v71 : BitVec 32 := Scalar.muli v70 c1_i32_46
  let v72 : BitVec 32 := Scalar.addi c0_i32_47 v71
  v72.toNat
def k0_dev19 (d19 : Dev nD) : Nat :=
  let c0_i32_60 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c4_i32 : BitVec 32 := 4#32
  let v79 : BitVec 32 := Scalar.addi v21 c4_i32
  let c16_i32_50 : BitVec 32 := 16#32
  let c0_i32_51 : BitVec 32 := 0#32
  let v80 : BitVec 1 := Scalar.cmpi .eq c16_i32_50 c0_i32_51
  let c1_i32_52 : BitVec 32 := 1#32
  let v81 : BitVec 32 := Scalar.select v80 c1_i32_52 c16_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1_i32_59 : BitVec 32 := 1#32
  let v90 : BitVec 32 := Scalar.muli v89 c1_i32_59
  let v91 : BitVec 32 := Scalar.addi c0_i32_60 v90
  v91.toNat
def k0_dev20 (d19 : Dev nD) : Nat :=
  let c0_i32_73 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c5_i32 : BitVec 32 := 5#32
  let v98 : BitVec 32 := Scalar.addi v21 c5_i32
  let c16_i32_63 : BitVec 32 := 16#32
  let c0_i32_64 : BitVec 32 := 0#32
  let v99 : BitVec 1 := Scalar.cmpi .eq c16_i32_63 c0_i32_64
  let c1_i32_65 : BitVec 32 := 1#32
  let v100 : BitVec 32 := Scalar.select v99 c1_i32_65 c16_i32_63
  let v101 : BitVec 32 := Scalar.remsi v98 v100
  let c0_i32_67 : BitVec 32 := 0#32
  let v103 : BitVec 1 := Scalar.cmpi .slt v101 c0_i32_67
  let c0_i32_68 : BitVec 32 := 0#32
  let v104 : BitVec 1 := Scalar.cmpi .slt v100 c0_i32_68
  let v105 : BitVec 1 := Scalar.xori v103 v104
  let c0_i32_66 : BitVec 32 := 0#32
  let v102 : BitVec 1 := Scalar.cmpi .ne v101 c0_i32_66
  let v106 : BitVec 1 := Scalar.andi v105 v102
  let v107 : BitVec 32 := Scalar.addi v101 v100
  let v108 : BitVec 32 := Scalar.select v106 v107 v101
  let c1_i32_72 : BitVec 32 := 1#32
  let v109 : BitVec 32 := Scalar.muli v108 c1_i32_72
  let v110 : BitVec 32 := Scalar.addi c0_i32_73 v109
  v110.toNat
def k0_dev21 (d19 : Dev nD) : Nat :=
  let c0_i32_86 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c6_i32 : BitVec 32 := 6#32
  let v117 : BitVec 32 := Scalar.addi v21 c6_i32
  let c16_i32_76 : BitVec 32 := 16#32
  let c0_i32_77 : BitVec 32 := 0#32
  let v118 : BitVec 1 := Scalar.cmpi .eq c16_i32_76 c0_i32_77
  let c1_i32_78 : BitVec 32 := 1#32
  let v119 : BitVec 32 := Scalar.select v118 c1_i32_78 c16_i32_76
  let v120 : BitVec 32 := Scalar.remsi v117 v119
  let c0_i32_80 : BitVec 32 := 0#32
  let v122 : BitVec 1 := Scalar.cmpi .slt v120 c0_i32_80
  let c0_i32_81 : BitVec 32 := 0#32
  let v123 : BitVec 1 := Scalar.cmpi .slt v119 c0_i32_81
  let v124 : BitVec 1 := Scalar.xori v122 v123
  let c0_i32_79 : BitVec 32 := 0#32
  let v121 : BitVec 1 := Scalar.cmpi .ne v120 c0_i32_79
  let v125 : BitVec 1 := Scalar.andi v124 v121
  let v126 : BitVec 32 := Scalar.addi v120 v119
  let v127 : BitVec 32 := Scalar.select v125 v126 v120
  let c1_i32_85 : BitVec 32 := 1#32
  let v128 : BitVec 32 := Scalar.muli v127 c1_i32_85
  let v129 : BitVec 32 := Scalar.addi c0_i32_86 v128
  v129.toNat
def k0_dev22 (d19 : Dev nD) : Nat :=
  let c0_i32_99 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c7_i32 : BitVec 32 := 7#32
  let v136 : BitVec 32 := Scalar.addi v21 c7_i32
  let c16_i32_89 : BitVec 32 := 16#32
  let c0_i32_90 : BitVec 32 := 0#32
  let v137 : BitVec 1 := Scalar.cmpi .eq c16_i32_89 c0_i32_90
  let c1_i32_91 : BitVec 32 := 1#32
  let v138 : BitVec 32 := Scalar.select v137 c1_i32_91 c16_i32_89
  let v139 : BitVec 32 := Scalar.remsi v136 v138
  let c0_i32_93 : BitVec 32 := 0#32
  let v141 : BitVec 1 := Scalar.cmpi .slt v139 c0_i32_93
  let c0_i32_94 : BitVec 32 := 0#32
  let v142 : BitVec 1 := Scalar.cmpi .slt v138 c0_i32_94
  let v143 : BitVec 1 := Scalar.xori v141 v142
  let c0_i32_92 : BitVec 32 := 0#32
  let v140 : BitVec 1 := Scalar.cmpi .ne v139 c0_i32_92
  let v144 : BitVec 1 := Scalar.andi v143 v140
  let v145 : BitVec 32 := Scalar.addi v139 v138
  let v146 : BitVec 32 := Scalar.select v144 v145 v139
  let c1_i32_98 : BitVec 32 := 1#32
  let v147 : BitVec 32 := Scalar.muli v146 c1_i32_98
  let v148 : BitVec 32 := Scalar.addi c0_i32_99 v147
  v148.toNat
def k0_dev23 (d19 : Dev nD) : Nat :=
  let c0_i32_112 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c8_i32 : BitVec 32 := 8#32
  let v155 : BitVec 32 := Scalar.addi v21 c8_i32
  let c16_i32_102 : BitVec 32 := 16#32
  let c0_i32_103 : BitVec 32 := 0#32
  let v156 : BitVec 1 := Scalar.cmpi .eq c16_i32_102 c0_i32_103
  let c1_i32_104 : BitVec 32 := 1#32
  let v157 : BitVec 32 := Scalar.select v156 c1_i32_104 c16_i32_102
  let v158 : BitVec 32 := Scalar.remsi v155 v157
  let c0_i32_106 : BitVec 32 := 0#32
  let v160 : BitVec 1 := Scalar.cmpi .slt v158 c0_i32_106
  let c0_i32_107 : BitVec 32 := 0#32
  let v161 : BitVec 1 := Scalar.cmpi .slt v157 c0_i32_107
  let v162 : BitVec 1 := Scalar.xori v160 v161
  let c0_i32_105 : BitVec 32 := 0#32
  let v159 : BitVec 1 := Scalar.cmpi .ne v158 c0_i32_105
  let v163 : BitVec 1 := Scalar.andi v162 v159
  let v164 : BitVec 32 := Scalar.addi v158 v157
  let v165 : BitVec 32 := Scalar.select v163 v164 v158
  let c1_i32_111 : BitVec 32 := 1#32
  let v166 : BitVec 32 := Scalar.muli v165 c1_i32_111
  let v167 : BitVec 32 := Scalar.addi c0_i32_112 v166
  v167.toNat
def k0_dev24 (d19 : Dev nD) : Nat :=
  let c0_i32_125 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c9_i32 : BitVec 32 := 9#32
  let v174 : BitVec 32 := Scalar.addi v21 c9_i32
  let c16_i32_115 : BitVec 32 := 16#32
  let c0_i32_116 : BitVec 32 := 0#32
  let v175 : BitVec 1 := Scalar.cmpi .eq c16_i32_115 c0_i32_116
  let c1_i32_117 : BitVec 32 := 1#32
  let v176 : BitVec 32 := Scalar.select v175 c1_i32_117 c16_i32_115
  let v177 : BitVec 32 := Scalar.remsi v174 v176
  let c0_i32_119 : BitVec 32 := 0#32
  let v179 : BitVec 1 := Scalar.cmpi .slt v177 c0_i32_119
  let c0_i32_120 : BitVec 32 := 0#32
  let v180 : BitVec 1 := Scalar.cmpi .slt v176 c0_i32_120
  let v181 : BitVec 1 := Scalar.xori v179 v180
  let c0_i32_118 : BitVec 32 := 0#32
  let v178 : BitVec 1 := Scalar.cmpi .ne v177 c0_i32_118
  let v182 : BitVec 1 := Scalar.andi v181 v178
  let v183 : BitVec 32 := Scalar.addi v177 v176
  let v184 : BitVec 32 := Scalar.select v182 v183 v177
  let c1_i32_124 : BitVec 32 := 1#32
  let v185 : BitVec 32 := Scalar.muli v184 c1_i32_124
  let v186 : BitVec 32 := Scalar.addi c0_i32_125 v185
  v186.toNat
def k0_dev25 (d19 : Dev nD) : Nat :=
  let c0_i32_138 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c10_i32 : BitVec 32 := 10#32
  let v193 : BitVec 32 := Scalar.addi v21 c10_i32
  let c16_i32_128 : BitVec 32 := 16#32
  let c0_i32_129 : BitVec 32 := 0#32
  let v194 : BitVec 1 := Scalar.cmpi .eq c16_i32_128 c0_i32_129
  let c1_i32_130 : BitVec 32 := 1#32
  let v195 : BitVec 32 := Scalar.select v194 c1_i32_130 c16_i32_128
  let v196 : BitVec 32 := Scalar.remsi v193 v195
  let c0_i32_132 : BitVec 32 := 0#32
  let v198 : BitVec 1 := Scalar.cmpi .slt v196 c0_i32_132
  let c0_i32_133 : BitVec 32 := 0#32
  let v199 : BitVec 1 := Scalar.cmpi .slt v195 c0_i32_133
  let v200 : BitVec 1 := Scalar.xori v198 v199
  let c0_i32_131 : BitVec 32 := 0#32
  let v197 : BitVec 1 := Scalar.cmpi .ne v196 c0_i32_131
  let v201 : BitVec 1 := Scalar.andi v200 v197
  let v202 : BitVec 32 := Scalar.addi v196 v195
  let v203 : BitVec 32 := Scalar.select v201 v202 v196
  let c1_i32_137 : BitVec 32 := 1#32
  let v204 : BitVec 32 := Scalar.muli v203 c1_i32_137
  let v205 : BitVec 32 := Scalar.addi c0_i32_138 v204
  v205.toNat
def k0_dev26 (d19 : Dev nD) : Nat :=
  let c0_i32_151 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c11_i32 : BitVec 32 := 11#32
  let v212 : BitVec 32 := Scalar.addi v21 c11_i32
  let c16_i32_141 : BitVec 32 := 16#32
  let c0_i32_142 : BitVec 32 := 0#32
  let v213 : BitVec 1 := Scalar.cmpi .eq c16_i32_141 c0_i32_142
  let c1_i32_143 : BitVec 32 := 1#32
  let v214 : BitVec 32 := Scalar.select v213 c1_i32_143 c16_i32_141
  let v215 : BitVec 32 := Scalar.remsi v212 v214
  let c0_i32_145 : BitVec 32 := 0#32
  let v217 : BitVec 1 := Scalar.cmpi .slt v215 c0_i32_145
  let c0_i32_146 : BitVec 32 := 0#32
  let v218 : BitVec 1 := Scalar.cmpi .slt v214 c0_i32_146
  let v219 : BitVec 1 := Scalar.xori v217 v218
  let c0_i32_144 : BitVec 32 := 0#32
  let v216 : BitVec 1 := Scalar.cmpi .ne v215 c0_i32_144
  let v220 : BitVec 1 := Scalar.andi v219 v216
  let v221 : BitVec 32 := Scalar.addi v215 v214
  let v222 : BitVec 32 := Scalar.select v220 v221 v215
  let c1_i32_150 : BitVec 32 := 1#32
  let v223 : BitVec 32 := Scalar.muli v222 c1_i32_150
  let v224 : BitVec 32 := Scalar.addi c0_i32_151 v223
  v224.toNat
def k0_dev27 (d19 : Dev nD) : Nat :=
  let c0_i32_164 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c12_i32 : BitVec 32 := 12#32
  let v231 : BitVec 32 := Scalar.addi v21 c12_i32
  let c16_i32_154 : BitVec 32 := 16#32
  let c0_i32_155 : BitVec 32 := 0#32
  let v232 : BitVec 1 := Scalar.cmpi .eq c16_i32_154 c0_i32_155
  let c1_i32_156 : BitVec 32 := 1#32
  let v233 : BitVec 32 := Scalar.select v232 c1_i32_156 c16_i32_154
  let v234 : BitVec 32 := Scalar.remsi v231 v233
  let c0_i32_158 : BitVec 32 := 0#32
  let v236 : BitVec 1 := Scalar.cmpi .slt v234 c0_i32_158
  let c0_i32_159 : BitVec 32 := 0#32
  let v237 : BitVec 1 := Scalar.cmpi .slt v233 c0_i32_159
  let v238 : BitVec 1 := Scalar.xori v236 v237
  let c0_i32_157 : BitVec 32 := 0#32
  let v235 : BitVec 1 := Scalar.cmpi .ne v234 c0_i32_157
  let v239 : BitVec 1 := Scalar.andi v238 v235
  let v240 : BitVec 32 := Scalar.addi v234 v233
  let v241 : BitVec 32 := Scalar.select v239 v240 v234
  let c1_i32_163 : BitVec 32 := 1#32
  let v242 : BitVec 32 := Scalar.muli v241 c1_i32_163
  let v243 : BitVec 32 := Scalar.addi c0_i32_164 v242
  v243.toNat
def k0_dev28 (d19 : Dev nD) : Nat :=
  let c0_i32_177 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c13_i32 : BitVec 32 := 13#32
  let v250 : BitVec 32 := Scalar.addi v21 c13_i32
  let c16_i32_167 : BitVec 32 := 16#32
  let c0_i32_168 : BitVec 32 := 0#32
  let v251 : BitVec 1 := Scalar.cmpi .eq c16_i32_167 c0_i32_168
  let c1_i32_169 : BitVec 32 := 1#32
  let v252 : BitVec 32 := Scalar.select v251 c1_i32_169 c16_i32_167
  let v253 : BitVec 32 := Scalar.remsi v250 v252
  let c0_i32_171 : BitVec 32 := 0#32
  let v255 : BitVec 1 := Scalar.cmpi .slt v253 c0_i32_171
  let c0_i32_172 : BitVec 32 := 0#32
  let v256 : BitVec 1 := Scalar.cmpi .slt v252 c0_i32_172
  let v257 : BitVec 1 := Scalar.xori v255 v256
  let c0_i32_170 : BitVec 32 := 0#32
  let v254 : BitVec 1 := Scalar.cmpi .ne v253 c0_i32_170
  let v258 : BitVec 1 := Scalar.andi v257 v254
  let v259 : BitVec 32 := Scalar.addi v253 v252
  let v260 : BitVec 32 := Scalar.select v258 v259 v253
  let c1_i32_176 : BitVec 32 := 1#32
  let v261 : BitVec 32 := Scalar.muli v260 c1_i32_176
  let v262 : BitVec 32 := Scalar.addi c0_i32_177 v261
  v262.toNat
def k0_dev29 (d19 : Dev nD) : Nat :=
  let c0_i32_190 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c14_i32 : BitVec 32 := 14#32
  let v269 : BitVec 32 := Scalar.addi v21 c14_i32
  let c16_i32_180 : BitVec 32 := 16#32
  let c0_i32_181 : BitVec 32 := 0#32
  let v270 : BitVec 1 := Scalar.cmpi .eq c16_i32_180 c0_i32_181
  let c1_i32_182 : BitVec 32 := 1#32
  let v271 : BitVec 32 := Scalar.select v270 c1_i32_182 c16_i32_180
  let v272 : BitVec 32 := Scalar.remsi v269 v271
  let c0_i32_184 : BitVec 32 := 0#32
  let v274 : BitVec 1 := Scalar.cmpi .slt v272 c0_i32_184
  let c0_i32_185 : BitVec 32 := 0#32
  let v275 : BitVec 1 := Scalar.cmpi .slt v271 c0_i32_185
  let v276 : BitVec 1 := Scalar.xori v274 v275
  let c0_i32_183 : BitVec 32 := 0#32
  let v273 : BitVec 1 := Scalar.cmpi .ne v272 c0_i32_183
  let v277 : BitVec 1 := Scalar.andi v276 v273
  let v278 : BitVec 32 := Scalar.addi v272 v271
  let v279 : BitVec 32 := Scalar.select v277 v278 v272
  let c1_i32_189 : BitVec 32 := 1#32
  let v280 : BitVec 32 := Scalar.muli v279 c1_i32_189
  let v281 : BitVec 32 := Scalar.addi c0_i32_190 v280
  v281.toNat
def k0_dev30 (d19 : Dev nD) : Nat :=
  let c0_i32_203 : BitVec 32 := 0#32
  let v19 : BitVec 32 := Dev.word d19
  let c1_i32 : BitVec 32 := 1#32
  let v20 : BitVec 32 := Scalar.divsi v19 c1_i32
  let c16_i32 : BitVec 32 := 16#32
  let v21 : BitVec 32 := Scalar.remsi v20 c16_i32
  let c15_i32 : BitVec 32 := 15#32
  let v288 : BitVec 32 := Scalar.addi v21 c15_i32
  let c16_i32_193 : BitVec 32 := 16#32
  let c0_i32_194 : BitVec 32 := 0#32
  let v289 : BitVec 1 := Scalar.cmpi .eq c16_i32_193 c0_i32_194
  let c1_i32_195 : BitVec 32 := 1#32
  let v290 : BitVec 32 := Scalar.select v289 c1_i32_195 c16_i32_193
  let v291 : BitVec 32 := Scalar.remsi v288 v290
  let c0_i32_197 : BitVec 32 := 0#32
  let v293 : BitVec 1 := Scalar.cmpi .slt v291 c0_i32_197
  let c0_i32_198 : BitVec 32 := 0#32
  let v294 : BitVec 1 := Scalar.cmpi .slt v290 c0_i32_198
  let v295 : BitVec 1 := Scalar.xori v293 v294
  let c0_i32_196 : BitVec 32 := 0#32
  let v292 : BitVec 1 := Scalar.cmpi .ne v291 c0_i32_196
  let v296 : BitVec 1 := Scalar.andi v295 v292
  let v297 : BitVec 32 := Scalar.addi v291 v290
  let v298 : BitVec 32 := Scalar.select v296 v297 v291
  let c1_i32_202 : BitVec 32 := 1#32
  let v299 : BitVec 32 := Scalar.muli v298 c1_i32_202
  let v300 : BitVec 32 := Scalar.addi c0_i32_203 v299
  v300.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  hamt_1 : (1#32 : BitVec 32).msb = false
  hamt_15 : (15#32 : BitVec 32).msb = false
  inb_S15_S1_0 : ∀ a, (![0] : Fin 1 → Nat) a + S1.size a ≤ S15.size a
  squeezes_S1_S_ : S1.Squeezes S_
  inb_S15x1x1024_S1x1x1024_0_0_0 : ∀ a, (![0, 0, 0] : Fin 3 → Nat) a + S1x1x1024.size a ≤ S15x1x1024.size a
  squeezes_S1x1x1024_S1x1024 : S1x1x1024.Squeezes S1x1024
  inb_S15_S1_1 : ∀ a, (![1] : Fin 1 → Nat) a + S1.size a ≤ S15.size a
  inb_S15x1x1024_S1x1x1024_1_0_0 : ∀ a, (![1, 0, 0] : Fin 3 → Nat) a + S1x1x1024.size a ≤ S15x1x1024.size a
  inb_S15_S1_2 : ∀ a, (![2] : Fin 1 → Nat) a + S1.size a ≤ S15.size a
  inb_S15x1x1024_S1x1x1024_2_0_0 : ∀ a, (![2, 0, 0] : Fin 3 → Nat) a + S1x1x1024.size a ≤ S15x1x1024.size a
  inb_S15_S1_3 : ∀ a, (![3] : Fin 1 → Nat) a + S1.size a ≤ S15.size a
  inb_S15x1x1024_S1x1x1024_3_0_0 : ∀ a, (![3, 0, 0] : Fin 3 → Nat) a + S1x1x1024.size a ≤ S15x1x1024.size a
  inb_S15_S1_4 : ∀ a, (![4] : Fin 1 → Nat) a + S1.size a ≤ S15.size a
  inb_S15x1x1024_S1x1x1024_4_0_0 : ∀ a, (![4, 0, 0] : Fin 3 → Nat) a + S1x1x1024.size a ≤ S15x1x1024.size a
  inb_S15_S1_5 : ∀ a, (![5] : Fin 1 → Nat) a + S1.size a ≤ S15.size a
  inb_S15x1x1024_S1x1x1024_5_0_0 : ∀ a, (![5, 0, 0] : Fin 3 → Nat) a + S1x1x1024.size a ≤ S15x1x1024.size a
  inb_S15_S1_6 : ∀ a, (![6] : Fin 1 → Nat) a + S1.size a ≤ S15.size a
  inb_S15x1x1024_S1x1x1024_6_0_0 : ∀ a, (![6, 0, 0] : Fin 3 → Nat) a + S1x1x1024.size a ≤ S15x1x1024.size a
  inb_S15_S1_7 : ∀ a, (![7] : Fin 1 → Nat) a + S1.size a ≤ S15.size a
  inb_S15x1x1024_S1x1x1024_7_0_0 : ∀ a, (![7, 0, 0] : Fin 3 → Nat) a + S1x1x1024.size a ≤ S15x1x1024.size a
  inb_S15_S1_8 : ∀ a, (![8] : Fin 1 → Nat) a + S1.size a ≤ S15.size a
  inb_S15x1x1024_S1x1x1024_8_0_0 : ∀ a, (![8, 0, 0] : Fin 3 → Nat) a + S1x1x1024.size a ≤ S15x1x1024.size a
  inb_S15_S1_9 : ∀ a, (![9] : Fin 1 → Nat) a + S1.size a ≤ S15.size a
  inb_S15x1x1024_S1x1x1024_9_0_0 : ∀ a, (![9, 0, 0] : Fin 3 → Nat) a + S1x1x1024.size a ≤ S15x1x1024.size a
  inb_S15_S1_10 : ∀ a, (![10] : Fin 1 → Nat) a + S1.size a ≤ S15.size a
  inb_S15x1x1024_S1x1x1024_10_0_0 : ∀ a, (![10, 0, 0] : Fin 3 → Nat) a + S1x1x1024.size a ≤ S15x1x1024.size a
  inb_S15_S1_11 : ∀ a, (![11] : Fin 1 → Nat) a + S1.size a ≤ S15.size a
  inb_S15x1x1024_S1x1x1024_11_0_0 : ∀ a, (![11, 0, 0] : Fin 3 → Nat) a + S1x1x1024.size a ≤ S15x1x1024.size a
  inb_S15_S1_12 : ∀ a, (![12] : Fin 1 → Nat) a + S1.size a ≤ S15.size a
  inb_S15x1x1024_S1x1x1024_12_0_0 : ∀ a, (![12, 0, 0] : Fin 3 → Nat) a + S1x1x1024.size a ≤ S15x1x1024.size a
  inb_S15_S1_13 : ∀ a, (![13] : Fin 1 → Nat) a + S1.size a ≤ S15.size a
  inb_S15x1x1024_S1x1x1024_13_0_0 : ∀ a, (![13, 0, 0] : Fin 3 → Nat) a + S1x1x1024.size a ≤ S15x1x1024.size a
  inb_S15_S1_14 : ∀ a, (![14] : Fin 1 → Nat) a + S1.size a ≤ S15.size a
  inb_S15x1x1024_S1x1x1024_14_0_0 : ∀ a, (![14, 0, 0] : Fin 3 → Nat) a + S1x1x1024.size a ≤ S15x1x1024.size a
  inb_S15x1x1024_S15x1x1024_0_0_0 : ∀ a, (![0, 0, 0] : Fin 3 → Nat) a + S15x1x1024.size a ≤ S15x1x1024.size a
  h_S15x1x1024 : 0 < S15x1x1024.numel
  shapeCasts_S15x1x1024_S15x1024 : S15x1x1024.ShapeCasts S15x1024
  reduces_S15x1024_S1024 : S15x1024.Reduces [0] S1024
  hcc0_scratch2 : 3 + S15.numel ≤ 33
  hcc0_scratch3 : 18 + S15.numel ≤ 33
  hrank0 : 0 < grid0.rank
  k0_dev1_lt : ∀ (i : grid0.Coords) (d19 : Dev nD), ∀ (k0_h3 : k0_cond3 i = 1#1), (k0_dev1 d19) < nD
  k0_dev2_lt : ∀ (i : grid0.Coords) (d19 : Dev nD), ∀ (k0_h3 : k0_cond3 i = 1#1), (k0_dev2 d19) < nD
  k0_dev3_lt : ∀ (i : grid0.Coords) (d19 : Dev nD), ∀ (k0_h3 : k0_cond3 i = 1#1), (k0_dev3 d19) < nD
  k0_dev4_lt : ∀ (i : grid0.Coords) (d19 : Dev nD), ∀ (k0_h3 : k0_cond3 i = 1#1), (k0_dev4 d19) < nD
  k0_dev5_lt : ∀ (i : grid0.Coords) (d19 : Dev nD), ∀ (k0_h3 : k0_cond3 i = 1#1), (k0_dev5 d19) < nD
  k0_dev6_lt : ∀ (i : grid0.Coords) (d19 : Dev nD), ∀ (k0_h3 : k0_cond3 i = 1#1), (k0_dev6 d19) < nD
  k0_dev7_lt : ∀ (i : grid0.Coords) (d19 : Dev nD), ∀ (k0_h3 : k0_cond3 i = 1#1), (k0_dev7 d19) < nD
  k0_dev8_lt : ∀ (i : grid0.Coords) (d19 : Dev nD), ∀ (k0_h3 : k0_cond3 i = 1#1), (k0_dev8 d19) < nD
  k0_dev9_lt : ∀ (i : grid0.Coords) (d19 : Dev nD), ∀ (k0_h3 : k0_cond3 i = 1#1), (k0_dev9 d19) < nD
  k0_dev10_lt : ∀ (i : grid0.Coords) (d19 : Dev nD), ∀ (k0_h3 : k0_cond3 i = 1#1), (k0_dev10 d19) < nD
  k0_dev11_lt : ∀ (i : grid0.Coords) (d19 : Dev nD), ∀ (k0_h3 : k0_cond3 i = 1#1), (k0_dev11 d19) < nD
  k0_dev12_lt : ∀ (i : grid0.Coords) (d19 : Dev nD), ∀ (k0_h3 : k0_cond3 i = 1#1), (k0_dev12 d19) < nD
  k0_dev13_lt : ∀ (i : grid0.Coords) (d19 : Dev nD), ∀ (k0_h3 : k0_cond3 i = 1#1), (k0_dev13 d19) < nD
  k0_dev14_lt : ∀ (i : grid0.Coords) (d19 : Dev nD), ∀ (k0_h3 : k0_cond3 i = 1#1), (k0_dev14 d19) < nD
  k0_dev15_lt : ∀ (i : grid0.Coords) (d19 : Dev nD), ∀ (k0_h3 : k0_cond3 i = 1#1), (k0_dev15 d19) < nD
  k0_dev16_lt : ∀ (i : grid0.Coords) (d19 : Dev nD), ∀ (k0_h5 : k0_cond5 i = 1#1), (k0_dev16 d19) < nD
  k0_dev17_lt : ∀ (i : grid0.Coords) (d19 : Dev nD), ∀ (k0_h5 : k0_cond5 i = 1#1), (k0_dev17 d19) < nD
  k0_dev18_lt : ∀ (i : grid0.Coords) (d19 : Dev nD), ∀ (k0_h5 : k0_cond5 i = 1#1), (k0_dev18 d19) < nD
  k0_dev19_lt : ∀ (i : grid0.Coords) (d19 : Dev nD), ∀ (k0_h5 : k0_cond5 i = 1#1), (k0_dev19 d19) < nD
  k0_dev20_lt : ∀ (i : grid0.Coords) (d19 : Dev nD), ∀ (k0_h5 : k0_cond5 i = 1#1), (k0_dev20 d19) < nD
  k0_dev21_lt : ∀ (i : grid0.Coords) (d19 : Dev nD), ∀ (k0_h5 : k0_cond5 i = 1#1), (k0_dev21 d19) < nD
  k0_dev22_lt : ∀ (i : grid0.Coords) (d19 : Dev nD), ∀ (k0_h5 : k0_cond5 i = 1#1), (k0_dev22 d19) < nD
  k0_dev23_lt : ∀ (i : grid0.Coords) (d19 : Dev nD), ∀ (k0_h5 : k0_cond5 i = 1#1), (k0_dev23 d19) < nD
  k0_dev24_lt : ∀ (i : grid0.Coords) (d19 : Dev nD), ∀ (k0_h5 : k0_cond5 i = 1#1), (k0_dev24 d19) < nD
  k0_dev25_lt : ∀ (i : grid0.Coords) (d19 : Dev nD), ∀ (k0_h5 : k0_cond5 i = 1#1), (k0_dev25 d19) < nD
  k0_dev26_lt : ∀ (i : grid0.Coords) (d19 : Dev nD), ∀ (k0_h5 : k0_cond5 i = 1#1), (k0_dev26 d19) < nD
  k0_dev27_lt : ∀ (i : grid0.Coords) (d19 : Dev nD), ∀ (k0_h5 : k0_cond5 i = 1#1), (k0_dev27 d19) < nD
  k0_dev28_lt : ∀ (i : grid0.Coords) (d19 : Dev nD), ∀ (k0_h5 : k0_cond5 i = 1#1), (k0_dev28 d19) < nD
  k0_dev29_lt : ∀ (i : grid0.Coords) (d19 : Dev nD), ∀ (k0_h5 : k0_cond5 i = 1#1), (k0_dev29 d19) < nD
  k0_dev30_lt : ∀ (i : grid0.Coords) (d19 : Dev nD), ∀ (k0_h5 : k0_cond5 i = 1#1), (k0_dev30 d19) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch2 : DmaSems sig S15 := SemArray.consecutive 3 S15 hcc0_scratch2
abbrev cc0_scratch3 : DmaSems sig S15 := SemArray.consecutive 18 S15 hcc0_scratch3

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond5 i == 1#1) | ⟨_ + 2, h⟩ => absurd h (Nat.not_lt.2 (Nat.le_add_left _ _))

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.ValueDefs.lean ====
import proofs.«901087_g7700000000001088_dist_sum_ax0_shard0_i_m4096_n1024_v7x_i16_bf16_1_alg».proof.Proof.Gen.KernelIdeal.Skeleton

/-!
# The kernel's result as one function of the devices' argument arrays

Device `c` holds rows `4096 c … 4096 c + 4095` of the whole array. Its four grid points add the column sums of its
four blocks of 1024 rows into its partial; its result is its partial plus the fifteen partials it receives, slot `j`
from the device `src c j`.
-/

noncomputable section

namespace Cert.KernelIdeal.Val

open Idealize.ShloMosaic Cert.KernelIdeal Cert.KernelIdeal.Gen

variable {F : FTy → Type} [FloatOps F]

/-- rows `1024 k … 1024 k + 1023` of a device's array, as a `[1024, 1024]` vector -/
def blk (x : Vec F S4096x1024 .f32) (k : Fin 4) : Vec F S1024x1024 .f32 := fun i =>
  x (fun a => match a with
    | ⟨0, _⟩ => ⟨1024 * k.val + (i 0).val, by have h1 : k.val < 4 := k.isLt; have h2 : (i 0).val < 1024 := (i 0).isLt; show 1024 * k.val + (i 0).val < 4096; omega⟩
    | ⟨1, _⟩ => ⟨(i 1).val, (i 1).isLt⟩)

/-- a device's partial column sums after its four grid points -/
def part (x : Vec F S4096x1024 .f32) : Vec F S1x1024 .f32 :=
  k0_pay3 (blk x 3) (k0_pay3 (blk x 2) (k0_pay3 (blk x 1) (k0_pay2 (blk x 0))))

/-- the receive buffer with slot `j` holding `p j` -/
def comm (p : Fin 15 → Vec F S1x1024 .f32) : Vec F S15x1x1024 .f32 := fun i =>
  p (i 0) (fun a => match a with
    | ⟨0, _⟩ => ⟨0, show (0 : ℕ) < 1 from Nat.one_pos⟩
    | ⟨1, _⟩ => ⟨(i 2).val, (i 2).isLt⟩)

/-- device `c`'s result: its own partial plus the fifteen received ones -/
def outv (src : Dev nD → Fin 15 → Dev nD) (xs : Dev nD → Vec F S4096x1024 .f32) (c : Dev nD) : Vec F S1x1024 .f32 :=
  k0_pay4 (part (xs c)) (comm fun j => part (xs (src c j)))

end Cert.KernelIdeal.Val

end
-- ==== Proof.Value.lean ====
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.KernelIdeal.Skeleton
import proofs.«901087_g7700000000001088_dist_sum_ax0_shard0_i_m4096_n1024_v7x_i16_bf16_1_alg».proof.Proof.Gen.ReferenceIdeal
import proofs.«901087_g7700000000001088_dist_sum_ax0_shard0_i_m4096_n1024_v7x_i16_bf16_1_alg».proof.Proof.Gen.ReferenceIdeal.Run
import proofs.«901087_g7700000000001088_dist_sum_ax0_shard0_i_m4096_n1024_v7x_i16_bf16_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.Layout
import proofs.«901087_g7700000000001088_dist_sum_ax0_shard0_i_m4096_n1024_v7x_i16_bf16_1_alg».proof.Proof.ValueDefs
import proofs.«901087_g7700000000001088_dist_sum_ax0_shard0_i_m4096_n1024_v7x_i16_bf16_1_alg».proof.Proof.Gen.Pre_finite_inputs_Kernel
import proofs.«901087_g7700000000001088_dist_sum_ax0_shard0_i_m4096_n1024_v7x_i16_bf16_1_alg».proof.Proof.Gen.Pre_finite_inputs_ReferenceIdeal
import Mathlib.Algebra.BigOperators.Fin
import Mathlib.Algebra.BigOperators.Group.Finset.Basic
import Mathlib.Data.Fintype.Card
import Mathlib.Data.Fintype.BigOperators

/-!
# The value of the distributed column sum

Every device adds the column sums of its four blocks of 1024 rows into a partial row, sends the partial to the other
fifteen devices, and adds the fifteen partials it receives to its own. Over the extended reals addition is associative
and commutative, so the result on every device is the sum of each column over all 65536 rows of the whole array: the
sixteen partials are reached exactly once each (one's own, and fifteen distinct others), and the rows of device c's
block k are the rows 4096 c + 1024 k + r of the whole array.
-/

noncomputable section

namespace Cert.KernelIdeal.Val

open Idealize.ShloMosaic Idealize.ShloMosaic.ValueIdx Cert.KernelIdeal Cert.KernelIdeal.Gen

/-! ## Sums over naturals and over a type cut into a point and the rest -/

section Algebra
variable {M : Type*} [AddCommMonoid M]

/-- A sum over m·n consecutive naturals, cut into m runs of length n. -/
theorem sum_range_mul_split (f : ℕ → M) (m n : ℕ) :
    ∑ R ∈ Finset.range (m * n), f R = ∑ a ∈ Finset.range m, ∑ b ∈ Finset.range n, f (a * n + b) := by
  induction m with
  | zero => simp
  | succ m ih => rw [Nat.succ_mul, Finset.sum_range_add, ih, Finset.sum_range_succ]

/-- One point and an injective family of other points: when the family has one element fewer than the whole type, its
    image is everything but the point, so together they are every point once. -/
theorem add_sum_injective {α β : Type*} [Fintype α] [Fintype β] [DecidableEq α]
    (hcard : Fintype.card α = Fintype.card β + 1) (f : α → M) (c : α) (g : β → α)
    (hg : Function.Injective g) (hc : ∀ j, g j ≠ c) :
    f c + ∑ j, f (g j) = ∑ e, f e := by
  have himg : Finset.univ.image g = Finset.univ.erase c := by
    apply Finset.eq_of_subset_of_card_le
    · intro e he
      obtain ⟨j, -, rfl⟩ := Finset.mem_image.1 he
      exact Finset.mem_erase.2 ⟨hc j, Finset.mem_univ _⟩
    · rw [Finset.card_erase_of_mem (Finset.mem_univ c), Finset.card_image_of_injective _ hg,
        Finset.card_univ, Finset.card_univ, hcard, Nat.add_sub_cancel]
  rw [← Finset.sum_image (s := Finset.univ) (g := g) (f := f) (fun a _ b _ h => hg h), himg,
    Finset.add_sum_erase _ _ (Finset.mem_univ c)]

/-- Four runs of 1024 naturals from e·4096 on are the 4096 naturals from e·4096 on. -/
theorem sum_four_blocks (g : ℕ → M) (e : ℕ) :
    ∑ k : Fin 4, ∑ r : Fin 1024, g (e * 4096 + (k.val * 1024 + r.val))
      = ∑ q ∈ Finset.range 4096, g (e * 4096 + q) := by
  calc ∑ k : Fin 4, ∑ r : Fin 1024, g (e * 4096 + (k.val * 1024 + r.val))
      = ∑ a ∈ Finset.range 4, ∑ b ∈ Finset.range 1024, g (e * 4096 + (a * 1024 + b)) := by
        simp only [Finset.sum_range]
    _ = ∑ q ∈ Finset.range (4 * 1024), g (e * 4096 + q) :=
        (sum_range_mul_split (fun q => g (e * 4096 + q)) 4 1024).symm
    _ = ∑ q ∈ Finset.range 4096, g (e * 4096 + q) := by
        rw [show (4 * 1024 : ℕ) = 4096 from by norm_num]

/-- Sixteen runs of 4096 naturals are the first 65536 naturals. -/
theorem sum_sixteen_devices (g : ℕ → M) :
    ∑ e : Fin 16, ∑ q ∈ Finset.range 4096, g (e.val * 4096 + q) = ∑ R : Fin 65536, g R.val := by
  calc ∑ e : Fin 16, ∑ q ∈ Finset.range 4096, g (e.val * 4096 + q)
      = ∑ a ∈ Finset.range 16, ∑ q ∈ Finset.range 4096, g (a * 4096 + q) :=
        (Finset.sum_range (fun a => ∑ q ∈ Finset.range 4096, g (a * 4096 + q))).symm
    _ = ∑ R ∈ Finset.range (16 * 4096), g R := (sum_range_mul_split g 16 4096).symm
    _ = ∑ R ∈ Finset.range 65536, g R := by rw [show (16 * 4096 : ℕ) = 65536 from by norm_num]
    _ = ∑ R : Fin 65536, g R.val := Finset.sum_range g

end Algebra

/-! ## The payloads at an index, over the extended reals -/

/-- the index a reduction over the rows of a rank-two array reads: coordinate r on the rows, the column kept -/
theorem lift_rows {n m : Nat} (h : (⟨2, ![n, m]⟩ : Shape).Reduces [0] ⟨1, ![m]⟩) (l : Fin m) (r : Fin n) :
    h.lift (ix1 l) r = ix2 r l := by
  funext a
  apply Fin.ext
  show h.liftVal (ix1 l) r.val a = (ix2 r l a).val
  unfold Shape.Reduces.liftVal
  match a with
  | ⟨0, _⟩ => rfl
  | ⟨1, _⟩ => rfl

/-- a [1024] vector recast as a [1,1024] row, read at an index -/
theorem cast_row_apply {α : Type} (v : S1024.Idx → α) (h : S1024.ShapeCasts S1x1024) (j : S1x1024.Idx) :
    shapeCast S1x1024 v h j = v (ix1 (j 1)) := by
  refine shapeCast_apply v h j (ix1 (j 1)) ?_
  rw [Shape.rowMajor_val_one, Shape.rowMajor_val_two]
  have := idx2_lt0 j
  show (j 1).val = (j 0).val * 1024 + (j 1).val
  omega

/-- The column sums of a [1024,1024] block, kept as a [1,1024] row: entry (0, l) is the sum of column l. -/
theorem pay1_apply (b : FVec Ideal S1024x1024 .f32) (j : S1x1024.Idx) :
    k0_pay1 (F := Ideal) b j = ∑ r : Fin 1024, b (ix2 r (j 1)) := by
  unfold k0_pay1
  refine (cast_row_apply _ _ j).trans ?_
  refine (Ideal.multiReduction_add_single _ _ _ _ _ (ix1 (j 1))).trans ?_
  refine Finset.sum_congr rfl fun r _ => ?_
  exact (congrFun (shapeCast_self b _) _).trans (congrArg b (lift_rows _ _ _))

/-- the first grid point stores the block's column sums -/
theorem pay2_apply (b : FVec Ideal S1024x1024 .f32) (j : S1x1024.Idx) :
    k0_pay2 (F := Ideal) b j = ∑ r : Fin 1024, b (ix2 r (j 1)) := by
  unfold k0_pay2
  exact (congrFun (shapeCast_self _ _) j).trans (pay1_apply b j)

/-- a later grid point adds the block's column sums to the partial -/
theorem pay3_apply (b : FVec Ideal S1024x1024 .f32) (p : FVec Ideal S1x1024 .f32) (j : S1x1024.Idx) :
    k0_pay3 (F := Ideal) b p j = p j + ∑ r : Fin 1024, b (ix2 r (j 1)) := by
  unfold k0_pay3
  refine (congrFun (shapeCast_self _ _) j).trans ?_
  exact (addf_apply _ _ j).trans (congrArg (p j + ·) (pay1_apply b j))

/-- the last step adds the fifteen received rows to the partial -/
theorem pay4_apply (p : FVec Ideal S1x1024 .f32) (q : FVec Ideal S15x1x1024 .f32) (j : S1x1024.Idx) :
    k0_pay4 (F := Ideal) p q j = p j + ∑ d : Fin 15, q (ix3 d (0 : Fin 1) (j 1)) := by
  unfold k0_pay4
  refine (addf_apply _ _ j).trans (congrArg (p j + ·) ?_)
  refine (cast_row_apply _ _ j).trans ?_
  refine (Ideal.multiReduction_add_single _ _ _ _ _ (ix1 (j 1))).trans ?_
  refine Finset.sum_congr rfl fun d _ => ?_
  refine (congrArg _ (lift_rows _ _ _)).trans ?_
  refine shapeCast_apply q _ (ix2 d (j 1)) (ix3 d (0 : Fin 1) (j 1)) ?_
  rw [Shape.rowMajor_val_three, Shape.rowMajor_val_two]
  show (d.val * 1 + 0) * 1024 + (j 1).val = d.val * 1024 + (j 1).val
  omega

/-! ## Rows of the whole array, numbered by naturals -/

/-- entry (R, l) of the whole array as a function of the natural R (zero past the last row) -/
def colAt (X : FVec Ideal Cert.ReferenceIdeal.S65536x1024 .f32) (l : Fin 1024) (R : ℕ) : EReal :=
  if h : R < 65536 then X (ix2 ⟨R, h⟩ l) else 0

theorem colAt_val (X : FVec Ideal Cert.ReferenceIdeal.S65536x1024 .f32) (l : Fin 1024) (R : Fin 65536) :
    colAt X l R.val = X (ix2 R l) := by
  unfold colAt
  rw [dif_pos R.isLt]

/-- Row r of block k of device e's array is row 4096 e + 1024 k + r of the whole array. -/
theorem blk_block (X : FVec Ideal Cert.ReferenceIdeal.S65536x1024 .f32) (x : FVec Ideal S4096x1024 .f32) (e : Fin 16)
    (hx : x = Layout.block ⟨2, ![4096, 1024]⟩ ⟨2, ![65536, 1024]⟩ 0 16 e X) (k : Fin 4) (r l : Fin 1024) :
    blk (F := Ideal) x k (ix2 r l) = colAt X l (e.val * 4096 + (k.val * 1024 + r.val)) := by
  have hb : e.val * 4096 + (k.val * 1024 + r.val) < 65536 := by
    have := e.isLt; have := k.isLt; have := r.isLt; omega
  unfold colAt
  rw [dif_pos hb, hx]
  unfold blk
  rw [Layout.block_apply]
  refine congrArg X (funext fun a => Fin.ext ?_)
  match a with
  | ⟨0, _⟩ =>
    refine (Layout.idx_rows_val _ e _).1.trans ?_
    show e.val * 4096 + (1024 * k.val + r.val) = e.val * 4096 + (k.val * 1024 + r.val)
    omega
  | ⟨1, _⟩ => rfl

/-- A device's partial row is the column sums of its 4096 rows of the whole array. -/
theorem part_block (X : FVec Ideal Cert.ReferenceIdeal.S65536x1024 .f32) (x : FVec Ideal S4096x1024 .f32) (e : Fin 16)
    (hx : x = Layout.block ⟨2, ![4096, 1024]⟩ ⟨2, ![65536, 1024]⟩ 0 16 e X) (j : S1x1024.Idx) :
    part (F := Ideal) x j = ∑ q ∈ Finset.range 4096, colAt X (j 1) (e.val * 4096 + q) := by
  have hB : ∀ k : Fin 4, ∑ r : Fin 1024, blk (F := Ideal) x k (ix2 r (j 1))
      = ∑ r : Fin 1024, colAt X (j 1) (e.val * 4096 + (k.val * 1024 + r.val)) :=
    fun k => Finset.sum_congr rfl fun r _ => blk_block X x e hx k r (j 1)
  rw [← sum_four_blocks (colAt X (j 1)) e.val, Fin.sum_univ_four, ← hB 0, ← hB 1, ← hB 2, ← hB 3]
  unfold part
  refine (pay3_apply _ _ j).trans ?_
  refine congrArg (· + _) ?_
  refine (pay3_apply _ _ j).trans ?_
  refine congrArg (· + _) ?_
  refine (pay3_apply _ _ j).trans ?_
  exact congrArg (· + _) (pay2_apply _ j)

/-- the receive buffer read at slot d, column l -/
theorem comm_apply (p : Fin 15 → FVec Ideal S1x1024 .f32) (d : Fin 15) (l : Fin 1024) :
    comm (F := Ideal) p (ix3 d (0 : Fin 1) l) = p d (ix2 (0 : Fin 1) l) := by
  unfold comm
  refine congrArg (p d) (funext fun a => ?_)
  match a with
  | ⟨0, _⟩ => rfl
  | ⟨1, _⟩ => rfl

/-! ## The kernel's result is the reference's -/

/-- The reference at an index: the sum of the column over all rows of the whole array. -/
theorem ref_apply (X : (⟨Cert.ReferenceIdeal.S65536x1024, .f32⟩ : BufTy).Contents (Elt Ideal)) (j : S1x1024.Idx) :
    Cert.ReferenceIdeal.Read.val_main_v1 (F := Ideal) X j = ∑ R : Fin 65536, colAt X (j 1) R.val := by
  rw [Cert.ReferenceIdeal.Read.val_main_v1_apply, Cert.ReferenceIdeal.Read.val_main_v0_apply,
    Cert.ReferenceIdeal.Read.val_main_cst_apply]
  refine (congrArg (· + _) (Ideal.ofBits_zero_f32)).trans ?_
  refine (zero_add _).trans ?_
  refine Finset.sum_congr rfl fun R _ => ?_
  refine ((colAt_val X (j 1) R).trans (congrArg X (funext fun a => ?_))).symm
  match a with
  | ⟨0, _⟩ => rfl
  | ⟨1, _⟩ => rfl

theorem outv_eq_ref (X : (⟨Cert.ReferenceIdeal.S65536x1024, .f32⟩ : BufTy).Contents (Elt Ideal))
    (xs : Dev nD → Vec Ideal S4096x1024 .f32)
    (hx : ∀ c, xs c = Layout.block ⟨2, ![4096, 1024]⟩ ⟨2, ![65536, 1024]⟩ 0 16 c X)
    (src : Dev nD → Fin 15 → Dev nD) (hinj : ∀ c, Function.Injective (src c)) (hne : ∀ c j, src c j ≠ c)
    (c : Dev nD) :
    outv (F := Ideal) src xs c = Cert.ReferenceIdeal.Read.val_main_v1 (F := Ideal) X := by
  funext j
  rw [ref_apply X j, ← sum_sixteen_devices (colAt X (j 1))]
  unfold outv
  refine (pay4_apply _ _ j).trans ?_
  have hP : ∀ e : Fin 16, part (F := Ideal) (xs e) (ix2 (0 : Fin 1) (j 1))
      = ∑ q ∈ Finset.range 4096, colAt X (j 1) (e.val * 4096 + q) := fun e =>
    part_block X (xs e) e (hx e) (ix2 (0 : Fin 1) (j 1))
  have hj : j = ix2 (0 : Fin 1) (j 1) := by
    funext a
    match a with
    | ⟨0, _⟩ => exact Fin.ext (by have := idx2_lt0 j; show (j 0).val = 0; omega)
    | ⟨1, _⟩ => rfl
  have h0 : part (F := Ideal) (xs c) j = ∑ q ∈ Finset.range 4096, colAt X (j 1) (c.val * 4096 + q) :=
    part_block X (xs c) c (hx c) j
  have hd : ∀ d : Fin 15, comm (F := Ideal) (fun d' => part (xs (src c d'))) (ix3 d (0 : Fin 1) (j 1))
      = ∑ q ∈ Finset.range 4096, colAt X (j 1) ((src c d).val * 4096 + q) := fun d =>
    (comm_apply _ d (j 1)).trans (hP (src c d))
  refine (congrArg₂ (· + ·) h0 (Finset.sum_congr rfl fun d _ => hd d)).trans ?_
  exact add_sum_injective (by simp) (fun e : Fin 16 => ∑ q ∈ Finset.range 4096, colAt X (j 1) (e.val * 4096 + q))
    c (src c) (hinj c) (hne c)

/-! ## The claims that rest on the value -/

open Idealize.SL.Sem in
/-- The reference runs and leaves its argument as it was: its run with the value dropped. -/
theorem frame_ReferenceIdeal_holds : Cert.frame_ReferenceIdeal := fun m g _ =>
  (θ_run Cert.ReferenceIdeal.defs _ _).mono (fun _ h c => (h c).2) (Cert.ReferenceIdeal.Value.run (F := Ideal) m g)

open Idealize.SL.Sem in
/-- If every run of the kernel over the extended reals ends with each device's result at the sum of its own partial row
    and the fifteen received ones, each from a different other device, and with its argument unchanged, then kernel and
    reference end at one value: the reference's column sums over the whole array, of which every device holds its
    4096 rows. -/
theorem algebraic_of_run (src : Dev nD → Fin 15 → Dev nD) (hinj : ∀ c, Function.Injective (src c))
    (hne : ∀ c j, src c j ≠ c)
    (hrun : ∀ (m : (ℓ : Loc nD τ sig) → Buf (Elt Ideal) ℓ) (ρ : Dev nD → PrngReg),
      θ_run (Cert.KernelIdeal.defs (F := Ideal)) (onTc (τ := τ) (Cert.KernelIdeal.main (F := Ideal))) ⟨m, fun _ => 0, ρ⟩
        (fun r => ∀ c : Dev nD,
          r.2.mem ((c.tc : Thread nD τ).loc main_v1)
              = outv (F := Ideal) src (fun d => m ((d.tc : Thread nD τ).loc main_arg0)) c
          ∧ r.2.mem ((c.tc : Thread nD τ).loc main_arg0) = m ((c.tc : Thread nD τ).loc main_arg0))) :
    Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc
      Cert.ReferenceIdeal.main_arg0)), ?_, ?_⟩
  · refine (θ_run (Cert.KernelIdeal.defs (F := Ideal)) _ _).mono (fun r h c => ⟨(h c).1.trans ?_, (h c).2⟩) (hrun m g)
    exact outv_eq_ref _ _ hblk src hinj hne c
  · exact (θ_run Cert.ReferenceIdeal.defs _ _).mono
      (fun r h => ⟨(h 0).1.trans (Cert.ReferenceIdeal.Read.val_main_v1_eq _), (h 0).2⟩)
      (Cert.ReferenceIdeal.Value.run (F := Ideal) m' g')

/-- info: 'Cert.KernelIdeal.Val.outv_eq_ref' depends on axioms: [propext, Classical.choice, Quot.sound] -/
#guard_msgs in #print axioms outv_eq_ref
/-- info: 'Cert.KernelIdeal.Val.frame_ReferenceIdeal_holds' depends on axioms: [propext, Classical.choice, Quot.sound] -/
#guard_msgs in #print axioms frame_ReferenceIdeal_holds
/-- info: 'Cert.KernelIdeal.Val.algebraic_of_run' depends on axioms: [propext, Classical.choice, Quot.sound] -/
#guard_msgs in #print axioms algebraic_of_run

end Cert.KernelIdeal.Val

end
-- ==== Proof.DevArith.lean ====
import proofs.«901087_g7700000000001088_dist_sum_ax0_shard0_i_m4096_n1024_v7x_i16_bf16_1_alg».proof.Proof.Gen.KernelIdeal
import Idealize.ShloMosaic.Lib.Decide
import Mathlib.Logic.Equiv.Defs

set_option Elab.async false

/-!
# Arithmetic of the ring of sixteen devices

The mesh has sixteen devices, indexed `0 … 15`. For an offset `j + 1` with `j = 0 … 14`,
`peer c j` is the device `(c + j + 1) mod 16` and `srcDev c j` the device `(c - j - 1) mod 16`;
for each fixed `j` these two maps are inverse permutations of the mesh, none of them has a fixed
point, and `j ↦ peer c j` enumerates the fifteen devices other than `c` exactly once.

The program computes the target of each of its fifteen signals and of its fifteen remote copies by a
chain of 32-bit integer operations on the device's own index (a signed division by one, a signed
remainder by sixteen, an addition of the offset, and a floored remainder by sixteen written out with
comparisons and a select). Each chain is evaluated here at all sixteen devices and found equal to
`peer c k`.
-/

namespace Cert.KernelIdeal.Coll

open Idealize.ShloMosaic Cert.KernelIdeal Cert.KernelIdeal.Gen

/-- the device at offset j+1 after c on the ring of 16 -/
def peer (c : Dev nD) (j : Fin 15) : Dev nD := ⟨(c.val + j.val + 1) % 16, Nat.mod_lt _ (by decide)⟩

/-- the device whose offset-(j+1) successor is c -/
def srcDev (c : Dev nD) (j : Fin 15) : Dev nD := ⟨(c.val + 15 - j.val) % 16, Nat.mod_lt _ (by decide)⟩

/-- the offset complementary to `j + 1`: `(j + 1) + (rev j + 1) = 16` -/
def rev (j : Fin 15) : Fin 15 := ⟨14 - j.val, by omega⟩

/-- going back by `j + 1` and then forward by `j + 1` returns to `c` -/
theorem peer_srcDev (c : Dev nD) (j : Fin 15) : peer (srcDev c j) j = c := by
  revert c j; decide

/-- going forward by `j + 1` and then back by `j + 1` returns to `c` -/
theorem srcDev_peer (c : Dev nD) (j : Fin 15) : srcDev (peer c j) j = c := by
  revert c j; decide

/-- going back by `j + 1` is going forward by `16 - (j + 1)` -/
theorem srcDev_eq_peer_rev (c : Dev nD) (j : Fin 15) : srcDev c j = peer c (rev j) := by
  revert c j; decide

/-- the offsets `j + 1` and `rev j + 1` add up to a full turn of the ring -/
theorem peer_peer_rev (c : Dev nD) (j : Fin 15) : peer (peer c j) (rev j) = c := by
  revert c j; decide

theorem rev_rev (j : Fin 15) : rev (rev j) = j := by
  revert j; decide

/-- an offset between 1 and 15 never returns to the starting device -/
theorem peer_ne_self (c : Dev nD) (j : Fin 15) : peer c j ≠ c := by
  revert c j; decide

theorem srcDev_ne_self (c : Dev nD) (j : Fin 15) : srcDev c j ≠ c := by
  revert c j; decide

/-- distinct offsets from one device reach distinct devices -/
theorem peer_injective (c : Dev nD) : Function.Injective (peer c) := by
  intro a b h; revert c a b; decide

theorem srcDev_injective (c : Dev nD) : Function.Injective (srcDev c) := by
  intro a b h; revert c a b; decide

/-- every device other than `c` is at some offset between 1 and 15 from `c` -/
theorem exists_peer_of_ne {c d : Dev nD} (h : d ≠ c) : ∃ j, peer c j = d := by
  revert c d; decide

theorem peer_eq_iff {c d : Dev nD} {j : Fin 15} : peer c j = d ↔ c = srcDev d j :=
  ⟨fun h => h ▸ (srcDev_peer c j).symm, fun h => h ▸ peer_srcDev d j⟩

/-- c ↦ peer c j is a permutation of the mesh, with inverse c ↦ srcDev c j -/
def peerEquiv (j : Fin 15) : Dev nD ≃ Dev nD where
  toFun c := peer c j
  invFun c := srcDev c j
  left_inv c := srcDev_peer c j
  right_inv c := peer_srcDev c j

theorem peerEquiv_apply (j : Fin 15) (c : Dev nD) : peerEquiv j c = peer c j := rfl

theorem peerEquiv_symm_apply (j : Fin 15) (c : Dev nD) : (peerEquiv j).symm c = srcDev c j := rfl

/-! ## The printed chains, evaluated at the sixteen devices -/

/-- signal number 1 goes to the device at offset 1 -/
theorem sig_dev_eq_0 (i : grid0.Coords) (c : Dev nD) (h : k0_cond3 i = 1#1) :
    (⟨k0_dev1 c, k0_dev1_lt i c h⟩ : Dev nD) = peer c 0 :=
  Fin.ext (show k0_dev1 c = (peer c 0).val by revert c; decide +kernel)

/-- signal number 2 goes to the device at offset 2 -/
theorem sig_dev_eq_1 (i : grid0.Coords) (c : Dev nD) (h : k0_cond3 i = 1#1) :
    (⟨k0_dev2 c, k0_dev2_lt i c h⟩ : Dev nD) = peer c 1 :=
  Fin.ext (show k0_dev2 c = (peer c 1).val by revert c; decide +kernel)

/-- signal number 3 goes to the device at offset 3 -/
theorem sig_dev_eq_2 (i : grid0.Coords) (c : Dev nD) (h : k0_cond3 i = 1#1) :
    (⟨k0_dev3 c, k0_dev3_lt i c h⟩ : Dev nD) = peer c 2 :=
  Fin.ext (show k0_dev3 c = (peer c 2).val by revert c; decide +kernel)

/-- signal number 4 goes to the device at offset 4 -/
theorem sig_dev_eq_3 (i : grid0.Coords) (c : Dev nD) (h : k0_cond3 i = 1#1) :
    (⟨k0_dev4 c, k0_dev4_lt i c h⟩ : Dev nD) = peer c 3 :=
  Fin.ext (show k0_dev4 c = (peer c 3).val by revert c; decide +kernel)

/-- signal number 5 goes to the device at offset 5 -/
theorem sig_dev_eq_4 (i : grid0.Coords) (c : Dev nD) (h : k0_cond3 i = 1#1) :
    (⟨k0_dev5 c, k0_dev5_lt i c h⟩ : Dev nD) = peer c 4 :=
  Fin.ext (show k0_dev5 c = (peer c 4).val by revert c; decide +kernel)

/-- signal number 6 goes to the device at offset 6 -/
theorem sig_dev_eq_5 (i : grid0.Coords) (c : Dev nD) (h : k0_cond3 i = 1#1) :
    (⟨k0_dev6 c, k0_dev6_lt i c h⟩ : Dev nD) = peer c 5 :=
  Fin.ext (show k0_dev6 c = (peer c 5).val by revert c; decide +kernel)

/-- signal number 7 goes to the device at offset 7 -/
theorem sig_dev_eq_6 (i : grid0.Coords) (c : Dev nD) (h : k0_cond3 i = 1#1) :
    (⟨k0_dev7 c, k0_dev7_lt i c h⟩ : Dev nD) = peer c 6 :=
  Fin.ext (show k0_dev7 c = (peer c 6).val by revert c; decide +kernel)

/-- signal number 8 goes to the device at offset 8 -/
theorem sig_dev_eq_7 (i : grid0.Coords) (c : Dev nD) (h : k0_cond3 i = 1#1) :
    (⟨k0_dev8 c, k0_dev8_lt i c h⟩ : Dev nD) = peer c 7 :=
  Fin.ext (show k0_dev8 c = (peer c 7).val by revert c; decide +kernel)

/-- signal number 9 goes to the device at offset 9 -/
theorem sig_dev_eq_8 (i : grid0.Coords) (c : Dev nD) (h : k0_cond3 i = 1#1) :
    (⟨k0_dev9 c, k0_dev9_lt i c h⟩ : Dev nD) = peer c 8 :=
  Fin.ext (show k0_dev9 c = (peer c 8).val by revert c; decide +kernel)

/-- signal number 10 goes to the device at offset 10 -/
theorem sig_dev_eq_9 (i : grid0.Coords) (c : Dev nD) (h : k0_cond3 i = 1#1) :
    (⟨k0_dev10 c, k0_dev10_lt i c h⟩ : Dev nD) = peer c 9 :=
  Fin.ext (show k0_dev10 c = (peer c 9).val by revert c; decide +kernel)

/-- signal number 11 goes to the device at offset 11 -/
theorem sig_dev_eq_10 (i : grid0.Coords) (c : Dev nD) (h : k0_cond3 i = 1#1) :
    (⟨k0_dev11 c, k0_dev11_lt i c h⟩ : Dev nD) = peer c 10 :=
  Fin.ext (show k0_dev11 c = (peer c 10).val by revert c; decide +kernel)

/-- signal number 12 goes to the device at offset 12 -/
theorem sig_dev_eq_11 (i : grid0.Coords) (c : Dev nD) (h : k0_cond3 i = 1#1) :
    (⟨k0_dev12 c, k0_dev12_lt i c h⟩ : Dev nD) = peer c 11 :=
  Fin.ext (show k0_dev12 c = (peer c 11).val by revert c; decide +kernel)

/-- signal number 13 goes to the device at offset 13 -/
theorem sig_dev_eq_12 (i : grid0.Coords) (c : Dev nD) (h : k0_cond3 i = 1#1) :
    (⟨k0_dev13 c, k0_dev13_lt i c h⟩ : Dev nD) = peer c 12 :=
  Fin.ext (show k0_dev13 c = (peer c 12).val by revert c; decide +kernel)

/-- signal number 14 goes to the device at offset 14 -/
theorem sig_dev_eq_13 (i : grid0.Coords) (c : Dev nD) (h : k0_cond3 i = 1#1) :
    (⟨k0_dev14 c, k0_dev14_lt i c h⟩ : Dev nD) = peer c 13 :=
  Fin.ext (show k0_dev14 c = (peer c 13).val by revert c; decide +kernel)

/-- signal number 15 goes to the device at offset 15 -/
theorem sig_dev_eq_14 (i : grid0.Coords) (c : Dev nD) (h : k0_cond3 i = 1#1) :
    (⟨k0_dev15 c, k0_dev15_lt i c h⟩ : Dev nD) = peer c 14 :=
  Fin.ext (show k0_dev15 c = (peer c 14).val by revert c; decide +kernel)

/-- remote copy number 1 goes to the device at offset 1 -/
theorem cpy_dev_eq_0 (i : grid0.Coords) (c : Dev nD) (h : k0_cond5 i = 1#1) :
    (⟨k0_dev16 c, k0_dev16_lt i c h⟩ : Dev nD) = peer c 0 :=
  Fin.ext (show k0_dev16 c = (peer c 0).val by revert c; decide +kernel)

/-- remote copy number 2 goes to the device at offset 2 -/
theorem cpy_dev_eq_1 (i : grid0.Coords) (c : Dev nD) (h : k0_cond5 i = 1#1) :
    (⟨k0_dev17 c, k0_dev17_lt i c h⟩ : Dev nD) = peer c 1 :=
  Fin.ext (show k0_dev17 c = (peer c 1).val by revert c; decide +kernel)

/-- remote copy number 3 goes to the device at offset 3 -/
theorem cpy_dev_eq_2 (i : grid0.Coords) (c : Dev nD) (h : k0_cond5 i = 1#1) :
    (⟨k0_dev18 c, k0_dev18_lt i c h⟩ : Dev nD) = peer c 2 :=
  Fin.ext (show k0_dev18 c = (peer c 2).val by revert c; decide +kernel)

/-- remote copy number 4 goes to the device at offset 4 -/
theorem cpy_dev_eq_3 (i : grid0.Coords) (c : Dev nD) (h : k0_cond5 i = 1#1) :
    (⟨k0_dev19 c, k0_dev19_lt i c h⟩ : Dev nD) = peer c 3 :=
  Fin.ext (show k0_dev19 c = (peer c 3).val by revert c; decide +kernel)

/-- remote copy number 5 goes to the device at offset 5 -/
theorem cpy_dev_eq_4 (i : grid0.Coords) (c : Dev nD) (h : k0_cond5 i = 1#1) :
    (⟨k0_dev20 c, k0_dev20_lt i c h⟩ : Dev nD) = peer c 4 :=
  Fin.ext (show k0_dev20 c = (peer c 4).val by revert c; decide +kernel)

/-- remote copy number 6 goes to the device at offset 6 -/
theorem cpy_dev_eq_5 (i : grid0.Coords) (c : Dev nD) (h : k0_cond5 i = 1#1) :
    (⟨k0_dev21 c, k0_dev21_lt i c h⟩ : Dev nD) = peer c 5 :=
  Fin.ext (show k0_dev21 c = (peer c 5).val by revert c; decide +kernel)

/-- remote copy number 7 goes to the device at offset 7 -/
theorem cpy_dev_eq_6 (i : grid0.Coords) (c : Dev nD) (h : k0_cond5 i = 1#1) :
    (⟨k0_dev22 c, k0_dev22_lt i c h⟩ : Dev nD) = peer c 6 :=
  Fin.ext (show k0_dev22 c = (peer c 6).val by revert c; decide +kernel)

/-- remote copy number 8 goes to the device at offset 8 -/
theorem cpy_dev_eq_7 (i : grid0.Coords) (c : Dev nD) (h : k0_cond5 i = 1#1) :
    (⟨k0_dev23 c, k0_dev23_lt i c h⟩ : Dev nD) = peer c 7 :=
  Fin.ext (show k0_dev23 c = (peer c 7).val by revert c; decide +kernel)

/-- remote copy number 9 goes to the device at offset 9 -/
theorem cpy_dev_eq_8 (i : grid0.Coords) (c : Dev nD) (h : k0_cond5 i = 1#1) :
    (⟨k0_dev24 c, k0_dev24_lt i c h⟩ : Dev nD) = peer c 8 :=
  Fin.ext (show k0_dev24 c = (peer c 8).val by revert c; decide +kernel)

/-- remote copy number 10 goes to the device at offset 10 -/
theorem cpy_dev_eq_9 (i : grid0.Coords) (c : Dev nD) (h : k0_cond5 i = 1#1) :
    (⟨k0_dev25 c, k0_dev25_lt i c h⟩ : Dev nD) = peer c 9 :=
  Fin.ext (show k0_dev25 c = (peer c 9).val by revert c; decide +kernel)

/-- remote copy number 11 goes to the device at offset 11 -/
theorem cpy_dev_eq_10 (i : grid0.Coords) (c : Dev nD) (h : k0_cond5 i = 1#1) :
    (⟨k0_dev26 c, k0_dev26_lt i c h⟩ : Dev nD) = peer c 10 :=
  Fin.ext (show k0_dev26 c = (peer c 10).val by revert c; decide +kernel)

/-- remote copy number 12 goes to the device at offset 12 -/
theorem cpy_dev_eq_11 (i : grid0.Coords) (c : Dev nD) (h : k0_cond5 i = 1#1) :
    (⟨k0_dev27 c, k0_dev27_lt i c h⟩ : Dev nD) = peer c 11 :=
  Fin.ext (show k0_dev27 c = (peer c 11).val by revert c; decide +kernel)

/-- remote copy number 13 goes to the device at offset 13 -/
theorem cpy_dev_eq_12 (i : grid0.Coords) (c : Dev nD) (h : k0_cond5 i = 1#1) :
    (⟨k0_dev28 c, k0_dev28_lt i c h⟩ : Dev nD) = peer c 12 :=
  Fin.ext (show k0_dev28 c = (peer c 12).val by revert c; decide +kernel)

/-- remote copy number 14 goes to the device at offset 14 -/
theorem cpy_dev_eq_13 (i : grid0.Coords) (c : Dev nD) (h : k0_cond5 i = 1#1) :
    (⟨k0_dev29 c, k0_dev29_lt i c h⟩ : Dev nD) = peer c 13 :=
  Fin.ext (show k0_dev29 c = (peer c 13).val by revert c; decide +kernel)

/-- remote copy number 15 goes to the device at offset 15 -/
theorem cpy_dev_eq_14 (i : grid0.Coords) (c : Dev nD) (h : k0_cond5 i = 1#1) :
    (⟨k0_dev30 c, k0_dev30_lt i c h⟩ : Dev nD) = peer c 14 :=
  Fin.ext (show k0_dev30 c = (peer c 14).val by revert c; decide +kernel)

/-! ## Routing -/

/-- Every two TensorCore threads of the mesh are joined by a route: a TensorCore's signal or
    transfer reaches every TensorCore, on its own chip or another. -/
theorem routes_peer (c : Dev nD) (j : Fin 15) :
    τ.routes (c.tc : Thread nD τ) ((peer c j).tc : Thread nD τ) = true :=
  Topo.routes_tc c (peer c j)

end Cert.KernelIdeal.Coll

/-- info: 'Cert.KernelIdeal.Coll.cpy_dev_eq_14' depends on axioms: [propext, Quot.sound] -/
#guard_msgs in #print axioms Cert.KernelIdeal.Coll.cpy_dev_eq_14
-- ==== Proof.Proto.lean ====
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.KernelIdeal
import proofs.«901087_g7700000000001088_dist_sum_ax0_shard0_i_m4096_n1024_v7x_i16_bf16_1_alg».proof.Proof.Gen.KernelIdeal.Skeleton
import proofs.«901087_g7700000000001088_dist_sum_ax0_shard0_i_m4096_n1024_v7x_i16_bf16_1_alg».proof.Proof.Gen.KernelIdeal.Launch
import proofs.«901087_g7700000000001088_dist_sum_ax0_shard0_i_m4096_n1024_v7x_i16_bf16_1_alg».proof.Proof.Gen.KernelIdeal.Points
import proofs.«901087_g7700000000001088_dist_sum_ax0_shard0_i_m4096_n1024_v7x_i16_bf16_1_alg».proof.Proof.Gen.KernelIdeal.Frame
import proofs.«901087_g7700000000001088_dist_sum_ax0_shard0_i_m4096_n1024_v7x_i16_bf16_1_alg».proof.Proof.DevArith
import proofs.«901087_g7700000000001088_dist_sum_ax0_shard0_i_m4096_n1024_v7x_i16_bf16_1_alg».proof.Proof.ValueDefs
import Idealize.ShloMosaic.Lib.Pipeline.Launch
import Idealize.ShloMosaic.Lib.Pipeline.Kit
import Idealize.ShloMosaic.Lib.SparseCore.Stream
import Idealize.ShloMosaic.Lib.Tactic

/-!
# The all-to-all column sum on sixteen devices: cells, schedule and proof data

Each device `c` accumulates the column sums of its four row blocks into its partial buffer, tells the fifteen other
devices over their barrier semaphores that it has entered (grid point 0), waits for their fifteen signals (point 2),
and at point 3 copies its partial into slot `j` of the receive buffer of the device `j + 1` places after it, for each
`j : Fin 15`, waits for the fifteen copies into its own receive buffer, adds them to its partial and waits for its own
copies to have left.

Cells of device `c`: its barrier cell (fifteen duties of one unit, duty `i` paid by the device `i + 1` places after `c`,
which hands over slot `i` of ITS receive buffer — the slot `c` will write — and that its receive cell `i` is at round 0),
fifteen send cells and fifteen receive cells of one duty each (the copy's credit). The partial buffer is lent to the
fifteen copies in sixteen pieces of its share, the last piece kept for the load that follows.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's (duties `Unit`) and the collective's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## Memrefs and semaphores -/

/-- the partial-sum buffer and the receive buffer -/
abbrev pM : Memref sig .tc .vmem S1x1024 .f32 := Memref.whole cc0_scratch0
abbrev cM : Memref sig .tc .vmem S15x1x1024 .f32 := Memref.whole cc0_scratch1

theorem slot_inb (j : Fin 15) : ∀ a, (![j.val, 0, 0] : Fin 3 → Nat) a + S1x1x1024.size a ≤ S15x1x1024.size a := by
  intro a; fin_cases a
  · show j.val + 1 ≤ 15; omega
  · show 0 + 1 ≤ 1; omega
  · show 0 + 1024 ≤ 1024; omega

/-- slot `j` of the receive buffer, as the row vector the copies move -/
abbrev slotM (j : Fin 15) : Memref sig .tc .vmem S1x1024 .f32 :=
  ((cM : Memref sig .tc .vmem S15x1x1024 .f32).slice (Rect.unit (s := S15x1x1024) ![j.val, 0, 0] S1x1x1024.size (slot_inb j)) (fun _ => rfl)).squeeze S1x1024 squeezes_S1x1x1024_S1x1024

abbrev barS : Sem sig := (SemArray.scalar (sig.barrier 0 rfl) : Sems sig S_).sem
/-- send semaphore `j` and receive semaphore `j` (the two scratch arrays of fifteen DMA semaphores) -/
abbrev sendSem (j : Fin 15) : DmaSem sig := ⟨3 + j.val, by have := j.isLt; show 3 + j.val < 33; omega⟩
abbrev recvSem (j : Fin 15) : DmaSem sig := ⟨18 + j.val, by have := j.isLt; show 18 + j.val < 33; omega⟩

abbrev barCell (c : Dev nD) : GSem nD τ sig := ((c : Thread nD τ), .reg barS)
abbrev sendCell (c : Dev nD) (j : Fin 15) : GSem nD τ sig := ((c : Thread nD τ), .dma (sendSem j))
abbrev recvCell (c : Dev nD) (j : Fin 15) : GSem nD τ sig := ((c : Thread nD τ), .dma (recvSem j))

/-- A device's cells, indexed: the barrier cell, send cell `j`, receive cell `j`. -/
inductive CIx : Type
  | bar : CIx
  | send : Fin 15 → CIx
  | recv : Fin 15 → CIx
  deriving DecidableEq, Fintype

abbrev csem : CIx → SemLoc sig
  | .bar => .reg barS
  | .send j => .dma (sendSem j)
  | .recv j => .dma (recvSem j)
abbrev kcell (ck : Dev nD × CIx) : GSem nD τ sig := ((ck.1 : Thread nD τ), csem ck.2)

/-- The kernel's OWN (scoped) semaphores as the launch theorem indexes them: `false, j` send `j`; `true, j` receive `j`. -/
abbrev osem : Bool × Fin 15 → SemLoc sig := fun x => if x.1 then .dma (recvSem x.2) else .dma (sendSem x.2)

/-- the units one row copy credits -/
abbrev N : ℕ := (pM : Memref sig .tc .vmem S1x1024 .f32).view.dmaCredit
theorem N_pos : 0 < N := View.dmaCredit_pos _ (by decide)

/-! ## Contents -/

/-- device `c`'s argument array as launched -/
abbrev xarr (c : Dev nD) : Vec F S4096x1024 .f32 := m ((c : Thread nD τ).loc main_arg0)

/-- the partial buffer of `c` after `k` grid points (`k = 1 … 4`; anything at `k = 0`) -/
def partAt (c : Dev nD) : ℕ → (cc0_scratch0 : Ref sig .tc).ty.Contents (Elt F)
  | 0 => k0_pay2 (Val.blk (xarr m c) 0)
  | 1 => k0_pay2 (Val.blk (xarr m c) 0)
  | 2 => k0_pay3 (Val.blk (xarr m c) 1) (k0_pay2 (Val.blk (xarr m c) 0))
  | 3 => k0_pay3 (Val.blk (xarr m c) 2) (k0_pay3 (Val.blk (xarr m c) 1) (k0_pay2 (Val.blk (xarr m c) 0)))
  | _ + 4 => Val.part (xarr m c)

/-- the partial sums of `c`: what it sends -/
abbrev partF (c : Dev nD) : (cc0_scratch0 : Ref sig .tc).ty.Contents (Elt F) := Val.part (xarr m c)

/-- the receive buffer of `c` once its fifteen slots have landed: slot `j` from the device `j + 1` places before it -/
def commF (c : Dev nD) : (cc0_scratch1 : Ref sig .tc).ty.Contents (Elt F) := Val.comm fun j => Val.part (xarr m (srcDev c j))

/-- the kernel's result on device `c` -/
def outAt (c : Dev nD) : (cc0_stg1_0 : Ref sig .tc).ty.Contents (Elt F) := Val.outv srcDev (fun d => xarr m d) c

theorem outAt_eq (c : Dev nD) : outAt m c = k0_pay4 (partF m c) (commF m c) := rfl

/-! ## Points-tos -/

def slotPts (c : Dev nD) (j : Fin 15) (f : Buf (Elt F) ((slotM j).view.loc (c : Thread nD τ))) : sProp 𝕄 :=
  (slotM j).view.loc (c : Thread nD τ) ↦[(slotM j).view.set]{fullShare} f
def partPts (q : PosShare TreeShare) (c : Dev nD) (f : Buf (Elt F) ((pM : Memref sig .tc .vmem S1x1024 .f32).view.loc (c : Thread nD τ))) : sProp 𝕄 :=
  (pM : Memref sig .tc .vmem S1x1024 .f32).view.loc (c : Thread nD τ) ↦[(pM : Memref sig .tc .vmem S1x1024 .f32).view.set]{q} f

/-- the share of the partial buffer lent to copy `j` (pieces `0 … 14` of sixteen), and the piece kept -/
abbrev lentShare (j : Fin 15) : PosShare TreeShare := piece fullShare 15 j.castSucc
abbrev keptShare : PosShare TreeShare := piece fullShare 15 (Fin.last 15)

instance slotPts_storable (c : Dev nD) (j : Fin 15) (f) : BI.Storable (upEmb : UEmb _ 𝕄) (slotPts (F := F) c j f) := by unfold slotPts; infer_instance
instance partPts_storable (q : PosShare TreeShare) (c : Dev nD) (f) : BI.Storable (upEmb : UEmb _ 𝕄) (partPts (F := F) q c f) := by unfold partPts; infer_instance

/-! ## The schedule -/

/-- What the device `i + 1` places after `c` hands `c` with its entry signal (duty `i` of `c`'s barrier cell): slot `i` of
    its receive buffer, and that its receive cell `i` is at round 0. -/
def barPay (c : Dev nD) (i : Fin 15) : sProp 𝕄 := iprop((∃ f, slotPts (peer c i) i f) ∗ reached ER (recvCell (peer c i) i) 0)
/-- slot `j` of `c`'s receive buffer, landed -/
def recvPay (c : Dev nD) (j : Fin 15) : sProp 𝕄 := slotPts c j (commF m c)
/-- the piece of the partial buffer lent to copy `j`, back -/
def sendPay (c : Dev nD) (j : Fin 15) : sProp 𝕄 := partPts (lentShare j) c (partF m c)

/-- One round, round 0: a barrier cell has fifteen duties of one unit; a send or receive cell the duty `0` of the row's credit. -/
def sched : Rounds.Schedule (GSem nD τ sig) (Fin 15) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => barPay g.1.1 d
    | .dma q => if h : 18 ≤ q.val then recvPay m g.1.1 ⟨q.val - 18, by have hq : q.val < 33 := q.isLt; omega⟩
                else if h3 : 3 ≤ q.val then sendPay m g.1.1 ⟨q.val - 3, by omega⟩ else iprop(emp)
  amount_pos g _ _ _ := by
    cases g.2 with
    | reg _ => exact Nat.one_pos
    | dma _ => exact N_pos

/-! ## What each device owes at launch; the levels -/

/-- the fifteen receive credits (paid by the copies at point 3) -/
def Orecv (c : Dev nD) : CellTallies nD τ sig Unit := ∑ j : Fin 15, tallyAt (recvCell (peer c j) j) () N
/-- and the fifteen entry signals (paid at point 0) -/
def Obar (c : Dev nD) : CellTallies nD τ sig Unit := ∑ j : Fin 15, tallyAt (barCell (peer c j)) () 1
def O₀ (c : Dev nD) : CellTallies nD τ sig Unit := Orecv c + Obar c
/-- the entry signals still to send once the first `n` are sent, and the receive credits still to pay once the first `n` copies are issued -/
def ObarFrom (c : Dev nD) (n : ℕ) : CellTallies nD τ sig Unit := ∑ j : Fin 15, if n ≤ j.val then tallyAt (barCell (peer c j)) () 1 else 0
def OrecvFrom (c : Dev nD) (n : ℕ) : CellTallies nD τ sig Unit := ∑ j : Fin 15, if n ≤ j.val then tallyAt (recvCell (peer c j) j) () N else 0

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 18 ≤ q.val then 2 else 0

/-! ## Ghost state -/

/-- every cell's invariant, under the names the launch allocated them at, and that every cell is at round 0 -/
def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

/-- the tokens of the duties device `c` pays: its fifteen entry signals, its fifteen copies' receive duties, its fifteen send duties -/
def barToks (c : Dev nD) : sProp 𝕄 := bigSep Finset.univ fun j : Fin 15 => dutyTok ER (barCell (peer c j)) 0 (rev j)
def cpyToks (c : Dev nD) : sProp 𝕄 :=
  iprop((bigSep Finset.univ fun j : Fin 15 => dutyTok ER (recvCell (peer c j) j) 0 (0 : Fin 15))
    ∗ bigSep Finset.univ fun j : Fin 15 => dutyTok ER (sendCell c j) 0 (0 : Fin 15))
/-- its positions in its own cells -/
def posBar (c : Dev nD) (r : ℕ) : sProp 𝕄 := atPos ER (barCell c) r ∅ 0
def posXfer (c : Dev nD) : sProp 𝕄 :=
  iprop((bigSep Finset.univ fun j : Fin 15 => atPos ER (sendCell c j) 0 ∅ 0) ∗ bigSep Finset.univ fun j : Fin 15 => atPos ER (recvCell c j) 0 ∅ 0)
/-- its credit on its own receive cells -/
def recvCreds (c : Dev nD) : sProp 𝕄 := bigSep Finset.univ fun j : Fin 15 => cred (tallyAt (recvCell c j) () N)

/-- Before point 0: all of it, the barrier's fifteen units of credit, both scratch buffers at any contents. -/
def Φ₀ (c : Dev nD) : sProp 𝕄 :=
  iprop((∃ K, records m K) ∗ posBar c 0 ∗ posXfer c ∗ barToks c ∗ cpyToks c ∗ cred (tallyAt (barCell c) () 15) ∗ recvCreds c ∗ levAts L lv
    ∗ (∃ f, partPts fullShare c f) ∗ (∃ g, ((c : Thread nD τ).loc cc0_scratch1) ↦{fullShare} g))
/-- Before points 1 and 2 (`k = 1, 2`): the entry signals sent, the receive buffer handed out, the partial at `partAt k`. -/
def Φmid (c : Dev nD) (k : ℕ) : sProp 𝕄 :=
  iprop((∃ K, records m K) ∗ posBar c 0 ∗ posXfer c ∗ cpyToks c ∗ cred (tallyAt (barCell c) () 15) ∗ recvCreds c ∗ levAts L lv
    ∗ partPts fullShare c (partAt m c k))
/-- Before point 3: the barrier waited, the fifteen peers' slots in hand. -/
def Φ₃ (c : Dev nD) : sProp 𝕄 :=
  iprop((∃ K, records m K) ∗ posBar c 1 ∗ posXfer c ∗ cpyToks c ∗ recvCreds c ∗ levAts L lv
    ∗ partPts fullShare c (partAt m c 3) ∗ bigSep Finset.univ fun i : Fin 15 => iprop(∃ f, slotPts (peer c i) i f))
/-- After point 3: both scratch buffers whole again, the thirty own cells closed at zero. -/
def Φ₄ (c : Dev nD) : sProp 𝕄 :=
  iprop(partPts fullShare c (partF m c) ∗ (((c : Thread nD τ).loc cc0_scratch1) ↦{fullShare} commF m c)
    ∗ (bigSep Finset.univ fun j : Fin 15 => semVal (sendCell c j) 0) ∗ bigSep Finset.univ fun j : Fin 15 => semVal (recvCell c j) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => outAt m c
  Φ t := match t with
    | ⟨0, _⟩ => Φ₀ m c
    | ⟨1, _⟩ => Φmid m c 1
    | ⟨2, _⟩ => Φmid m c 2
    | ⟨3, _⟩ => Φ₃ m c
    | ⟨_ + 4, _⟩ => Φ₄ m c
  q _ := fullShare
  owed t := match t with
    | ⟨0, _⟩ => O₀ c
    | ⟨1, _⟩ => Orecv c
    | ⟨2, _⟩ => Orecv c
    | ⟨3, _⟩ => Orecv c
    | ⟨_ + 4, _⟩ => 0

end Cert.KernelIdeal.Coll

end
-- ==== Proof.BodyDefs.lean ====
import proofs.«901087_g7700000000001088_dist_sum_ax0_shard0_i_m4096_n1024_v7x_i16_bf16_1_alg».proof.Proof.Proto

/-!
# The body obligation, one grid point at a time

The statement each grid point's proof closes: from the invariant before the point, what the device owes and the two
windows' current staging buffers, the kernel's body runs to the invariant after the point.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the pipeline library's body obligation for device `c`, at grid point `t` -/
def BodyAt (c : Dev nD) (t : Fin cfg0.N) : Prop :=
  iprop((dats (F := F) m ρ 0 c).Φ t.castSucc ∗ (dats (F := F) m ρ 0 c).owesAt () t.castSucc
        ∗ bigSep Finset.univ fun w : Fin cfg0.W =>
            iprop(∃ d, owns (c : Thread nD τ) ((cfg0.win w).stage (cfg0.slots t w)) fullShare ((dats (F := F) m ρ 0 c).before w t d)))
      ⊢ wp frame (wpE (defs₀ (F := F)) 𝒱₀ (c : Thread nD τ) none) Set.univ (defs₀ (F := F) .tc cfg0.body (cfg0.bodyArgs t (cfg0.slots t))) fun _ =>
          iprop((dats (F := F) m ρ 0 c).Φ t.succ ∗ (dats (F := F) m ρ 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats (F := F) m ρ 0 c).before w t d))
                  | true => owns (c : Thread nD τ) ((cfg0.win w).stage (cfg0.slots t w)) fullShare ((dats (F := F) m ρ 0 c).after w t)
                | false => owns (c : Thread nD τ) ((cfg0.win w).stage (cfg0.slots t w)) fullShare ((dats (F := F) m ρ 0 c).after w t))

/-- the four points' obligations are the library's -/
theorem bodyObligation_of (c : Dev nD) (h : ∀ t, BodyAt (F := F) m ρ c t) :
    BodyObligation (dats (F := F) m ρ 0 c) (defs₀ (F := F)) 𝒱₀ () Set.univ := fun t => h t

end Cert.KernelIdeal.Coll

end
-- ==== Proof.Sched.lean ====
import proofs.«901087_g7700000000001088_dist_sum_ax0_shard0_i_m4096_n1024_v7x_i16_bf16_1_alg».proof.Proof.Proto

/-!
# The schedule's tables, the levels, and the tallies owed

One round per cell. Read at a device's barrier cell the schedule has fifteen unit duties, at a send or receive cell
one duty of the row's credit; the payloads are those of the module that defines the schedule.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tables -/

theorem duties_bar (c : Dev nD) : (sched (F := F) m).duties (barCell c) 0 = Finset.univ := by
  dsimp only [sched]; exact if_pos ⟨rfl, rfl⟩
theorem duties_send (c : Dev nD) (j : Fin 15) : (sched (F := F) m).duties (sendCell c j) 0 = {0} := by
  dsimp only [sched]; rw [if_pos ⟨rfl, rfl⟩]; exact if_pos (Nat.le_add_right 3 _)
theorem duties_recv (c : Dev nD) (j : Fin 15) : (sched (F := F) m).duties (recvCell c j) 0 = {0} := by
  dsimp only [sched]; rw [if_pos ⟨rfl, rfl⟩]; exact if_pos (by omega)
theorem duties_later (g : GSem nD τ sig) : ∀ r, 1 ≤ r → (sched (F := F) m).duties g r = ∅ := by
  intro r hr; dsimp only [sched]; exact if_neg fun h => by have := h.1; omega

theorem amount_bar (c : Dev nD) (d : Fin 15) : (sched (F := F) m).amount (barCell c) 0 d = 1 := rfl
theorem amount_send (c : Dev nD) (j d : Fin 15) : (sched (F := F) m).amount (sendCell c j) 0 d = N := rfl
theorem amount_recv (c : Dev nD) (j d : Fin 15) : (sched (F := F) m).amount (recvCell c j) 0 d = N := rfl

theorem expect_bar (c : Dev nD) : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (c : Dev nD) (j : Fin 15) : (sched (F := F) m).expect (sendCell c j) 0 = N := by
  unfold Schedule.expect Schedule.amountOf; rw [duties_send, Finset.sum_singleton, amount_send]
theorem expect_recv (c : Dev nD) (j : Fin 15) : (sched (F := F) m).expect (recvCell c j) 0 = N := by
  unfold Schedule.expect Schedule.amountOf; rw [duties_recv, Finset.sum_singleton, amount_recv]

theorem payload_bar (c : Dev nD) (i : Fin 15) : (sched (F := F) m).payload (barCell c) 0 i = barPay c i := rfl
theorem payload_send (c : Dev nD) (j d : Fin 15) : (sched (F := F) m).payload (sendCell c j) 0 d = sendPay m c j := by
  dsimp only [sched]
  rw [dif_neg (show ¬ 18 ≤ 3 + j.val by omega), dif_pos (show 3 ≤ 3 + j.val by omega)]
  exact congrArg (sendPay m c) (Fin.ext (Nat.add_sub_cancel_left 3 j.val))
theorem payload_recv (c : Dev nD) (j d : Fin 15) : (sched (F := F) m).payload (recvCell c j) 0 d = recvPay m c j := by
  dsimp only [sched]
  rw [dif_pos (show 18 ≤ 18 + j.val by omega)]
  exact congrArg (recvPay m c) (Fin.ext (Nat.add_sub_cancel_left 18 j.val))

/-- The rest of a round no duty of which is taken: every payload of it. -/
theorem rest_bar (c : Dev nD) :
    bigSep ((sched (F := F) m).duties (barCell c) 0 \ ∅) (fun d => (sched (F := F) m).payload (barCell c) 0 d) = bigSep Finset.univ fun i : Fin 15 => barPay (F := F) c i := by
  rw [Finset.sdiff_empty, duties_bar]; rfl
theorem rest_send (c : Dev nD) (j : Fin 15) :
    bigSep ((sched (F := F) m).duties (sendCell c j) 0 \ ∅) (fun d => (sched (F := F) m).payload (sendCell c j) 0 d) = sendPay m c j := by
  rw [Finset.sdiff_empty, duties_send, bigSep_singleton, payload_send]
theorem rest_recv (c : Dev nD) (j : Fin 15) :
    bigSep ((sched (F := F) m).duties (recvCell c j) 0 \ ∅) (fun d => (sched (F := F) m).payload (recvCell c j) 0 d) = recvPay m c j := by
  rw [Finset.sdiff_empty, duties_recv, bigSep_singleton, payload_recv]

instance sched_payload_storable (g : GSem nD τ sig) (r : ℕ) (d : Fin 15) :
    BI.Storable (upEmb : UEmb _ 𝕄) ((sched (F := F) m).payload g r d) := by
  obtain ⟨t, s⟩ := g
  cases s with
  | reg s => show BI.Storable upEmb (barPay t.1 d); unfold barPay; infer_instance
  | dma q =>
    dsimp only [sched]
    split
    · unfold recvPay; infer_instance
    · split
      · unfold sendPay; infer_instance
      · infer_instance

/-! ## Cells are told apart -/

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  have hk : k = k' := by
    cases k with
    | bar =>
      cases k' with
      | bar => rfl
      | send j' => exact absurd h2 (fun e => by cases e)
      | recv j' => exact absurd h2 (fun e => by cases e)
    | send j =>
      cases k' with
      | bar => exact absurd h2 (fun e => by cases e)
      | send j' =>
        have h3 : 3 + j.val = 3 + j'.val := congrArg Fin.val (SemLoc.dma.inj h2)
        exact congrArg CIx.send (Fin.ext (by omega))
      | recv j' =>
        have h3 : 3 + j.val = 18 + j'.val := congrArg Fin.val (SemLoc.dma.inj h2)
        have := j.isLt; omega
    | recv j =>
      cases k' with
      | bar => exact absurd h2 (fun e => by cases e)
      | send j' =>
        have h3 : 18 + j.val = 3 + j'.val := congrArg Fin.val (SemLoc.dma.inj h2)
        have := j'.isLt; omega
      | recv j' =>
        have h3 : 18 + j.val = 18 + j'.val := congrArg Fin.val (SemLoc.dma.inj h2)
        exact congrArg CIx.recv (Fin.ext (by omega))
  rw [hk]
theorem bar_eq_iff {a b : Dev nD} : Iff (barCell a = barCell b) (a = b) :=
  ⟨fun h => congrArg (fun g : GSem nD τ sig => g.1.1) h, fun h => by rw [h]⟩
theorem recv_eq_iff {a b : Dev nD} {j j' : Fin 15} : Iff (recvCell a j = recvCell b j') (a = b ∧ j = j') := by
  refine ⟨fun h => ⟨congrArg (fun g : GSem nD τ sig => g.1.1) h, ?_⟩, fun h => by rw [h.1, h.2]⟩
  have h2 : (SemLoc.dma (recvSem j) : SemLoc sig) = .dma (recvSem j') := congrArg Prod.snd h
  have h3 : 18 + j.val = 18 + j'.val := congrArg Fin.val (SemLoc.dma.inj h2)
  exact Fin.ext (by omega)
theorem send_eq_iff {a b : Dev nD} {j j' : Fin 15} : Iff (sendCell a j = sendCell b j') (a = b ∧ j = j') := by
  refine ⟨fun h => ⟨congrArg (fun g : GSem nD τ sig => g.1.1) h, ?_⟩, fun h => by rw [h.1, h.2]⟩
  have h2 : (SemLoc.dma (sendSem j) : SemLoc sig) = .dma (sendSem j') := congrArg Prod.snd h
  have h3 : 3 + j.val = 3 + j'.val := congrArg Fin.val (SemLoc.dma.inj h2)
  exact Fin.ext (by omega)
theorem recv_ne_bar (a b : Dev nD) (j : Fin 15) : recvCell a j ≠ barCell b := fun h => by
  have h2 : (SemLoc.dma (recvSem j) : SemLoc sig) = .reg barS := congrArg Prod.snd h
  cases h2
theorem send_ne_bar (a b : Dev nD) (j : Fin 15) : sendCell a j ≠ barCell b := fun h => by
  have h2 : (SemLoc.dma (sendSem j) : SemLoc sig) = .reg barS := congrArg Prod.snd h
  cases h2
theorem send_ne_recv (a b : Dev nD) (j j' : Fin 15) : sendCell a j ≠ recvCell b j' := fun h => by
  have h2 : (SemLoc.dma (sendSem j) : SemLoc sig) = .dma (recvSem j') := congrArg Prod.snd h
  have h3 : 3 + j.val = 18 + j'.val := congrArg Fin.val (SemLoc.dma.inj h2)
  have := j.isLt; omega

/-! ## The tallies owed, read at a cell -/

theorem Orecv_apply (c : Dev nD) (g : GSem nD τ sig) (u : Unit) :
    Orecv c g u = ∑ j : Fin 15, if g = recvCell (peer c j) j then N else 0 := by
  unfold Orecv
  rw [Finset.sum_apply, Finsupp.finset_sum_apply]
  refine Finset.sum_congr rfl fun j _ => ?_
  rw [tallyAt_apply]
  by_cases h : g = recvCell (peer c j) j
  · rw [if_pos ⟨h, rfl⟩, if_pos h]
  · rw [if_neg (fun h' => h h'.1), if_neg h]

theorem Obar_apply (c : Dev nD) (g : GSem nD τ sig) (u : Unit) :
    Obar c g u = ∑ j : Fin 15, if g = barCell (peer c j) then 1 else 0 := by
  unfold Obar
  rw [Finset.sum_apply, Finsupp.finset_sum_apply]
  refine Finset.sum_congr rfl fun j _ => ?_
  rw [tallyAt_apply]
  by_cases h : g = barCell (peer c j)
  · rw [if_pos ⟨h, rfl⟩, if_pos h]
  · rw [if_neg (fun h' => h h'.1), if_neg h]

theorem O₀_apply (c : Dev nD) (g : GSem nD τ sig) (u : Unit) : O₀ c g u = Orecv c g u + Obar c g u := by
  unfold O₀; rw [Pi.add_apply, Finsupp.add_apply]

/-- a device owes receive credits to receive cells only -/
theorem Orecv_pos {c : Dev nD} {g : GSem nD τ sig} {u : Unit} (h : 0 < Orecv c g u) : ∃ j, g = recvCell (peer c j) j := by
  rw [Orecv_apply] at h
  by_contra hn
  rw [Finset.sum_eq_zero fun j _ => if_neg fun e => hn ⟨j, e⟩] at h
  exact Nat.lt_irrefl 0 h

/-- and entry signals to barrier cells only -/
theorem Obar_pos {c : Dev nD} {g : GSem nD τ sig} {u : Unit} (h : 0 < Obar c g u) : ∃ j, g = barCell (peer c j) := by
  rw [Obar_apply] at h
  by_contra hn
  rw [Finset.sum_eq_zero fun j _ => if_neg fun e => hn ⟨j, e⟩] at h
  exact Nat.lt_irrefl 0 h

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A wait on a staging cell (DMA semaphores 0, 1, 2: level 0) is below everything a device ever owes
    (barrier cells at 1, receive cells at 2). -/
theorem mayWait_stage (c : Dev nD) (q : DmaSem sig) (hq : q.val < 3) (O : CellTallies nD τ sig Unit) (hO : O = O₀ c ∨ O = Orecv c ∨ O = 0) :
    (levAts L lv : sProp 𝕄) ⊢ MayWait (c : Thread nD τ) (.dma q) () O := by
  have key : ∀ (g : GSem nD τ sig) (u : Unit), 0 < O g u → (∃ d j, g = recvCell d j) ∨ (∃ d, g = barCell d) := by
    intro g u hg
    rcases hO with rfl | rfl | rfl
    · rw [O₀_apply] at hg
      rcases (by omega : 0 < Orecv c g u ∨ 0 < Obar c g u) with h | h
      · obtain ⟨j, rfl⟩ := Orecv_pos h; exact .inl ⟨_, _, rfl⟩
      · obtain ⟨j, rfl⟩ := Obar_pos h; exact .inr ⟨_, rfl⟩
    · obtain ⟨j, rfl⟩ := Orecv_pos hg; exact .inl ⟨_, _, rfl⟩
    · exact absurd hg (Nat.lt_irrefl 0)
  refine MayOwe.of_cut (L := L) (lev := lv) 0 ?_ ?_ ?_ ?_
  · intro p hp; rw [Finset.mem_singleton.mp hp, L_tc]; exact Finset.mem_singleton_self _
  · intro g u hg
    rcases key g u hg with ⟨d, j, rfl⟩ | ⟨d, rfl⟩
    · rw [L_tc]; exact Finset.mem_singleton_self _
    · rw [L_tc]; exact Finset.mem_singleton_self _
  · intro p hp; rw [Finset.mem_singleton.mp hp]; dsimp only [lv]; rw [if_neg (by omega)]
  · intro g u hg
    rcases key g u hg with ⟨d, j, rfl⟩ | ⟨d, rfl⟩
    · dsimp only [lv]; rw [if_pos (Nat.le_add_right 18 _)]; exact Nat.succ_pos 1
    · exact Nat.one_pos
/-- At its barrier wait a device owes receive credits only: receive cells sit above barrier cells. -/
theorem mayWait_bar (c : Dev nD) :
    (levAts L lv : sProp 𝕄) ⊢ MayWait (c : Thread nD τ) (.reg barS) () (Orecv c) := by
  refine MayOwe.of_cut (L := L) (lev := lv) 1 ?_ ?_ ?_ ?_
  · intro p hp; rw [Finset.mem_singleton.mp hp, L_tc]; exact Finset.mem_singleton_self _
  · intro g u hg
    obtain ⟨j, rfl⟩ := Orecv_pos hg
    rw [L_tc]; exact Finset.mem_singleton_self _
  · intro p hp; rw [Finset.mem_singleton.mp hp]; exact Nat.le_refl 1
  · intro g u hg
    obtain ⟨j, rfl⟩ := Orecv_pos hg
    dsimp only [lv]; rw [if_pos (Nat.le_add_right 18 _)]; exact Nat.lt_succ_self 1

/-! ## The tallies owed, peeled in program order -/

theorem Obar_eq (c : Dev nD) : Obar c = ObarFrom c 0 := by
  unfold Obar ObarFrom; exact Finset.sum_congr rfl fun j _ => (if_pos (Nat.zero_le _)).symm
theorem Orecv_eq (c : Dev nD) : Orecv c = OrecvFrom c 0 := by
  unfold Orecv OrecvFrom; exact Finset.sum_congr rfl fun j _ => (if_pos (Nat.zero_le _)).symm
theorem ObarFrom_succ (c : Dev nD) (k : Fin 15) : ObarFrom c k.val = ObarFrom c (k.val + 1) + tallyAt (barCell (peer c k)) () 1 := by
  have hk : (tallyAt (barCell (peer c k)) () 1 : CellTallies nD τ sig Unit) = ∑ j : Fin 15, if j = k then (tallyAt (barCell (peer c j)) () 1 : CellTallies nD τ sig Unit) else 0 := by
    rw [Finset.sum_ite_eq', if_pos (Finset.mem_univ _)]
  unfold ObarFrom
  rw [hk, ← Finset.sum_add_distrib]
  refine Finset.sum_congr rfl fun j _ => ?_
  by_cases h1 : k.val + 1 ≤ j.val
  · rw [if_pos (show k.val ≤ j.val by omega), if_pos h1, if_neg (fun e => by rw [e] at h1; omega), add_zero]
  · by_cases h2 : j = k
    · subst h2; rw [if_pos (Nat.le_refl _), if_neg h1, if_pos rfl, zero_add]
    · rw [if_neg (fun h3 => h2 (Fin.ext (by omega))), if_neg h1, if_neg h2, add_zero]
theorem OrecvFrom_succ (c : Dev nD) (k : Fin 15) : OrecvFrom c k.val = OrecvFrom c (k.val + 1) + tallyAt (recvCell (peer c k) k) () N := by
  have hk : (tallyAt (recvCell (peer c k) k) () N : CellTallies nD τ sig Unit) = ∑ j : Fin 15, if j = k then (tallyAt (recvCell (peer c j) j) () N : CellTallies nD τ sig Unit) else 0 := by
    rw [Finset.sum_ite_eq', if_pos (Finset.mem_univ _)]
  unfold OrecvFrom
  rw [hk, ← Finset.sum_add_distrib]
  refine Finset.sum_congr rfl fun j _ => ?_
  by_cases h1 : k.val + 1 ≤ j.val
  · rw [if_pos (show k.val ≤ j.val by omega), if_pos h1, if_neg (fun e => by rw [e] at h1; omega), add_zero]
  · by_cases h2 : j = k
    · subst h2; rw [if_pos (Nat.le_refl _), if_neg h1, if_pos rfl, zero_add]
    · rw [if_neg (fun h3 => h2 (Fin.ext (by omega))), if_neg h1, if_neg h2, add_zero]
theorem ObarFrom_end (c : Dev nD) : ObarFrom c 15 = 0 := by
  unfold ObarFrom; exact Finset.sum_eq_zero fun j _ => if_neg (by have := j.isLt; omega)
theorem OrecvFrom_end (c : Dev nD) : OrecvFrom c 15 = 0 := by
  unfold OrecvFrom; exact Finset.sum_eq_zero fun j _ => if_neg (by have := j.isLt; omega)

/-- what device `d` owes device `c`'s barrier cell: one unit unless `d = c` -/
theorem owed_bar (d c : Dev nD) : O₀ d (barCell c) () = if d = c then 0 else 1 := by
  rw [O₀_apply, Orecv_apply, Obar_apply, Finset.sum_eq_zero fun j _ => if_neg (Ne.symm (recv_ne_bar (peer d j) c j)), zero_add]
  by_cases h : d = c
  · subst h
    rw [if_pos rfl]
    exact Finset.sum_eq_zero fun j _ => if_neg fun e => peer_ne_self d j (bar_eq_iff.mp e).symm
  · rw [if_neg h]
    obtain ⟨j0, hj0⟩ := exists_peer_of_ne (c := d) (d := c) (Ne.symm h)
    have hterm : ∀ j : Fin 15, (if barCell c = barCell (peer d j) then 1 else 0 : ℕ) = if j0 = j then 1 else 0 := fun j => by
      by_cases e : j0 = j
      · rw [if_pos e, if_pos (by rw [← e, hj0])]
      · rw [if_neg e, if_neg fun h' => e (peer_injective d (hj0.trans (bar_eq_iff.mp h')))]
    rw [Finset.sum_congr rfl fun j _ => hterm j, Finset.sum_ite_eq, if_pos (Finset.mem_univ _)]
/-- what device `d` owes receive cell `j` of `c`: the row's credit if `d` is the device `j + 1` places before `c` -/
theorem owed_recv (d c : Dev nD) (j : Fin 15) : O₀ d (recvCell c j) () = if d = srcDev c j then N else 0 := by
  rw [O₀_apply, Orecv_apply, Obar_apply, Finset.sum_eq_zero (s := Finset.univ) (f := fun j' : Fin 15 => if recvCell c j = barCell (peer d j') then 1 else 0)
    (fun j' _ => if_neg (recv_ne_bar c (peer d j') j)), add_zero]
  have hterm : ∀ j' : Fin 15, (if recvCell c j = recvCell (peer d j') j' then N else 0 : ℕ) = if j = j' then (if d = srcDev c j then N else 0) else 0 := fun j' => by
    by_cases e : j = j'
    · subst e
      rw [if_pos rfl]
      by_cases hd : d = srcDev c j
      · rw [if_pos hd, if_pos (by rw [hd, peer_srcDev])]
      · rw [if_neg hd, if_neg fun h' => hd (peer_eq_iff.mp (recv_eq_iff.mp h').1.symm)]
    · rw [if_neg e, if_neg fun h' => e (recv_eq_iff.mp h').2]
  rw [Finset.sum_congr rfl fun j' _ => hterm j', Finset.sum_ite_eq, if_pos (Finset.mem_univ _)]
/-- nothing is owed to a send cell or a staging cell -/
theorem owed_other (d : Dev nD) (g : GSem nD τ sig) (hb : ∀ c, g ≠ barCell c) (hr : ∀ c j, g ≠ recvCell c j) : O₀ d g () = 0 := by
  rw [O₀_apply, Orecv_apply, Obar_apply, Finset.sum_eq_zero fun j _ => if_neg (hr _ _), Finset.sum_eq_zero fun j _ => if_neg (hb _), add_zero]

end Cert.KernelIdeal.Coll

end

/-- info: 'Cert.KernelIdeal.Coll.owed_recv' depends on axioms: [propext, Classical.choice, Quot.sound] -/
#guard_msgs in #print axioms Cert.KernelIdeal.Coll.owed_recv
-- ==== Proof.Mem.lean ====
import proofs.«901087_g7700000000001088_dist_sum_ax0_shard0_i_m4096_n1024_v7x_i16_bf16_1_alg».proof.Proof.Proto
import Idealize.ShloMosaic.Lib.Pipeline.Value

/-!
# The two scratch buffers, cut and rejoined

The receive buffer is the disjoint union of its fifteen row slots; the partial buffer's full share is sixteen pieces;
a row copied into slot `j` of a device's receive buffer leaves there what the finished receive buffer holds there.
Also: the printed slices of the semaphore arrays and of the receive buffer are the named cells and slots.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers' types -/

theorem slot_loc (c : Dev nD) (j : Fin 15) : (slotM j).view.loc (c : Thread nD τ) = (c : Thread nD τ).loc cc0_scratch1 := rfl
theorem part_loc (c : Dev nD) : (pM : Memref sig .tc .vmem S1x1024 .f32).view.loc (c : Thread nD τ) = (c : Thread nD τ).loc cc0_scratch0 := rfl

/-! ## Cutting and rejoining -/

/-- the elements of slot `j`: the unit rectangle of one row at row `j` -/
theorem slot_set (j : Fin 15) :
    (slotM j).view.set = (Rect.unit (s := S15x1x1024) ![j.val, 0, 0] S1x1x1024.size (slot_inb j)).set :=
  (View.set_reshape _ _).trans (View.set_slice_whole cc0_scratch1 _)

/-- an index of the receive buffer lies in slot `j` exactly when its first coordinate is `j` -/
theorem mem_slot_set (j : Fin 15) (i : S15x1x1024.Idx) : i ∈ (slotM j).view.set ↔ (i 0).val = j.val := by
  rw [slot_set, Rect.mem_set_unit]
  constructor
  · intro h
    have h0 := h 0
    change j.val ≤ (i 0).val ∧ (i 0).val < j.val + 1 at h0
    omega
  · intro h a
    fin_cases a
    · change j.val ≤ (i 0).val ∧ (i 0).val < j.val + 1; omega
    · have := (i 1).isLt; change (i 1).val < 1 at this
      change 0 ≤ (i 1).val ∧ (i 1).val < 0 + 1; omega
    · have := (i 2).isLt; change (i 2).val < 1024 at this
      change 0 ≤ (i 2).val ∧ (i 2).val < 0 + 1024; omega

/-- the whole receive buffer is its fifteen slots -/
theorem comm_split (c : Dev nD) (f : Buf (Elt F) ((c : Thread nD τ).loc cc0_scratch1)) :
    (((c : Thread nD τ).loc cc0_scratch1) ↦{fullShare} f : sProp 𝕄) = bigSep Finset.univ fun j : Fin 15 => slotPts c j f := by
  have hU : (Finset.univ : Finset (Idx ((c : Thread nD τ).loc cc0_scratch1))) = Finset.univ.biUnion fun j : Fin 15 => (slotM j).view.set := by
    ext i
    simp only [Finset.mem_univ, Finset.mem_biUnion, true_and, true_iff]
    exact ⟨⟨(i 0).val, (i 0).isLt⟩, (mem_slot_set _ i).mpr rfl⟩
  rw [hU]
  unfold slotPts
  exact pointsTo_biUnion Finset.univ _ fun j _ j' _ hne => Finset.disjoint_left.mpr fun i hi hi' =>
    hne (Fin.ext (((mem_slot_set j i).mp hi).symm.trans ((mem_slot_set j' i).mp hi')))

theorem partPts_full (c : Dev nD) (f : Buf (Elt F) ((c : Thread nD τ).loc cc0_scratch0)) :
    (partPts fullShare c f : sProp 𝕄) = (((c : Thread nD τ).loc cc0_scratch0) ↦{fullShare} f : sProp 𝕄) := by
  have h : (pM : Memref sig .tc .vmem S1x1024 .f32).view.set = Finset.univ := View.set_whole _
  unfold partPts
  rw [h]

/-- the partial buffer's full share is the fifteen lent pieces and the kept one -/
theorem part_split (c : Dev nD) (f : Buf (Elt F) ((c : Thread nD τ).loc cc0_scratch0)) :
    (partPts fullShare c f : sProp 𝕄) = iprop((bigSep Finset.univ fun j : Fin 15 => partPts (lentShare j) c f) ∗ partPts keptShare c f) := by
  unfold partPts
  -- sixteen pieces of the share; the last index split off, the first fifteen re-indexed along `castSucc`
  rw [pointsTo_pieces (Ix := Unit) (Name := ℕ) (U := UU) (Lvl := ℕ) _ f 15 fullShare, Fin.univ_castSuccEmb, Finset.cons_eq_insert,
    BI.bigSep_insert (show Fin.last 15 ∉ Finset.univ.map Fin.castSuccEmb from fun h => by
      obtain ⟨x, -, hx⟩ := Finset.mem_map.mp h; exact (Fin.castSucc_lt_last x).ne hx), BI.bigSep_map]
  exact BI.Entails.antisymm Idealize.SL.BI.sep_comm Idealize.SL.BI.sep_comm

/-- where the row vector's index `y` sits in the receive buffer through slot `k`: first coordinate `k`, last coordinate `y 1` -/
theorem slot_emb_val (k : Fin 15) (y : S1x1024.Idx) :
    (((slotM k).view.emb y : S15x1x1024.Idx) 0).val = k.val ∧ (((slotM k).view.emb y : S15x1x1024.Idx) 2).val = (y 1).val := by
  have hz : Shape.reshapeEquiv (squeezes_S1x1x1024_S1x1024.numel_eq) y = Fin.cons ⟨0, Nat.one_pos⟩ y := Shape.reshapeEquiv_cons_one _ y
  constructor
  · show k.val + 1 * ((Shape.reshapeEquiv (squeezes_S1x1x1024_S1x1024.numel_eq) y) 0).val = k.val
    rw [hz]
    show k.val + 1 * 0 = k.val
    omega
  · show 0 + 1 * ((Shape.reshapeEquiv (squeezes_S1x1x1024_S1x1024.numel_eq) y) 2).val = (y 1).val
    rw [hz]
    show 0 + 1 * (y 1).val = (y 1).val
    omega

/-- A row landed: slot `k` of device `n`'s receive buffer, overwritten with the partial of the device `k + 1` places
    before `n`, holds what the finished receive buffer holds there, whatever the buffer held. -/
theorem slot_landed (n : Dev nD) (k : Fin 15) (fd : Buf (Elt F) ((slotM k).view.loc (n : Thread nD τ))) :
    (slotPts n k ((slotM k).view.write (Elt F) fd ((pM : Memref sig .tc .vmem S1x1024 .f32).view.read (Elt F) (partF m (srcDev n k))) Finset.univ) : sProp 𝕄)
      ⊢ slotPts n k (commF m n) := by
  unfold slotPts
  refine Idealize.SL.BI.BIBase.Entails.of_eq (pointsTo_congr fun i hi => ?_)
  obtain ⟨y, rfl⟩ := View.exists_emb_of_mem_set _ hi
  rw [View.write_emb_of_mem _ _ (Finset.mem_univ y)]
  obtain ⟨h0, h2⟩ := slot_emb_val k y
  have hk : ((slotM k).view.emb y : S15x1x1024.Idx) 0 = k := Fin.ext h0
  -- the row read through the whole partial buffer is the partial itself; the finished buffer at this index is the
  -- partial of the device its first coordinate names, at the index `(0, last coordinate)`
  show Val.part (xarr m (srcDev n k)) y
    = Val.part (xarr m (srcDev n (((slotM k).view.emb y : S15x1x1024.Idx) 0))) _
  rw [hk]
  congr 1
  funext a
  fin_cases a
  · exact Fin.ext (by have := (y 0).isLt; change (y 0).val < 1 at this; show (y 0).val = 0; omega)
  · exact Fin.ext h2.symm

/-! ## Credits -/

theorem slot_amount (j : Fin 15) (sm : DmaSem sig) : (slotM j).view.amount (SemLoc.dma sm) = N := rfl
theorem slot_credit (j : Fin 15) : (slotM j).view.dmaCredit = N := rfl

end Cert.KernelIdeal.Coll

end

/-- info: 'Cert.KernelIdeal.Coll.comm_split' depends on axioms: [propext, Classical.choice, Quot.sound] -/
#guard_msgs in #print axioms Cert.KernelIdeal.Coll.comm_split

/-- info: 'Cert.KernelIdeal.Coll.part_split' depends on axioms: [propext, Classical.choice, Quot.sound] -/
#guard_msgs in #print axioms Cert.KernelIdeal.Coll.part_split

/-- info: 'Cert.KernelIdeal.Coll.slot_landed' depends on axioms: [propext, Classical.choice, Quot.sound] -/
#guard_msgs in #print axioms Cert.KernelIdeal.Coll.slot_landed
-- ==== Proof.Blk.lean ====
import proofs.«901087_g7700000000001088_dist_sum_ax0_shard0_i_m4096_n1024_v7x_i16_bf16_1_alg».proof.Proof.Proto

/-!
# The input window's blocks are the row blocks of the device's array

At grid point `t` the argument window reads the block of index `(t, 0)` with sizes `1024 × 1024`: rows
`1024 t … 1024 t + 1023` and every column of the device's `[4096, 1024]` array.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument window's block index at grid point `t`: row block `t`, column block `0`. -/
theorem index_arg : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The argument window's block at grid point `t = k` is rows `1024 k … 1024 k + 1023` of the device's array. -/
theorem iblk_eq_blk (c : Dev nD) (t : Fin cfg0.N) (k : Fin 4) (hk : t.val = k.val) :
    (iblk m c 0 t : Vec F S1024x1024 .f32) = Val.blk (xarr m c) k := by
  funext i
  unfold iblk Val.blk
  rw [View.read_apply]
  -- both sides read the device's array: the two indices agree on each axis, a block's coordinate being
  -- (block index) × (block size) + (coordinate inside the block)
  show m ((c : Thread nD τ).loc main_arg0) _ = m ((c : Thread nD τ).loc main_arg0) _
  congr 1
  funext a
  apply Fin.ext
  match a with
  | ⟨0, _⟩ =>
    show win0_0.index t 0 * 1024 + 1 * (i 0).val = 1024 * k.val + (i 0).val
    rw [(index_arg t).1, hk]; omega
  | ⟨1, _⟩ =>
    show win0_0.index t 1 * 1024 + 1 * (i 1).val = (i 1).val
    rw [(index_arg t).2]; omega

end Cert.KernelIdeal.Coll

end
-- ==== Proof.Steps3.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs

/-!
# The steps of grid point 3, each stated once for a copy number `k`

Before copy `k` is issued the device holds, for every copy not yet issued, the piece of its partial lent to it, the
target's slot, and the two duty tokens the copy pays; an issued copy has left the credit of its send cell. A receive
wait turns the credit and position on receive cell `k` into slot `k` landed; a send wait turns the credit and position
on send cell `k` into the lent piece back.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

variable (K : Dev nD × CIx → ℕ)

theorem inv_at (ck : Dev nD × CIx) : records (F := F) m K ⊢ cellInv ER (sched m) (K ck) (kcell ck) := by
  unfold records
  iintro ⟨HI, -⟩
  iapply (show (bigSep Finset.univ fun ck : Dev nD × CIx => (cellInv ER (sched m) (K ck) (kcell ck) : sProp 𝕄)) ⊢ cellInv ER (sched m) (K ck) (kcell ck) from bigSep_elim (Finset.mem_univ ck))
  iexact HI
theorem reached_at (ck : Dev nD × CIx) : records (F := F) m K ⊢ reached ER (kcell ck) 0 := by
  unfold records
  iintro ⟨-, HR⟩
  iapply (show (bigSep Finset.univ fun ck : Dev nD × CIx => (reached ER (kcell ck) 0 : sProp 𝕄)) ⊢ reached ER (kcell ck) 0 from bigSep_elim (Finset.mem_univ ck))
  iexact HR

/-- what copy `j` needs: the piece of the partial lent to it, the target's slot, its two duty tokens -/
def sendItem (c : Dev nD) (j : Fin 15) : sProp 𝕄 :=
  iprop(partPts (lentShare j) c (partF m c) ∗ (∃ f, slotPts (peer c j) j f)
    ∗ dutyTok ER (sendCell c j) 0 (0 : Fin 15) ∗ dutyTok ER (recvCell (peer c j) j) 0 (0 : Fin 15))
/-- the copies from `n` on still to issue, the earlier ones' send credits in hand -/
def sendInv (c : Dev nD) (n : ℕ) : sProp 𝕄 :=
  bigSep Finset.univ fun j : Fin 15 => if n ≤ j.val then sendItem m c j else cred (tallyAt (sendCell c j) () N)

theorem bigSep_step {Φ Ψ : Fin 15 → sProp 𝕄} (k : Fin 15) (n : ℕ) (hn : n = k.val) :
    (bigSep Finset.univ fun j : Fin 15 => if n ≤ j.val then Φ j else Ψ j)
      = iprop(Φ k ∗ bigSep (Finset.univ.erase k) fun j : Fin 15 => if n + 1 ≤ j.val then Φ j else Ψ j) := by
  subst hn
  rw [← Finset.insert_erase (Finset.mem_univ k), BI.bigSep_insert (Finset.notMem_erase k _), if_pos (le_refl _), Finset.insert_erase (Finset.mem_univ k)]
  congr 1
  refine bigSep_congr fun j hj => ?_
  have hne : j ≠ k := (Finset.mem_erase.mp hj).1
  have : (k.val ≤ j.val) ↔ (k.val + 1 ≤ j.val) := ⟨fun h => Nat.lt_of_le_of_ne h (fun e => hne (Fin.ext e.symm)), fun h => Nat.le_of_succ_le h⟩
  by_cases h : k.val ≤ j.val
  · rw [if_pos h, if_pos (this.mp h)]
  · rw [if_neg h, if_neg (fun h' => h (this.mpr h'))]

theorem bigSep_step' {Φ Ψ : Fin 15 → sProp 𝕄} (k : Fin 15) :
    (bigSep Finset.univ fun j : Fin 15 => if k.val + 1 ≤ j.val then Φ j else Ψ j)
      = iprop(Ψ k ∗ bigSep (Finset.univ.erase k) fun j : Fin 15 => if k.val + 1 ≤ j.val then Φ j else Ψ j) := by
  rw [← Finset.insert_erase (Finset.mem_univ k), BI.bigSep_insert (Finset.notMem_erase k _), if_neg (Nat.not_succ_le_self _), Finset.insert_erase (Finset.mem_univ k)]
  rfl

set_option maxHeartbeats 1600000 in
/-- COPY `k`: the row copy of the partial into slot `k` of the device `k + 1` places on. -/
theorem send_step (c : Dev nD) (k : Fin 15) (n : Dev nD) (hn : n = peer c k)
    {hsc : (slotM k : Memref sig (Dev.tc n : Thread nD τ).2.kind .vmem S1x1024 .f32).view.ref.isScScratch = false}
    {hsrc : (pM : Memref sig .tc .vmem S1x1024 .f32).view.WordExact} {hdst : (slotM k : Memref sig .tc .vmem S1x1024 .f32).view.WordExact}
    {hsem : DmaTarget.Typed .vmem (.dma (recvSem k)) (.remote (Dev.tc n : Thread nD τ) (slotM k : Memref sig .tc .vmem S1x1024 .f32) (.dma (sendSem k)) hsc)}
    {α : Type} {Q : α → sProp 𝕄} {cont : PUnit → Prog (TpuEff nD τ sig (Elt F) Λ₀ .tc) α} (W : Waits sig Unit) :
    iprop(records m K ∗ sendInv m c k.val ∗ owes (c : Thread nD τ) (OrecvFrom c k.val) W)
      ⊢ iprop(((sendInv m c (k.val + 1) ∗ owes (c : Thread nD τ) (OrecvFrom c (k.val + 1)) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma pM (.remote (Dev.tc n : Thread nD τ) (slotM k) (.dma (sendSem k)) hsc) (.dma (recvSem k)) hsrc hdst hsem) cont) Q) := by
  subst hn
  unfold sendInv
  rw [bigSep_step k k.val rfl, bigSep_step' k]
  unfold sendItem
  iintro ⟨#HR, ⟨⟨Hp, ⟨%fn, Hs⟩, Hts, Htr⟩, Hrest⟩, HO⟩ Hk
  ihave HIs := (inv_at m K (c, .send k)) $$ HR
  ihave HIr := (inv_at m K (peer c k, .recv k)) $$ HR
  ihave Hrs := (reached_at m K (c, .send k)) $$ HR
  ihave Hrr := (reached_at m K (peer c k, .recv k)) $$ HR
  unfold partPts slotPts
  iapply (Rounds.wp_send_pointsTo 𝒱₀ ER (sched m) (c : Thread nD τ) none (κ₁ := K (c, .send k)) (κ₂ := K (peer c k, .recv k))
    (r₁ := 0) (r₂ := 0) (d₁ := (0 : Fin 15)) (d₂ := (0 : Fin 15)) (fd := fn) (q := lentShare k)
    (by rw [duties_send]; exact Finset.mem_singleton_self _) (by rw [duties_recv]; exact Finset.mem_singleton_self _)
    () () N (slot_amount k (recvSem k)) (amount_send m c k 0) (amount_recv m (peer c k) k 0) (OrecvFrom c (k.val + 1)) (OrecvFrom_succ c k) (W := W)
    (by rw [payload_send]; unfold sendPay partPts; exact BI.Entails.refl _)
    (by rw [payload_recv]; unfold recvPay
        have h := slot_landed m (peer c k) k fn
        rw [srcDev_peer] at h
        unfold slotPts at h; exact h)
    (routes_peer c k)) $$ [HIs HIr Hp Hs HO Hts Htr Hrs Hrr]
  · isplitl [HIs]; · iexact HIs
    isplitl [HIr]; · iexact HIr
    isplitl [Hp]; · iexact Hp
    isplitl [Hs]; · iexact Hs
    isplitl [HO]; · iexact HO
    isplitl [Hts]; · iexact Hts
    isplitl [Hrs]; · iexact Hrs
    isplitl [Htr]; · iexact Htr
    iexact Hrr
  iintro ⟨Hc, HO⟩
  iapply Hk
  isplitr [HO]
  · isplitl [Hc]; · iexact Hc
    iexact Hrest
  · iexact HO

/-! ## The waits' states -/

/-- receive cell `j`: before its wait the credit and the position at round 0; after it slot `j` landed and the position at round 1 -/
def recvInv (c : Dev nD) (n : ℕ) : sProp 𝕄 :=
  bigSep Finset.univ fun j : Fin 15 => if n ≤ j.val then iprop(cred (tallyAt (recvCell c j) () N) ∗ atPos ER (recvCell c j) 0 ∅ 0)
    else iprop(slotPts c j (commF m c) ∗ atPos ER (recvCell c j) 1 ∅ 0)
/-- send cell `j`: before its wait the credit and the position at round 0; after it the lent piece back and the position at round 1 -/
def sendwInv (c : Dev nD) (n : ℕ) : sProp 𝕄 :=
  bigSep Finset.univ fun j : Fin 15 => if n ≤ j.val then iprop(cred (tallyAt (sendCell c j) () N) ∗ atPos ER (sendCell c j) 0 ∅ 0)
    else iprop(partPts (lentShare j) c (partF m c) ∗ atPos ER (sendCell c j) 1 ∅ 0)

end Cert.KernelIdeal.Coll

end
-- ==== Proof.Body0.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Blk
import proofs.«901087_g7700000000001088_dist_sum_ax0_shard0_i_m4096_n1024_v7x_i16_bf16_1_alg».proof.Proof.Steps3

/-!
# The body at grid point 0

The device loads its first block, stores the block's column sums as its partial, reads its own index, and tells each
of the fifteen other devices, over that device's barrier semaphore, that it has entered. The signal to the device
`k + 1` places on pays duty `rev k` of that device's barrier cell — the duty of the device `rev k + 1` places after it,
which is this one — and hands over slot `rev k` of this device's receive buffer, the slot that device will write, with
the fact that this device's receive cell `rev k` is at round 0.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 8000000

variable (K : Dev nD × CIx → ℕ)

/-! ## Reading and writing whole buffers -/

theorem p0_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- The argument window is fetched at every point: its staging buffer holds the point's block. -/
theorem p0_before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl
/-- The result window is written back at the last point only. -/
theorem p0_flush1_false (t : Fin cfg0.N) (h : t.val % 4 ≠ 3) : (cfg0.win 1).flush t = false := by
  cases hh : (cfg0.win 1).flush t
  · rfl
  · exact absurd ((flush0_1 t).mp hh) h
theorem p0_zero2 : (![0, 0] : Fin 2 → ℕ) = fun _ => 0 := by funext a; fin_cases a <;> rfl
theorem p0_readAt_part (f : (cc0_scratch0 : Ref sig .tc).ty.Contents (Elt F)) :
    (Memref.whole cc0_scratch0 : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 p0_zero2 _ f
theorem p0_write_part (f w : (cc0_scratch0 : Ref sig .tc).ty.Contents (Elt F)) :
    ((Memref.whole cc0_scratch0 : Memref sig .tc .vmem S1x1024 .f32).access
      (Rect.unit (s := S1x1024) ![0, 0] S1x1024.size inb_S1x1024_S1x1024_0_0)).write (Elt F) f w Finset.univ = w :=
  Memref.write_access_unit_zero_univ (Elt F) cc0_scratch0 p0_zero2 _ f w
theorem p0_readAt_stg0 (f : (cc0_stg0_0 : Ref sig .tc).ty.Contents (Elt F)) :
    (Memref.whole cc0_stg0_0 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg0_0 p0_zero2 _ f

/-! ## The conditions at grid point 0 -/

theorem p0_c1 : Scalar.cmpi .ne (Scalar.extui (Scalar.cmpi .eq (BitVec.ofNat 32 (grid0.coords t0_0 0).val) 0#32)) 0#32 = 1#1 := by decide
theorem p0_c2 : ¬ (Scalar.cmpi .ne (Scalar.extui (Scalar.cmpi .sgt (BitVec.ofNat 32 (grid0.coords t0_0 0).val) 0#32)) 0#32 = 1#1) := by decide
theorem p0_c3 : k0_cond3 (grid0.coords t0_0) = 1#1 := by decide
theorem p0_c4 : ¬ (Scalar.cmpi .ne (Scalar.extui (Scalar.cmpi .eq (BitVec.ofNat 32 (grid0.coords t0_0 0).val) 2#32)) 0#32 = 1#1) := by decide
theorem p0_c5 : ¬ (k0_cond5 (grid0.coords t0_0) = 1#1) := by decide

/-! ## The entry signals -/

/-- the entry signals from `n` on still to send: for each, the duty's token and the slot it hands over -/
def sigInv (c : Dev nD) (n : ℕ) : sProp 𝕄 :=
  bigSep Finset.univ fun j : Fin 15 => if n ≤ j.val then iprop(dutyTok ER (barCell (peer c j)) 0 (rev j) ∗ ∃ f, slotPts c (rev j) f) else iprop(emp)

/-- SIGNAL `k`: one unit on the barrier semaphore of the device `k + 1` places on. -/
theorem sig_step (c : Dev nD) (k : Fin 15) (n : Dev nD) (hn : n = peer c k) (a : ℕ) (ha : a = 1)
    {α : Type} {Q : α → sProp 𝕄} {cont : PUnit → Prog (TpuEff nD τ sig (Elt F) Λ₀ .tc) α} (W : Waits sig Unit) :
    iprop(records m K ∗ sigInv c k.val ∗ owes (c : Thread nD τ) (Orecv c + ObarFrom c k.val) W)
      ⊢ iprop(((sigInv (F := F) c (k.val + 1) ∗ owes (c : Thread nD τ) (Orecv c + ObarFrom c (k.val + 1)) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS a) cont) Q) := by
  subst hn ha
  unfold sigInv
  rw [bigSep_step k k.val rfl, bigSep_step' k]
  iintro ⟨#HR, ⟨⟨Htok, ⟨%f, Hs⟩⟩, Hrest⟩, HO⟩ Hk
  ihave HI := (inv_at m K (peer c k, .bar)) $$ HR
  ihave Hrb := (reached_at m K (peer c k, .bar)) $$ HR
  ihave Hrr := (reached_at m K (c, .recv (rev k))) $$ HR
  have hO : Orecv c + ObarFrom c k.val = (Orecv c + ObarFrom c (k.val + 1)) + tallyAt (barCell (peer c k)) () 1 := by
    rw [ObarFrom_succ c k, add_assoc]
  iapply (Rounds.wp_signal 𝒱₀ ER (sched m) (c : Thread nD τ) none (dst := (peer c k : Thread nD τ)) (sem := barS) (r := 0) (d := rev k)
      (κ := K (peer c k, .bar)) (by rw [duties_bar]; exact Finset.mem_univ _) (amount_bar m (peer c k) (rev k)) ()
      (Orecv c + ObarFrom c (k.val + 1)) hO (W := W) (routes_peer c k)) $$ [HI HO Htok Hs Hrr Hrb]
  · isplitl [HI]; · iexact HI
    isplitl [HO]; · iexact HO
    isplitl [Htok]; · iexact Htok
    isplitr [Hrb]
    · rw [payload_bar]; unfold barPay; rw [peer_peer_rev]
      isplitl [Hs]
      · iexists f; iexact Hs
      · iexact Hrr
    · iexact Hrb
  iintro HO
  iapply Hk
  isplitr [HO]
  · isplitr [Hrest]
    · iempintro
    · iexact Hrest
  · iexact HO

/-! ## The bundle of signals, made and spent -/

/-- `rev` as a permutation of the fifteen offsets -/
def p0_revEquiv : Fin 15 ≃ Fin 15 := ⟨rev, rev, rev_rev, rev_rev⟩

/-- The fifteen tokens of the entry signals and the whole receive buffer, cut into its slots and paired offset by offset. -/
theorem p0_mk_sigInv (c : Dev nD) (g : Buf (Elt F) ((c : Thread nD τ).loc cc0_scratch1)) :
    iprop(barToks c ∗ (((c : Thread nD τ).loc cc0_scratch1) ↦{fullShare} g)) ⊢ (sigInv c 0 : sProp 𝕄) := by
  unfold barToks sigInv
  rw [comm_split c g, bigSep_univ_equiv p0_revEquiv (fun j => slotPts c j g), ← bigSep_sep']
  have one : ∀ j : Fin 15, iprop(dutyTok ER (barCell (peer c j)) 0 (rev j) ∗ slotPts c (p0_revEquiv j) g)
      ⊢ (if 0 ≤ j.val then iprop(dutyTok ER (barCell (peer c j)) 0 (rev j) ∗ ∃ f, slotPts c (rev j) f) else iprop(emp) : sProp 𝕄) := fun j => by
    rw [if_pos (Nat.zero_le _)]
    iintro ⟨Ht, Hs⟩
    isplitl [Ht]; · iexact Ht
    iexists g; iexact Hs
  exact bigSep_mono fun j _ => one j

/-! ## The body -/

/-- The body at grid point 0 takes the launch state of device `c` to the state before point 1. -/
theorem body_pt0 (c : Dev nD) : BodyAt (F := F) m ρ c t0_0 := by
  unfold BodyAt
  rw [bigSep_W0, bigSep_W0]
  have hidle : cfg0.idle 1 (cfg0.grid.coords t0_0) = true := by decide
  have hfl : (cfg0.win 1).flush t0_0 = false := p0_flush1_false t0_0 (by decide)
  simp only [hidle, hfl]
  show iprop(Φ₀ m c ∗ (dats m ρ 0 c).owesAt () t0_0.castSucc
        ∗ (∃ d, owns c.tc (Memref.whole cc0_stg0_0) fullShare ((dats m ρ 0 c).before 0 t0_0 d))
        ∗ ∃ d, owns c.tc (Memref.whole cc0_stg1_0) fullShare ((dats m ρ 0 c).before 1 t0_0 d))
      ⊢ wp frame (wpE (defs₀ (F := F)) 𝒱₀ (c : Thread nD τ) none) Set.univ
          (cc0_body (grid0.coords t0_0) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φmid m c 1 ∗ (dats m ρ 0 c).owesAt () t0_0.succ
            ∗ owns c.tc (Memref.whole cc0_stg0_0) fullShare (iblk m c 0 t0_0)
            ∗ ∃ d, owns c.tc (Memref.whole cc0_stg1_0) fullShare ((dats m ρ 0 c).before 1 t0_0 d))
  simp only [p0_owns_whole_eq, p0_before0]
  unfold Φ₀
  rw [cc0_body_eq_skeleton]; unfold cc0_body_skel
  simp only [dif_pos p0_c1, dif_neg p0_c2, dif_pos p0_c3, dif_neg p0_c4, dif_neg p0_c5]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, Prog.lift, Prog.bind_op, Prog.bind_ret, Prog.pure_eq_ret]
  iintro ⟨⟨⟨%K, #HR⟩, HpB, HpX, Hbt, Hct, Hcr, Hrc, #Hlev, ⟨%fp, Hp⟩, ⟨%g, Hcomm⟩⟩, Ho, ⟨%d0, %f0, %hf0, Hx⟩, Hout⟩
  subst hf0
  unfold Dat.owesAt Pipeline.owesWithin
  icases Ho with ⟨%W, %hW, HO⟩
  rw [show (dats (F := F) m ρ 0 c).owed t0_0.castSucc = O₀ c from rfl]
  ihave Hp := (Entails.of_eq (partPts_full c _)) $$ Hp
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hp; iintro Hp
  iapply (wp_store 𝒱₀ (c : Thread nD τ) none Set.univ (m := Memref.whole cc0_scratch0) (r := Rect.unit (s := S1x1024) ![0, 0] S1x1024.size inb_S1x1024_S1x1024_0_0) (Mk := Finset.univ) (Finset.subset_univ _)) $$ Hp; iintro Hp
  erw [p0_write_part, p0_readAt_stg0]
  rw [iblk_eq_blk m c t0_0 0 rfl, wp_deviceId]
  -- the fifteen tokens and the receive buffer's fifteen slots, paired
  ihave HS := (p0_mk_sigInv c g) $$ [Hbt Hcomm]
  · isplitl [Hbt]; · iexact Hbt
    iexact Hcomm
  unfold O₀
  rw [Obar_eq]
  -- the fifteen entry signals
  iapply (sig_step m K c 0 _ (sig_dev_eq_0 _ c p0_c3) _ rfl W) $$ [HS HO]
  · isplitr; · iexact HR
    isplitl [HS]; · iexact HS
    iexact HO
  iintro ⟨HS, HO⟩
  iapply (sig_step m K c 1 _ (sig_dev_eq_1 _ c p0_c3) _ rfl W) $$ [HS HO]
  · isplitr; · iexact HR
    isplitl [HS]; · iexact HS
    iexact HO
  iintro ⟨HS, HO⟩
  iapply (sig_step m K c 2 _ (sig_dev_eq_2 _ c p0_c3) _ rfl W) $$ [HS HO]
  · isplitr; · iexact HR
    isplitl [HS]; · iexact HS
    iexact HO
  iintro ⟨HS, HO⟩
  iapply (sig_step m K c 3 _ (sig_dev_eq_3 _ c p0_c3) _ rfl W) $$ [HS HO]
  · isplitr; · iexact HR
    isplitl [HS]; · iexact HS
    iexact HO
  iintro ⟨HS, HO⟩
  iapply (sig_step m K c 4 _ (sig_dev_eq_4 _ c p0_c3) _ rfl W) $$ [HS HO]
  · isplitr; · iexact HR
    isplitl [HS]; · iexact HS
    iexact HO
  iintro ⟨HS, HO⟩
  iapply (sig_step m K c 5 _ (sig_dev_eq_5 _ c p0_c3) _ rfl W) $$ [HS HO]
  · isplitr; · iexact HR
    isplitl [HS]; · iexact HS
    iexact HO
  iintro ⟨HS, HO⟩
  iapply (sig_step m K c 6 _ (sig_dev_eq_6 _ c p0_c3) _ rfl W) $$ [HS HO]
  · isplitr; · iexact HR
    isplitl [HS]; · iexact HS
    iexact HO
  iintro ⟨HS, HO⟩
  iapply (sig_step m K c 7 _ (sig_dev_eq_7 _ c p0_c3) _ rfl W) $$ [HS HO]
  · isplitr; · iexact HR
    isplitl [HS]; · iexact HS
    iexact HO
  iintro ⟨HS, HO⟩
  iapply (sig_step m K c 8 _ (sig_dev_eq_8 _ c p0_c3) _ rfl W) $$ [HS HO]
  · isplitr; · iexact HR
    isplitl [HS]; · iexact HS
    iexact HO
  iintro ⟨HS, HO⟩
  iapply (sig_step m K c 9 _ (sig_dev_eq_9 _ c p0_c3) _ rfl W) $$ [HS HO]
  · isplitr; · iexact HR
    isplitl [HS]; · iexact HS
    iexact HO
  iintro ⟨HS, HO⟩
  iapply (sig_step m K c 10 _ (sig_dev_eq_10 _ c p0_c3) _ rfl W) $$ [HS HO]
  · isplitr; · iexact HR
    isplitl [HS]; · iexact HS
    iexact HO
  iintro ⟨HS, HO⟩
  iapply (sig_step m K c 11 _ (sig_dev_eq_11 _ c p0_c3) _ rfl W) $$ [HS HO]
  · isplitr; · iexact HR
    isplitl [HS]; · iexact HS
    iexact HO
  iintro ⟨HS, HO⟩
  iapply (sig_step m K c 12 _ (sig_dev_eq_12 _ c p0_c3) _ rfl W) $$ [HS HO]
  · isplitr; · iexact HR
    isplitl [HS]; · iexact HS
    iexact HO
  iintro ⟨HS, HO⟩
  iapply (sig_step m K c 13 _ (sig_dev_eq_13 _ c p0_c3) _ rfl W) $$ [HS HO]
  · isplitr; · iexact HR
    isplitl [HS]; · iexact HS
    iexact HO
  iintro ⟨HS, HO⟩
  iapply (sig_step m K c 14 _ (sig_dev_eq_14 _ c p0_c3) _ rfl W) $$ [HS HO]
  · isplitr; · iexact HR
    isplitl [HS]; · iexact HS
    iexact HO
  iintro ⟨HS, HO⟩
  rw [show (14 : Fin 15).val + 1 = 15 from rfl, ObarFrom_end, add_zero]
  iclear HS
  rw [wp_ret]; imodintro
  unfold Φmid
  isplitl [HpB HpX Hct Hcr Hrc Hp]
  · isplitr; · iexists K; iexact HR
    isplitl [HpB]; · iexact HpB
    isplitl [HpX]; · iexact HpX
    isplitl [Hct]; · iexact Hct
    isplitl [Hcr]; · iexact Hcr
    isplitl [Hrc]; · iexact Hrc
    isplitr; · iexact Hlev
    rw [partPts_full]; iexact Hp
  isplitl [HO]
  · iexists W
    isplitr; · ipureintro; exact fun _ _ => Or.inl trivial
    iexact HO
  isplitl [Hx]
  · iexists _; isplitr; · (ipureintro; rfl)
    iexact Hx
  iexact Hout

end Cert.KernelIdeal.Coll

end

/-- info: 'Cert.KernelIdeal.Coll.body_pt0' depends on axioms: [propext, Classical.choice, Quot.sound] -/
#guard_msgs in #print axioms Cert.KernelIdeal.Coll.body_pt0
-- ==== Proof.Body012.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Blk

/-!
# The body at grid points 1 and 2

At both points the device adds the column sums of the point's row block to its partial: the block is loaded whole
from the argument window's staging buffer, the partial is loaded, and their sum is stored over it. At point 2 it then
waits for the fifteen units of its barrier cell, one from each other device, and receives with them the slot of each
other device's receive buffer that it will write at point 3.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Mid

/-- The argument window is fetched at every point: its staging buffer holds the point's block. -/
theorem before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl

/-- The result window is written back at the last point only. -/
theorem flush1_false (t : Fin cfg0.N) (h : t.val % 4 ≠ 3) : (cfg0.win 1).flush t = false := by
  cases hh : (cfg0.win 1).flush t
  · rfl
  · exact absurd ((flush0_1 t).mp hh) h

theorem zero2 : (![0, 0] : Fin 2 → ℕ) = fun _ => 0 := by funext a; fin_cases a <;> rfl

/-! ## Loads and stores of whole buffers, as the body spells them

The body reads and writes its buffers through the zero-offset rectangle of their own sizes: what is read is the
buffer's contents, what is left is what was stored. -/

/-- a load of the whole partial buffer -/
theorem wp_load_part (c : Dev nD) {q : PosShare TreeShare} {f : (cc0_scratch0 : Ref sig .tc).ty.Contents (Elt F)}
    {hl : (Memref.whole cc0_scratch0 : Memref sig .tc .vmem S1x1024 .f32).view.LoadsAt (Rect.unit (s := S1x1024) ![0, 0] S1x1024.size inb_S1x1024_S1x1024_0_0).toLoadRect}
    {k : Vec F S1x1024 .f32 → Prog (TpuEff nD τ sig (Elt F) Λ₀ .tc) PUnit} {Q : PUnit → sProp 𝕄} :
    ((((c : Thread nD τ).loc cc0_scratch0) ↦{q} f : sProp 𝕄))
      ⊢ iprop(((((c : Thread nD τ).loc cc0_scratch0) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_scratch0 : Memref sig .tc .vmem S1x1024 .f32) (Rect.unit (s := S1x1024) ![0, 0] S1x1024.size inb_S1x1024_S1x1024_0_0).toLoadRect hl) k) Q) := by
  have h := wp_load (defs := defs₀ (F := F)) 𝒱₀ (c : Thread nD τ) none (Γ := .empty) Set.univ (Q := Q)
    (m := (Memref.whole cc0_scratch0 : Memref sig .tc .vmem S1x1024 .f32))
    (r := (Rect.unit (s := S1x1024) ![0, 0] S1x1024.size inb_S1x1024_S1x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_scratch0 zero2 _ f)
  subst hgf
  exact h

/-- a load of a whole staging buffer of the argument window -/
theorem wp_load_stg0 (c : Dev nD) {q : PosShare TreeShare} {f : (cc0_stg0_0 : Ref sig .tc).ty.Contents (Elt F)}
    {hl : (Memref.whole cc0_stg0_0 : Memref sig .tc .vmem S1024x1024 .f32).view.LoadsAt (Rect.unit (s := S1024x1024) ![0, 0] S1024x1024.size inb_S1024x1024_S1024x1024_0_0).toLoadRect}
    {k : Vec F S1024x1024 .f32 → Prog (TpuEff nD τ sig (Elt F) Λ₀ .tc) PUnit} {Q : PUnit → sProp 𝕄} :
    ((((c : Thread nD τ).loc cc0_stg0_0) ↦{q} f : sProp 𝕄))
      ⊢ iprop(((((c : Thread nD τ).loc cc0_stg0_0) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_0 : Memref sig .tc .vmem S1024x1024 .f32) (Rect.unit (s := S1024x1024) ![0, 0] S1024x1024.size inb_S1024x1024_S1024x1024_0_0).toLoadRect hl) k) Q) := by
  have h := wp_load (defs := defs₀ (F := F)) 𝒱₀ (c : Thread nD τ) none (Γ := .empty) Set.univ (Q := Q)
    (m := (Memref.whole cc0_stg0_0 : Memref sig .tc .vmem S1024x1024 .f32))
    (r := (Rect.unit (s := S1024x1024) ![0, 0] S1024x1024.size inb_S1024x1024_S1024x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_stg0_0 zero2 _ f)
  subst hgf
  exact h

theorem wp_load_stg1 (c : Dev nD) {q : PosShare TreeShare} {f : (cc0_stg0_1 : Ref sig .tc).ty.Contents (Elt F)}
    {hl : (Memref.whole cc0_stg0_1 : Memref sig .tc .vmem S1024x1024 .f32).view.LoadsAt (Rect.unit (s := S1024x1024) ![0, 0] S1024x1024.size inb_S1024x1024_S1024x1024_0_0).toLoadRect}
    {k : Vec F S1024x1024 .f32 → Prog (TpuEff nD τ sig (Elt F) Λ₀ .tc) PUnit} {Q : PUnit → sProp 𝕄} :
    ((((c : Thread nD τ).loc cc0_stg0_1) ↦{q} f : sProp 𝕄))
      ⊢ iprop(((((c : Thread nD τ).loc cc0_stg0_1) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_1 : Memref sig .tc .vmem S1024x1024 .f32) (Rect.unit (s := S1024x1024) ![0, 0] S1024x1024.size inb_S1024x1024_S1024x1024_0_0).toLoadRect hl) k) Q) := by
  have h := wp_load (defs := defs₀ (F := F)) 𝒱₀ (c : Thread nD τ) none (Γ := .empty) Set.univ (Q := Q)
    (m := (Memref.whole cc0_stg0_1 : Memref sig .tc .vmem S1024x1024 .f32))
    (r := (Rect.unit (s := S1024x1024) ![0, 0] S1024x1024.size inb_S1024x1024_S1024x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_stg0_1 zero2 _ f)
  subst hgf
  exact h

/-- a store over the whole partial buffer -/
theorem wp_store_part (c : Dev nD) {f w : (cc0_scratch0 : Ref sig .tc).ty.Contents (Elt F)}
    {hx : ((Memref.whole cc0_scratch0 : Memref sig .tc .vmem S1x1024 .f32).access (Rect.unit (s := S1x1024) ![0, 0] S1x1024.size inb_S1x1024_S1x1024_0_0)).Stores Finset.univ}
    {hm : (Finset.univ : Finset (Rect.unit (s := S1x1024) ![0, 0] S1x1024.size inb_S1x1024_S1x1024_0_0).shape.Idx) = Finset.univ ∨ ∀ a, (Rect.unit (s := S1x1024) ![0, 0] S1x1024.size inb_S1x1024_S1x1024_0_0).stride a = 1}
    {k : PUnit → Prog (TpuEff nD τ sig (Elt F) Λ₀ .tc) PUnit} {Q : PUnit → sProp 𝕄} :
    ((((c : Thread nD τ).loc cc0_scratch0) ↦{fullShare} f : sProp 𝕄))
      ⊢ iprop(((((c : Thread nD τ).loc cc0_scratch0) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch0 : Memref sig .tc .vmem S1x1024 .f32) (Rect.unit (s := S1x1024) ![0, 0] S1x1024.size inb_S1x1024_S1x1024_0_0) w Finset.univ hx hm) k) Q) := by
  have h := wp_store (defs := defs₀ (F := F)) 𝒱₀ (c : Thread nD τ) none (Γ := .empty) Set.univ (Q := Q)
    (m := (Memref.whole cc0_scratch0 : Memref sig .tc .vmem S1x1024 .f32))
    (r := Rect.unit (s := S1x1024) ![0, 0] S1x1024.size inb_S1x1024_S1x1024_0_0) (w := w) (Mk := Finset.univ) (hx := hx) (hm := hm) (k := k) (f := f)
    (S := Finset.univ) (Finset.subset_univ _)
  generalize hg : View.write (Elt F) _ _ _ _ = g at h
  have hgf : g = w := hg.symm.trans (Memref.write_access_unit_zero_univ (Elt F) cc0_scratch0 zero2 _ f w)
  subst hgf
  exact h

/-! ## What the records hold -/

theorem records_inv (K : Dev nD × CIx → ℕ) (ck : Dev nD × CIx) :
    records (F := F) m K ⊢ cellInv ER (sched m) (K ck) (kcell ck) := by
  unfold records
  rw [bigSep_univ_at (fun ck : Dev nD × CIx => cellInv ER (sched (F := F) m) (K ck) (kcell ck)) ck]
  iintro ⟨⟨H, -⟩, -⟩
  iexact H

theorem records_reached (K : Dev nD × CIx → ℕ) (ck : Dev nD × CIx) :
    records (F := F) m K ⊢ reached ER (kcell ck) 0 := by
  unfold records
  rw [bigSep_univ_at (fun ck : Dev nD × CIx => reached (ER (F := F)) (kcell ck) 0) ck]
  iintro ⟨-, ⟨H, -⟩⟩
  iexact H

/-- The barrier round's payloads: the fifteen peers' slots (that their receive cells are at round 0 is in the records too). -/
theorem barPays_slots (c : Dev nD) :
    (bigSep Finset.univ fun i : Fin 15 => barPay (F := F) c i) ⊢ bigSep Finset.univ fun i : Fin 15 => iprop(∃ f, slotPts (F := F) (peer c i) i f) := by
  unfold barPay
  rw [bigSep_sep']
  iintro ⟨H, -⟩
  iexact H

end Mid

open Mid

set_option maxRecDepth 8000 in
/-- Grid point 1: the second block's column sums are added to the partial. -/
theorem body_pt1 (c : Dev nD) : BodyAt (F := F) m ρ c t0_1 := by

  unfold BodyAt
  rw [bigSep_W0, bigSep_W0]
  have hidle : cfg0.idle 1 (cfg0.grid.coords t0_1) = true := by decide
  have hfl : (cfg0.win 1).flush t0_1 = false := flush1_false t0_1 (by decide)
  simp only [hidle, hfl]
  show iprop(Φmid m c 1 ∗ (dats m ρ 0 c).owesAt () t0_1.castSucc
        ∗ (∃ d, owns c.tc (Memref.whole cc0_stg0_1) fullShare ((dats m ρ 0 c).before 0 t0_1 d))
        ∗ ∃ d, owns c.tc (Memref.whole cc0_stg1_0) fullShare ((dats m ρ 0 c).before 1 t0_1 d))
      ⊢ wp frame (wpE (defs₀ (F := F)) 𝒱₀ (c : Thread nD τ) none) Set.univ
          (cc0_body (grid0.coords t0_1) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φmid m c 2 ∗ (dats m ρ 0 c).owesAt () t0_1.succ
            ∗ owns c.tc (Memref.whole cc0_stg0_1) fullShare (iblk m c 0 t0_1)
            ∗ ∃ d, owns c.tc (Memref.whole cc0_stg1_0) fullShare ((dats m ρ 0 c).before 1 t0_1 d))
  simp only [owns_whole_eq, before0]
  unfold Φmid Dat.owesAt Pipeline.owesWithin
  rw [partPts_full, partPts_full]
  rw [cc0_body_eq_skeleton]; unfold cc0_body_skel
  have h6 := eq_false (show ¬ (Scalar.cmpi .ne (Scalar.extui (Scalar.cmpi .eq (BitVec.ofNat 32 ↑(grid0.coords t0_1 0)) 0#32)) 0#32 = 1#1) by decide)
  have h9 := eq_true (show Scalar.cmpi .ne (Scalar.extui (Scalar.cmpi .sgt (BitVec.ofNat 32 ↑(grid0.coords t0_1 0)) 0#32)) 0#32 = 1#1 by decide)
  have hc3 := eq_false (show ¬ (k0_cond3 (grid0.coords t0_1) = 1#1) by decide)
  have h15 := eq_false (show ¬ (Scalar.cmpi .ne (Scalar.extui (Scalar.cmpi .eq (BitVec.ofNat 32 ↑(grid0.coords t0_1 0)) 2#32)) 0#32 = 1#1) by decide)
  have hc5 := eq_false (show ¬ (k0_cond5 (grid0.coords t0_1) = 1#1) by decide)
  simp only [h6, h9, hc3, h15, hc5, ↓reduceDIte, semWaitWord, Prog.lift, Prog.bind_op, Prog.bind_ret, Prog.pure_eq_ret]

  iintro ⟨⟨Hrec, Hpb, Hpx, Hct, Hcr, Hrc, Hlev, Hp⟩, ⟨%W, %hW, HO⟩, ⟨%d0, %f0, %hf0, Hx⟩, Hout⟩
  subst hf0
  iapply (wp_load_stg1 c) $$ Hx; iintro Hx
  iapply (wp_load_part c) $$ Hp; iintro Hp
  iapply (wp_load_part c) $$ Hp; iintro Hp
  iapply (wp_store_part c) $$ Hp; iintro Hp
  rw [wp_ret]; imodintro
  have hv : k0_pay3 (iblk m c 0 t0_1) (partAt m c 1) = partAt m c 2 := by
    rw [iblk_eq_blk m c t0_1 1 rfl]; rfl
  rw [hv]
  isplitl [Hrec Hpb Hpx Hct Hcr Hrc Hlev Hp]
  · isplitl [Hrec]; · iexact Hrec
    isplitl [Hpb]; · iexact Hpb
    isplitl [Hpx]; · iexact Hpx
    isplitl [Hct]; · iexact Hct
    isplitl [Hcr]; · iexact Hcr
    isplitl [Hrc]; · iexact Hrc
    isplitl [Hlev]; · iexact Hlev
    iexact Hp
  isplitl [HO]
  · iexists W
    isplitr; · ipureintro; exact fun _ _ => Or.inl trivial
    iexact HO
  isplitl [Hx]
  · iexists _; isplitr; · (ipureintro; rfl)
    iexact Hx
  iexact Hout

set_option maxRecDepth 8000 in
/-- Grid point 2: the third block's column sums are added to the partial, then the device waits for the fifteen
    entry signals on its barrier cell and receives, with them, slot `i` of the receive buffer of the device `i + 1`
    places after it, for every `i`. -/
theorem body_pt2 (c : Dev nD) : BodyAt (F := F) m ρ c t0_2 := by

  unfold BodyAt
  rw [bigSep_W0, bigSep_W0]
  have hidle : cfg0.idle 1 (cfg0.grid.coords t0_2) = true := by decide
  have hfl : (cfg0.win 1).flush t0_2 = false := flush1_false t0_2 (by decide)
  simp only [hidle, hfl]
  show iprop(Φmid m c 2 ∗ (dats m ρ 0 c).owesAt () t0_2.castSucc
        ∗ (∃ d, owns c.tc (Memref.whole cc0_stg0_0) fullShare ((dats m ρ 0 c).before 0 t0_2 d))
        ∗ ∃ d, owns c.tc (Memref.whole cc0_stg1_0) fullShare ((dats m ρ 0 c).before 1 t0_2 d))
      ⊢ wp frame (wpE (defs₀ (F := F)) 𝒱₀ (c : Thread nD τ) none) Set.univ
          (cc0_body (grid0.coords t0_2) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φ₃ m c ∗ (dats m ρ 0 c).owesAt () t0_2.succ
            ∗ owns c.tc (Memref.whole cc0_stg0_0) fullShare (iblk m c 0 t0_2)
            ∗ ∃ d, owns c.tc (Memref.whole cc0_stg1_0) fullShare ((dats m ρ 0 c).before 1 t0_2 d))
  simp only [owns_whole_eq, before0]
  unfold Φmid Φ₃ posBar Dat.owesAt Pipeline.owesWithin
  rw [partPts_full, partPts_full]
  rw [cc0_body_eq_skeleton]; unfold cc0_body_skel
  have h6 := eq_false (show ¬ (Scalar.cmpi .ne (Scalar.extui (Scalar.cmpi .eq (BitVec.ofNat 32 ↑(grid0.coords t0_2 0)) 0#32)) 0#32 = 1#1) by decide)
  have h9 := eq_true (show Scalar.cmpi .ne (Scalar.extui (Scalar.cmpi .sgt (BitVec.ofNat 32 ↑(grid0.coords t0_2 0)) 0#32)) 0#32 = 1#1 by decide)
  have hc3 := eq_false (show ¬ (k0_cond3 (grid0.coords t0_2) = 1#1) by decide)
  have h15 := eq_true (show (Scalar.cmpi .ne (Scalar.extui (Scalar.cmpi .eq (BitVec.ofNat 32 ↑(grid0.coords t0_2 0)) 2#32)) 0#32 = 1#1) by decide)
  have hc5 := eq_false (show ¬ (k0_cond5 (grid0.coords t0_2) = 1#1) by decide)
  simp only [h6, h9, hc3, h15, hc5, ↓reduceDIte, semWaitWord, Prog.lift, Prog.bind_op, Prog.bind_ret, Prog.pure_eq_ret]

  iintro ⟨⟨⟨%K, #Hrec⟩, Hpb, Hpx, Hct, Hcr, Hrc, #Hlev, Hp⟩, ⟨%W, %hW, HO⟩, ⟨%d0, %f0, %hf0, Hx⟩, Hout⟩
  subst hf0
  iapply (wp_load_stg0 c) $$ Hx; iintro Hx
  iapply (wp_load_part c) $$ Hp; iintro Hp
  iapply (wp_load_part c) $$ Hp; iintro Hp
  iapply (wp_store_part c) $$ Hp; iintro Hp
  have hv : k0_pay3 (iblk m c 0 t0_2) (partAt m c 2) = partAt m c 3 := by
    rw [iblk_eq_blk m c t0_2 2 rfl]; rfl
  rw [hv]
  -- the wait for the fifteen units of round 0 of the device's own barrier cell, owing receive credits only
  iapply (Rounds.wp_wait_rest_token 𝒱₀ ER (sched m) (c : Thread nD τ) none (κ := K (c, CIx.bar)) (k' := 15)
      (wpE_semWait_eq 𝒱₀ (c : Thread nD τ) none Set.univ) (Set.mem_univ _) () (O := Orecv c) (W := W) (R := 0) (m := 0) (T := ∅)
      (by rw [expect_bar])) $$ [Hcr HO Hpb]
  · isplitr; · iapply (records_inv m K (c, CIx.bar)); iexact Hrec
    isplitl [Hcr]; · iexact Hcr
    isplitl [HO]; · iexact HO
    isplitr; · iapply (mayWait_bar c); iexact Hlev
    iexact Hpb
  iintro ⟨HO, Hpb, -, Hpay⟩
  ihave Hslots := ((Entails.of_eq (rest_bar m c)).trans (barPays_slots c)) $$ Hpay
  rw [wp_ret]; imodintro
  isplitl [Hpb Hpx Hct Hrc Hp Hslots]
  · isplitr; · iexists K; iexact Hrec
    isplitl [Hpb]; · iexact Hpb
    isplitl [Hpx]; · iexact Hpx
    isplitl [Hct]; · iexact Hct
    isplitl [Hrc]; · iexact Hrc
    isplitr; · iexact Hlev
    isplitl [Hp]; · iexact Hp
    iexact Hslots
  isplitl [HO]
  · iexists (insert (SemLoc.reg barS, ()) W)
    isplitr; · ipureintro; exact fun _ _ => Or.inl trivial
    iexact HO
  isplitl [Hx]
  · iexists _; isplitr; · (ipureintro; rfl)
    iexact Hx
  iexact Hout

end Cert.KernelIdeal.Coll

end

/-- info: 'Cert.KernelIdeal.Coll.body_pt1' depends on axioms: [propext, Classical.choice, Quot.sound] -/
#guard_msgs in #print axioms Cert.KernelIdeal.Coll.body_pt1

/-- info: 'Cert.KernelIdeal.Coll.body_pt2' depends on axioms: [propext, Classical.choice, Quot.sound] -/
#guard_msgs in #print axioms Cert.KernelIdeal.Coll.body_pt2
-- ==== Proof.Waits3.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Steps3

/-!
# Grid point 3: the thirty waits, and the thirty cells closed

A device waits once on each of its fifteen receive cells and once on each of its fifteen send cells. Each of these cells
has a single round with a single duty of the row's credit, so one wait for that credit consumes the whole round: the
device hands in the credit it holds on the cell and its position at round 0, and gets back the round's payload — slot
`k` of its receive buffer holding the row of the device `k + 1` places before it, or the piece of its partial lent to
copy `k` — and its position at round 1. By then it owes nothing, so no level evidence is needed. No round after the
first has a duty, so from round 1 each cell can be closed, which returns its counter at zero.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

variable (K : Dev nD × CIx → ℕ)

/-! ## The waits -/

set_option maxHeartbeats 1600000 in
/-- The wait on receive cell `k`: the credit and the position at round 0 become slot `k` landed and the position at round 1. -/
theorem recvwait_step (c : Dev nD) (k : Fin 15) {hsrc : (pM : Memref sig .tc .vmem S1x1024 .f32).view.WordExact}
    {hdst : (slotM k : Memref sig .tc .vmem S1x1024 .f32).view.WordExact}
    {α : Type} {Q : α → sProp 𝕄} {cont : PUnit → Prog (TpuEff nD τ sig (Elt F) Λ₀ .tc) α} :
    iprop(records m K ∗ recvInv m c k.val ∗ (∃ W, owes (c : Thread nD τ) 0 W))
      ⊢ iprop(((recvInv m c (k.val + 1) ∗ (∃ W, owes (c : Thread nD τ) 0 W))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (recvSem k) pM (slotM k) hsrc hdst) cont) Q) := by
  unfold recvInv
  rw [bigSep_step k k.val rfl, bigSep_step' k]
  iintro ⟨#HR, ⟨⟨Hc, Hat⟩, Hrest⟩, ⟨%W, HO⟩⟩ Hk
  ihave HI := (inv_at m K (c, .recv k)) $$ HR
  iapply (Rounds.wp_wait_rest_token 𝒱₀ ER (sched m) (c : Thread nD τ) none (κ := K (c, .recv k))
      (wpE_waitDma2_eq (sem := recvSem k) (src := pM) (dst := slotM k) (hsrc := hsrc) (hdst := hdst) 𝒱₀ (c : Thread nD τ) none Set.univ)
      (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_recv m c k)) $$ Hpay
  unfold recvPay
  iapply Hk
  isplitr [HO]
  · isplitr [Hrest]
    · isplitl [Hs]; · iexact Hs
      iexact Hat
    · iexact Hrest
  · iexists _; iexact HO

set_option maxHeartbeats 1600000 in
/-- The wait on send cell `k`: the credit and the position at round 0 become the lent piece of the partial back and the
    position at round 1. -/
theorem sendwait_step (c : Dev nD) (k : Fin 15) {hsrc : (slotM k : Memref sig .tc .vmem S1x1024 .f32).view.WordExact}
    {hdst : (pM : Memref sig .tc .vmem S1x1024 .f32).view.WordExact}
    {α : Type} {Q : α → sProp 𝕄} {cont : PUnit → Prog (TpuEff nD τ sig (Elt F) Λ₀ .tc) α} :
    iprop(records m K ∗ sendwInv m c k.val ∗ (∃ W, owes (c : Thread nD τ) 0 W))
      ⊢ iprop(((sendwInv m c (k.val + 1) ∗ (∃ W, owes (c : Thread nD τ) 0 W))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (sendSem k) (slotM k) pM hsrc hdst) cont) Q) := by
  unfold sendwInv
  rw [bigSep_step k k.val rfl, bigSep_step' k]
  iintro ⟨#HR, ⟨⟨Hc, Hat⟩, Hrest⟩, ⟨%W, HO⟩⟩ Hk
  ihave HI := (inv_at m K (c, .send k)) $$ HR
  iapply (Rounds.wp_wait_rest_token 𝒱₀ ER (sched m) (c : Thread nD τ) none (κ := K (c, .send k))
      (wpE_waitDma2_eq (sem := sendSem k) (src := slotM k) (dst := pM) (hsrc := hsrc) (hdst := hdst) 𝒱₀ (c : Thread nD τ) none Set.univ)
      (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_send m c k)) $$ Hpay
  unfold sendPay
  iapply Hk
  isplitr [HO]
  · isplitr [Hrest]
    · isplitl [Hs]; · iexact Hs
      iexact Hat
    · iexact Hrest
  · iexists _; iexact HO

/-! ## Closing the cells -/

/-- Fifteen cells of the mesh, each with its owner's position at round 1, close together. -/
theorem close_row (ck : Fin 15 → Dev nD × CIx) :
    iprop(records m K ∗ bigSep Finset.univ fun j : Fin 15 => atPos ER (kcell (ck j)) 1 ∅ 0)
      ⊢ |={Set.univ}=> (bigSep Finset.univ fun j : Fin 15 => semVal (kcell (ck j)) 0 : sProp 𝕄) := by
  have one : ∀ j : Fin 15, iprop(records m K ∗ atPos ER (kcell (ck j)) 1 ∅ 0) ⊢ (|={Set.univ}=> semVal (kcell (ck j)) 0 : sProp 𝕄) := fun j =>
    (sep_mono_left (inv_at m K (ck j))).trans
      (Rounds.cell_close ER (sched m) (Set.mem_univ (K (ck j))) (fun h => h) (R := 0 + 1) (duties_later m (kcell (ck j))))
  refine (sep_mono_left (BI.bigSep_of_persistent (Finset.univ : Finset (Fin 15)) (records m K))).trans ?_
  rw [← bigSep_sep']
  exact (bigSep_mono fun j _ => one j).trans (bigSep_fupd _ _)

/-- after the thirty waits: close the thirty own cells -/
theorem close_cells (c : Dev nD) :
    iprop(records m K ∗ (bigSep Finset.univ fun j : Fin 15 => atPos ER (sendCell c j) 1 ∅ 0) ∗ bigSep Finset.univ fun j : Fin 15 => atPos ER (recvCell c j) 1 ∅ 0)
      ⊢ |={Set.univ}=> iprop((bigSep Finset.univ fun j : Fin 15 => semVal (sendCell c j) 0) ∗ bigSep Finset.univ fun j : Fin 15 => semVal (recvCell c j) 0) := by
  iintro ⟨#HR, HA, HB⟩
  imod (close_row m K fun j => (c, CIx.send j)) $$ [HA] with HA'
  · isplitr; · iexact HR
    iexact HA
  imod (close_row m K fun j => (c, CIx.recv j)) $$ [HB] with HB'
  · isplitr; · iexact HR
    iexact HB
  imodintro
  isplitl [HA']; · iexact HA'
  iexact HB'

end Cert.KernelIdeal.Coll

end

/-- info: 'Cert.KernelIdeal.Coll.recvwait_step' depends on axioms: [propext, Classical.choice, Quot.sound] -/
#guard_msgs in #print axioms Cert.KernelIdeal.Coll.recvwait_step

/-- info: 'Cert.KernelIdeal.Coll.sendwait_step' depends on axioms: [propext, Classical.choice, Quot.sound] -/
#guard_msgs in #print axioms Cert.KernelIdeal.Coll.sendwait_step

/-- info: 'Cert.KernelIdeal.Coll.close_cells' depends on axioms: [propext, Classical.choice, Quot.sound] -/
#guard_msgs in #print axioms Cert.KernelIdeal.Coll.close_cells
-- ==== Proof.Glue3.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Steps3

/-!
# Grid point 3: the flat resources and the states indexed by a copy number

Before the first copy every copy is still to issue, and after the fifteenth none is; before the first wait every cell
still has its credit, and after the fifteenth every wait has been made. At those two ends the states indexed by a
number are plain conjunctions: of the lent pieces, the targets' slots and the duty tokens at the start; of the send
credits, of the landed slots (the whole receive buffer), of the pieces back, at the end.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two ends of a state indexed by a number -/

/-- at zero every index is still in its first state -/
theorem bigSep_from_zero (Φ Ψ : Fin 15 → sProp 𝕄) :
    (bigSep Finset.univ fun j : Fin 15 => if 0 ≤ j.val then Φ j else Ψ j) = bigSep Finset.univ Φ :=
  bigSep_congr fun j _ => if_pos (Nat.zero_le _)

/-- at fifteen every index is in its second state -/
theorem bigSep_from_end (Φ Ψ : Fin 15 → sProp 𝕄) :
    (bigSep Finset.univ fun j : Fin 15 => if 15 ≤ j.val then Φ j else Ψ j) = bigSep Finset.univ Ψ :=
  bigSep_congr fun j _ => if_neg (by have := j.isLt; omega)

/-! ## The copies -/

theorem sendInv_zero (c : Dev nD) :
    sendInv (F := F) m c 0
      = iprop((bigSep Finset.univ fun j : Fin 15 => partPts (lentShare j) c (partF m c))
          ∗ (bigSep Finset.univ fun j : Fin 15 => iprop(∃ f, slotPts (peer c j) j f))
          ∗ (bigSep Finset.univ fun j : Fin 15 => dutyTok ER (sendCell c j) 0 (0 : Fin 15))
          ∗ bigSep Finset.univ fun j : Fin 15 => dutyTok ER (recvCell (peer c j) j) 0 (0 : Fin 15)) := by
  unfold sendInv
  rw [bigSep_from_zero]
  unfold sendItem
  rw [bigSep_sep', bigSep_sep', bigSep_sep']

theorem mk_sendInv (c : Dev nD) :
    iprop((bigSep Finset.univ fun j : Fin 15 => partPts (lentShare j) c (partF m c))
        ∗ (bigSep Finset.univ fun i : Fin 15 => iprop(∃ f, slotPts (peer c i) i f)) ∗ cpyToks c)
      ⊢ (sendInv (F := F) m c 0) := by
  rw [sendInv_zero]
  unfold cpyToks
  iintro ⟨Hp, Hs, Htr, Hts⟩
  isplitl [Hp]; · iexact Hp
  isplitl [Hs]; · iexact Hs
  isplitl [Hts]; · iexact Hts
  iexact Htr

theorem sendInv_end (c : Dev nD) :
    sendInv (F := F) m c 15 ⊢ bigSep Finset.univ fun j : Fin 15 => cred (tallyAt (sendCell c j) () N) := by
  unfold sendInv
  exact Entails.of_eq (bigSep_from_end _ _)

/-! ## The receive waits -/

theorem mk_recvInv (c : Dev nD) :
    iprop(recvCreds c ∗ bigSep Finset.univ fun j : Fin 15 => atPos ER (recvCell c j) 0 ∅ 0) ⊢ (recvInv (F := F) m c 0) := by
  unfold recvInv recvCreds
  rw [bigSep_from_zero, bigSep_sep']

theorem recvInv_end (c : Dev nD) :
    recvInv (F := F) m c 15
      ⊢ iprop((((c : Thread nD τ).loc cc0_scratch1) ↦{fullShare} commF m c) ∗ bigSep Finset.univ fun j : Fin 15 => atPos ER (recvCell c j) 1 ∅ 0) := by
  unfold recvInv
  rw [bigSep_from_end, bigSep_sep', comm_split]

/-! ## The send waits -/

theorem mk_sendwInv (c : Dev nD) :
    iprop((bigSep Finset.univ fun j : Fin 15 => cred (tallyAt (sendCell c j) () N)) ∗ bigSep Finset.univ fun j : Fin 15 => atPos ER (sendCell c j) 0 ∅ 0)
      ⊢ (sendwInv (F := F) m c 0) := by
  unfold sendwInv
  rw [bigSep_from_zero, bigSep_sep']

theorem sendwInv_end (c : Dev nD) :
    sendwInv (F := F) m c 15
      ⊢ iprop((bigSep Finset.univ fun j : Fin 15 => partPts (lentShare j) c (partF m c)) ∗ bigSep Finset.univ fun j : Fin 15 => atPos ER (sendCell c j) 1 ∅ 0) := by
  unfold sendwInv
  rw [bigSep_from_end, bigSep_sep']

/-! ## The partial buffer and its sixteen pieces -/

/-- the partial buffer whole again from its sixteen pieces, and cut into them -/
theorem part_join (c : Dev nD) (f) :
    iprop((bigSep Finset.univ fun j : Fin 15 => partPts (lentShare j) c f) ∗ partPts keptShare c f) ⊢ (partPts (F := F) fullShare c f) :=
  Entails.of_eq (part_split c f).symm

theorem part_cut (c : Dev nD) (f) :
    (partPts (F := F) fullShare c f) ⊢ iprop((bigSep Finset.univ fun j : Fin 15 => partPts (lentShare j) c f) ∗ partPts keptShare c f) :=
  Entails.of_eq (part_split c f)

/-- info: 'Cert.KernelIdeal.Coll.mk_sendInv' depends on axioms: [propext, Classical.choice, Quot.sound] -/
#guard_msgs in #print axioms mk_sendInv
/-- info: 'Cert.KernelIdeal.Coll.recvInv_end' depends on axioms: [propext, Classical.choice, Quot.sound] -/
#guard_msgs in #print axioms recvInv_end
/-- info: 'Cert.KernelIdeal.Coll.part_join' depends on axioms: [propext, Classical.choice, Quot.sound] -/
#guard_msgs in #print axioms part_join

end Cert.KernelIdeal.Coll

end
-- ==== Proof.Body3.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Blk
import proofs.«901087_g7700000000001088_dist_sum_ax0_shard0_i_m4096_n1024_v7x_i16_bf16_1_alg».proof.Proof.Steps3
import proofs.«901087_g7700000000001088_dist_sum_ax0_shard0_i_m4096_n1024_v7x_i16_bf16_1_alg».proof.Proof.Waits3
import proofs.«901087_g7700000000001088_dist_sum_ax0_shard0_i_m4096_n1024_v7x_i16_bf16_1_alg».proof.Proof.Glue3

/-!
# The body at grid point 3

The device adds its last block's column sums into its partial, cuts the partial's share into sixteen pieces, lends
fifteen of them to the fifteen row copies, waits for the fifteen rows copied to it (its receive buffer is then whole at
the fifteen other devices' partials), stores its partial plus their sum, waits for its own copies to have left (the
partial is whole again) and closes its thirty cells.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 8000000

variable (K : Dev nD × CIx → ℕ)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- the argument window is fetched at every point: its staging buffer holds the point's block -/
theorem before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl
theorem zero2 : (![0, 0] : Fin 2 → ℕ) = fun _ => 0 := by funext a; fin_cases a <;> rfl

theorem cond_pt3 : k0_cond5 (grid0.coords t0_3) = 1#1 := by decide
theorem cond3_pt3 : ¬ (k0_cond3 (grid0.coords t0_3) = 1#1) := by decide
theorem c1_pt3 : ¬ (Scalar.cmpi .ne (Scalar.extui (Scalar.cmpi .eq (BitVec.ofNat 32 (grid0.coords t0_3 0).val) 0#32)) 0#32 = 1#1) := by decide
theorem c2_pt3 : Scalar.cmpi .ne (Scalar.extui (Scalar.cmpi .sgt (BitVec.ofNat 32 (grid0.coords t0_3 0).val) 0#32)) 0#32 = 1#1 := by decide
theorem c4_pt3 : ¬ (Scalar.cmpi .ne (Scalar.extui (Scalar.cmpi .eq (BitVec.ofNat 32 (grid0.coords t0_3 0).val) 2#32)) 0#32 = 1#1) := by decide

theorem zero3 : (![0, 0, 0] : Fin 3 → ℕ) = fun _ => 0 := by funext a; fin_cases a <;> rfl

theorem readAt_part_n (c : Dev nD) (f : Buf (Elt F) ((c : Thread nD τ).loc cc0_scratch0)) :
    View.readAt (Elt F) (View.whole cc0_scratch0) (Rect.unit (s := S1x1024) ![0, 0] ![1, 1024] inb_S1x1024_S1x1024_0_0).toLoadRect f = f :=
  Memref.readAt_unit_zero (Elt F) cc0_scratch0 zero2 _ f
theorem write_part_n (c : Dev nD) (f w : Buf (Elt F) ((c : Thread nD τ).loc cc0_scratch0)) :
    View.write (Elt F) ((Memref.whole cc0_scratch0 : Memref sig .tc .vmem S1x1024 .f32).access (Rect.unit (s := S1x1024) ![0, 0] ![1, 1024] inb_S1x1024_S1x1024_0_0)) f w Finset.univ = w :=
  Memref.write_access_unit_zero_univ (Elt F) cc0_scratch0 zero2 _ f w
theorem readAt_stg1_n (c : Dev nD) (f : Buf (Elt F) ((c : Thread nD τ).loc cc0_stg0_1)) :
    View.readAt (Elt F) (View.whole cc0_stg0_1) (Rect.unit (s := S1024x1024) ![0, 0] ![1024, 1024] inb_S1024x1024_S1024x1024_0_0).toLoadRect f = f :=
  Memref.readAt_unit_zero (Elt F) cc0_stg0_1 zero2 _ f
theorem readAt_comm_n (c : Dev nD) (f : Buf (Elt F) ((c : Thread nD τ).loc cc0_scratch1)) :
    View.readAt (Elt F) (View.whole cc0_scratch1) (Rect.unit (s := S15x1x1024) ![0, 0, 0] ![15, 1, 1024] inb_S15x1x1024_S15x1x1024_0_0_0).toLoadRect f = f :=
  Memref.readAt_unit_zero (Elt F) cc0_scratch1 zero3 _ f
theorem readAt_out_n (c : Dev nD) (f : Buf (Elt F) ((c : Thread nD τ).loc cc0_stg1_0)) :
    View.readAt (Elt F) (View.whole cc0_stg1_0) (Rect.unit (s := S1x1024) ![0, 0] ![1, 1024] inb_S1x1024_S1x1024_0_0).toLoadRect f = f :=
  Memref.readAt_unit_zero (Elt F) cc0_stg1_0 zero2 _ f
theorem write_out_n (c : Dev nD) (f w : Buf (Elt F) ((c : Thread nD τ).loc cc0_stg1_0)) :
    View.write (Elt F) ((Memref.whole cc0_stg1_0 : Memref sig .tc .vmem S1x1024 .f32).access (Rect.unit (s := S1x1024) ![0, 0] ![1, 1024] inb_S1x1024_S1x1024_0_0)) f w Finset.univ = w :=
  Memref.write_access_unit_zero_univ (Elt F) cc0_stg1_0 zero2 _ f w

/-- after the fourth block the partial is the device's partial sums -/
theorem partAt_four (c : Dev nD) : k0_pay3 (Val.blk (xarr m c) 3) (partAt (F := F) m c 3) = partF m c := rfl

theorem body_pt3 (c : Dev nD) : BodyAt (F := F) m ρ c t0_3 := by
  unfold BodyAt
  rw [bigSep_W0, bigSep_W0]
  have hidle0 : cfg0.idle 0 (cfg0.grid.coords t0_3) = false := rfl
  have hidle1 : cfg0.idle 1 (cfg0.grid.coords t0_3) = false := by decide
  simp only [hidle0, hidle1]
  show iprop(Φ₃ m c ∗ (dats m ρ 0 c).owesAt () t0_3.castSucc
        ∗ (∃ d, owns c.tc (Memref.whole cc0_stg0_1) fullShare ((dats m ρ 0 c).before 0 t0_3 d))
        ∗ ∃ d, owns c.tc (Memref.whole cc0_stg1_0) fullShare ((dats m ρ 0 c).before 1 t0_3 d))
      ⊢ wp frame (wpE (defs₀ (F := F)) 𝒱₀ (c : Thread nD τ) none) Set.univ
          (cc0_body (grid0.coords t0_3) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φ₄ m c ∗ (dats m ρ 0 c).owesAt () t0_3.succ
            ∗ owns c.tc (Memref.whole cc0_stg0_1) fullShare (iblk m c 0 t0_3)
            ∗ owns c.tc (Memref.whole cc0_stg1_0) fullShare (outAt m c))
  simp only [owns_whole_eq, before0]
  unfold Φ₃
  rw [cc0_body_eq_skeleton]; unfold cc0_body_skel
  simp only [dif_neg c1_pt3, dif_pos c2_pt3, dif_neg cond3_pt3, dif_neg c4_pt3, dif_pos cond_pt3]
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton]
  unfold k0_part7_skel k0_part8_skel k0_part9_skel k0_part10_skel k0_part11_skel k0_part12_skel k0_part13_skel k0_part14_skel k0_part15_skel
    k0_part16_skel k0_part17_skel k0_part18_skel k0_part19_skel k0_part20_skel k0_part21_skel
  simp only [Prog.lift, Prog.bind_op, Prog.bind_ret, Prog.pure_eq_ret]
  iintro ⟨⟨⟨%K, #HR⟩, HpB, HpX, Htoks, Hrc, #Hlev, Hp, Hslots⟩, Ho, ⟨%d0, %f0, %hf0, Hx⟩, ⟨%d1, %f1, %hf1, Hout⟩⟩
  subst hf0
  unfold Dat.owesAt Pipeline.owesWithin
  icases Ho with ⟨%W, %hW, HO⟩
  rw [show (dats (F := F) m ρ 0 c).owed t0_3.castSucc = Orecv c from rfl, Orecv_eq]
  ihave Hp := (Entails.of_eq (partPts_full c _)) $$ Hp
  -- the last block's column sums into the partial
  iapply (wp_load 𝒱₀ (c : Thread nD τ) none Set.univ (m := Memref.whole cc0_stg0_1) (Finset.subset_univ _)) $$ Hx; iintro Hx
  iapply (wp_load 𝒱₀ (c : Thread nD τ) none Set.univ (m := Memref.whole cc0_scratch0) (Finset.subset_univ _)) $$ Hp; iintro Hp
  iapply (wp_load 𝒱₀ (c : Thread nD τ) none Set.univ (m := Memref.whole cc0_scratch0) (Finset.subset_univ _)) $$ Hp; iintro Hp
  iapply (wp_store 𝒱₀ (c : Thread nD τ) none Set.univ (m := Memref.whole cc0_scratch0) (r := Rect.unit (s := S1x1024) ![0, 0] S1x1024.size inb_S1x1024_S1x1024_0_0) (Mk := Finset.univ) (Finset.subset_univ _)) $$ Hp; iintro Hp
  rw [iblk_eq_blk m c t0_3 3 rfl]
  erw [write_part_n c, readAt_part_n c, readAt_stg1_n c]
  rw [partAt_four, wp_deviceId]
  -- the partial's share cut into sixteen pieces, fifteen lent
  ihave Hp := (Entails.of_eq (partPts_full c _).symm) $$ Hp
  ihave Hp := (part_cut c _) $$ Hp
  icases Hp with ⟨Hlent, Hkept⟩
  ihave HS := (mk_sendInv m c) $$ [Hlent Hslots Htoks]
  · isplitl [Hlent]; · iexact Hlent
    isplitl [Hslots]; · iexact Hslots
    iexact Htoks
  -- the fifteen copies
  iapply (send_step m K c 0 _ (cpy_dev_eq_0 _ c cond_pt3) W) $$ [HS HO]
  · isplitr; · iexact HR
    isplitl [HS]; · iexact HS
    iexact HO
  iintro ⟨HS, HO⟩
  iapply (send_step m K c 1 _ (cpy_dev_eq_1 _ c cond_pt3) W) $$ [HS HO]
  · isplitr; · iexact HR
    isplitl [HS]; · iexact HS
    iexact HO
  iintro ⟨HS, HO⟩
  iapply (send_step m K c 2 _ (cpy_dev_eq_2 _ c cond_pt3) W) $$ [HS HO]
  · isplitr; · iexact HR
    isplitl [HS]; · iexact HS
    iexact HO
  iintro ⟨HS, HO⟩
  iapply (send_step m K c 3 _ (cpy_dev_eq_3 _ c cond_pt3) W) $$ [HS HO]
  · isplitr; · iexact HR
    isplitl [HS]; · iexact HS
    iexact HO
  iintro ⟨HS, HO⟩
  iapply (send_step m K c 4 _ (cpy_dev_eq_4 _ c cond_pt3) W) $$ [HS HO]
  · isplitr; · iexact HR
    isplitl [HS]; · iexact HS
    iexact HO
  iintro ⟨HS, HO⟩
  iapply (send_step m K c 5 _ (cpy_dev_eq_5 _ c cond_pt3) W) $$ [HS HO]
  · isplitr; · iexact HR
    isplitl [HS]; · iexact HS
    iexact HO
  iintro ⟨HS, HO⟩
  iapply (send_step m K c 6 _ (cpy_dev_eq_6 _ c cond_pt3) W) $$ [HS HO]
  · isplitr; · iexact HR
    isplitl [HS]; · iexact HS
    iexact HO
  iintro ⟨HS, HO⟩
  iapply (send_step m K c 7 _ (cpy_dev_eq_7 _ c cond_pt3) W) $$ [HS HO]
  · isplitr; · iexact HR
    isplitl [HS]; · iexact HS
    iexact HO
  iintro ⟨HS, HO⟩
  iapply (send_step m K c 8 _ (cpy_dev_eq_8 _ c cond_pt3) W) $$ [HS HO]
  · isplitr; · iexact HR
    isplitl [HS]; · iexact HS
    iexact HO
  iintro ⟨HS, HO⟩
  iapply (send_step m K c 9 _ (cpy_dev_eq_9 _ c cond_pt3) W) $$ [HS HO]
  · isplitr; · iexact HR
    isplitl [HS]; · iexact HS
    iexact HO
  iintro ⟨HS, HO⟩
  iapply (send_step m K c 10 _ (cpy_dev_eq_10 _ c cond_pt3) W) $$ [HS HO]
  · isplitr; · iexact HR
    isplitl [HS]; · iexact HS
    iexact HO
  iintro ⟨HS, HO⟩
  iapply (send_step m K c 11 _ (cpy_dev_eq_11 _ c cond_pt3) W) $$ [HS HO]
  · isplitr; · iexact HR
    isplitl [HS]; · iexact HS
    iexact HO
  iintro ⟨HS, HO⟩
  iapply (send_step m K c 12 _ (cpy_dev_eq_12 _ c cond_pt3) W) $$ [HS HO]
  · isplitr; · iexact HR
    isplitl [HS]; · iexact HS
    iexact HO
  iintro ⟨HS, HO⟩
  iapply (send_step m K c 13 _ (cpy_dev_eq_13 _ c cond_pt3) W) $$ [HS HO]
  · isplitr; · iexact HR
    isplitl [HS]; · iexact HS
    iexact HO
  iintro ⟨HS, HO⟩
  iapply (send_step m K c 14 _ (cpy_dev_eq_14 _ c cond_pt3) W) $$ [HS HO]
  · isplitr; · iexact HR
    isplitl [HS]; · iexact HS
    iexact HO
  iintro ⟨HS, HO⟩
  rw [show (14 : Fin 15).val + 1 = 15 from rfl, OrecvFrom_end]
  ihave Hcs := (sendInv_end m c) $$ HS
  unfold posXfer
  icases HpX with ⟨HpS, HpR⟩
  ihave HRI := (mk_recvInv m c) $$ [Hrc HpR]
  · isplitl [Hrc]; · iexact Hrc
    iexact HpR
  ihave HOE : iprop(∃ W, owes (c : Thread nD τ) 0 W) $$ [HO]
  · iexists W; iexact HO
  -- the fifteen rows copied to this device
  iapply (recvwait_step m K c 0) $$ [HRI HOE]
  · isplitr; · iexact HR
    isplitl [HRI]; · iexact HRI
    iexact HOE
  iintro ⟨HRI, HOE⟩
  iapply (recvwait_step m K c 1) $$ [HRI HOE]
  · isplitr; · iexact HR
    isplitl [HRI]; · iexact HRI
    iexact HOE
  iintro ⟨HRI, HOE⟩
  iapply (recvwait_step m K c 2) $$ [HRI HOE]
  · isplitr; · iexact HR
    isplitl [HRI]; · iexact HRI
    iexact HOE
  iintro ⟨HRI, HOE⟩
  iapply (recvwait_step m K c 3) $$ [HRI HOE]
  · isplitr; · iexact HR
    isplitl [HRI]; · iexact HRI
    iexact HOE
  iintro ⟨HRI, HOE⟩
  iapply (recvwait_step m K c 4) $$ [HRI HOE]
  · isplitr; · iexact HR
    isplitl [HRI]; · iexact HRI
    iexact HOE
  iintro ⟨HRI, HOE⟩
  iapply (recvwait_step m K c 5) $$ [HRI HOE]
  · isplitr; · iexact HR
    isplitl [HRI]; · iexact HRI
    iexact HOE
  iintro ⟨HRI, HOE⟩
  iapply (recvwait_step m K c 6) $$ [HRI HOE]
  · isplitr; · iexact HR
    isplitl [HRI]; · iexact HRI
    iexact HOE
  iintro ⟨HRI, HOE⟩
  iapply (recvwait_step m K c 7) $$ [HRI HOE]
  · isplitr; · iexact HR
    isplitl [HRI]; · iexact HRI
    iexact HOE
  iintro ⟨HRI, HOE⟩
  iapply (recvwait_step m K c 8) $$ [HRI HOE]
  · isplitr; · iexact HR
    isplitl [HRI]; · iexact HRI
    iexact HOE
  iintro ⟨HRI, HOE⟩
  iapply (recvwait_step m K c 9) $$ [HRI HOE]
  · isplitr; · iexact HR
    isplitl [HRI]; · iexact HRI
    iexact HOE
  iintro ⟨HRI, HOE⟩
  iapply (recvwait_step m K c 10) $$ [HRI HOE]
  · isplitr; · iexact HR
    isplitl [HRI]; · iexact HRI
    iexact HOE
  iintro ⟨HRI, HOE⟩
  iapply (recvwait_step m K c 11) $$ [HRI HOE]
  · isplitr; · iexact HR
    isplitl [HRI]; · iexact HRI
    iexact HOE
  iintro ⟨HRI, HOE⟩
  iapply (recvwait_step m K c 12) $$ [HRI HOE]
  · isplitr; · iexact HR
    isplitl [HRI]; · iexact HRI
    iexact HOE
  iintro ⟨HRI, HOE⟩
  iapply (recvwait_step m K c 13) $$ [HRI HOE]
  · isplitr; · iexact HR
    isplitl [HRI]; · iexact HRI
    iexact HOE
  iintro ⟨HRI, HOE⟩
  iapply (recvwait_step m K c 14) $$ [HRI HOE]
  · isplitr; · iexact HR
    isplitl [HRI]; · iexact HRI
    iexact HOE
  iintro ⟨HRI, HOE⟩
  rw [show (14 : Fin 15).val + 1 = 15 from rfl]
  ihave Hc := (recvInv_end m c) $$ HRI
  icases Hc with ⟨Hcomm, HpR1⟩
  -- the result: the partial plus the fifteen rows
  unfold partPts
  iapply (wp_load 𝒱₀ (c : Thread nD τ) none Set.univ (m := Memref.whole cc0_scratch0) (by rw [View.set_whole]; exact Finset.subset_univ _)) $$ Hkept; iintro Hkept
  iapply (wp_load 𝒱₀ (c : Thread nD τ) none Set.univ (m := Memref.whole cc0_scratch1) (Finset.subset_univ _)) $$ Hcomm; iintro Hcomm
  subst hf1
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := Rect.unit (s := S1x1024) ![0, 0] S1x1024.size inb_S1x1024_S1x1024_0_0) (Mk := Finset.univ) (Finset.subset_univ _)) $$ Hout; iintro Hout
  erw [write_out_n c, readAt_part_n c, readAt_comm_n c]
  -- the fifteen copies have left
  ihave HSW := (mk_sendwInv m c) $$ [Hcs HpS]
  · isplitl [Hcs]; · iexact Hcs
    iexact HpS
  iapply (sendwait_step m K c 0) $$ [HSW HOE]
  · isplitr; · iexact HR
    isplitl [HSW]; · iexact HSW
    iexact HOE
  iintro ⟨HSW, HOE⟩
  iapply (sendwait_step m K c 1) $$ [HSW HOE]
  · isplitr; · iexact HR
    isplitl [HSW]; · iexact HSW
    iexact HOE
  iintro ⟨HSW, HOE⟩
  iapply (sendwait_step m K c 2) $$ [HSW HOE]
  · isplitr; · iexact HR
    isplitl [HSW]; · iexact HSW
    iexact HOE
  iintro ⟨HSW, HOE⟩
  iapply (sendwait_step m K c 3) $$ [HSW HOE]
  · isplitr; · iexact HR
    isplitl [HSW]; · iexact HSW
    iexact HOE
  iintro ⟨HSW, HOE⟩
  iapply (sendwait_step m K c 4) $$ [HSW HOE]
  · isplitr; · iexact HR
    isplitl [HSW]; · iexact HSW
    iexact HOE
  iintro ⟨HSW, HOE⟩
  iapply (sendwait_step m K c 5) $$ [HSW HOE]
  · isplitr; · iexact HR
    isplitl [HSW]; · iexact HSW
    iexact HOE
  iintro ⟨HSW, HOE⟩
  iapply (sendwait_step m K c 6) $$ [HSW HOE]
  · isplitr; · iexact HR
    isplitl [HSW]; · iexact HSW
    iexact HOE
  iintro ⟨HSW, HOE⟩
  iapply (sendwait_step m K c 7) $$ [HSW HOE]
  · isplitr; · iexact HR
    isplitl [HSW]; · iexact HSW
    iexact HOE
  iintro ⟨HSW, HOE⟩
  iapply (sendwait_step m K c 8) $$ [HSW HOE]
  · isplitr; · iexact HR
    isplitl [HSW]; · iexact HSW
    iexact HOE
  iintro ⟨HSW, HOE⟩
  iapply (sendwait_step m K c 9) $$ [HSW HOE]
  · isplitr; · iexact HR
    isplitl [HSW]; · iexact HSW
    iexact HOE
  iintro ⟨HSW, HOE⟩
  iapply (sendwait_step m K c 10) $$ [HSW HOE]
  · isplitr; · iexact HR
    isplitl [HSW]; · iexact HSW
    iexact HOE
  iintro ⟨HSW, HOE⟩
  iapply (sendwait_step m K c 11) $$ [HSW HOE]
  · isplitr; · iexact HR
    isplitl [HSW]; · iexact HSW
    iexact HOE
  iintro ⟨HSW, HOE⟩
  iapply (sendwait_step m K c 12) $$ [HSW HOE]
  · isplitr; · iexact HR
    isplitl [HSW]; · iexact HSW
    iexact HOE
  iintro ⟨HSW, HOE⟩
  iapply (sendwait_step m K c 13) $$ [HSW HOE]
  · isplitr; · iexact HR
    isplitl [HSW]; · iexact HSW
    iexact HOE
  iintro ⟨HSW, HOE⟩
  iapply (sendwait_step m K c 14) $$ [HSW HOE]
  · isplitr; · iexact HR
    isplitl [HSW]; · iexact HSW
    iexact HOE
  iintro ⟨HSW, HOE⟩
  rw [show (14 : Fin 15).val + 1 = 15 from rfl]
  ihave Hb := (sendwInv_end m c) $$ HSW
  icases Hb with ⟨Hlent, HpS1⟩
  ihave Hp := (part_join c _) $$ [Hlent Hkept]
  · isplitl [Hlent]; · iexact Hlent
    unfold partPts; iexact Hkept
  imod (close_cells m K c) $$ [HpS1 HpR1] with ⟨HzS, HzR⟩
  · isplitr; · iexact HR
    isplitl [HpS1]; · iexact HpS1
    iexact HpR1
  rw [wp_ret]; imodintro
  unfold Φ₄
  rw [show (dats (F := F) m ρ 0 c).owed t0_3.succ = 0 from rfl]
  icases HOE with ⟨%W', HO⟩
  isplitl [Hp Hcomm HzS HzR]
  · isplitl [Hp]; · iexact Hp
    isplitl [Hcomm]; · iexact Hcomm
    isplitl [HzS]; · iexact HzS
    iexact HzR
  isplitl [HO]
  · iexists W'
    isplitr; · ipureintro; exact fun _ _ => Or.inl trivial
    iexact HO
  isplitl [Hx]
  · iexists _; isplitr; · (ipureintro; rfl)
    iexact Hx
  iexists _; isplitr; · (ipureintro; exact (outAt_eq m c).symm)
  iexact Hout

/-- info: 'Cert.KernelIdeal.Coll.body_pt3' depends on axioms: [propext, Classical.choice, Quot.sound] -/
#guard_msgs in #print axioms body_pt3

end Cert.KernelIdeal.Coll

end
-- ==== Proof.BodyAll.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.BodyDefs
import proofs.«901087_g7700000000001088_dist_sum_ax0_shard0_i_m4096_n1024_v7x_i16_bf16_1_alg».proof.Proof.Body0
import proofs.«901087_g7700000000001088_dist_sum_ax0_shard0_i_m4096_n1024_v7x_i16_bf16_1_alg».proof.Proof.Body012
import proofs.«901087_g7700000000001088_dist_sum_ax0_shard0_i_m4096_n1024_v7x_i16_bf16_1_alg».proof.Proof.Body3

/-!
# The body obligation at every grid point
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the four grid points' obligations, together -/
theorem body_all (c : Dev nD) (t : Fin cfg0.N) : BodyAt (F := F) m ρ c t := by
  rcases fin_N0 t with rfl | rfl | rfl | rfl
  · exact body_pt0 m ρ c
  · exact body_pt1 m ρ c
  · exact body_pt2 m ρ c
  · exact body_pt3 m ρ c

end Cert.KernelIdeal.Coll

end
-- ==== Proof.DevArithBits.lean ====
import proofs.«901087_g7700000000001088_dist_sum_ax0_shard0_i_m4096_n1024_v7x_i16_bf16_1_alg».proof.Proof.Gen.Kernel
import Idealize.ShloMosaic.Lib.Decide
import Mathlib.Logic.Equiv.Defs

set_option Elab.async false

/-!
# Arithmetic of the ring of sixteen devices

The mesh has sixteen devices, indexed `0 … 15`. For an offset `j + 1` with `j = 0 … 14`,
`peer c j` is the device `(c + j + 1) mod 16` and `srcDev c j` the device `(c - j - 1) mod 16`;
for each fixed `j` these two maps are inverse permutations of the mesh, none of them has a fixed
point, and `j ↦ peer c j` enumerates the fifteen devices other than `c` exactly once.

The program computes the target of each of its fifteen signals and of its fifteen remote copies by a
chain of 32-bit integer operations on the device's own index (a signed division by one, a signed
remainder by sixteen, an addition of the offset, and a floored remainder by sixteen written out with
comparisons and a select). Each chain is evaluated here at all sixteen devices and found equal to
`peer c k`.
-/

namespace Cert.Kernel.Coll

open Idealize.ShloMosaic Cert.Kernel Cert.Kernel.Gen

/-- the device at offset j+1 after c on the ring of 16 -/
def peer (c : Dev nD) (j : Fin 15) : Dev nD := ⟨(c.val + j.val + 1) % 16, Nat.mod_lt _ (by decide)⟩

/-- the device whose offset-(j+1) successor is c -/
def srcDev (c : Dev nD) (j : Fin 15) : Dev nD := ⟨(c.val + 15 - j.val) % 16, Nat.mod_lt _ (by decide)⟩

/-- the offset complementary to `j + 1`: `(j + 1) + (rev j + 1) = 16` -/
def rev (j : Fin 15) : Fin 15 := ⟨14 - j.val, by omega⟩

/-- going back by `j + 1` and then forward by `j + 1` returns to `c` -/
theorem peer_srcDev (c : Dev nD) (j : Fin 15) : peer (srcDev c j) j = c := by
  revert c j; decide

/-- going forward by `j + 1` and then back by `j + 1` returns to `c` -/
theorem srcDev_peer (c : Dev nD) (j : Fin 15) : srcDev (peer c j) j = c := by
  revert c j; decide

/-- going back by `j + 1` is going forward by `16 - (j + 1)` -/
theorem srcDev_eq_peer_rev (c : Dev nD) (j : Fin 15) : srcDev c j = peer c (rev j) := by
  revert c j; decide

/-- the offsets `j + 1` and `rev j + 1` add up to a full turn of the ring -/
theorem peer_peer_rev (c : Dev nD) (j : Fin 15) : peer (peer c j) (rev j) = c := by
  revert c j; decide

theorem rev_rev (j : Fin 15) : rev (rev j) = j := by
  revert j; decide

/-- an offset between 1 and 15 never returns to the starting device -/
theorem peer_ne_self (c : Dev nD) (j : Fin 15) : peer c j ≠ c := by
  revert c j; decide

theorem srcDev_ne_self (c : Dev nD) (j : Fin 15) : srcDev c j ≠ c := by
  revert c j; decide

/-- distinct offsets from one device reach distinct devices -/
theorem peer_injective (c : Dev nD) : Function.Injective (peer c) := by
  intro a b h; revert c a b; decide

theorem srcDev_injective (c : Dev nD) : Function.Injective (srcDev c) := by
  intro a b h; revert c a b; decide

/-- every device other than `c` is at some offset between 1 and 15 from `c` -/
theorem exists_peer_of_ne {c d : Dev nD} (h : d ≠ c) : ∃ j, peer c j = d := by
  revert c d; decide

theorem peer_eq_iff {c d : Dev nD} {j : Fin 15} : peer c j = d ↔ c = srcDev d j :=
  ⟨fun h => h ▸ (srcDev_peer c j).symm, fun h => h ▸ peer_srcDev d j⟩

/-- c ↦ peer c j is a permutation of the mesh, with inverse c ↦ srcDev c j -/
def peerEquiv (j : Fin 15) : Dev nD ≃ Dev nD where
  toFun c := peer c j
  invFun c := srcDev c j
  left_inv c := srcDev_peer c j
  right_inv c := peer_srcDev c j

theorem peerEquiv_apply (j : Fin 15) (c : Dev nD) : peerEquiv j c = peer c j := rfl

theorem peerEquiv_symm_apply (j : Fin 15) (c : Dev nD) : (peerEquiv j).symm c = srcDev c j := rfl

/-! ## The printed chains, evaluated at the sixteen devices -/

/-- signal number 1 goes to the device at offset 1 -/
theorem sig_dev_eq_0 (i : grid0.Coords) (c : Dev nD) (h : k0_cond3 i = 1#1) :
    (⟨k0_dev1 c, k0_dev1_lt i c h⟩ : Dev nD) = peer c 0 :=
  Fin.ext (show k0_dev1 c = (peer c 0).val by revert c; decide +kernel)

/-- signal number 2 goes to the device at offset 2 -/
theorem sig_dev_eq_1 (i : grid0.Coords) (c : Dev nD) (h : k0_cond3 i = 1#1) :
    (⟨k0_dev2 c, k0_dev2_lt i c h⟩ : Dev nD) = peer c 1 :=
  Fin.ext (show k0_dev2 c = (peer c 1).val by revert c; decide +kernel)

/-- signal number 3 goes to the device at offset 3 -/
theorem sig_dev_eq_2 (i : grid0.Coords) (c : Dev nD) (h : k0_cond3 i = 1#1) :
    (⟨k0_dev3 c, k0_dev3_lt i c h⟩ : Dev nD) = peer c 2 :=
  Fin.ext (show k0_dev3 c = (peer c 2).val by revert c; decide +kernel)

/-- signal number 4 goes to the device at offset 4 -/
theorem sig_dev_eq_3 (i : grid0.Coords) (c : Dev nD) (h : k0_cond3 i = 1#1) :
    (⟨k0_dev4 c, k0_dev4_lt i c h⟩ : Dev nD) = peer c 3 :=
  Fin.ext (show k0_dev4 c = (peer c 3).val by revert c; decide +kernel)

/-- signal number 5 goes to the device at offset 5 -/
theorem sig_dev_eq_4 (i : grid0.Coords) (c : Dev nD) (h : k0_cond3 i = 1#1) :
    (⟨k0_dev5 c, k0_dev5_lt i c h⟩ : Dev nD) = peer c 4 :=
  Fin.ext (show k0_dev5 c = (peer c 4).val by revert c; decide +kernel)

/-- signal number 6 goes to the device at offset 6 -/
theorem sig_dev_eq_5 (i : grid0.Coords) (c : Dev nD) (h : k0_cond3 i = 1#1) :
    (⟨k0_dev6 c, k0_dev6_lt i c h⟩ : Dev nD) = peer c 5 :=
  Fin.ext (show k0_dev6 c = (peer c 5).val by revert c; decide +kernel)

/-- signal number 7 goes to the device at offset 7 -/
theorem sig_dev_eq_6 (i : grid0.Coords) (c : Dev nD) (h : k0_cond3 i = 1#1) :
    (⟨k0_dev7 c, k0_dev7_lt i c h⟩ : Dev nD) = peer c 6 :=
  Fin.ext (show k0_dev7 c = (peer c 6).val by revert c; decide +kernel)

/-- signal number 8 goes to the device at offset 8 -/
theorem sig_dev_eq_7 (i : grid0.Coords) (c : Dev nD) (h : k0_cond3 i = 1#1) :
    (⟨k0_dev8 c, k0_dev8_lt i c h⟩ : Dev nD) = peer c 7 :=
  Fin.ext (show k0_dev8 c = (peer c 7).val by revert c; decide +kernel)

/-- signal number 9 goes to the device at offset 9 -/
theorem sig_dev_eq_8 (i : grid0.Coords) (c : Dev nD) (h : k0_cond3 i = 1#1) :
    (⟨k0_dev9 c, k0_dev9_lt i c h⟩ : Dev nD) = peer c 8 :=
  Fin.ext (show k0_dev9 c = (peer c 8).val by revert c; decide +kernel)

/-- signal number 10 goes to the device at offset 10 -/
theorem sig_dev_eq_9 (i : grid0.Coords) (c : Dev nD) (h : k0_cond3 i = 1#1) :
    (⟨k0_dev10 c, k0_dev10_lt i c h⟩ : Dev nD) = peer c 9 :=
  Fin.ext (show k0_dev10 c = (peer c 9).val by revert c; decide +kernel)

/-- signal number 11 goes to the device at offset 11 -/
theorem sig_dev_eq_10 (i : grid0.Coords) (c : Dev nD) (h : k0_cond3 i = 1#1) :
    (⟨k0_dev11 c, k0_dev11_lt i c h⟩ : Dev nD) = peer c 10 :=
  Fin.ext (show k0_dev11 c = (peer c 10).val by revert c; decide +kernel)

/-- signal number 12 goes to the device at offset 12 -/
theorem sig_dev_eq_11 (i : grid0.Coords) (c : Dev nD) (h : k0_cond3 i = 1#1) :
    (⟨k0_dev12 c, k0_dev12_lt i c h⟩ : Dev nD) = peer c 11 :=
  Fin.ext (show k0_dev12 c = (peer c 11).val by revert c; decide +kernel)

/-- signal number 13 goes to the device at offset 13 -/
theorem sig_dev_eq_12 (i : grid0.Coords) (c : Dev nD) (h : k0_cond3 i = 1#1) :
    (⟨k0_dev13 c, k0_dev13_lt i c h⟩ : Dev nD) = peer c 12 :=
  Fin.ext (show k0_dev13 c = (peer c 12).val by revert c; decide +kernel)

/-- signal number 14 goes to the device at offset 14 -/
theorem sig_dev_eq_13 (i : grid0.Coords) (c : Dev nD) (h : k0_cond3 i = 1#1) :
    (⟨k0_dev14 c, k0_dev14_lt i c h⟩ : Dev nD) = peer c 13 :=
  Fin.ext (show k0_dev14 c = (peer c 13).val by revert c; decide +kernel)

/-- signal number 15 goes to the device at offset 15 -/
theorem sig_dev_eq_14 (i : grid0.Coords) (c : Dev nD) (h : k0_cond3 i = 1#1) :
    (⟨k0_dev15 c, k0_dev15_lt i c h⟩ : Dev nD) = peer c 14 :=
  Fin.ext (show k0_dev15 c = (peer c 14).val by revert c; decide +kernel)

/-- remote copy number 1 goes to the device at offset 1 -/
theorem cpy_dev_eq_0 (i : grid0.Coords) (c : Dev nD) (h : k0_cond5 i = 1#1) :
    (⟨k0_dev16 c, k0_dev16_lt i c h⟩ : Dev nD) = peer c 0 :=
  Fin.ext (show k0_dev16 c = (peer c 0).val by revert c; decide +kernel)

/-- remote copy number 2 goes to the device at offset 2 -/
theorem cpy_dev_eq_1 (i : grid0.Coords) (c : Dev nD) (h : k0_cond5 i = 1#1) :
    (⟨k0_dev17 c, k0_dev17_lt i c h⟩ : Dev nD) = peer c 1 :=
  Fin.ext (show k0_dev17 c = (peer c 1).val by revert c; decide +kernel)

/-- remote copy number 3 goes to the device at offset 3 -/
theorem cpy_dev_eq_2 (i : grid0.Coords) (c : Dev nD) (h : k0_cond5 i = 1#1) :
    (⟨k0_dev18 c, k0_dev18_lt i c h⟩ : Dev nD) = peer c 2 :=
  Fin.ext (show k0_dev18 c = (peer c 2).val by revert c; decide +kernel)

/-- remote copy number 4 goes to the device at offset 4 -/
theorem cpy_dev_eq_3 (i : grid0.Coords) (c : Dev nD) (h : k0_cond5 i = 1#1) :
    (⟨k0_dev19 c, k0_dev19_lt i c h⟩ : Dev nD) = peer c 3 :=
  Fin.ext (show k0_dev19 c = (peer c 3).val by revert c; decide +kernel)

/-- remote copy number 5 goes to the device at offset 5 -/
theorem cpy_dev_eq_4 (i : grid0.Coords) (c : Dev nD) (h : k0_cond5 i = 1#1) :
    (⟨k0_dev20 c, k0_dev20_lt i c h⟩ : Dev nD) = peer c 4 :=
  Fin.ext (show k0_dev20 c = (peer c 4).val by revert c; decide +kernel)

/-- remote copy number 6 goes to the device at offset 6 -/
theorem cpy_dev_eq_5 (i : grid0.Coords) (c : Dev nD) (h : k0_cond5 i = 1#1) :
    (⟨k0_dev21 c, k0_dev21_lt i c h⟩ : Dev nD) = peer c 5 :=
  Fin.ext (show k0_dev21 c = (peer c 5).val by revert c; decide +kernel)

/-- remote copy number 7 goes to the device at offset 7 -/
theorem cpy_dev_eq_6 (i : grid0.Coords) (c : Dev nD) (h : k0_cond5 i = 1#1) :
    (⟨k0_dev22 c, k0_dev22_lt i c h⟩ : Dev nD) = peer c 6 :=
  Fin.ext (show k0_dev22 c = (peer c 6).val by revert c; decide +kernel)

/-- remote copy number 8 goes to the device at offset 8 -/
theorem cpy_dev_eq_7 (i : grid0.Coords) (c : Dev nD) (h : k0_cond5 i = 1#1) :
    (⟨k0_dev23 c, k0_dev23_lt i c h⟩ : Dev nD) = peer c 7 :=
  Fin.ext (show k0_dev23 c = (peer c 7).val by revert c; decide +kernel)

/-- remote copy number 9 goes to the device at offset 9 -/
theorem cpy_dev_eq_8 (i : grid0.Coords) (c : Dev nD) (h : k0_cond5 i = 1#1) :
    (⟨k0_dev24 c, k0_dev24_lt i c h⟩ : Dev nD) = peer c 8 :=
  Fin.ext (show k0_dev24 c = (peer c 8).val by revert c; decide +kernel)

/-- remote copy number 10 goes to the device at offset 10 -/
theorem cpy_dev_eq_9 (i : grid0.Coords) (c : Dev nD) (h : k0_cond5 i = 1#1) :
    (⟨k0_dev25 c, k0_dev25_lt i c h⟩ : Dev nD) = peer c 9 :=
  Fin.ext (show k0_dev25 c = (peer c 9).val by revert c; decide +kernel)

/-- remote copy number 11 goes to the device at offset 11 -/
theorem cpy_dev_eq_10 (i : grid0.Coords) (c : Dev nD) (h : k0_cond5 i = 1#1) :
    (⟨k0_dev26 c, k0_dev26_lt i c h⟩ : Dev nD) = peer c 10 :=
  Fin.ext (show k0_dev26 c = (peer c 10).val by revert c; decide +kernel)

/-- remote copy number 12 goes to the device at offset 12 -/
theorem cpy_dev_eq_11 (i : grid0.Coords) (c : Dev nD) (h : k0_cond5 i = 1#1) :
    (⟨k0_dev27 c, k0_dev27_lt i c h⟩ : Dev nD) = peer c 11 :=
  Fin.ext (show k0_dev27 c = (peer c 11).val by revert c; decide +kernel)

/-- remote copy number 13 goes to the device at offset 13 -/
theorem cpy_dev_eq_12 (i : grid0.Coords) (c : Dev nD) (h : k0_cond5 i = 1#1) :
    (⟨k0_dev28 c, k0_dev28_lt i c h⟩ : Dev nD) = peer c 12 :=
  Fin.ext (show k0_dev28 c = (peer c 12).val by revert c; decide +kernel)

/-- remote copy number 14 goes to the device at offset 14 -/
theorem cpy_dev_eq_13 (i : grid0.Coords) (c : Dev nD) (h : k0_cond5 i = 1#1) :
    (⟨k0_dev29 c, k0_dev29_lt i c h⟩ : Dev nD) = peer c 13 :=
  Fin.ext (show k0_dev29 c = (peer c 13).val by revert c; decide +kernel)

/-- remote copy number 15 goes to the device at offset 15 -/
theorem cpy_dev_eq_14 (i : grid0.Coords) (c : Dev nD) (h : k0_cond5 i = 1#1) :
    (⟨k0_dev30 c, k0_dev30_lt i c h⟩ : Dev nD) = peer c 14 :=
  Fin.ext (show k0_dev30 c = (peer c 14).val by revert c; decide +kernel)

/-! ## Routing -/

/-- Every two TensorCore threads of the mesh are joined by a route: a TensorCore's signal or
    transfer reaches every TensorCore, on its own chip or another. -/
theorem routes_peer (c : Dev nD) (j : Fin 15) :
    τ.routes (c.tc : Thread nD τ) ((peer c j).tc : Thread nD τ) = true :=
  Topo.routes_tc c (peer c j)

end Cert.Kernel.Coll

/-- info: 'Cert.Kernel.Coll.cpy_dev_eq_14' depends on axioms: [propext, Quot.sound] -/
#guard_msgs in #print axioms Cert.Kernel.Coll.cpy_dev_eq_14
-- ==== Proof.ValueDefsBits.lean ====
import proofs.«901087_g7700000000001088_dist_sum_ax0_shard0_i_m4096_n1024_v7x_i16_bf16_1_alg».proof.Proof.Gen.Kernel.Skeleton

/-!
# The kernel's result as one function of the devices' argument arrays

Device `c` holds rows `4096 c … 4096 c + 4095` of the whole array. Its four grid points add the column sums of its
four blocks of 1024 rows into its partial; its result is its partial plus the fifteen partials it receives, slot `j`
from the device `src c j`.
-/

noncomputable section

namespace Cert.Kernel.Val

open Idealize.ShloMosaic Cert.Kernel Cert.Kernel.Gen

variable {F : FTy → Type} [FloatOps F]

/-- rows `1024 k … 1024 k + 1023` of a device's array, as a `[1024, 1024]` vector -/
def blk (x : Vec F S4096x1024 .f32) (k : Fin 4) : Vec F S1024x1024 .f32 := fun i =>
  x (fun a => match a with
    | ⟨0, _⟩ => ⟨1024 * k.val + (i 0).val, by have h1 : k.val < 4 := k.isLt; have h2 : (i 0).val < 1024 := (i 0).isLt; show 1024 * k.val + (i 0).val < 4096; omega⟩
    | ⟨1, _⟩ => ⟨(i 1).val, (i 1).isLt⟩)

/-- a device's partial column sums after its four grid points -/
def part (x : Vec F S4096x1024 .f32) : Vec F S1x1024 .f32 :=
  k0_pay3 (blk x 3) (k0_pay3 (blk x 2) (k0_pay3 (blk x 1) (k0_pay2 (blk x 0))))

/-- the receive buffer with slot `j` holding `p j` -/
def comm (p : Fin 15 → Vec F S1x1024 .f32) : Vec F S15x1x1024 .f32 := fun i =>
  p (i 0) (fun a => match a with
    | ⟨0, _⟩ => ⟨0, show (0 : ℕ) < 1 from Nat.one_pos⟩
    | ⟨1, _⟩ => ⟨(i 2).val, (i 2).isLt⟩)

/-- device `c`'s result: its own partial plus the fifteen received ones -/
def outv (src : Dev nD → Fin 15 → Dev nD) (xs : Dev nD → Vec F S4096x1024 .f32) (c : Dev nD) : Vec F S1x1024 .f32 :=
  k0_pay4 (part (xs c)) (comm fun j => part (xs (src c j)))

end Cert.Kernel.Val

end
-- ==== Proof.ProtoBits.lean ====
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.Kernel
import proofs.«901087_g7700000000001088_dist_sum_ax0_shard0_i_m4096_n1024_v7x_i16_bf16_1_alg».proof.Proof.Gen.Kernel.Skeleton
import proofs.«901087_g7700000000001088_dist_sum_ax0_shard0_i_m4096_n1024_v7x_i16_bf16_1_alg».proof.Proof.Gen.Kernel.Launch
import proofs.«901087_g7700000000001088_dist_sum_ax0_shard0_i_m4096_n1024_v7x_i16_bf16_1_alg».proof.Proof.Gen.Kernel.Points
import proofs.«901087_g7700000000001088_dist_sum_ax0_shard0_i_m4096_n1024_v7x_i16_bf16_1_alg».proof.Proof.Gen.Kernel.Frame
import proofs.«901087_g7700000000001088_dist_sum_ax0_shard0_i_m4096_n1024_v7x_i16_bf16_1_alg».proof.Proof.DevArithBits
import proofs.«901087_g7700000000001088_dist_sum_ax0_shard0_i_m4096_n1024_v7x_i16_bf16_1_alg».proof.Proof.ValueDefsBits
import Idealize.ShloMosaic.Lib.Pipeline.Launch
import Idealize.ShloMosaic.Lib.Pipeline.Kit
import Idealize.ShloMosaic.Lib.SparseCore.Stream
import Idealize.ShloMosaic.Lib.Tactic

/-!
# The all-to-all column sum on sixteen devices: cells, schedule and proof data

Each device `c` accumulates the column sums of its four row blocks into its partial buffer, tells the fifteen other
devices over their barrier semaphores that it has entered (grid point 0), waits for their fifteen signals (point 2),
and at point 3 copies its partial into slot `j` of the receive buffer of the device `j + 1` places after it, for each
`j : Fin 15`, waits for the fifteen copies into its own receive buffer, adds them to its partial and waits for its own
copies to have left.

Cells of device `c`: its barrier cell (fifteen duties of one unit, duty `i` paid by the device `i + 1` places after `c`,
which hands over slot `i` of ITS receive buffer — the slot `c` will write — and that its receive cell `i` is at round 0),
fifteen send cells and fifteen receive cells of one duty each (the copy's credit). The partial buffer is lent to the
fifteen copies in sixteen pieces of its share, the last piece kept for the load that follows.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's (duties `Unit`) and the collective's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## Memrefs and semaphores -/

/-- the partial-sum buffer and the receive buffer -/
abbrev pM : Memref sig .tc .vmem S1x1024 .f32 := Memref.whole cc0_scratch0
abbrev cM : Memref sig .tc .vmem S15x1x1024 .f32 := Memref.whole cc0_scratch1

theorem slot_inb (j : Fin 15) : ∀ a, (![j.val, 0, 0] : Fin 3 → Nat) a + S1x1x1024.size a ≤ S15x1x1024.size a := by
  intro a; fin_cases a
  · show j.val + 1 ≤ 15; omega
  · show 0 + 1 ≤ 1; omega
  · show 0 + 1024 ≤ 1024; omega

/-- slot `j` of the receive buffer, as the row vector the copies move -/
abbrev slotM (j : Fin 15) : Memref sig .tc .vmem S1x1024 .f32 :=
  ((cM : Memref sig .tc .vmem S15x1x1024 .f32).slice (Rect.unit (s := S15x1x1024) ![j.val, 0, 0] S1x1x1024.size (slot_inb j)) (fun _ => rfl)).squeeze S1x1024 squeezes_S1x1x1024_S1x1024

abbrev barS : Sem sig := (SemArray.scalar (sig.barrier 0 rfl) : Sems sig S_).sem
/-- send semaphore `j` and receive semaphore `j` (the two scratch arrays of fifteen DMA semaphores) -/
abbrev sendSem (j : Fin 15) : DmaSem sig := ⟨3 + j.val, by have := j.isLt; show 3 + j.val < 33; omega⟩
abbrev recvSem (j : Fin 15) : DmaSem sig := ⟨18 + j.val, by have := j.isLt; show 18 + j.val < 33; omega⟩

abbrev barCell (c : Dev nD) : GSem nD τ sig := ((c : Thread nD τ), .reg barS)
abbrev sendCell (c : Dev nD) (j : Fin 15) : GSem nD τ sig := ((c : Thread nD τ), .dma (sendSem j))
abbrev recvCell (c : Dev nD) (j : Fin 15) : GSem nD τ sig := ((c : Thread nD τ), .dma (recvSem j))

/-- A device's cells, indexed: the barrier cell, send cell `j`, receive cell `j`. -/
inductive CIx : Type
  | bar : CIx
  | send : Fin 15 → CIx
  | recv : Fin 15 → CIx
  deriving DecidableEq, Fintype

abbrev csem : CIx → SemLoc sig
  | .bar => .reg barS
  | .send j => .dma (sendSem j)
  | .recv j => .dma (recvSem j)
abbrev kcell (ck : Dev nD × CIx) : GSem nD τ sig := ((ck.1 : Thread nD τ), csem ck.2)

/-- The kernel's OWN (scoped) semaphores as the launch theorem indexes them: `false, j` send `j`; `true, j` receive `j`. -/
abbrev osem : Bool × Fin 15 → SemLoc sig := fun x => if x.1 then .dma (recvSem x.2) else .dma (sendSem x.2)

/-- the units one row copy credits -/
abbrev N : ℕ := (pM : Memref sig .tc .vmem S1x1024 .f32).view.dmaCredit
theorem N_pos : 0 < N := View.dmaCredit_pos _ (by decide)

/-! ## Contents -/

/-- device `c`'s argument array as launched -/
abbrev xarr (c : Dev nD) : Vec F S4096x1024 .f32 := m ((c : Thread nD τ).loc main_arg0)

/-- the partial buffer of `c` after `k` grid points (`k = 1 … 4`; anything at `k = 0`) -/
def partAt (c : Dev nD) : ℕ → (cc0_scratch0 : Ref sig .tc).ty.Contents (Elt F)
  | 0 => k0_pay2 (Val.blk (xarr m c) 0)
  | 1 => k0_pay2 (Val.blk (xarr m c) 0)
  | 2 => k0_pay3 (Val.blk (xarr m c) 1) (k0_pay2 (Val.blk (xarr m c) 0))
  | 3 => k0_pay3 (Val.blk (xarr m c) 2) (k0_pay3 (Val.blk (xarr m c) 1) (k0_pay2 (Val.blk (xarr m c) 0)))
  | _ + 4 => Val.part (xarr m c)

/-- the partial sums of `c`: what it sends -/
abbrev partF (c : Dev nD) : (cc0_scratch0 : Ref sig .tc).ty.Contents (Elt F) := Val.part (xarr m c)

/-- the receive buffer of `c` once its fifteen slots have landed: slot `j` from the device `j + 1` places before it -/
def commF (c : Dev nD) : (cc0_scratch1 : Ref sig .tc).ty.Contents (Elt F) := Val.comm fun j => Val.part (xarr m (srcDev c j))

/-- the kernel's result on device `c` -/
def outAt (c : Dev nD) : (cc0_stg1_0 : Ref sig .tc).ty.Contents (Elt F) := Val.outv srcDev (fun d => xarr m d) c

theorem outAt_eq (c : Dev nD) : outAt m c = k0_pay4 (partF m c) (commF m c) := rfl

/-! ## Points-tos -/

def slotPts (c : Dev nD) (j : Fin 15) (f : Buf (Elt F) ((slotM j).view.loc (c : Thread nD τ))) : sProp 𝕄 :=
  (slotM j).view.loc (c : Thread nD τ) ↦[(slotM j).view.set]{fullShare} f
def partPts (q : PosShare TreeShare) (c : Dev nD) (f : Buf (Elt F) ((pM : Memref sig .tc .vmem S1x1024 .f32).view.loc (c : Thread nD τ))) : sProp 𝕄 :=
  (pM : Memref sig .tc .vmem S1x1024 .f32).view.loc (c : Thread nD τ) ↦[(pM : Memref sig .tc .vmem S1x1024 .f32).view.set]{q} f

/-- the share of the partial buffer lent to copy `j` (pieces `0 … 14` of sixteen), and the piece kept -/
abbrev lentShare (j : Fin 15) : PosShare TreeShare := piece fullShare 15 j.castSucc
abbrev keptShare : PosShare TreeShare := piece fullShare 15 (Fin.last 15)

instance slotPts_storable (c : Dev nD) (j : Fin 15) (f) : BI.Storable (upEmb : UEmb _ 𝕄) (slotPts (F := F) c j f) := by unfold slotPts; infer_instance
instance partPts_storable (q : PosShare TreeShare) (c : Dev nD) (f) : BI.Storable (upEmb : UEmb _ 𝕄) (partPts (F := F) q c f) := by unfold partPts; infer_instance

/-! ## The schedule -/

/-- What the device `i + 1` places after `c` hands `c` with its entry signal (duty `i` of `c`'s barrier cell): slot `i` of
    its receive buffer, and that its receive cell `i` is at round 0. -/
def barPay (c : Dev nD) (i : Fin 15) : sProp 𝕄 := iprop((∃ f, slotPts (peer c i) i f) ∗ reached ER (recvCell (peer c i) i) 0)
/-- slot `j` of `c`'s receive buffer, landed -/
def recvPay (c : Dev nD) (j : Fin 15) : sProp 𝕄 := slotPts c j (commF m c)
/-- the piece of the partial buffer lent to copy `j`, back -/
def sendPay (c : Dev nD) (j : Fin 15) : sProp 𝕄 := partPts (lentShare j) c (partF m c)

/-- One round, round 0: a barrier cell has fifteen duties of one unit; a send or receive cell the duty `0` of the row's credit. -/
def sched : Rounds.Schedule (GSem nD τ sig) (Fin 15) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => barPay g.1.1 d
    | .dma q => if h : 18 ≤ q.val then recvPay m g.1.1 ⟨q.val - 18, by have hq : q.val < 33 := q.isLt; omega⟩
                else if h3 : 3 ≤ q.val then sendPay m g.1.1 ⟨q.val - 3, by omega⟩ else iprop(emp)
  amount_pos g _ _ _ := by
    cases g.2 with
    | reg _ => exact Nat.one_pos
    | dma _ => exact N_pos

/-! ## What each device owes at launch; the levels -/

/-- the fifteen receive credits (paid by the copies at point 3) -/
def Orecv (c : Dev nD) : CellTallies nD τ sig Unit := ∑ j : Fin 15, tallyAt (recvCell (peer c j) j) () N
/-- and the fifteen entry signals (paid at point 0) -/
def Obar (c : Dev nD) : CellTallies nD τ sig Unit := ∑ j : Fin 15, tallyAt (barCell (peer c j)) () 1
def O₀ (c : Dev nD) : CellTallies nD τ sig Unit := Orecv c + Obar c
/-- the entry signals still to send once the first `n` are sent, and the receive credits still to pay once the first `n` copies are issued -/
def ObarFrom (c : Dev nD) (n : ℕ) : CellTallies nD τ sig Unit := ∑ j : Fin 15, if n ≤ j.val then tallyAt (barCell (peer c j)) () 1 else 0
def OrecvFrom (c : Dev nD) (n : ℕ) : CellTallies nD τ sig Unit := ∑ j : Fin 15, if n ≤ j.val then tallyAt (recvCell (peer c j) j) () N else 0

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 18 ≤ q.val then 2 else 0

/-! ## Ghost state -/

/-- every cell's invariant, under the names the launch allocated them at, and that every cell is at round 0 -/
def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

/-- the tokens of the duties device `c` pays: its fifteen entry signals, its fifteen copies' receive duties, its fifteen send duties -/
def barToks (c : Dev nD) : sProp 𝕄 := bigSep Finset.univ fun j : Fin 15 => dutyTok ER (barCell (peer c j)) 0 (rev j)
def cpyToks (c : Dev nD) : sProp 𝕄 :=
  iprop((bigSep Finset.univ fun j : Fin 15 => dutyTok ER (recvCell (peer c j) j) 0 (0 : Fin 15))
    ∗ bigSep Finset.univ fun j : Fin 15 => dutyTok ER (sendCell c j) 0 (0 : Fin 15))
/-- its positions in its own cells -/
def posBar (c : Dev nD) (r : ℕ) : sProp 𝕄 := atPos ER (barCell c) r ∅ 0
def posXfer (c : Dev nD) : sProp 𝕄 :=
  iprop((bigSep Finset.univ fun j : Fin 15 => atPos ER (sendCell c j) 0 ∅ 0) ∗ bigSep Finset.univ fun j : Fin 15 => atPos ER (recvCell c j) 0 ∅ 0)
/-- its credit on its own receive cells -/
def recvCreds (c : Dev nD) : sProp 𝕄 := bigSep Finset.univ fun j : Fin 15 => cred (tallyAt (recvCell c j) () N)

/-- Before point 0: all of it, the barrier's fifteen units of credit, both scratch buffers at any contents. -/
def Φ₀ (c : Dev nD) : sProp 𝕄 :=
  iprop((∃ K, records m K) ∗ posBar c 0 ∗ posXfer c ∗ barToks c ∗ cpyToks c ∗ cred (tallyAt (barCell c) () 15) ∗ recvCreds c ∗ levAts L lv
    ∗ (∃ f, partPts fullShare c f) ∗ (∃ g, ((c : Thread nD τ).loc cc0_scratch1) ↦{fullShare} g))
/-- Before points 1 and 2 (`k = 1, 2`): the entry signals sent, the receive buffer handed out, the partial at `partAt k`. -/
def Φmid (c : Dev nD) (k : ℕ) : sProp 𝕄 :=
  iprop((∃ K, records m K) ∗ posBar c 0 ∗ posXfer c ∗ cpyToks c ∗ cred (tallyAt (barCell c) () 15) ∗ recvCreds c ∗ levAts L lv
    ∗ partPts fullShare c (partAt m c k))
/-- Before point 3: the barrier waited, the fifteen peers' slots in hand. -/
def Φ₃ (c : Dev nD) : sProp 𝕄 :=
  iprop((∃ K, records m K) ∗ posBar c 1 ∗ posXfer c ∗ cpyToks c ∗ recvCreds c ∗ levAts L lv
    ∗ partPts fullShare c (partAt m c 3) ∗ bigSep Finset.univ fun i : Fin 15 => iprop(∃ f, slotPts (peer c i) i f))
/-- After point 3: both scratch buffers whole again, the thirty own cells closed at zero. -/
def Φ₄ (c : Dev nD) : sProp 𝕄 :=
  iprop(partPts fullShare c (partF m c) ∗ (((c : Thread nD τ).loc cc0_scratch1) ↦{fullShare} commF m c)
    ∗ (bigSep Finset.univ fun j : Fin 15 => semVal (sendCell c j) 0) ∗ bigSep Finset.univ fun j : Fin 15 => semVal (recvCell c j) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => outAt m c
  Φ t := match t with
    | ⟨0, _⟩ => Φ₀ m c
    | ⟨1, _⟩ => Φmid m c 1
    | ⟨2, _⟩ => Φmid m c 2
    | ⟨3, _⟩ => Φ₃ m c
    | ⟨_ + 4, _⟩ => Φ₄ m c
  q _ := fullShare
  owed t := match t with
    | ⟨0, _⟩ => O₀ c
    | ⟨1, _⟩ => Orecv c
    | ⟨2, _⟩ => Orecv c
    | ⟨3, _⟩ => Orecv c
    | ⟨_ + 4, _⟩ => 0

end Cert.Kernel.Coll

end
-- ==== Proof.BodyDefsBits.lean ====
import proofs.«901087_g7700000000001088_dist_sum_ax0_shard0_i_m4096_n1024_v7x_i16_bf16_1_alg».proof.Proof.ProtoBits

/-!
# The body obligation, one grid point at a time

The statement each grid point's proof closes: from the invariant before the point, what the device owes and the two
windows' current staging buffers, the kernel's body runs to the invariant after the point.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the pipeline library's body obligation for device `c`, at grid point `t` -/
def BodyAt (c : Dev nD) (t : Fin cfg0.N) : Prop :=
  iprop((dats (F := F) m ρ 0 c).Φ t.castSucc ∗ (dats (F := F) m ρ 0 c).owesAt () t.castSucc
        ∗ bigSep Finset.univ fun w : Fin cfg0.W =>
            iprop(∃ d, owns (c : Thread nD τ) ((cfg0.win w).stage (cfg0.slots t w)) fullShare ((dats (F := F) m ρ 0 c).before w t d)))
      ⊢ wp frame (wpE (defs₀ (F := F)) 𝒱₀ (c : Thread nD τ) none) Set.univ (defs₀ (F := F) .tc cfg0.body (cfg0.bodyArgs t (cfg0.slots t))) fun _ =>
          iprop((dats (F := F) m ρ 0 c).Φ t.succ ∗ (dats (F := F) m ρ 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats (F := F) m ρ 0 c).before w t d))
                  | true => owns (c : Thread nD τ) ((cfg0.win w).stage (cfg0.slots t w)) fullShare ((dats (F := F) m ρ 0 c).after w t)
                | false => owns (c : Thread nD τ) ((cfg0.win w).stage (cfg0.slots t w)) fullShare ((dats (F := F) m ρ 0 c).after w t))

/-- the four points' obligations are the library's -/
theorem bodyObligation_of (c : Dev nD) (h : ∀ t, BodyAt (F := F) m ρ c t) :
    BodyObligation (dats (F := F) m ρ 0 c) (defs₀ (F := F)) 𝒱₀ () Set.univ := fun t => h t

end Cert.Kernel.Coll

end
-- ==== Proof.SchedBits.lean ====
import proofs.«901087_g7700000000001088_dist_sum_ax0_shard0_i_m4096_n1024_v7x_i16_bf16_1_alg».proof.Proof.ProtoBits

/-!
# The schedule's tables, the levels, and the tallies owed

One round per cell. Read at a device's barrier cell the schedule has fifteen unit duties, at a send or receive cell
one duty of the row's credit; the payloads are those of the module that defines the schedule.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tables -/

theorem duties_bar (c : Dev nD) : (sched (F := F) m).duties (barCell c) 0 = Finset.univ := by
  dsimp only [sched]; exact if_pos ⟨rfl, rfl⟩
theorem duties_send (c : Dev nD) (j : Fin 15) : (sched (F := F) m).duties (sendCell c j) 0 = {0} := by
  dsimp only [sched]; rw [if_pos ⟨rfl, rfl⟩]; exact if_pos (Nat.le_add_right 3 _)
theorem duties_recv (c : Dev nD) (j : Fin 15) : (sched (F := F) m).duties (recvCell c j) 0 = {0} := by
  dsimp only [sched]; rw [if_pos ⟨rfl, rfl⟩]; exact if_pos (by omega)
theorem duties_later (g : GSem nD τ sig) : ∀ r, 1 ≤ r → (sched (F := F) m).duties g r = ∅ := by
  intro r hr; dsimp only [sched]; exact if_neg fun h => by have := h.1; omega

theorem amount_bar (c : Dev nD) (d : Fin 15) : (sched (F := F) m).amount (barCell c) 0 d = 1 := rfl
theorem amount_send (c : Dev nD) (j d : Fin 15) : (sched (F := F) m).amount (sendCell c j) 0 d = N := rfl
theorem amount_recv (c : Dev nD) (j d : Fin 15) : (sched (F := F) m).amount (recvCell c j) 0 d = N := rfl

theorem expect_bar (c : Dev nD) : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (c : Dev nD) (j : Fin 15) : (sched (F := F) m).expect (sendCell c j) 0 = N := by
  unfold Schedule.expect Schedule.amountOf; rw [duties_send, Finset.sum_singleton, amount_send]
theorem expect_recv (c : Dev nD) (j : Fin 15) : (sched (F := F) m).expect (recvCell c j) 0 = N := by
  unfold Schedule.expect Schedule.amountOf; rw [duties_recv, Finset.sum_singleton, amount_recv]

theorem payload_bar (c : Dev nD) (i : Fin 15) : (sched (F := F) m).payload (barCell c) 0 i = barPay c i := rfl
theorem payload_send (c : Dev nD) (j d : Fin 15) : (sched (F := F) m).payload (sendCell c j) 0 d = sendPay m c j := by
  dsimp only [sched]
  rw [dif_neg (show ¬ 18 ≤ 3 + j.val by omega), dif_pos (show 3 ≤ 3 + j.val by omega)]
  exact congrArg (sendPay m c) (Fin.ext (Nat.add_sub_cancel_left 3 j.val))
theorem payload_recv (c : Dev nD) (j d : Fin 15) : (sched (F := F) m).payload (recvCell c j) 0 d = recvPay m c j := by
  dsimp only [sched]
  rw [dif_pos (show 18 ≤ 18 + j.val by omega)]
  exact congrArg (recvPay m c) (Fin.ext (Nat.add_sub_cancel_left 18 j.val))

/-- The rest of a round no duty of which is taken: every payload of it. -/
theorem rest_bar (c : Dev nD) :
    bigSep ((sched (F := F) m).duties (barCell c) 0 \ ∅) (fun d => (sched (F := F) m).payload (barCell c) 0 d) = bigSep Finset.univ fun i : Fin 15 => barPay (F := F) c i := by
  rw [Finset.sdiff_empty, duties_bar]; rfl
theorem rest_send (c : Dev nD) (j : Fin 15) :
    bigSep ((sched (F := F) m).duties (sendCell c j) 0 \ ∅) (fun d => (sched (F := F) m).payload (sendCell c j) 0 d) = sendPay m c j := by
  rw [Finset.sdiff_empty, duties_send, bigSep_singleton, payload_send]
theorem rest_recv (c : Dev nD) (j : Fin 15) :
    bigSep ((sched (F := F) m).duties (recvCell c j) 0 \ ∅) (fun d => (sched (F := F) m).payload (recvCell c j) 0 d) = recvPay m c j := by
  rw [Finset.sdiff_empty, duties_recv, bigSep_singleton, payload_recv]

instance sched_payload_storable (g : GSem nD τ sig) (r : ℕ) (d : Fin 15) :
    BI.Storable (upEmb : UEmb _ 𝕄) ((sched (F := F) m).payload g r d) := by
  obtain ⟨t, s⟩ := g
  cases s with
  | reg s => show BI.Storable upEmb (barPay t.1 d); unfold barPay; infer_instance
  | dma q =>
    dsimp only [sched]
    split
    · unfold recvPay; infer_instance
    · split
      · unfold sendPay; infer_instance
      · infer_instance

/-! ## Cells are told apart -/

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  have hk : k = k' := by
    cases k with
    | bar =>
      cases k' with
      | bar => rfl
      | send j' => exact absurd h2 (fun e => by cases e)
      | recv j' => exact absurd h2 (fun e => by cases e)
    | send j =>
      cases k' with
      | bar => exact absurd h2 (fun e => by cases e)
      | send j' =>
        have h3 : 3 + j.val = 3 + j'.val := congrArg Fin.val (SemLoc.dma.inj h2)
        exact congrArg CIx.send (Fin.ext (by omega))
      | recv j' =>
        have h3 : 3 + j.val = 18 + j'.val := congrArg Fin.val (SemLoc.dma.inj h2)
        have := j.isLt; omega
    | recv j =>
      cases k' with
      | bar => exact absurd h2 (fun e => by cases e)
      | send j' =>
        have h3 : 18 + j.val = 3 + j'.val := congrArg Fin.val (SemLoc.dma.inj h2)
        have := j'.isLt; omega
      | recv j' =>
        have h3 : 18 + j.val = 18 + j'.val := congrArg Fin.val (SemLoc.dma.inj h2)
        exact congrArg CIx.recv (Fin.ext (by omega))
  rw [hk]
theorem bar_eq_iff {a b : Dev nD} : Iff (barCell a = barCell b) (a = b) :=
  ⟨fun h => congrArg (fun g : GSem nD τ sig => g.1.1) h, fun h => by rw [h]⟩
theorem recv_eq_iff {a b : Dev nD} {j j' : Fin 15} : Iff (recvCell a j = recvCell b j') (a = b ∧ j = j') := by
  refine ⟨fun h => ⟨congrArg (fun g : GSem nD τ sig => g.1.1) h, ?_⟩, fun h => by rw [h.1, h.2]⟩
  have h2 : (SemLoc.dma (recvSem j) : SemLoc sig) = .dma (recvSem j') := congrArg Prod.snd h
  have h3 : 18 + j.val = 18 + j'.val := congrArg Fin.val (SemLoc.dma.inj h2)
  exact Fin.ext (by omega)
theorem send_eq_iff {a b : Dev nD} {j j' : Fin 15} : Iff (sendCell a j = sendCell b j') (a = b ∧ j = j') := by
  refine ⟨fun h => ⟨congrArg (fun g : GSem nD τ sig => g.1.1) h, ?_⟩, fun h => by rw [h.1, h.2]⟩
  have h2 : (SemLoc.dma (sendSem j) : SemLoc sig) = .dma (sendSem j') := congrArg Prod.snd h
  have h3 : 3 + j.val = 3 + j'.val := congrArg Fin.val (SemLoc.dma.inj h2)
  exact Fin.ext (by omega)
theorem recv_ne_bar (a b : Dev nD) (j : Fin 15) : recvCell a j ≠ barCell b := fun h => by
  have h2 : (SemLoc.dma (recvSem j) : SemLoc sig) = .reg barS := congrArg Prod.snd h
  cases h2
theorem send_ne_bar (a b : Dev nD) (j : Fin 15) : sendCell a j ≠ barCell b := fun h => by
  have h2 : (SemLoc.dma (sendSem j) : SemLoc sig) = .reg barS := congrArg Prod.snd h
  cases h2
theorem send_ne_recv (a b : Dev nD) (j j' : Fin 15) : sendCell a j ≠ recvCell b j' := fun h => by
  have h2 : (SemLoc.dma (sendSem j) : SemLoc sig) = .dma (recvSem j') := congrArg Prod.snd h
  have h3 : 3 + j.val = 18 + j'.val := congrArg Fin.val (SemLoc.dma.inj h2)
  have := j.isLt; omega

/-! ## The tallies owed, read at a cell -/

theorem Orecv_apply (c : Dev nD) (g : GSem nD τ sig) (u : Unit) :
    Orecv c g u = ∑ j : Fin 15, if g = recvCell (peer c j) j then N else 0 := by
  unfold Orecv
  rw [Finset.sum_apply, Finsupp.finset_sum_apply]
  refine Finset.sum_congr rfl fun j _ => ?_
  rw [tallyAt_apply]
  by_cases h : g = recvCell (peer c j) j
  · rw [if_pos ⟨h, rfl⟩, if_pos h]
  · rw [if_neg (fun h' => h h'.1), if_neg h]

theorem Obar_apply (c : Dev nD) (g : GSem nD τ sig) (u : Unit) :
    Obar c g u = ∑ j : Fin 15, if g = barCell (peer c j) then 1 else 0 := by
  unfold Obar
  rw [Finset.sum_apply, Finsupp.finset_sum_apply]
  refine Finset.sum_congr rfl fun j _ => ?_
  rw [tallyAt_apply]
  by_cases h : g = barCell (peer c j)
  · rw [if_pos ⟨h, rfl⟩, if_pos h]
  · rw [if_neg (fun h' => h h'.1), if_neg h]

theorem O₀_apply (c : Dev nD) (g : GSem nD τ sig) (u : Unit) : O₀ c g u = Orecv c g u + Obar c g u := by
  unfold O₀; rw [Pi.add_apply, Finsupp.add_apply]

/-- a device owes receive credits to receive cells only -/
theorem Orecv_pos {c : Dev nD} {g : GSem nD τ sig} {u : Unit} (h : 0 < Orecv c g u) : ∃ j, g = recvCell (peer c j) j := by
  rw [Orecv_apply] at h
  by_contra hn
  rw [Finset.sum_eq_zero fun j _ => if_neg fun e => hn ⟨j, e⟩] at h
  exact Nat.lt_irrefl 0 h

/-- and entry signals to barrier cells only -/
theorem Obar_pos {c : Dev nD} {g : GSem nD τ sig} {u : Unit} (h : 0 < Obar c g u) : ∃ j, g = barCell (peer c j) := by
  rw [Obar_apply] at h
  by_contra hn
  rw [Finset.sum_eq_zero fun j _ => if_neg fun e => hn ⟨j, e⟩] at h
  exact Nat.lt_irrefl 0 h

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A wait on a staging cell (DMA semaphores 0, 1, 2: level 0) is below everything a device ever owes
    (barrier cells at 1, receive cells at 2). -/
theorem mayWait_stage (c : Dev nD) (q : DmaSem sig) (hq : q.val < 3) (O : CellTallies nD τ sig Unit) (hO : O = O₀ c ∨ O = Orecv c ∨ O = 0) :
    (levAts L lv : sProp 𝕄) ⊢ MayWait (c : Thread nD τ) (.dma q) () O := by
  have key : ∀ (g : GSem nD τ sig) (u : Unit), 0 < O g u → (∃ d j, g = recvCell d j) ∨ (∃ d, g = barCell d) := by
    intro g u hg
    rcases hO with rfl | rfl | rfl
    · rw [O₀_apply] at hg
      rcases (by omega : 0 < Orecv c g u ∨ 0 < Obar c g u) with h | h
      · obtain ⟨j, rfl⟩ := Orecv_pos h; exact .inl ⟨_, _, rfl⟩
      · obtain ⟨j, rfl⟩ := Obar_pos h; exact .inr ⟨_, rfl⟩
    · obtain ⟨j, rfl⟩ := Orecv_pos hg; exact .inl ⟨_, _, rfl⟩
    · exact absurd hg (Nat.lt_irrefl 0)
  refine MayOwe.of_cut (L := L) (lev := lv) 0 ?_ ?_ ?_ ?_
  · intro p hp; rw [Finset.mem_singleton.mp hp, L_tc]; exact Finset.mem_singleton_self _
  · intro g u hg
    rcases key g u hg with ⟨d, j, rfl⟩ | ⟨d, rfl⟩
    · rw [L_tc]; exact Finset.mem_singleton_self _
    · rw [L_tc]; exact Finset.mem_singleton_self _
  · intro p hp; rw [Finset.mem_singleton.mp hp]; dsimp only [lv]; rw [if_neg (by omega)]
  · intro g u hg
    rcases key g u hg with ⟨d, j, rfl⟩ | ⟨d, rfl⟩
    · dsimp only [lv]; rw [if_pos (Nat.le_add_right 18 _)]; exact Nat.succ_pos 1
    · exact Nat.one_pos
/-- At its barrier wait a device owes receive credits only: receive cells sit above barrier cells. -/
theorem mayWait_bar (c : Dev nD) :
    (levAts L lv : sProp 𝕄) ⊢ MayWait (c : Thread nD τ) (.reg barS) () (Orecv c) := by
  refine MayOwe.of_cut (L := L) (lev := lv) 1 ?_ ?_ ?_ ?_
  · intro p hp; rw [Finset.mem_singleton.mp hp, L_tc]; exact Finset.mem_singleton_self _
  · intro g u hg
    obtain ⟨j, rfl⟩ := Orecv_pos hg
    rw [L_tc]; exact Finset.mem_singleton_self _
  · intro p hp; rw [Finset.mem_singleton.mp hp]; exact Nat.le_refl 1
  · intro g u hg
    obtain ⟨j, rfl⟩ := Orecv_pos hg
    dsimp only [lv]; rw [if_pos (Nat.le_add_right 18 _)]; exact Nat.lt_succ_self 1

/-! ## The tallies owed, peeled in program order -/

theorem Obar_eq (c : Dev nD) : Obar c = ObarFrom c 0 := by
  unfold Obar ObarFrom; exact Finset.sum_congr rfl fun j _ => (if_pos (Nat.zero_le _)).symm
theorem Orecv_eq (c : Dev nD) : Orecv c = OrecvFrom c 0 := by
  unfold Orecv OrecvFrom; exact Finset.sum_congr rfl fun j _ => (if_pos (Nat.zero_le _)).symm
theorem ObarFrom_succ (c : Dev nD) (k : Fin 15) : ObarFrom c k.val = ObarFrom c (k.val + 1) + tallyAt (barCell (peer c k)) () 1 := by
  have hk : (tallyAt (barCell (peer c k)) () 1 : CellTallies nD τ sig Unit) = ∑ j : Fin 15, if j = k then (tallyAt (barCell (peer c j)) () 1 : CellTallies nD τ sig Unit) else 0 := by
    rw [Finset.sum_ite_eq', if_pos (Finset.mem_univ _)]
  unfold ObarFrom
  rw [hk, ← Finset.sum_add_distrib]
  refine Finset.sum_congr rfl fun j _ => ?_
  by_cases h1 : k.val + 1 ≤ j.val
  · rw [if_pos (show k.val ≤ j.val by omega), if_pos h1, if_neg (fun e => by rw [e] at h1; omega), add_zero]
  · by_cases h2 : j = k
    · subst h2; rw [if_pos (Nat.le_refl _), if_neg h1, if_pos rfl, zero_add]
    · rw [if_neg (fun h3 => h2 (Fin.ext (by omega))), if_neg h1, if_neg h2, add_zero]
theorem OrecvFrom_succ (c : Dev nD) (k : Fin 15) : OrecvFrom c k.val = OrecvFrom c (k.val + 1) + tallyAt (recvCell (peer c k) k) () N := by
  have hk : (tallyAt (recvCell (peer c k) k) () N : CellTallies nD τ sig Unit) = ∑ j : Fin 15, if j = k then (tallyAt (recvCell (peer c j) j) () N : CellTallies nD τ sig Unit) else 0 := by
    rw [Finset.sum_ite_eq', if_pos (Finset.mem_univ _)]
  unfold OrecvFrom
  rw [hk, ← Finset.sum_add_distrib]
  refine Finset.sum_congr rfl fun j _ => ?_
  by_cases h1 : k.val + 1 ≤ j.val
  · rw [if_pos (show k.val ≤ j.val by omega), if_pos h1, if_neg (fun e => by rw [e] at h1; omega), add_zero]
  · by_cases h2 : j = k
    · subst h2; rw [if_pos (Nat.le_refl _), if_neg h1, if_pos rfl, zero_add]
    · rw [if_neg (fun h3 => h2 (Fin.ext (by omega))), if_neg h1, if_neg h2, add_zero]
theorem ObarFrom_end (c : Dev nD) : ObarFrom c 15 = 0 := by
  unfold ObarFrom; exact Finset.sum_eq_zero fun j _ => if_neg (by have := j.isLt; omega)
theorem OrecvFrom_end (c : Dev nD) : OrecvFrom c 15 = 0 := by
  unfold OrecvFrom; exact Finset.sum_eq_zero fun j _ => if_neg (by have := j.isLt; omega)

/-- what device `d` owes device `c`'s barrier cell: one unit unless `d = c` -/
theorem owed_bar (d c : Dev nD) : O₀ d (barCell c) () = if d = c then 0 else 1 := by
  rw [O₀_apply, Orecv_apply, Obar_apply, Finset.sum_eq_zero fun j _ => if_neg (Ne.symm (recv_ne_bar (peer d j) c j)), zero_add]
  by_cases h : d = c
  · subst h
    rw [if_pos rfl]
    exact Finset.sum_eq_zero fun j _ => if_neg fun e => peer_ne_self d j (bar_eq_iff.mp e).symm
  · rw [if_neg h]
    obtain ⟨j0, hj0⟩ := exists_peer_of_ne (c := d) (d := c) (Ne.symm h)
    have hterm : ∀ j : Fin 15, (if barCell c = barCell (peer d j) then 1 else 0 : ℕ) = if j0 = j then 1 else 0 := fun j => by
      by_cases e : j0 = j
      · rw [if_pos e, if_pos (by rw [← e, hj0])]
      · rw [if_neg e, if_neg fun h' => e (peer_injective d (hj0.trans (bar_eq_iff.mp h')))]
    rw [Finset.sum_congr rfl fun j _ => hterm j, Finset.sum_ite_eq, if_pos (Finset.mem_univ _)]
/-- what device `d` owes receive cell `j` of `c`: the row's credit if `d` is the device `j + 1` places before `c` -/
theorem owed_recv (d c : Dev nD) (j : Fin 15) : O₀ d (recvCell c j) () = if d = srcDev c j then N else 0 := by
  rw [O₀_apply, Orecv_apply, Obar_apply, Finset.sum_eq_zero (s := Finset.univ) (f := fun j' : Fin 15 => if recvCell c j = barCell (peer d j') then 1 else 0)
    (fun j' _ => if_neg (recv_ne_bar c (peer d j') j)), add_zero]
  have hterm : ∀ j' : Fin 15, (if recvCell c j = recvCell (peer d j') j' then N else 0 : ℕ) = if j = j' then (if d = srcDev c j then N else 0) else 0 := fun j' => by
    by_cases e : j = j'
    · subst e
      rw [if_pos rfl]
      by_cases hd : d = srcDev c j
      · rw [if_pos hd, if_pos (by rw [hd, peer_srcDev])]
      · rw [if_neg hd, if_neg fun h' => hd (peer_eq_iff.mp (recv_eq_iff.mp h').1.symm)]
    · rw [if_neg e, if_neg fun h' => e (recv_eq_iff.mp h').2]
  rw [Finset.sum_congr rfl fun j' _ => hterm j', Finset.sum_ite_eq, if_pos (Finset.mem_univ _)]
/-- nothing is owed to a send cell or a staging cell -/
theorem owed_other (d : Dev nD) (g : GSem nD τ sig) (hb : ∀ c, g ≠ barCell c) (hr : ∀ c j, g ≠ recvCell c j) : O₀ d g () = 0 := by
  rw [O₀_apply, Orecv_apply, Obar_apply, Finset.sum_eq_zero fun j _ => if_neg (hr _ _), Finset.sum_eq_zero fun j _ => if_neg (hb _), add_zero]

end Cert.Kernel.Coll

end

/-- info: 'Cert.Kernel.Coll.owed_recv' depends on axioms: [propext, Classical.choice, Quot.sound] -/
#guard_msgs in #print axioms Cert.Kernel.Coll.owed_recv
-- ==== Proof.MemBits.lean ====
import proofs.«901087_g7700000000001088_dist_sum_ax0_shard0_i_m4096_n1024_v7x_i16_bf16_1_alg».proof.Proof.ProtoBits
import Idealize.ShloMosaic.Lib.Pipeline.Value

/-!
# The two scratch buffers, cut and rejoined

The receive buffer is the disjoint union of its fifteen row slots; the partial buffer's full share is sixteen pieces;
a row copied into slot `j` of a device's receive buffer leaves there what the finished receive buffer holds there.
Also: the printed slices of the semaphore arrays and of the receive buffer are the named cells and slots.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers' types -/

theorem slot_loc (c : Dev nD) (j : Fin 15) : (slotM j).view.loc (c : Thread nD τ) = (c : Thread nD τ).loc cc0_scratch1 := rfl
theorem part_loc (c : Dev nD) : (pM : Memref sig .tc .vmem S1x1024 .f32).view.loc (c : Thread nD τ) = (c : Thread nD τ).loc cc0_scratch0 := rfl

/-! ## Cutting and rejoining -/

/-- the elements of slot `j`: the unit rectangle of one row at row `j` -/
theorem slot_set (j : Fin 15) :
    (slotM j).view.set = (Rect.unit (s := S15x1x1024) ![j.val, 0, 0] S1x1x1024.size (slot_inb j)).set :=
  (View.set_reshape _ _).trans (View.set_slice_whole cc0_scratch1 _)

/-- an index of the receive buffer lies in slot `j` exactly when its first coordinate is `j` -/
theorem mem_slot_set (j : Fin 15) (i : S15x1x1024.Idx) : i ∈ (slotM j).view.set ↔ (i 0).val = j.val := by
  rw [slot_set, Rect.mem_set_unit]
  constructor
  · intro h
    have h0 := h 0
    change j.val ≤ (i 0).val ∧ (i 0).val < j.val + 1 at h0
    omega
  · intro h a
    fin_cases a
    · change j.val ≤ (i 0).val ∧ (i 0).val < j.val + 1; omega
    · have := (i 1).isLt; change (i 1).val < 1 at this
      change 0 ≤ (i 1).val ∧ (i 1).val < 0 + 1; omega
    · have := (i 2).isLt; change (i 2).val < 1024 at this
      change 0 ≤ (i 2).val ∧ (i 2).val < 0 + 1024; omega

/-- the whole receive buffer is its fifteen slots -/
theorem comm_split (c : Dev nD) (f : Buf (Elt F) ((c : Thread nD τ).loc cc0_scratch1)) :
    (((c : Thread nD τ).loc cc0_scratch1) ↦{fullShare} f : sProp 𝕄) = bigSep Finset.univ fun j : Fin 15 => slotPts c j f := by
  have hU : (Finset.univ : Finset (Idx ((c : Thread nD τ).loc cc0_scratch1))) = Finset.univ.biUnion fun j : Fin 15 => (slotM j).view.set := by
    ext i
    simp only [Finset.mem_univ, Finset.mem_biUnion, true_and, true_iff]
    exact ⟨⟨(i 0).val, (i 0).isLt⟩, (mem_slot_set _ i).mpr rfl⟩
  rw [hU]
  unfold slotPts
  exact pointsTo_biUnion Finset.univ _ fun j _ j' _ hne => Finset.disjoint_left.mpr fun i hi hi' =>
    hne (Fin.ext (((mem_slot_set j i).mp hi).symm.trans ((mem_slot_set j' i).mp hi')))

theorem partPts_full (c : Dev nD) (f : Buf (Elt F) ((c : Thread nD τ).loc cc0_scratch0)) :
    (partPts fullShare c f : sProp 𝕄) = (((c : Thread nD τ).loc cc0_scratch0) ↦{fullShare} f : sProp 𝕄) := by
  have h : (pM : Memref sig .tc .vmem S1x1024 .f32).view.set = Finset.univ := View.set_whole _
  unfold partPts
  rw [h]

/-- the partial buffer's full share is the fifteen lent pieces and the kept one -/
theorem part_split (c : Dev nD) (f : Buf (Elt F) ((c : Thread nD τ).loc cc0_scratch0)) :
    (partPts fullShare c f : sProp 𝕄) = iprop((bigSep Finset.univ fun j : Fin 15 => partPts (lentShare j) c f) ∗ partPts keptShare c f) := by
  unfold partPts
  -- sixteen pieces of the share; the last index split off, the first fifteen re-indexed along `castSucc`
  rw [pointsTo_pieces (Ix := Unit) (Name := ℕ) (U := UU) (Lvl := ℕ) _ f 15 fullShare, Fin.univ_castSuccEmb, Finset.cons_eq_insert,
    BI.bigSep_insert (show Fin.last 15 ∉ Finset.univ.map Fin.castSuccEmb from fun h => by
      obtain ⟨x, -, hx⟩ := Finset.mem_map.mp h; exact (Fin.castSucc_lt_last x).ne hx), BI.bigSep_map]
  exact BI.Entails.antisymm Idealize.SL.BI.sep_comm Idealize.SL.BI.sep_comm

/-- where the row vector's index `y` sits in the receive buffer through slot `k`: first coordinate `k`, last coordinate `y 1` -/
theorem slot_emb_val (k : Fin 15) (y : S1x1024.Idx) :
    (((slotM k).view.emb y : S15x1x1024.Idx) 0).val = k.val ∧ (((slotM k).view.emb y : S15x1x1024.Idx) 2).val = (y 1).val := by
  have hz : Shape.reshapeEquiv (squeezes_S1x1x1024_S1x1024.numel_eq) y = Fin.cons ⟨0, Nat.one_pos⟩ y := Shape.reshapeEquiv_cons_one _ y
  constructor
  · show k.val + 1 * ((Shape.reshapeEquiv (squeezes_S1x1x1024_S1x1024.numel_eq) y) 0).val = k.val
    rw [hz]
    show k.val + 1 * 0 = k.val
    omega
  · show 0 + 1 * ((Shape.reshapeEquiv (squeezes_S1x1x1024_S1x1024.numel_eq) y) 2).val = (y 1).val
    rw [hz]
    show 0 + 1 * (y 1).val = (y 1).val
    omega

/-- A row landed: slot `k` of device `n`'s receive buffer, overwritten with the partial of the device `k + 1` places
    before `n`, holds what the finished receive buffer holds there, whatever the buffer held. -/
theorem slot_landed (n : Dev nD) (k : Fin 15) (fd : Buf (Elt F) ((slotM k).view.loc (n : Thread nD τ))) :
    (slotPts n k ((slotM k).view.write (Elt F) fd ((pM : Memref sig .tc .vmem S1x1024 .f32).view.read (Elt F) (partF m (srcDev n k))) Finset.univ) : sProp 𝕄)
      ⊢ slotPts n k (commF m n) := by
  unfold slotPts
  refine Idealize.SL.BI.BIBase.Entails.of_eq (pointsTo_congr fun i hi => ?_)
  obtain ⟨y, rfl⟩ := View.exists_emb_of_mem_set _ hi
  rw [View.write_emb_of_mem _ _ (Finset.mem_univ y)]
  obtain ⟨h0, h2⟩ := slot_emb_val k y
  have hk : ((slotM k).view.emb y : S15x1x1024.Idx) 0 = k := Fin.ext h0
  -- the row read through the whole partial buffer is the partial itself; the finished buffer at this index is the
  -- partial of the device its first coordinate names, at the index `(0, last coordinate)`
  show Val.part (xarr m (srcDev n k)) y
    = Val.part (xarr m (srcDev n (((slotM k).view.emb y : S15x1x1024.Idx) 0))) _
  rw [hk]
  congr 1
  funext a
  fin_cases a
  · exact Fin.ext (by have := (y 0).isLt; change (y 0).val < 1 at this; show (y 0).val = 0; omega)
  · exact Fin.ext h2.symm

/-! ## Credits -/

theorem slot_amount (j : Fin 15) (sm : DmaSem sig) : (slotM j).view.amount (SemLoc.dma sm) = N := rfl
theorem slot_credit (j : Fin 15) : (slotM j).view.dmaCredit = N := rfl

end Cert.Kernel.Coll

end

/-- info: 'Cert.Kernel.Coll.comm_split' depends on axioms: [propext, Classical.choice, Quot.sound] -/
#guard_msgs in #print axioms Cert.Kernel.Coll.comm_split

/-- info: 'Cert.Kernel.Coll.part_split' depends on axioms: [propext, Classical.choice, Quot.sound] -/
#guard_msgs in #print axioms Cert.Kernel.Coll.part_split

/-- info: 'Cert.Kernel.Coll.slot_landed' depends on axioms: [propext, Classical.choice, Quot.sound] -/
#guard_msgs in #print axioms Cert.Kernel.Coll.slot_landed
-- ==== Proof.BlkBits.lean ====
import proofs.«901087_g7700000000001088_dist_sum_ax0_shard0_i_m4096_n1024_v7x_i16_bf16_1_alg».proof.Proof.ProtoBits

/-!
# The input window's blocks are the row blocks of the device's array

At grid point `t` the argument window reads the block of index `(t, 0)` with sizes `1024 × 1024`: rows
`1024 t … 1024 t + 1023` and every column of the device's `[4096, 1024]` array.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument window's block index at grid point `t`: row block `t`, column block `0`. -/
theorem index_arg : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The argument window's block at grid point `t = k` is rows `1024 k … 1024 k + 1023` of the device's array. -/
theorem iblk_eq_blk (c : Dev nD) (t : Fin cfg0.N) (k : Fin 4) (hk : t.val = k.val) :
    (iblk m c 0 t : Vec F S1024x1024 .f32) = Val.blk (xarr m c) k := by
  funext i
  unfold iblk Val.blk
  rw [View.read_apply]
  -- both sides read the device's array: the two indices agree on each axis, a block's coordinate being
  -- (block index) × (block size) + (coordinate inside the block)
  show m ((c : Thread nD τ).loc main_arg0) _ = m ((c : Thread nD τ).loc main_arg0) _
  congr 1
  funext a
  apply Fin.ext
  match a with
  | ⟨0, _⟩ =>
    show win0_0.index t 0 * 1024 + 1 * (i 0).val = 1024 * k.val + (i 0).val
    rw [(index_arg t).1, hk]; omega
  | ⟨1, _⟩ =>
    show win0_0.index t 1 * 1024 + 1 * (i 1).val = (i 1).val
    rw [(index_arg t).2]; omega

end Cert.Kernel.Coll

end
-- ==== Proof.Steps3Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits

/-!
# The steps of grid point 3, each stated once for a copy number `k`

Before copy `k` is issued the device holds, for every copy not yet issued, the piece of its partial lent to it, the
target's slot, and the two duty tokens the copy pays; an issued copy has left the credit of its send cell. A receive
wait turns the credit and position on receive cell `k` into slot `k` landed; a send wait turns the credit and position
on send cell `k` into the lent piece back.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

variable (K : Dev nD × CIx → ℕ)

theorem inv_at (ck : Dev nD × CIx) : records (F := F) m K ⊢ cellInv ER (sched m) (K ck) (kcell ck) := by
  unfold records
  iintro ⟨HI, -⟩
  iapply (show (bigSep Finset.univ fun ck : Dev nD × CIx => (cellInv ER (sched m) (K ck) (kcell ck) : sProp 𝕄)) ⊢ cellInv ER (sched m) (K ck) (kcell ck) from bigSep_elim (Finset.mem_univ ck))
  iexact HI
theorem reached_at (ck : Dev nD × CIx) : records (F := F) m K ⊢ reached ER (kcell ck) 0 := by
  unfold records
  iintro ⟨-, HR⟩
  iapply (show (bigSep Finset.univ fun ck : Dev nD × CIx => (reached ER (kcell ck) 0 : sProp 𝕄)) ⊢ reached ER (kcell ck) 0 from bigSep_elim (Finset.mem_univ ck))
  iexact HR

/-- what copy `j` needs: the piece of the partial lent to it, the target's slot, its two duty tokens -/
def sendItem (c : Dev nD) (j : Fin 15) : sProp 𝕄 :=
  iprop(partPts (lentShare j) c (partF m c) ∗ (∃ f, slotPts (peer c j) j f)
    ∗ dutyTok ER (sendCell c j) 0 (0 : Fin 15) ∗ dutyTok ER (recvCell (peer c j) j) 0 (0 : Fin 15))
/-- the copies from `n` on still to issue, the earlier ones' send credits in hand -/
def sendInv (c : Dev nD) (n : ℕ) : sProp 𝕄 :=
  bigSep Finset.univ fun j : Fin 15 => if n ≤ j.val then sendItem m c j else cred (tallyAt (sendCell c j) () N)

theorem bigSep_step {Φ Ψ : Fin 15 → sProp 𝕄} (k : Fin 15) (n : ℕ) (hn : n = k.val) :
    (bigSep Finset.univ fun j : Fin 15 => if n ≤ j.val then Φ j else Ψ j)
      = iprop(Φ k ∗ bigSep (Finset.univ.erase k) fun j : Fin 15 => if n + 1 ≤ j.val then Φ j else Ψ j) := by
  subst hn
  rw [← Finset.insert_erase (Finset.mem_univ k), BI.bigSep_insert (Finset.notMem_erase k _), if_pos (le_refl _), Finset.insert_erase (Finset.mem_univ k)]
  congr 1
  refine bigSep_congr fun j hj => ?_
  have hne : j ≠ k := (Finset.mem_erase.mp hj).1
  have : (k.val ≤ j.val) ↔ (k.val + 1 ≤ j.val) := ⟨fun h => Nat.lt_of_le_of_ne h (fun e => hne (Fin.ext e.symm)), fun h => Nat.le_of_succ_le h⟩
  by_cases h : k.val ≤ j.val
  · rw [if_pos h, if_pos (this.mp h)]
  · rw [if_neg h, if_neg (fun h' => h (this.mpr h'))]

theorem bigSep_step' {Φ Ψ : Fin 15 → sProp 𝕄} (k : Fin 15) :
    (bigSep Finset.univ fun j : Fin 15 => if k.val + 1 ≤ j.val then Φ j else Ψ j)
      = iprop(Ψ k ∗ bigSep (Finset.univ.erase k) fun j : Fin 15 => if k.val + 1 ≤ j.val then Φ j else Ψ j) := by
  rw [← Finset.insert_erase (Finset.mem_univ k), BI.bigSep_insert (Finset.notMem_erase k _), if_neg (Nat.not_succ_le_self _), Finset.insert_erase (Finset.mem_univ k)]
  rfl

set_option maxHeartbeats 1600000 in
/-- COPY `k`: the row copy of the partial into slot `k` of the device `k + 1` places on. -/
theorem send_step (c : Dev nD) (k : Fin 15) (n : Dev nD) (hn : n = peer c k)
    {hsc : (slotM k : Memref sig (Dev.tc n : Thread nD τ).2.kind .vmem S1x1024 .f32).view.ref.isScScratch = false}
    {hsrc : (pM : Memref sig .tc .vmem S1x1024 .f32).view.WordExact} {hdst : (slotM k : Memref sig .tc .vmem S1x1024 .f32).view.WordExact}
    {hsem : DmaTarget.Typed .vmem (.dma (recvSem k)) (.remote (Dev.tc n : Thread nD τ) (slotM k : Memref sig .tc .vmem S1x1024 .f32) (.dma (sendSem k)) hsc)}
    {α : Type} {Q : α → sProp 𝕄} {cont : PUnit → Prog (TpuEff nD τ sig (Elt F) Λ₀ .tc) α} (W : Waits sig Unit) :
    iprop(records m K ∗ sendInv m c k.val ∗ owes (c : Thread nD τ) (OrecvFrom c k.val) W)
      ⊢ iprop(((sendInv m c (k.val + 1) ∗ owes (c : Thread nD τ) (OrecvFrom c (k.val + 1)) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma pM (.remote (Dev.tc n : Thread nD τ) (slotM k) (.dma (sendSem k)) hsc) (.dma (recvSem k)) hsrc hdst hsem) cont) Q) := by
  subst hn
  unfold sendInv
  rw [bigSep_step k k.val rfl, bigSep_step' k]
  unfold sendItem
  iintro ⟨#HR, ⟨⟨Hp, ⟨%fn, Hs⟩, Hts, Htr⟩, Hrest⟩, HO⟩ Hk
  ihave HIs := (inv_at m K (c, .send k)) $$ HR
  ihave HIr := (inv_at m K (peer c k, .recv k)) $$ HR
  ihave Hrs := (reached_at m K (c, .send k)) $$ HR
  ihave Hrr := (reached_at m K (peer c k, .recv k)) $$ HR
  unfold partPts slotPts
  iapply (Rounds.wp_send_pointsTo 𝒱₀ ER (sched m) (c : Thread nD τ) none (κ₁ := K (c, .send k)) (κ₂ := K (peer c k, .recv k))
    (r₁ := 0) (r₂ := 0) (d₁ := (0 : Fin 15)) (d₂ := (0 : Fin 15)) (fd := fn) (q := lentShare k)
    (by rw [duties_send]; exact Finset.mem_singleton_self _) (by rw [duties_recv]; exact Finset.mem_singleton_self _)
    () () N (slot_amount k (recvSem k)) (amount_send m c k 0) (amount_recv m (peer c k) k 0) (OrecvFrom c (k.val + 1)) (OrecvFrom_succ c k) (W := W)
    (by rw [payload_send]; unfold sendPay partPts; exact BI.Entails.refl _)
    (by rw [payload_recv]; unfold recvPay
        have h := slot_landed m (peer c k) k fn
        rw [srcDev_peer] at h
        unfold slotPts at h; exact h)
    (routes_peer c k)) $$ [HIs HIr Hp Hs HO Hts Htr Hrs Hrr]
  · isplitl [HIs]; · iexact HIs
    isplitl [HIr]; · iexact HIr
    isplitl [Hp]; · iexact Hp
    isplitl [Hs]; · iexact Hs
    isplitl [HO]; · iexact HO
    isplitl [Hts]; · iexact Hts
    isplitl [Hrs]; · iexact Hrs
    isplitl [Htr]; · iexact Htr
    iexact Hrr
  iintro ⟨Hc, HO⟩
  iapply Hk
  isplitr [HO]
  · isplitl [Hc]; · iexact Hc
    iexact Hrest
  · iexact HO

/-! ## The waits' states -/

/-- receive cell `j`: before its wait the credit and the position at round 0; after it slot `j` landed and the position at round 1 -/
def recvInv (c : Dev nD) (n : ℕ) : sProp 𝕄 :=
  bigSep Finset.univ fun j : Fin 15 => if n ≤ j.val then iprop(cred (tallyAt (recvCell c j) () N) ∗ atPos ER (recvCell c j) 0 ∅ 0)
    else iprop(slotPts c j (commF m c) ∗ atPos ER (recvCell c j) 1 ∅ 0)
/-- send cell `j`: before its wait the credit and the position at round 0; after it the lent piece back and the position at round 1 -/
def sendwInv (c : Dev nD) (n : ℕ) : sProp 𝕄 :=
  bigSep Finset.univ fun j : Fin 15 => if n ≤ j.val then iprop(cred (tallyAt (sendCell c j) () N) ∗ atPos ER (sendCell c j) 0 ∅ 0)
    else iprop(partPts (lentShare j) c (partF m c) ∗ atPos ER (sendCell c j) 1 ∅ 0)

end Cert.Kernel.Coll

end
-- ==== Proof.Body0Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.BlkBits
import proofs.«901087_g7700000000001088_dist_sum_ax0_shard0_i_m4096_n1024_v7x_i16_bf16_1_alg».proof.Proof.Steps3Bits

/-!
# The body at grid point 0

The device loads its first block, stores the block's column sums as its partial, reads its own index, and tells each
of the fifteen other devices, over that device's barrier semaphore, that it has entered. The signal to the device
`k + 1` places on pays duty `rev k` of that device's barrier cell — the duty of the device `rev k + 1` places after it,
which is this one — and hands over slot `rev k` of this device's receive buffer, the slot that device will write, with
the fact that this device's receive cell `rev k` is at round 0.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 8000000

variable (K : Dev nD × CIx → ℕ)

/-! ## Reading and writing whole buffers -/

theorem p0_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- The argument window is fetched at every point: its staging buffer holds the point's block. -/
theorem p0_before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl
/-- The result window is written back at the last point only. -/
theorem p0_flush1_false (t : Fin cfg0.N) (h : t.val % 4 ≠ 3) : (cfg0.win 1).flush t = false := by
  cases hh : (cfg0.win 1).flush t
  · rfl
  · exact absurd ((flush0_1 t).mp hh) h
theorem p0_zero2 : (![0, 0] : Fin 2 → ℕ) = fun _ => 0 := by funext a; fin_cases a <;> rfl
theorem p0_readAt_part (f : (cc0_scratch0 : Ref sig .tc).ty.Contents (Elt F)) :
    (Memref.whole cc0_scratch0 : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 p0_zero2 _ f
theorem p0_write_part (f w : (cc0_scratch0 : Ref sig .tc).ty.Contents (Elt F)) :
    ((Memref.whole cc0_scratch0 : Memref sig .tc .vmem S1x1024 .f32).access
      (Rect.unit (s := S1x1024) ![0, 0] S1x1024.size inb_S1x1024_S1x1024_0_0)).write (Elt F) f w Finset.univ = w :=
  Memref.write_access_unit_zero_univ (Elt F) cc0_scratch0 p0_zero2 _ f w
theorem p0_readAt_stg0 (f : (cc0_stg0_0 : Ref sig .tc).ty.Contents (Elt F)) :
    (Memref.whole cc0_stg0_0 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg0_0 p0_zero2 _ f

/-! ## The conditions at grid point 0 -/

theorem p0_c1 : Scalar.cmpi .ne (Scalar.extui (Scalar.cmpi .eq (BitVec.ofNat 32 (grid0.coords t0_0 0).val) 0#32)) 0#32 = 1#1 := by decide
theorem p0_c2 : ¬ (Scalar.cmpi .ne (Scalar.extui (Scalar.cmpi .sgt (BitVec.ofNat 32 (grid0.coords t0_0 0).val) 0#32)) 0#32 = 1#1) := by decide
theorem p0_c3 : k0_cond3 (grid0.coords t0_0) = 1#1 := by decide
theorem p0_c4 : ¬ (Scalar.cmpi .ne (Scalar.extui (Scalar.cmpi .eq (BitVec.ofNat 32 (grid0.coords t0_0 0).val) 2#32)) 0#32 = 1#1) := by decide
theorem p0_c5 : ¬ (k0_cond5 (grid0.coords t0_0) = 1#1) := by decide

/-! ## The entry signals -/

/-- the entry signals from `n` on still to send: for each, the duty's token and the slot it hands over -/
def sigInv (c : Dev nD) (n : ℕ) : sProp 𝕄 :=
  bigSep Finset.univ fun j : Fin 15 => if n ≤ j.val then iprop(dutyTok ER (barCell (peer c j)) 0 (rev j) ∗ ∃ f, slotPts c (rev j) f) else iprop(emp)

/-- SIGNAL `k`: one unit on the barrier semaphore of the device `k + 1` places on. -/
theorem sig_step (c : Dev nD) (k : Fin 15) (n : Dev nD) (hn : n = peer c k) (a : ℕ) (ha : a = 1)
    {α : Type} {Q : α → sProp 𝕄} {cont : PUnit → Prog (TpuEff nD τ sig (Elt F) Λ₀ .tc) α} (W : Waits sig Unit) :
    iprop(records m K ∗ sigInv c k.val ∗ owes (c : Thread nD τ) (Orecv c + ObarFrom c k.val) W)
      ⊢ iprop(((sigInv (F := F) c (k.val + 1) ∗ owes (c : Thread nD τ) (Orecv c + ObarFrom c (k.val + 1)) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS a) cont) Q) := by
  subst hn ha
  unfold sigInv
  rw [bigSep_step k k.val rfl, bigSep_step' k]
  iintro ⟨#HR, ⟨⟨Htok, ⟨%f, Hs⟩⟩, Hrest⟩, HO⟩ Hk
  ihave HI := (inv_at m K (peer c k, .bar)) $$ HR
  ihave Hrb := (reached_at m K (peer c k, .bar)) $$ HR
  ihave Hrr := (reached_at m K (c, .recv (rev k))) $$ HR
  have hO : Orecv c + ObarFrom c k.val = (Orecv c + ObarFrom c (k.val + 1)) + tallyAt (barCell (peer c k)) () 1 := by
    rw [ObarFrom_succ c k, add_assoc]
  iapply (Rounds.wp_signal 𝒱₀ ER (sched m) (c : Thread nD τ) none (dst := (peer c k : Thread nD τ)) (sem := barS) (r := 0) (d := rev k)
      (κ := K (peer c k, .bar)) (by rw [duties_bar]; exact Finset.mem_univ _) (amount_bar m (peer c k) (rev k)) ()
      (Orecv c + ObarFrom c (k.val + 1)) hO (W := W) (routes_peer c k)) $$ [HI HO Htok Hs Hrr Hrb]
  · isplitl [HI]; · iexact HI
    isplitl [HO]; · iexact HO
    isplitl [Htok]; · iexact Htok
    isplitr [Hrb]
    · rw [payload_bar]; unfold barPay; rw [peer_peer_rev]
      isplitl [Hs]
      · iexists f; iexact Hs
      · iexact Hrr
    · iexact Hrb
  iintro HO
  iapply Hk
  isplitr [HO]
  · isplitr [Hrest]
    · iempintro
    · iexact Hrest
  · iexact HO

/-! ## The bundle of signals, made and spent -/

/-- `rev` as a permutation of the fifteen offsets -/
def p0_revEquiv : Fin 15 ≃ Fin 15 := ⟨rev, rev, rev_rev, rev_rev⟩

/-- The fifteen tokens of the entry signals and the whole receive buffer, cut into its slots and paired offset by offset. -/
theorem p0_mk_sigInv (c : Dev nD) (g : Buf (Elt F) ((c : Thread nD τ).loc cc0_scratch1)) :
    iprop(barToks c ∗ (((c : Thread nD τ).loc cc0_scratch1) ↦{fullShare} g)) ⊢ (sigInv c 0 : sProp 𝕄) := by
  unfold barToks sigInv
  rw [comm_split c g, bigSep_univ_equiv p0_revEquiv (fun j => slotPts c j g), ← bigSep_sep']
  have one : ∀ j : Fin 15, iprop(dutyTok ER (barCell (peer c j)) 0 (rev j) ∗ slotPts c (p0_revEquiv j) g)
      ⊢ (if 0 ≤ j.val then iprop(dutyTok ER (barCell (peer c j)) 0 (rev j) ∗ ∃ f, slotPts c (rev j) f) else iprop(emp) : sProp 𝕄) := fun j => by
    rw [if_pos (Nat.zero_le _)]
    iintro ⟨Ht, Hs⟩
    isplitl [Ht]; · iexact Ht
    iexists g; iexact Hs
  exact bigSep_mono fun j _ => one j

/-! ## The body -/

/-- The body at grid point 0 takes the launch state of device `c` to the state before point 1. -/
theorem body_pt0 (c : Dev nD) : BodyAt (F := F) m ρ c t0_0 := by
  unfold BodyAt
  rw [bigSep_W0, bigSep_W0]
  have hidle : cfg0.idle 1 (cfg0.grid.coords t0_0) = true := by decide
  have hfl : (cfg0.win 1).flush t0_0 = false := p0_flush1_false t0_0 (by decide)
  simp only [hidle, hfl]
  show iprop(Φ₀ m c ∗ (dats m ρ 0 c).owesAt () t0_0.castSucc
        ∗ (∃ d, owns c.tc (Memref.whole cc0_stg0_0) fullShare ((dats m ρ 0 c).before 0 t0_0 d))
        ∗ ∃ d, owns c.tc (Memref.whole cc0_stg1_0) fullShare ((dats m ρ 0 c).before 1 t0_0 d))
      ⊢ wp frame (wpE (defs₀ (F := F)) 𝒱₀ (c : Thread nD τ) none) Set.univ
          (cc0_body (grid0.coords t0_0) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φmid m c 1 ∗ (dats m ρ 0 c).owesAt () t0_0.succ
            ∗ owns c.tc (Memref.whole cc0_stg0_0) fullShare (iblk m c 0 t0_0)
            ∗ ∃ d, owns c.tc (Memref.whole cc0_stg1_0) fullShare ((dats m ρ 0 c).before 1 t0_0 d))
  simp only [p0_owns_whole_eq, p0_before0]
  unfold Φ₀
  rw [cc0_body_eq_skeleton]; unfold cc0_body_skel
  simp only [dif_pos p0_c1, dif_neg p0_c2, dif_pos p0_c3, dif_neg p0_c4, dif_neg p0_c5]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, Prog.lift, Prog.bind_op, Prog.bind_ret, Prog.pure_eq_ret]
  iintro ⟨⟨⟨%K, #HR⟩, HpB, HpX, Hbt, Hct, Hcr, Hrc, #Hlev, ⟨%fp, Hp⟩, ⟨%g, Hcomm⟩⟩, Ho, ⟨%d0, %f0, %hf0, Hx⟩, Hout⟩
  subst hf0
  unfold Dat.owesAt Pipeline.owesWithin
  icases Ho with ⟨%W, %hW, HO⟩
  rw [show (dats (F := F) m ρ 0 c).owed t0_0.castSucc = O₀ c from rfl]
  ihave Hp := (Entails.of_eq (partPts_full c _)) $$ Hp
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hp; iintro Hp
  iapply (wp_store 𝒱₀ (c : Thread nD τ) none Set.univ (m := Memref.whole cc0_scratch0) (r := Rect.unit (s := S1x1024) ![0, 0] S1x1024.size inb_S1x1024_S1x1024_0_0) (Mk := Finset.univ) (Finset.subset_univ _)) $$ Hp; iintro Hp
  erw [p0_write_part, p0_readAt_stg0]
  rw [iblk_eq_blk m c t0_0 0 rfl, wp_deviceId]
  -- the fifteen tokens and the receive buffer's fifteen slots, paired
  ihave HS := (p0_mk_sigInv c g) $$ [Hbt Hcomm]
  · isplitl [Hbt]; · iexact Hbt
    iexact Hcomm
  unfold O₀
  rw [Obar_eq]
  -- the fifteen entry signals
  iapply (sig_step m K c 0 _ (sig_dev_eq_0 _ c p0_c3) _ rfl W) $$ [HS HO]
  · isplitr; · iexact HR
    isplitl [HS]; · iexact HS
    iexact HO
  iintro ⟨HS, HO⟩
  iapply (sig_step m K c 1 _ (sig_dev_eq_1 _ c p0_c3) _ rfl W) $$ [HS HO]
  · isplitr; · iexact HR
    isplitl [HS]; · iexact HS
    iexact HO
  iintro ⟨HS, HO⟩
  iapply (sig_step m K c 2 _ (sig_dev_eq_2 _ c p0_c3) _ rfl W) $$ [HS HO]
  · isplitr; · iexact HR
    isplitl [HS]; · iexact HS
    iexact HO
  iintro ⟨HS, HO⟩
  iapply (sig_step m K c 3 _ (sig_dev_eq_3 _ c p0_c3) _ rfl W) $$ [HS HO]
  · isplitr; · iexact HR
    isplitl [HS]; · iexact HS
    iexact HO
  iintro ⟨HS, HO⟩
  iapply (sig_step m K c 4 _ (sig_dev_eq_4 _ c p0_c3) _ rfl W) $$ [HS HO]
  · isplitr; · iexact HR
    isplitl [HS]; · iexact HS
    iexact HO
  iintro ⟨HS, HO⟩
  iapply (sig_step m K c 5 _ (sig_dev_eq_5 _ c p0_c3) _ rfl W) $$ [HS HO]
  · isplitr; · iexact HR
    isplitl [HS]; · iexact HS
    iexact HO
  iintro ⟨HS, HO⟩
  iapply (sig_step m K c 6 _ (sig_dev_eq_6 _ c p0_c3) _ rfl W) $$ [HS HO]
  · isplitr; · iexact HR
    isplitl [HS]; · iexact HS
    iexact HO
  iintro ⟨HS, HO⟩
  iapply (sig_step m K c 7 _ (sig_dev_eq_7 _ c p0_c3) _ rfl W) $$ [HS HO]
  · isplitr; · iexact HR
    isplitl [HS]; · iexact HS
    iexact HO
  iintro ⟨HS, HO⟩
  iapply (sig_step m K c 8 _ (sig_dev_eq_8 _ c p0_c3) _ rfl W) $$ [HS HO]
  · isplitr; · iexact HR
    isplitl [HS]; · iexact HS
    iexact HO
  iintro ⟨HS, HO⟩
  iapply (sig_step m K c 9 _ (sig_dev_eq_9 _ c p0_c3) _ rfl W) $$ [HS HO]
  · isplitr; · iexact HR
    isplitl [HS]; · iexact HS
    iexact HO
  iintro ⟨HS, HO⟩
  iapply (sig_step m K c 10 _ (sig_dev_eq_10 _ c p0_c3) _ rfl W) $$ [HS HO]
  · isplitr; · iexact HR
    isplitl [HS]; · iexact HS
    iexact HO
  iintro ⟨HS, HO⟩
  iapply (sig_step m K c 11 _ (sig_dev_eq_11 _ c p0_c3) _ rfl W) $$ [HS HO]
  · isplitr; · iexact HR
    isplitl [HS]; · iexact HS
    iexact HO
  iintro ⟨HS, HO⟩
  iapply (sig_step m K c 12 _ (sig_dev_eq_12 _ c p0_c3) _ rfl W) $$ [HS HO]
  · isplitr; · iexact HR
    isplitl [HS]; · iexact HS
    iexact HO
  iintro ⟨HS, HO⟩
  iapply (sig_step m K c 13 _ (sig_dev_eq_13 _ c p0_c3) _ rfl W) $$ [HS HO]
  · isplitr; · iexact HR
    isplitl [HS]; · iexact HS
    iexact HO
  iintro ⟨HS, HO⟩
  iapply (sig_step m K c 14 _ (sig_dev_eq_14 _ c p0_c3) _ rfl W) $$ [HS HO]
  · isplitr; · iexact HR
    isplitl [HS]; · iexact HS
    iexact HO
  iintro ⟨HS, HO⟩
  rw [show (14 : Fin 15).val + 1 = 15 from rfl, ObarFrom_end, add_zero]
  iclear HS
  rw [wp_ret]; imodintro
  unfold Φmid
  isplitl [HpB HpX Hct Hcr Hrc Hp]
  · isplitr; · iexists K; iexact HR
    isplitl [HpB]; · iexact HpB
    isplitl [HpX]; · iexact HpX
    isplitl [Hct]; · iexact Hct
    isplitl [Hcr]; · iexact Hcr
    isplitl [Hrc]; · iexact Hrc
    isplitr; · iexact Hlev
    rw [partPts_full]; iexact Hp
  isplitl [HO]
  · iexists W
    isplitr; · ipureintro; exact fun _ _ => Or.inl trivial
    iexact HO
  isplitl [Hx]
  · iexists _; isplitr; · (ipureintro; rfl)
    iexact Hx
  iexact Hout

end Cert.Kernel.Coll

end

/-- info: 'Cert.Kernel.Coll.body_pt0' depends on axioms: [propext, Classical.choice, Quot.sound] -/
#guard_msgs in #print axioms Cert.Kernel.Coll.body_pt0
-- ==== Proof.Body012Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.BlkBits

/-!
# The body at grid points 1 and 2

At both points the device adds the column sums of the point's row block to its partial: the block is loaded whole
from the argument window's staging buffer, the partial is loaded, and their sum is stored over it. At point 2 it then
waits for the fifteen units of its barrier cell, one from each other device, and receives with them the slot of each
other device's receive buffer that it will write at point 3.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Mid

/-- The argument window is fetched at every point: its staging buffer holds the point's block. -/
theorem before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl

/-- The result window is written back at the last point only. -/
theorem flush1_false (t : Fin cfg0.N) (h : t.val % 4 ≠ 3) : (cfg0.win 1).flush t = false := by
  cases hh : (cfg0.win 1).flush t
  · rfl
  · exact absurd ((flush0_1 t).mp hh) h

theorem zero2 : (![0, 0] : Fin 2 → ℕ) = fun _ => 0 := by funext a; fin_cases a <;> rfl

/-! ## Loads and stores of whole buffers, as the body spells them

The body reads and writes its buffers through the zero-offset rectangle of their own sizes: what is read is the
buffer's contents, what is left is what was stored. -/

/-- a load of the whole partial buffer -/
theorem wp_load_part (c : Dev nD) {q : PosShare TreeShare} {f : (cc0_scratch0 : Ref sig .tc).ty.Contents (Elt F)}
    {hl : (Memref.whole cc0_scratch0 : Memref sig .tc .vmem S1x1024 .f32).view.LoadsAt (Rect.unit (s := S1x1024) ![0, 0] S1x1024.size inb_S1x1024_S1x1024_0_0).toLoadRect}
    {k : Vec F S1x1024 .f32 → Prog (TpuEff nD τ sig (Elt F) Λ₀ .tc) PUnit} {Q : PUnit → sProp 𝕄} :
    ((((c : Thread nD τ).loc cc0_scratch0) ↦{q} f : sProp 𝕄))
      ⊢ iprop(((((c : Thread nD τ).loc cc0_scratch0) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_scratch0 : Memref sig .tc .vmem S1x1024 .f32) (Rect.unit (s := S1x1024) ![0, 0] S1x1024.size inb_S1x1024_S1x1024_0_0).toLoadRect hl) k) Q) := by
  have h := wp_load (defs := defs₀ (F := F)) 𝒱₀ (c : Thread nD τ) none (Γ := .empty) Set.univ (Q := Q)
    (m := (Memref.whole cc0_scratch0 : Memref sig .tc .vmem S1x1024 .f32))
    (r := (Rect.unit (s := S1x1024) ![0, 0] S1x1024.size inb_S1x1024_S1x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_scratch0 zero2 _ f)
  subst hgf
  exact h

/-- a load of a whole staging buffer of the argument window -/
theorem wp_load_stg0 (c : Dev nD) {q : PosShare TreeShare} {f : (cc0_stg0_0 : Ref sig .tc).ty.Contents (Elt F)}
    {hl : (Memref.whole cc0_stg0_0 : Memref sig .tc .vmem S1024x1024 .f32).view.LoadsAt (Rect.unit (s := S1024x1024) ![0, 0] S1024x1024.size inb_S1024x1024_S1024x1024_0_0).toLoadRect}
    {k : Vec F S1024x1024 .f32 → Prog (TpuEff nD τ sig (Elt F) Λ₀ .tc) PUnit} {Q : PUnit → sProp 𝕄} :
    ((((c : Thread nD τ).loc cc0_stg0_0) ↦{q} f : sProp 𝕄))
      ⊢ iprop(((((c : Thread nD τ).loc cc0_stg0_0) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_0 : Memref sig .tc .vmem S1024x1024 .f32) (Rect.unit (s := S1024x1024) ![0, 0] S1024x1024.size inb_S1024x1024_S1024x1024_0_0).toLoadRect hl) k) Q) := by
  have h := wp_load (defs := defs₀ (F := F)) 𝒱₀ (c : Thread nD τ) none (Γ := .empty) Set.univ (Q := Q)
    (m := (Memref.whole cc0_stg0_0 : Memref sig .tc .vmem S1024x1024 .f32))
    (r := (Rect.unit (s := S1024x1024) ![0, 0] S1024x1024.size inb_S1024x1024_S1024x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_stg0_0 zero2 _ f)
  subst hgf
  exact h

theorem wp_load_stg1 (c : Dev nD) {q : PosShare TreeShare} {f : (cc0_stg0_1 : Ref sig .tc).ty.Contents (Elt F)}
    {hl : (Memref.whole cc0_stg0_1 : Memref sig .tc .vmem S1024x1024 .f32).view.LoadsAt (Rect.unit (s := S1024x1024) ![0, 0] S1024x1024.size inb_S1024x1024_S1024x1024_0_0).toLoadRect}
    {k : Vec F S1024x1024 .f32 → Prog (TpuEff nD τ sig (Elt F) Λ₀ .tc) PUnit} {Q : PUnit → sProp 𝕄} :
    ((((c : Thread nD τ).loc cc0_stg0_1) ↦{q} f : sProp 𝕄))
      ⊢ iprop(((((c : Thread nD τ).loc cc0_stg0_1) ↦{q} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_1 : Memref sig .tc .vmem S1024x1024 .f32) (Rect.unit (s := S1024x1024) ![0, 0] S1024x1024.size inb_S1024x1024_S1024x1024_0_0).toLoadRect hl) k) Q) := by
  have h := wp_load (defs := defs₀ (F := F)) 𝒱₀ (c : Thread nD τ) none (Γ := .empty) Set.univ (Q := Q)
    (m := (Memref.whole cc0_stg0_1 : Memref sig .tc .vmem S1024x1024 .f32))
    (r := (Rect.unit (s := S1024x1024) ![0, 0] S1024x1024.size inb_S1024x1024_S1024x1024_0_0).toLoadRect) (hl := hl) (k := k) (q := q) (f := f)
    (S := Finset.univ) (Finset.subset_univ _)
  generalize hg : View.readAt (Elt F) _ _ _ = g at h
  have hgf : g = f := hg.symm.trans (Memref.readAt_unit_zero (Elt F) cc0_stg0_1 zero2 _ f)
  subst hgf
  exact h

/-- a store over the whole partial buffer -/
theorem wp_store_part (c : Dev nD) {f w : (cc0_scratch0 : Ref sig .tc).ty.Contents (Elt F)}
    {hx : ((Memref.whole cc0_scratch0 : Memref sig .tc .vmem S1x1024 .f32).access (Rect.unit (s := S1x1024) ![0, 0] S1x1024.size inb_S1x1024_S1x1024_0_0)).Stores Finset.univ}
    {hm : (Finset.univ : Finset (Rect.unit (s := S1x1024) ![0, 0] S1x1024.size inb_S1x1024_S1x1024_0_0).shape.Idx) = Finset.univ ∨ ∀ a, (Rect.unit (s := S1x1024) ![0, 0] S1x1024.size inb_S1x1024_S1x1024_0_0).stride a = 1}
    {k : PUnit → Prog (TpuEff nD τ sig (Elt F) Λ₀ .tc) PUnit} {Q : PUnit → sProp 𝕄} :
    ((((c : Thread nD τ).loc cc0_scratch0) ↦{fullShare} f : sProp 𝕄))
      ⊢ iprop(((((c : Thread nD τ).loc cc0_scratch0) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch0 : Memref sig .tc .vmem S1x1024 .f32) (Rect.unit (s := S1x1024) ![0, 0] S1x1024.size inb_S1x1024_S1x1024_0_0) w Finset.univ hx hm) k) Q) := by
  have h := wp_store (defs := defs₀ (F := F)) 𝒱₀ (c : Thread nD τ) none (Γ := .empty) Set.univ (Q := Q)
    (m := (Memref.whole cc0_scratch0 : Memref sig .tc .vmem S1x1024 .f32))
    (r := Rect.unit (s := S1x1024) ![0, 0] S1x1024.size inb_S1x1024_S1x1024_0_0) (w := w) (Mk := Finset.univ) (hx := hx) (hm := hm) (k := k) (f := f)
    (S := Finset.univ) (Finset.subset_univ _)
  generalize hg : View.write (Elt F) _ _ _ _ = g at h
  have hgf : g = w := hg.symm.trans (Memref.write_access_unit_zero_univ (Elt F) cc0_scratch0 zero2 _ f w)
  subst hgf
  exact h

/-! ## What the records hold -/

theorem records_inv (K : Dev nD × CIx → ℕ) (ck : Dev nD × CIx) :
    records (F := F) m K ⊢ cellInv ER (sched m) (K ck) (kcell ck) := by
  unfold records
  rw [bigSep_univ_at (fun ck : Dev nD × CIx => cellInv ER (sched (F := F) m) (K ck) (kcell ck)) ck]
  iintro ⟨⟨H, -⟩, -⟩
  iexact H

theorem records_reached (K : Dev nD × CIx → ℕ) (ck : Dev nD × CIx) :
    records (F := F) m K ⊢ reached ER (kcell ck) 0 := by
  unfold records
  rw [bigSep_univ_at (fun ck : Dev nD × CIx => reached (ER (F := F)) (kcell ck) 0) ck]
  iintro ⟨-, ⟨H, -⟩⟩
  iexact H

/-- The barrier round's payloads: the fifteen peers' slots (that their receive cells are at round 0 is in the records too). -/
theorem barPays_slots (c : Dev nD) :
    (bigSep Finset.univ fun i : Fin 15 => barPay (F := F) c i) ⊢ bigSep Finset.univ fun i : Fin 15 => iprop(∃ f, slotPts (F := F) (peer c i) i f) := by
  unfold barPay
  rw [bigSep_sep']
  iintro ⟨H, -⟩
  iexact H

end Mid

open Mid

set_option maxRecDepth 8000 in
/-- Grid point 1: the second block's column sums are added to the partial. -/
theorem body_pt1 (c : Dev nD) : BodyAt (F := F) m ρ c t0_1 := by

  unfold BodyAt
  rw [bigSep_W0, bigSep_W0]
  have hidle : cfg0.idle 1 (cfg0.grid.coords t0_1) = true := by decide
  have hfl : (cfg0.win 1).flush t0_1 = false := flush1_false t0_1 (by decide)
  simp only [hidle, hfl]
  show iprop(Φmid m c 1 ∗ (dats m ρ 0 c).owesAt () t0_1.castSucc
        ∗ (∃ d, owns c.tc (Memref.whole cc0_stg0_1) fullShare ((dats m ρ 0 c).before 0 t0_1 d))
        ∗ ∃ d, owns c.tc (Memref.whole cc0_stg1_0) fullShare ((dats m ρ 0 c).before 1 t0_1 d))
      ⊢ wp frame (wpE (defs₀ (F := F)) 𝒱₀ (c : Thread nD τ) none) Set.univ
          (cc0_body (grid0.coords t0_1) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φmid m c 2 ∗ (dats m ρ 0 c).owesAt () t0_1.succ
            ∗ owns c.tc (Memref.whole cc0_stg0_1) fullShare (iblk m c 0 t0_1)
            ∗ ∃ d, owns c.tc (Memref.whole cc0_stg1_0) fullShare ((dats m ρ 0 c).before 1 t0_1 d))
  simp only [owns_whole_eq, before0]
  unfold Φmid Dat.owesAt Pipeline.owesWithin
  rw [partPts_full, partPts_full]
  rw [cc0_body_eq_skeleton]; unfold cc0_body_skel
  have h6 := eq_false (show ¬ (Scalar.cmpi .ne (Scalar.extui (Scalar.cmpi .eq (BitVec.ofNat 32 ↑(grid0.coords t0_1 0)) 0#32)) 0#32 = 1#1) by decide)
  have h9 := eq_true (show Scalar.cmpi .ne (Scalar.extui (Scalar.cmpi .sgt (BitVec.ofNat 32 ↑(grid0.coords t0_1 0)) 0#32)) 0#32 = 1#1 by decide)
  have hc3 := eq_false (show ¬ (k0_cond3 (grid0.coords t0_1) = 1#1) by decide)
  have h15 := eq_false (show ¬ (Scalar.cmpi .ne (Scalar.extui (Scalar.cmpi .eq (BitVec.ofNat 32 ↑(grid0.coords t0_1 0)) 2#32)) 0#32 = 1#1) by decide)
  have hc5 := eq_false (show ¬ (k0_cond5 (grid0.coords t0_1) = 1#1) by decide)
  simp only [h6, h9, hc3, h15, hc5, ↓reduceDIte, semWaitWord, Prog.lift, Prog.bind_op, Prog.bind_ret, Prog.pure_eq_ret]

  iintro ⟨⟨Hrec, Hpb, Hpx, Hct, Hcr, Hrc, Hlev, Hp⟩, ⟨%W, %hW, HO⟩, ⟨%d0, %f0, %hf0, Hx⟩, Hout⟩
  subst hf0
  iapply (wp_load_stg1 c) $$ Hx; iintro Hx
  iapply (wp_load_part c) $$ Hp; iintro Hp
  iapply (wp_load_part c) $$ Hp; iintro Hp
  iapply (wp_store_part c) $$ Hp; iintro Hp
  rw [wp_ret]; imodintro
  have hv : k0_pay3 (iblk m c 0 t0_1) (partAt m c 1) = partAt m c 2 := by
    rw [iblk_eq_blk m c t0_1 1 rfl]; rfl
  rw [hv]
  isplitl [Hrec Hpb Hpx Hct Hcr Hrc Hlev Hp]
  · isplitl [Hrec]; · iexact Hrec
    isplitl [Hpb]; · iexact Hpb
    isplitl [Hpx]; · iexact Hpx
    isplitl [Hct]; · iexact Hct
    isplitl [Hcr]; · iexact Hcr
    isplitl [Hrc]; · iexact Hrc
    isplitl [Hlev]; · iexact Hlev
    iexact Hp
  isplitl [HO]
  · iexists W
    isplitr; · ipureintro; exact fun _ _ => Or.inl trivial
    iexact HO
  isplitl [Hx]
  · iexists _; isplitr; · (ipureintro; rfl)
    iexact Hx
  iexact Hout

set_option maxRecDepth 8000 in
/-- Grid point 2: the third block's column sums are added to the partial, then the device waits for the fifteen
    entry signals on its barrier cell and receives, with them, slot `i` of the receive buffer of the device `i + 1`
    places after it, for every `i`. -/
theorem body_pt2 (c : Dev nD) : BodyAt (F := F) m ρ c t0_2 := by

  unfold BodyAt
  rw [bigSep_W0, bigSep_W0]
  have hidle : cfg0.idle 1 (cfg0.grid.coords t0_2) = true := by decide
  have hfl : (cfg0.win 1).flush t0_2 = false := flush1_false t0_2 (by decide)
  simp only [hidle, hfl]
  show iprop(Φmid m c 2 ∗ (dats m ρ 0 c).owesAt () t0_2.castSucc
        ∗ (∃ d, owns c.tc (Memref.whole cc0_stg0_0) fullShare ((dats m ρ 0 c).before 0 t0_2 d))
        ∗ ∃ d, owns c.tc (Memref.whole cc0_stg1_0) fullShare ((dats m ρ 0 c).before 1 t0_2 d))
      ⊢ wp frame (wpE (defs₀ (F := F)) 𝒱₀ (c : Thread nD τ) none) Set.univ
          (cc0_body (grid0.coords t0_2) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φ₃ m c ∗ (dats m ρ 0 c).owesAt () t0_2.succ
            ∗ owns c.tc (Memref.whole cc0_stg0_0) fullShare (iblk m c 0 t0_2)
            ∗ ∃ d, owns c.tc (Memref.whole cc0_stg1_0) fullShare ((dats m ρ 0 c).before 1 t0_2 d))
  simp only [owns_whole_eq, before0]
  unfold Φmid Φ₃ posBar Dat.owesAt Pipeline.owesWithin
  rw [partPts_full, partPts_full]
  rw [cc0_body_eq_skeleton]; unfold cc0_body_skel
  have h6 := eq_false (show ¬ (Scalar.cmpi .ne (Scalar.extui (Scalar.cmpi .eq (BitVec.ofNat 32 ↑(grid0.coords t0_2 0)) 0#32)) 0#32 = 1#1) by decide)
  have h9 := eq_true (show Scalar.cmpi .ne (Scalar.extui (Scalar.cmpi .sgt (BitVec.ofNat 32 ↑(grid0.coords t0_2 0)) 0#32)) 0#32 = 1#1 by decide)
  have hc3 := eq_false (show ¬ (k0_cond3 (grid0.coords t0_2) = 1#1) by decide)
  have h15 := eq_true (show (Scalar.cmpi .ne (Scalar.extui (Scalar.cmpi .eq (BitVec.ofNat 32 ↑(grid0.coords t0_2 0)) 2#32)) 0#32 = 1#1) by decide)
  have hc5 := eq_false (show ¬ (k0_cond5 (grid0.coords t0_2) = 1#1) by decide)
  simp only [h6, h9, hc3, h15, hc5, ↓reduceDIte, semWaitWord, Prog.lift, Prog.bind_op, Prog.bind_ret, Prog.pure_eq_ret]

  iintro ⟨⟨⟨%K, #Hrec⟩, Hpb, Hpx, Hct, Hcr, Hrc, #Hlev, Hp⟩, ⟨%W, %hW, HO⟩, ⟨%d0, %f0, %hf0, Hx⟩, Hout⟩
  subst hf0
  iapply (wp_load_stg0 c) $$ Hx; iintro Hx
  iapply (wp_load_part c) $$ Hp; iintro Hp
  iapply (wp_load_part c) $$ Hp; iintro Hp
  iapply (wp_store_part c) $$ Hp; iintro Hp
  have hv : k0_pay3 (iblk m c 0 t0_2) (partAt m c 2) = partAt m c 3 := by
    rw [iblk_eq_blk m c t0_2 2 rfl]; rfl
  rw [hv]
  -- the wait for the fifteen units of round 0 of the device's own barrier cell, owing receive credits only
  iapply (Rounds.wp_wait_rest_token 𝒱₀ ER (sched m) (c : Thread nD τ) none (κ := K (c, CIx.bar)) (k' := 15)
      (wpE_semWait_eq 𝒱₀ (c : Thread nD τ) none Set.univ) (Set.mem_univ _) () (O := Orecv c) (W := W) (R := 0) (m := 0) (T := ∅)
      (by rw [expect_bar])) $$ [Hcr HO Hpb]
  · isplitr; · iapply (records_inv m K (c, CIx.bar)); iexact Hrec
    isplitl [Hcr]; · iexact Hcr
    isplitl [HO]; · iexact HO
    isplitr; · iapply (mayWait_bar c); iexact Hlev
    iexact Hpb
  iintro ⟨HO, Hpb, -, Hpay⟩
  ihave Hslots := ((Entails.of_eq (rest_bar m c)).trans (barPays_slots c)) $$ Hpay
  rw [wp_ret]; imodintro
  isplitl [Hpb Hpx Hct Hrc Hp Hslots]
  · isplitr; · iexists K; iexact Hrec
    isplitl [Hpb]; · iexact Hpb
    isplitl [Hpx]; · iexact Hpx
    isplitl [Hct]; · iexact Hct
    isplitl [Hrc]; · iexact Hrc
    isplitr; · iexact Hlev
    isplitl [Hp]; · iexact Hp
    iexact Hslots
  isplitl [HO]
  · iexists (insert (SemLoc.reg barS, ()) W)
    isplitr; · ipureintro; exact fun _ _ => Or.inl trivial
    iexact HO
  isplitl [Hx]
  · iexists _; isplitr; · (ipureintro; rfl)
    iexact Hx
  iexact Hout

end Cert.Kernel.Coll

end

/-- info: 'Cert.Kernel.Coll.body_pt1' depends on axioms: [propext, Classical.choice, Quot.sound] -/
#guard_msgs in #print axioms Cert.Kernel.Coll.body_pt1

/-- info: 'Cert.Kernel.Coll.body_pt2' depends on axioms: [propext, Classical.choice, Quot.sound] -/
#guard_msgs in #print axioms Cert.Kernel.Coll.body_pt2
-- ==== Proof.Waits3Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.Steps3Bits

/-!
# Grid point 3: the thirty waits, and the thirty cells closed

A device waits once on each of its fifteen receive cells and once on each of its fifteen send cells. Each of these cells
has a single round with a single duty of the row's credit, so one wait for that credit consumes the whole round: the
device hands in the credit it holds on the cell and its position at round 0, and gets back the round's payload — slot
`k` of its receive buffer holding the row of the device `k + 1` places before it, or the piece of its partial lent to
copy `k` — and its position at round 1. By then it owes nothing, so no level evidence is needed. No round after the
first has a duty, so from round 1 each cell can be closed, which returns its counter at zero.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

variable (K : Dev nD × CIx → ℕ)

/-! ## The waits -/

set_option maxHeartbeats 1600000 in
/-- The wait on receive cell `k`: the credit and the position at round 0 become slot `k` landed and the position at round 1. -/
theorem recvwait_step (c : Dev nD) (k : Fin 15) {hsrc : (pM : Memref sig .tc .vmem S1x1024 .f32).view.WordExact}
    {hdst : (slotM k : Memref sig .tc .vmem S1x1024 .f32).view.WordExact}
    {α : Type} {Q : α → sProp 𝕄} {cont : PUnit → Prog (TpuEff nD τ sig (Elt F) Λ₀ .tc) α} :
    iprop(records m K ∗ recvInv m c k.val ∗ (∃ W, owes (c : Thread nD τ) 0 W))
      ⊢ iprop(((recvInv m c (k.val + 1) ∗ (∃ W, owes (c : Thread nD τ) 0 W))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (recvSem k) pM (slotM k) hsrc hdst) cont) Q) := by
  unfold recvInv
  rw [bigSep_step k k.val rfl, bigSep_step' k]
  iintro ⟨#HR, ⟨⟨Hc, Hat⟩, Hrest⟩, ⟨%W, HO⟩⟩ Hk
  ihave HI := (inv_at m K (c, .recv k)) $$ HR
  iapply (Rounds.wp_wait_rest_token 𝒱₀ ER (sched m) (c : Thread nD τ) none (κ := K (c, .recv k))
      (wpE_waitDma2_eq (sem := recvSem k) (src := pM) (dst := slotM k) (hsrc := hsrc) (hdst := hdst) 𝒱₀ (c : Thread nD τ) none Set.univ)
      (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_recv m c k)) $$ Hpay
  unfold recvPay
  iapply Hk
  isplitr [HO]
  · isplitr [Hrest]
    · isplitl [Hs]; · iexact Hs
      iexact Hat
    · iexact Hrest
  · iexists _; iexact HO

set_option maxHeartbeats 1600000 in
/-- The wait on send cell `k`: the credit and the position at round 0 become the lent piece of the partial back and the
    position at round 1. -/
theorem sendwait_step (c : Dev nD) (k : Fin 15) {hsrc : (slotM k : Memref sig .tc .vmem S1x1024 .f32).view.WordExact}
    {hdst : (pM : Memref sig .tc .vmem S1x1024 .f32).view.WordExact}
    {α : Type} {Q : α → sProp 𝕄} {cont : PUnit → Prog (TpuEff nD τ sig (Elt F) Λ₀ .tc) α} :
    iprop(records m K ∗ sendwInv m c k.val ∗ (∃ W, owes (c : Thread nD τ) 0 W))
      ⊢ iprop(((sendwInv m c (k.val + 1) ∗ (∃ W, owes (c : Thread nD τ) 0 W))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (sendSem k) (slotM k) pM hsrc hdst) cont) Q) := by
  unfold sendwInv
  rw [bigSep_step k k.val rfl, bigSep_step' k]
  iintro ⟨#HR, ⟨⟨Hc, Hat⟩, Hrest⟩, ⟨%W, HO⟩⟩ Hk
  ihave HI := (inv_at m K (c, .send k)) $$ HR
  iapply (Rounds.wp_wait_rest_token 𝒱₀ ER (sched m) (c : Thread nD τ) none (κ := K (c, .send k))
      (wpE_waitDma2_eq (sem := sendSem k) (src := slotM k) (dst := pM) (hsrc := hsrc) (hdst := hdst) 𝒱₀ (c : Thread nD τ) none Set.univ)
      (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_send m c k)) $$ Hpay
  unfold sendPay
  iapply Hk
  isplitr [HO]
  · isplitr [Hrest]
    · isplitl [Hs]; · iexact Hs
      iexact Hat
    · iexact Hrest
  · iexists _; iexact HO

/-! ## Closing the cells -/

/-- Fifteen cells of the mesh, each with its owner's position at round 1, close together. -/
theorem close_row (ck : Fin 15 → Dev nD × CIx) :
    iprop(records m K ∗ bigSep Finset.univ fun j : Fin 15 => atPos ER (kcell (ck j)) 1 ∅ 0)
      ⊢ |={Set.univ}=> (bigSep Finset.univ fun j : Fin 15 => semVal (kcell (ck j)) 0 : sProp 𝕄) := by
  have one : ∀ j : Fin 15, iprop(records m K ∗ atPos ER (kcell (ck j)) 1 ∅ 0) ⊢ (|={Set.univ}=> semVal (kcell (ck j)) 0 : sProp 𝕄) := fun j =>
    (sep_mono_left (inv_at m K (ck j))).trans
      (Rounds.cell_close ER (sched m) (Set.mem_univ (K (ck j))) (fun h => h) (R := 0 + 1) (duties_later m (kcell (ck j))))
  refine (sep_mono_left (BI.bigSep_of_persistent (Finset.univ : Finset (Fin 15)) (records m K))).trans ?_
  rw [← bigSep_sep']
  exact (bigSep_mono fun j _ => one j).trans (bigSep_fupd _ _)

/-- after the thirty waits: close the thirty own cells -/
theorem close_cells (c : Dev nD) :
    iprop(records m K ∗ (bigSep Finset.univ fun j : Fin 15 => atPos ER (sendCell c j) 1 ∅ 0) ∗ bigSep Finset.univ fun j : Fin 15 => atPos ER (recvCell c j) 1 ∅ 0)
      ⊢ |={Set.univ}=> iprop((bigSep Finset.univ fun j : Fin 15 => semVal (sendCell c j) 0) ∗ bigSep Finset.univ fun j : Fin 15 => semVal (recvCell c j) 0) := by
  iintro ⟨#HR, HA, HB⟩
  imod (close_row m K fun j => (c, CIx.send j)) $$ [HA] with HA'
  · isplitr; · iexact HR
    iexact HA
  imod (close_row m K fun j => (c, CIx.recv j)) $$ [HB] with HB'
  · isplitr; · iexact HR
    iexact HB
  imodintro
  isplitl [HA']; · iexact HA'
  iexact HB'

end Cert.Kernel.Coll

end

/-- info: 'Cert.Kernel.Coll.recvwait_step' depends on axioms: [propext, Classical.choice, Quot.sound] -/
#guard_msgs in #print axioms Cert.Kernel.Coll.recvwait_step

/-- info: 'Cert.Kernel.Coll.sendwait_step' depends on axioms: [propext, Classical.choice, Quot.sound] -/
#guard_msgs in #print axioms Cert.Kernel.Coll.sendwait_step

/-- info: 'Cert.Kernel.Coll.close_cells' depends on axioms: [propext, Classical.choice, Quot.sound] -/
#guard_msgs in #print axioms Cert.Kernel.Coll.close_cells
-- ==== Proof.Glue3Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.Steps3Bits

/-!
# Grid point 3: the flat resources and the states indexed by a copy number

Before the first copy every copy is still to issue, and after the fifteenth none is; before the first wait every cell
still has its credit, and after the fifteenth every wait has been made. At those two ends the states indexed by a
number are plain conjunctions: of the lent pieces, the targets' slots and the duty tokens at the start; of the send
credits, of the landed slots (the whole receive buffer), of the pieces back, at the end.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two ends of a state indexed by a number -/

/-- at zero every index is still in its first state -/
theorem bigSep_from_zero (Φ Ψ : Fin 15 → sProp 𝕄) :
    (bigSep Finset.univ fun j : Fin 15 => if 0 ≤ j.val then Φ j else Ψ j) = bigSep Finset.univ Φ :=
  bigSep_congr fun j _ => if_pos (Nat.zero_le _)

/-- at fifteen every index is in its second state -/
theorem bigSep_from_end (Φ Ψ : Fin 15 → sProp 𝕄) :
    (bigSep Finset.univ fun j : Fin 15 => if 15 ≤ j.val then Φ j else Ψ j) = bigSep Finset.univ Ψ :=
  bigSep_congr fun j _ => if_neg (by have := j.isLt; omega)

/-! ## The copies -/

theorem sendInv_zero (c : Dev nD) :
    sendInv (F := F) m c 0
      = iprop((bigSep Finset.univ fun j : Fin 15 => partPts (lentShare j) c (partF m c))
          ∗ (bigSep Finset.univ fun j : Fin 15 => iprop(∃ f, slotPts (peer c j) j f))
          ∗ (bigSep Finset.univ fun j : Fin 15 => dutyTok ER (sendCell c j) 0 (0 : Fin 15))
          ∗ bigSep Finset.univ fun j : Fin 15 => dutyTok ER (recvCell (peer c j) j) 0 (0 : Fin 15)) := by
  unfold sendInv
  rw [bigSep_from_zero]
  unfold sendItem
  rw [bigSep_sep', bigSep_sep', bigSep_sep']

theorem mk_sendInv (c : Dev nD) :
    iprop((bigSep Finset.univ fun j : Fin 15 => partPts (lentShare j) c (partF m c))
        ∗ (bigSep Finset.univ fun i : Fin 15 => iprop(∃ f, slotPts (peer c i) i f)) ∗ cpyToks c)
      ⊢ (sendInv (F := F) m c 0) := by
  rw [sendInv_zero]
  unfold cpyToks
  iintro ⟨Hp, Hs, Htr, Hts⟩
  isplitl [Hp]; · iexact Hp
  isplitl [Hs]; · iexact Hs
  isplitl [Hts]; · iexact Hts
  iexact Htr

theorem sendInv_end (c : Dev nD) :
    sendInv (F := F) m c 15 ⊢ bigSep Finset.univ fun j : Fin 15 => cred (tallyAt (sendCell c j) () N) := by
  unfold sendInv
  exact Entails.of_eq (bigSep_from_end _ _)

/-! ## The receive waits -/

theorem mk_recvInv (c : Dev nD) :
    iprop(recvCreds c ∗ bigSep Finset.univ fun j : Fin 15 => atPos ER (recvCell c j) 0 ∅ 0) ⊢ (recvInv (F := F) m c 0) := by
  unfold recvInv recvCreds
  rw [bigSep_from_zero, bigSep_sep']

theorem recvInv_end (c : Dev nD) :
    recvInv (F := F) m c 15
      ⊢ iprop((((c : Thread nD τ).loc cc0_scratch1) ↦{fullShare} commF m c) ∗ bigSep Finset.univ fun j : Fin 15 => atPos ER (recvCell c j) 1 ∅ 0) := by
  unfold recvInv
  rw [bigSep_from_end, bigSep_sep', comm_split]

/-! ## The send waits -/

theorem mk_sendwInv (c : Dev nD) :
    iprop((bigSep Finset.univ fun j : Fin 15 => cred (tallyAt (sendCell c j) () N)) ∗ bigSep Finset.univ fun j : Fin 15 => atPos ER (sendCell c j) 0 ∅ 0)
      ⊢ (sendwInv (F := F) m c 0) := by
  unfold sendwInv
  rw [bigSep_from_zero, bigSep_sep']

theorem sendwInv_end (c : Dev nD) :
    sendwInv (F := F) m c 15
      ⊢ iprop((bigSep Finset.univ fun j : Fin 15 => partPts (lentShare j) c (partF m c)) ∗ bigSep Finset.univ fun j : Fin 15 => atPos ER (sendCell c j) 1 ∅ 0) := by
  unfold sendwInv
  rw [bigSep_from_end, bigSep_sep']

/-! ## The partial buffer and its sixteen pieces -/

/-- the partial buffer whole again from its sixteen pieces, and cut into them -/
theorem part_join (c : Dev nD) (f) :
    iprop((bigSep Finset.univ fun j : Fin 15 => partPts (lentShare j) c f) ∗ partPts keptShare c f) ⊢ (partPts (F := F) fullShare c f) :=
  Entails.of_eq (part_split c f).symm

theorem part_cut (c : Dev nD) (f) :
    (partPts (F := F) fullShare c f) ⊢ iprop((bigSep Finset.univ fun j : Fin 15 => partPts (lentShare j) c f) ∗ partPts keptShare c f) :=
  Entails.of_eq (part_split c f)

/-- info: 'Cert.Kernel.Coll.mk_sendInv' depends on axioms: [propext, Classical.choice, Quot.sound] -/
#guard_msgs in #print axioms mk_sendInv
/-- info: 'Cert.Kernel.Coll.recvInv_end' depends on axioms: [propext, Classical.choice, Quot.sound] -/
#guard_msgs in #print axioms recvInv_end
/-- info: 'Cert.Kernel.Coll.part_join' depends on axioms: [propext, Classical.choice, Quot.sound] -/
#guard_msgs in #print axioms part_join

end Cert.Kernel.Coll

end
-- ==== Proof.Body3Bits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.BlkBits
import proofs.«901087_g7700000000001088_dist_sum_ax0_shard0_i_m4096_n1024_v7x_i16_bf16_1_alg».proof.Proof.Steps3Bits
import proofs.«901087_g7700000000001088_dist_sum_ax0_shard0_i_m4096_n1024_v7x_i16_bf16_1_alg».proof.Proof.Waits3Bits
import proofs.«901087_g7700000000001088_dist_sum_ax0_shard0_i_m4096_n1024_v7x_i16_bf16_1_alg».proof.Proof.Glue3Bits

/-!
# The body at grid point 3

The device adds its last block's column sums into its partial, cuts the partial's share into sixteen pieces, lends
fifteen of them to the fifteen row copies, waits for the fifteen rows copied to it (its receive buffer is then whole at
the fifteen other devices' partials), stores its partial plus their sum, waits for its own copies to have left (the
partial is whole again) and closes its thirty cells.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 8000000

variable (K : Dev nD × CIx → ℕ)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- the argument window is fetched at every point: its staging buffer holds the point's block -/
theorem before0 (c : Dev nD) (t : Fin cfg0.N) (d : (cfg0.win 0).block.Idx → Elt F (cfg0.win 0).elt) :
    (dats (F := F) m ρ 0 c).before 0 t d = iblk m c 0 t := by
  unfold Dat.before; rw [if_pos (fetch0_0 t)]; rfl
theorem zero2 : (![0, 0] : Fin 2 → ℕ) = fun _ => 0 := by funext a; fin_cases a <;> rfl

theorem cond_pt3 : k0_cond5 (grid0.coords t0_3) = 1#1 := by decide
theorem cond3_pt3 : ¬ (k0_cond3 (grid0.coords t0_3) = 1#1) := by decide
theorem c1_pt3 : ¬ (Scalar.cmpi .ne (Scalar.extui (Scalar.cmpi .eq (BitVec.ofNat 32 (grid0.coords t0_3 0).val) 0#32)) 0#32 = 1#1) := by decide
theorem c2_pt3 : Scalar.cmpi .ne (Scalar.extui (Scalar.cmpi .sgt (BitVec.ofNat 32 (grid0.coords t0_3 0).val) 0#32)) 0#32 = 1#1 := by decide
theorem c4_pt3 : ¬ (Scalar.cmpi .ne (Scalar.extui (Scalar.cmpi .eq (BitVec.ofNat 32 (grid0.coords t0_3 0).val) 2#32)) 0#32 = 1#1) := by decide

theorem zero3 : (![0, 0, 0] : Fin 3 → ℕ) = fun _ => 0 := by funext a; fin_cases a <;> rfl

theorem readAt_part_n (c : Dev nD) (f : Buf (Elt F) ((c : Thread nD τ).loc cc0_scratch0)) :
    View.readAt (Elt F) (View.whole cc0_scratch0) (Rect.unit (s := S1x1024) ![0, 0] ![1, 1024] inb_S1x1024_S1x1024_0_0).toLoadRect f = f :=
  Memref.readAt_unit_zero (Elt F) cc0_scratch0 zero2 _ f
theorem write_part_n (c : Dev nD) (f w : Buf (Elt F) ((c : Thread nD τ).loc cc0_scratch0)) :
    View.write (Elt F) ((Memref.whole cc0_scratch0 : Memref sig .tc .vmem S1x1024 .f32).access (Rect.unit (s := S1x1024) ![0, 0] ![1, 1024] inb_S1x1024_S1x1024_0_0)) f w Finset.univ = w :=
  Memref.write_access_unit_zero_univ (Elt F) cc0_scratch0 zero2 _ f w
theorem readAt_stg1_n (c : Dev nD) (f : Buf (Elt F) ((c : Thread nD τ).loc cc0_stg0_1)) :
    View.readAt (Elt F) (View.whole cc0_stg0_1) (Rect.unit (s := S1024x1024) ![0, 0] ![1024, 1024] inb_S1024x1024_S1024x1024_0_0).toLoadRect f = f :=
  Memref.readAt_unit_zero (Elt F) cc0_stg0_1 zero2 _ f
theorem readAt_comm_n (c : Dev nD) (f : Buf (Elt F) ((c : Thread nD τ).loc cc0_scratch1)) :
    View.readAt (Elt F) (View.whole cc0_scratch1) (Rect.unit (s := S15x1x1024) ![0, 0, 0] ![15, 1, 1024] inb_S15x1x1024_S15x1x1024_0_0_0).toLoadRect f = f :=
  Memref.readAt_unit_zero (Elt F) cc0_scratch1 zero3 _ f
theorem readAt_out_n (c : Dev nD) (f : Buf (Elt F) ((c : Thread nD τ).loc cc0_stg1_0)) :
    View.readAt (Elt F) (View.whole cc0_stg1_0) (Rect.unit (s := S1x1024) ![0, 0] ![1, 1024] inb_S1x1024_S1x1024_0_0).toLoadRect f = f :=
  Memref.readAt_unit_zero (Elt F) cc0_stg1_0 zero2 _ f
theorem write_out_n (c : Dev nD) (f w : Buf (Elt F) ((c : Thread nD τ).loc cc0_stg1_0)) :
    View.write (Elt F) ((Memref.whole cc0_stg1_0 : Memref sig .tc .vmem S1x1024 .f32).access (Rect.unit (s := S1x1024) ![0, 0] ![1, 1024] inb_S1x1024_S1x1024_0_0)) f w Finset.univ = w :=
  Memref.write_access_unit_zero_univ (Elt F) cc0_stg1_0 zero2 _ f w

/-- after the fourth block the partial is the device's partial sums -/
theorem partAt_four (c : Dev nD) : k0_pay3 (Val.blk (xarr m c) 3) (partAt (F := F) m c 3) = partF m c := rfl

theorem body_pt3 (c : Dev nD) : BodyAt (F := F) m ρ c t0_3 := by
  unfold BodyAt
  rw [bigSep_W0, bigSep_W0]
  have hidle0 : cfg0.idle 0 (cfg0.grid.coords t0_3) = false := rfl
  have hidle1 : cfg0.idle 1 (cfg0.grid.coords t0_3) = false := by decide
  simp only [hidle0, hidle1]
  show iprop(Φ₃ m c ∗ (dats m ρ 0 c).owesAt () t0_3.castSucc
        ∗ (∃ d, owns c.tc (Memref.whole cc0_stg0_1) fullShare ((dats m ρ 0 c).before 0 t0_3 d))
        ∗ ∃ d, owns c.tc (Memref.whole cc0_stg1_0) fullShare ((dats m ρ 0 c).before 1 t0_3 d))
      ⊢ wp frame (wpE (defs₀ (F := F)) 𝒱₀ (c : Thread nD τ) none) Set.univ
          (cc0_body (grid0.coords t0_3) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          fun _ => iprop(Φ₄ m c ∗ (dats m ρ 0 c).owesAt () t0_3.succ
            ∗ owns c.tc (Memref.whole cc0_stg0_1) fullShare (iblk m c 0 t0_3)
            ∗ owns c.tc (Memref.whole cc0_stg1_0) fullShare (outAt m c))
  simp only [owns_whole_eq, before0]
  unfold Φ₃
  rw [cc0_body_eq_skeleton]; unfold cc0_body_skel
  simp only [dif_neg c1_pt3, dif_pos c2_pt3, dif_neg cond3_pt3, dif_neg c4_pt3, dif_pos cond_pt3]
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton]
  unfold k0_part7_skel k0_part8_skel k0_part9_skel k0_part10_skel k0_part11_skel k0_part12_skel k0_part13_skel k0_part14_skel k0_part15_skel
    k0_part16_skel k0_part17_skel k0_part18_skel k0_part19_skel k0_part20_skel k0_part21_skel
  simp only [Prog.lift, Prog.bind_op, Prog.bind_ret, Prog.pure_eq_ret]
  iintro ⟨⟨⟨%K, #HR⟩, HpB, HpX, Htoks, Hrc, #Hlev, Hp, Hslots⟩, Ho, ⟨%d0, %f0, %hf0, Hx⟩, ⟨%d1, %f1, %hf1, Hout⟩⟩
  subst hf0
  unfold Dat.owesAt Pipeline.owesWithin
  icases Ho with ⟨%W, %hW, HO⟩
  rw [show (dats (F := F) m ρ 0 c).owed t0_3.castSucc = Orecv c from rfl, Orecv_eq]
  ihave Hp := (Entails.of_eq (partPts_full c _)) $$ Hp
  -- the last block's column sums into the partial
  iapply (wp_load 𝒱₀ (c : Thread nD τ) none Set.univ (m := Memref.whole cc0_stg0_1) (Finset.subset_univ _)) $$ Hx; iintro Hx
  iapply (wp_load 𝒱₀ (c : Thread nD τ) none Set.univ (m := Memref.whole cc0_scratch0) (Finset.subset_univ _)) $$ Hp; iintro Hp
  iapply (wp_load 𝒱₀ (c : Thread nD τ) none Set.univ (m := Memref.whole cc0_scratch0) (Finset.subset_univ _)) $$ Hp; iintro Hp
  iapply (wp_store 𝒱₀ (c : Thread nD τ) none Set.univ (m := Memref.whole cc0_scratch0) (r := Rect.unit (s := S1x1024) ![0, 0] S1x1024.size inb_S1x1024_S1x1024_0_0) (Mk := Finset.univ) (Finset.subset_univ _)) $$ Hp; iintro Hp
  rw [iblk_eq_blk m c t0_3 3 rfl]
  erw [write_part_n c, readAt_part_n c, readAt_stg1_n c]
  rw [partAt_four, wp_deviceId]
  -- the partial's share cut into sixteen pieces, fifteen lent
  ihave Hp := (Entails.of_eq (partPts_full c _).symm) $$ Hp
  ihave Hp := (part_cut c _) $$ Hp
  icases Hp with ⟨Hlent, Hkept⟩
  ihave HS := (mk_sendInv m c) $$ [Hlent Hslots Htoks]
  · isplitl [Hlent]; · iexact Hlent
    isplitl [Hslots]; · iexact Hslots
    iexact Htoks
  -- the fifteen copies
  iapply (send_step m K c 0 _ (cpy_dev_eq_0 _ c cond_pt3) W) $$ [HS HO]
  · isplitr; · iexact HR
    isplitl [HS]; · iexact HS
    iexact HO
  iintro ⟨HS, HO⟩
  iapply (send_step m K c 1 _ (cpy_dev_eq_1 _ c cond_pt3) W) $$ [HS HO]
  · isplitr; · iexact HR
    isplitl [HS]; · iexact HS
    iexact HO
  iintro ⟨HS, HO⟩
  iapply (send_step m K c 2 _ (cpy_dev_eq_2 _ c cond_pt3) W) $$ [HS HO]
  · isplitr; · iexact HR
    isplitl [HS]; · iexact HS
    iexact HO
  iintro ⟨HS, HO⟩
  iapply (send_step m K c 3 _ (cpy_dev_eq_3 _ c cond_pt3) W) $$ [HS HO]
  · isplitr; · iexact HR
    isplitl [HS]; · iexact HS
    iexact HO
  iintro ⟨HS, HO⟩
  iapply (send_step m K c 4 _ (cpy_dev_eq_4 _ c cond_pt3) W) $$ [HS HO]
  · isplitr; · iexact HR
    isplitl [HS]; · iexact HS
    iexact HO
  iintro ⟨HS, HO⟩
  iapply (send_step m K c 5 _ (cpy_dev_eq_5 _ c cond_pt3) W) $$ [HS HO]
  · isplitr; · iexact HR
    isplitl [HS]; · iexact HS
    iexact HO
  iintro ⟨HS, HO⟩
  iapply (send_step m K c 6 _ (cpy_dev_eq_6 _ c cond_pt3) W) $$ [HS HO]
  · isplitr; · iexact HR
    isplitl [HS]; · iexact HS
    iexact HO
  iintro ⟨HS, HO⟩
  iapply (send_step m K c 7 _ (cpy_dev_eq_7 _ c cond_pt3) W) $$ [HS HO]
  · isplitr; · iexact HR
    isplitl [HS]; · iexact HS
    iexact HO
  iintro ⟨HS, HO⟩
  iapply (send_step m K c 8 _ (cpy_dev_eq_8 _ c cond_pt3) W) $$ [HS HO]
  · isplitr; · iexact HR
    isplitl [HS]; · iexact HS
    iexact HO
  iintro ⟨HS, HO⟩
  iapply (send_step m K c 9 _ (cpy_dev_eq_9 _ c cond_pt3) W) $$ [HS HO]
  · isplitr; · iexact HR
    isplitl [HS]; · iexact HS
    iexact HO
  iintro ⟨HS, HO⟩
  iapply (send_step m K c 10 _ (cpy_dev_eq_10 _ c cond_pt3) W) $$ [HS HO]
  · isplitr; · iexact HR
    isplitl [HS]; · iexact HS
    iexact HO
  iintro ⟨HS, HO⟩
  iapply (send_step m K c 11 _ (cpy_dev_eq_11 _ c cond_pt3) W) $$ [HS HO]
  · isplitr; · iexact HR
    isplitl [HS]; · iexact HS
    iexact HO
  iintro ⟨HS, HO⟩
  iapply (send_step m K c 12 _ (cpy_dev_eq_12 _ c cond_pt3) W) $$ [HS HO]
  · isplitr; · iexact HR
    isplitl [HS]; · iexact HS
    iexact HO
  iintro ⟨HS, HO⟩
  iapply (send_step m K c 13 _ (cpy_dev_eq_13 _ c cond_pt3) W) $$ [HS HO]
  · isplitr; · iexact HR
    isplitl [HS]; · iexact HS
    iexact HO
  iintro ⟨HS, HO⟩
  iapply (send_step m K c 14 _ (cpy_dev_eq_14 _ c cond_pt3) W) $$ [HS HO]
  · isplitr; · iexact HR
    isplitl [HS]; · iexact HS
    iexact HO
  iintro ⟨HS, HO⟩
  rw [show (14 : Fin 15).val + 1 = 15 from rfl, OrecvFrom_end]
  ihave Hcs := (sendInv_end m c) $$ HS
  unfold posXfer
  icases HpX with ⟨HpS, HpR⟩
  ihave HRI := (mk_recvInv m c) $$ [Hrc HpR]
  · isplitl [Hrc]; · iexact Hrc
    iexact HpR
  ihave HOE : iprop(∃ W, owes (c : Thread nD τ) 0 W) $$ [HO]
  · iexists W; iexact HO
  -- the fifteen rows copied to this device
  iapply (recvwait_step m K c 0) $$ [HRI HOE]
  · isplitr; · iexact HR
    isplitl [HRI]; · iexact HRI
    iexact HOE
  iintro ⟨HRI, HOE⟩
  iapply (recvwait_step m K c 1) $$ [HRI HOE]
  · isplitr; · iexact HR
    isplitl [HRI]; · iexact HRI
    iexact HOE
  iintro ⟨HRI, HOE⟩
  iapply (recvwait_step m K c 2) $$ [HRI HOE]
  · isplitr; · iexact HR
    isplitl [HRI]; · iexact HRI
    iexact HOE
  iintro ⟨HRI, HOE⟩
  iapply (recvwait_step m K c 3) $$ [HRI HOE]
  · isplitr; · iexact HR
    isplitl [HRI]; · iexact HRI
    iexact HOE
  iintro ⟨HRI, HOE⟩
  iapply (recvwait_step m K c 4) $$ [HRI HOE]
  · isplitr; · iexact HR
    isplitl [HRI]; · iexact HRI
    iexact HOE
  iintro ⟨HRI, HOE⟩
  iapply (recvwait_step m K c 5) $$ [HRI HOE]
  · isplitr; · iexact HR
    isplitl [HRI]; · iexact HRI
    iexact HOE
  iintro ⟨HRI, HOE⟩
  iapply (recvwait_step m K c 6) $$ [HRI HOE]
  · isplitr; · iexact HR
    isplitl [HRI]; · iexact HRI
    iexact HOE
  iintro ⟨HRI, HOE⟩
  iapply (recvwait_step m K c 7) $$ [HRI HOE]
  · isplitr; · iexact HR
    isplitl [HRI]; · iexact HRI
    iexact HOE
  iintro ⟨HRI, HOE⟩
  iapply (recvwait_step m K c 8) $$ [HRI HOE]
  · isplitr; · iexact HR
    isplitl [HRI]; · iexact HRI
    iexact HOE
  iintro ⟨HRI, HOE⟩
  iapply (recvwait_step m K c 9) $$ [HRI HOE]
  · isplitr; · iexact HR
    isplitl [HRI]; · iexact HRI
    iexact HOE
  iintro ⟨HRI, HOE⟩
  iapply (recvwait_step m K c 10) $$ [HRI HOE]
  · isplitr; · iexact HR
    isplitl [HRI]; · iexact HRI
    iexact HOE
  iintro ⟨HRI, HOE⟩
  iapply (recvwait_step m K c 11) $$ [HRI HOE]
  · isplitr; · iexact HR
    isplitl [HRI]; · iexact HRI
    iexact HOE
  iintro ⟨HRI, HOE⟩
  iapply (recvwait_step m K c 12) $$ [HRI HOE]
  · isplitr; · iexact HR
    isplitl [HRI]; · iexact HRI
    iexact HOE
  iintro ⟨HRI, HOE⟩
  iapply (recvwait_step m K c 13) $$ [HRI HOE]
  · isplitr; · iexact HR
    isplitl [HRI]; · iexact HRI
    iexact HOE
  iintro ⟨HRI, HOE⟩
  iapply (recvwait_step m K c 14) $$ [HRI HOE]
  · isplitr; · iexact HR
    isplitl [HRI]; · iexact HRI
    iexact HOE
  iintro ⟨HRI, HOE⟩
  rw [show (14 : Fin 15).val + 1 = 15 from rfl]
  ihave Hc := (recvInv_end m c) $$ HRI
  icases Hc with ⟨Hcomm, HpR1⟩
  -- the result: the partial plus the fifteen rows
  unfold partPts
  iapply (wp_load 𝒱₀ (c : Thread nD τ) none Set.univ (m := Memref.whole cc0_scratch0) (by rw [View.set_whole]; exact Finset.subset_univ _)) $$ Hkept; iintro Hkept
  iapply (wp_load 𝒱₀ (c : Thread nD τ) none Set.univ (m := Memref.whole cc0_scratch1) (Finset.subset_univ _)) $$ Hcomm; iintro Hcomm
  subst hf1
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := Rect.unit (s := S1x1024) ![0, 0] S1x1024.size inb_S1x1024_S1x1024_0_0) (Mk := Finset.univ) (Finset.subset_univ _)) $$ Hout; iintro Hout
  erw [write_out_n c, readAt_part_n c, readAt_comm_n c]
  -- the fifteen copies have left
  ihave HSW := (mk_sendwInv m c) $$ [Hcs HpS]
  · isplitl [Hcs]; · iexact Hcs
    iexact HpS
  iapply (sendwait_step m K c 0) $$ [HSW HOE]
  · isplitr; · iexact HR
    isplitl [HSW]; · iexact HSW
    iexact HOE
  iintro ⟨HSW, HOE⟩
  iapply (sendwait_step m K c 1) $$ [HSW HOE]
  · isplitr; · iexact HR
    isplitl [HSW]; · iexact HSW
    iexact HOE
  iintro ⟨HSW, HOE⟩
  iapply (sendwait_step m K c 2) $$ [HSW HOE]
  · isplitr; · iexact HR
    isplitl [HSW]; · iexact HSW
    iexact HOE
  iintro ⟨HSW, HOE⟩
  iapply (sendwait_step m K c 3) $$ [HSW HOE]
  · isplitr; · iexact HR
    isplitl [HSW]; · iexact HSW
    iexact HOE
  iintro ⟨HSW, HOE⟩
  iapply (sendwait_step m K c 4) $$ [HSW HOE]
  · isplitr; · iexact HR
    isplitl [HSW]; · iexact HSW
    iexact HOE
  iintro ⟨HSW, HOE⟩
  iapply (sendwait_step m K c 5) $$ [HSW HOE]
  · isplitr; · iexact HR
    isplitl [HSW]; · iexact HSW
    iexact HOE
  iintro ⟨HSW, HOE⟩
  iapply (sendwait_step m K c 6) $$ [HSW HOE]
  · isplitr; · iexact HR
    isplitl [HSW]; · iexact HSW
    iexact HOE
  iintro ⟨HSW, HOE⟩
  iapply (sendwait_step m K c 7) $$ [HSW HOE]
  · isplitr; · iexact HR
    isplitl [HSW]; · iexact HSW
    iexact HOE
  iintro ⟨HSW, HOE⟩
  iapply (sendwait_step m K c 8) $$ [HSW HOE]
  · isplitr; · iexact HR
    isplitl [HSW]; · iexact HSW
    iexact HOE
  iintro ⟨HSW, HOE⟩
  iapply (sendwait_step m K c 9) $$ [HSW HOE]
  · isplitr; · iexact HR
    isplitl [HSW]; · iexact HSW
    iexact HOE
  iintro ⟨HSW, HOE⟩
  iapply (sendwait_step m K c 10) $$ [HSW HOE]
  · isplitr; · iexact HR
    isplitl [HSW]; · iexact HSW
    iexact HOE
  iintro ⟨HSW, HOE⟩
  iapply (sendwait_step m K c 11) $$ [HSW HOE]
  · isplitr; · iexact HR
    isplitl [HSW]; · iexact HSW
    iexact HOE
  iintro ⟨HSW, HOE⟩
  iapply (sendwait_step m K c 12) $$ [HSW HOE]
  · isplitr; · iexact HR
    isplitl [HSW]; · iexact HSW
    iexact HOE
  iintro ⟨HSW, HOE⟩
  iapply (sendwait_step m K c 13) $$ [HSW HOE]
  · isplitr; · iexact HR
    isplitl [HSW]; · iexact HSW
    iexact HOE
  iintro ⟨HSW, HOE⟩
  iapply (sendwait_step m K c 14) $$ [HSW HOE]
  · isplitr; · iexact HR
    isplitl [HSW]; · iexact HSW
    iexact HOE
  iintro ⟨HSW, HOE⟩
  rw [show (14 : Fin 15).val + 1 = 15 from rfl]
  ihave Hb := (sendwInv_end m c) $$ HSW
  icases Hb with ⟨Hlent, HpS1⟩
  ihave Hp := (part_join c _) $$ [Hlent Hkept]
  · isplitl [Hlent]; · iexact Hlent
    unfold partPts; iexact Hkept
  imod (close_cells m K c) $$ [HpS1 HpR1] with ⟨HzS, HzR⟩
  · isplitr; · iexact HR
    isplitl [HpS1]; · iexact HpS1
    iexact HpR1
  rw [wp_ret]; imodintro
  unfold Φ₄
  rw [show (dats (F := F) m ρ 0 c).owed t0_3.succ = 0 from rfl]
  icases HOE with ⟨%W', HO⟩
  isplitl [Hp Hcomm HzS HzR]
  · isplitl [Hp]; · iexact Hp
    isplitl [Hcomm]; · iexact Hcomm
    isplitl [HzS]; · iexact HzS
    iexact HzR
  isplitl [HO]
  · iexists W'
    isplitr; · ipureintro; exact fun _ _ => Or.inl trivial
    iexact HO
  isplitl [Hx]
  · iexists _; isplitr; · (ipureintro; rfl)
    iexact Hx
  iexists _; isplitr; · (ipureintro; exact (outAt_eq m c).symm)
  iexact Hout

/-- info: 'Cert.Kernel.Coll.body_pt3' depends on axioms: [propext, Classical.choice, Quot.sound] -/
#guard_msgs in #print axioms body_pt3

end Cert.Kernel.Coll

end
-- ==== Proof.BodyAllBits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.BodyDefsBits
import proofs.«901087_g7700000000001088_dist_sum_ax0_shard0_i_m4096_n1024_v7x_i16_bf16_1_alg».proof.Proof.Body0Bits
import proofs.«901087_g7700000000001088_dist_sum_ax0_shard0_i_m4096_n1024_v7x_i16_bf16_1_alg».proof.Proof.Body012Bits
import proofs.«901087_g7700000000001088_dist_sum_ax0_shard0_i_m4096_n1024_v7x_i16_bf16_1_alg».proof.Proof.Body3Bits

/-!
# The body obligation at every grid point
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the four grid points' obligations, together -/
theorem body_all (c : Dev nD) (t : Fin cfg0.N) : BodyAt (F := F) m ρ c t := by
  rcases fin_N0 t with rfl | rfl | rfl | rfl
  · exact body_pt0 m ρ c
  · exact body_pt1 m ρ c
  · exact body_pt2 m ρ c
  · exact body_pt3 m ρ c

end Cert.Kernel.Coll

end
-- ==== Proof.Ghost.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched

/-!
# The collective's ghost state at launch

The launch element deals each device the round states, positions and duty tokens of its own thirty-one cells; one
update, for all devices at once, allocates every cell's invariant from the semaphores' counters at zero and deals the
duty tokens to the devices that pay them: the token of duty `i` of a device's barrier cell to the device `i + 1` places
after it, the token of receive cell `j` to the device `j + 1` places before it, a send cell's token to its own device.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the duty tokens of device `c`'s own cells, as minted -/
def ownToks (c : Dev nD) : sProp 𝕄 :=
  iprop((bigSep Finset.univ fun i : Fin 15 => dutyTok ER (barCell c) 0 i)
    ∗ (bigSep Finset.univ fun j : Fin 15 => dutyTok ER (sendCell c j) 0 (0 : Fin 15))
    ∗ bigSep Finset.univ fun j : Fin 15 => dutyTok ER (recvCell c j) 0 (0 : Fin 15))

/-- What the launch element deals device `c` (the launch theorem's `G`). -/
def G (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ ownToks c)

/-- What the global step makes of it (`G'`): the ghost part of the invariant before point 0. -/
def G' (c : Dev nD) : sProp 𝕄 := iprop((∃ K, records m K) ∗ posBar c 0 ∗ posXfer c ∗ barToks c ∗ cpyToks c)

def ringCells : Finset (GSem nD τ sig) := Finset.univ.map ⟨kcell, kcell_injective⟩

/-- a device's own cells' duty tokens as minted: (device, cell, duty) -/
abbrev tokOf (x : Dev nD × (Fin 15 ⊕ Fin 15 ⊕ Fin 15)) : GSem nD τ sig × ℕ × Fin 15 := match x.2 with
  | .inl i => (barCell x.1, 0, i)
  | .inr (.inl j) => (sendCell x.1 j, 0, 0)
  | .inr (.inr j) => (recvCell x.1 j, 0, 0)
theorem tokOf_injective : Function.Injective (tokOf : Dev nD × (Fin 15 ⊕ Fin 15 ⊕ Fin 15) → GSem nD τ sig × ℕ × Fin 15) := by
  rintro ⟨c, x⟩ ⟨c', x'⟩ h
  rcases x with i | j | j <;> rcases x' with i' | j' | j'
  · have h1 : barCell c = barCell c' := congrArg Prod.fst h
    have h2 : i = i' := congrArg (fun x : GSem nD τ sig × ℕ × Fin 15 => x.2.2) h
    rw [bar_eq_iff.mp h1, h2]
  · exact absurd (show sendCell c' j' = barCell c from (congrArg Prod.fst h).symm) (send_ne_bar _ _ _)
  · exact absurd (show recvCell c' j' = barCell c from (congrArg Prod.fst h).symm) (recv_ne_bar _ _ _)
  · exact absurd (show sendCell c j = barCell c' from congrArg Prod.fst h) (send_ne_bar _ _ _)
  · obtain ⟨h1, h2⟩ := send_eq_iff.mp (show sendCell c j = sendCell c' j' from congrArg Prod.fst h)
    rw [h1, h2]
  · exact absurd (show sendCell c j = recvCell c' j' from congrArg Prod.fst h) (send_ne_recv _ _ _ _)
  · exact absurd (show recvCell c j = barCell c' from congrArg Prod.fst h) (recv_ne_bar _ _ _)
  · exact absurd (show sendCell c' j' = recvCell c j from (congrArg Prod.fst h).symm) (send_ne_recv _ _ _ _)
  · obtain ⟨h1, h2⟩ := recv_eq_iff.mp (show recvCell c j = recvCell c' j' from congrArg Prod.fst h)
    rw [h1, h2]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- a device's thirty-one cells listed: the barrier cell, the fifteen send cells, the fifteen receive cells -/
def cixEquiv : (Unit ⊕ Fin 15 ⊕ Fin 15) ≃ CIx where
  toFun x := match x with
    | .inl _ => .bar
    | .inr (.inl j) => .send j
    | .inr (.inr j) => .recv j
  invFun k := match k with
    | .bar => .inl ()
    | .send j => .inr (.inl j)
    | .recv j => .inr (.inr j)
  left_inv x := by rcases x with _ | j | j <;> rfl
  right_inv k := by cases k <;> rfl

theorem bigSep_cix (Φ : CIx → sProp 𝕄) :
    bigSep Finset.univ Φ
      = iprop(Φ .bar ∗ (bigSep Finset.univ fun j : Fin 15 => Φ (.send j)) ∗ bigSep Finset.univ fun j : Fin 15 => Φ (.recv j)) := by
  rw [bigSep_univ_equiv cixEquiv Φ, bigSep_univ_sum, bigSep_univ_sum, bigSep_univ_of_subsingleton ()]
  rfl

theorem fund_ring : BI.own (ER (F := F) (initOf ringCells ringToks)) ⊢ (|==> bigSep Finset.univ (G (F := F) m) : sProp 𝕄) := by
  have hX (Φ : GSem nD τ sig → sProp 𝕄) :
      bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

/-- The kernel's own semaphores: the fifteen send and the fifteen receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun j : Fin 15 => semVal (recvCell c j) 0) := by
  unfold Pipeline.ownSems0
  rw [bigSep_univ_prod, bigSep_univ_eq_bigSepL [false, true] (by decide) (by decide)]
  rfl
/-- the barrier semaphore is the launch's one unscoped semaphore -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ### The global step -/

/-- the counters of a device's thirty-one cells, all at zero -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cix]
  iintro ⟨⟨HS, HV⟩, HB⟩
  isplitl [HB]; · iexact HB
  isplitl [HS] <;> iassumption

/-- One device: each of its cells' counter at zero and round state at zero become the cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- what is not shared: a device's positions in its own cells, and the tokens of the duties it pays -/
def linear (c : Dev nD) : sProp 𝕄 :=
  iprop((bigSep Finset.univ fun k : CIx => atPos ER (kcell (c, k)) 0 ∅ 0) ∗ barToks c ∗ cpyToks c)

theorem ghost_intro (K : Dev nD × CIx → ℕ) (c : Dev nD) : iprop(records m K ∗ linear c) ⊢ G' m c := by
  unfold linear G' posBar posXfer
  rw [bigSep_cix]
  iintro ⟨#HR, ⟨HaB, HaS, HaV⟩, HtB, HtC⟩
  isplitr
  · iexists K; iexact HR
  isplitl [HaB]; · iexact HaB
  isplitl [HaS HaV]
  · isplitl [HaS] <;> iassumption
  isplitl [HtB] <;> iassumption

/-- the offsets j + 1 and 16 - (j + 1), exchanged -/
def revEquiv : Fin 15 ≃ Fin 15 := ⟨rev, rev, rev_rev, rev_rev⟩

/-- The tokens dealt to their payers: duty i of a device's barrier cell goes to the device i + 1 places after it (which
    sees that cell at its offset 16 - (i + 1)), the token of its receive cell j to the device j + 1 places before it; a
    send cell's token stays. -/
theorem toks_around :
    (bigSep Finset.univ fun c : Dev nD => (ownToks c : sProp 𝕄)) ⊢ bigSep Finset.univ fun c : Dev nD => iprop(barToks c ∗ cpyToks c) := by
  have hbar : (bigSep Finset.univ fun c : Dev nD => bigSep Finset.univ fun i : Fin 15 => (dutyTok ER (barCell c) 0 i : sProp 𝕄))
      = bigSep Finset.univ fun c : Dev nD => bigSep Finset.univ fun j : Fin 15 => dutyTok ER (barCell (peer c j)) 0 (rev j) :=
    (bigSep_congr fun (c : Dev nD) _ => bigSep_univ_equiv revEquiv (fun i : Fin 15 => (dutyTok ER (barCell c) 0 i : sProp 𝕄))).trans
      ((bigSep_univ_comm (fun (c : Dev nD) (j : Fin 15) => (dutyTok ER (barCell c) 0 (revEquiv j) : sProp 𝕄))).trans
        ((bigSep_congr fun (j : Fin 15) _ =>
            bigSep_univ_equiv (peerEquiv j) (fun c : Dev nD => (dutyTok ER (barCell c) 0 (revEquiv j) : sProp 𝕄))).trans
          (bigSep_univ_comm (fun (j : Fin 15) (c : Dev nD) => (dutyTok ER (barCell (peerEquiv j c)) 0 (revEquiv j) : sProp 𝕄)))))
  have hrecv : (bigSep Finset.univ fun c : Dev nD => bigSep Finset.univ fun j : Fin 15 => (dutyTok ER (recvCell c j) 0 (0 : Fin 15) : sProp 𝕄))
      = bigSep Finset.univ fun c : Dev nD => bigSep Finset.univ fun j : Fin 15 => dutyTok ER (recvCell (peer c j) j) 0 (0 : Fin 15) :=
    (bigSep_univ_comm (fun (c : Dev nD) (j : Fin 15) => (dutyTok ER (recvCell c j) 0 (0 : Fin 15) : sProp 𝕄))).trans
      ((bigSep_congr fun (j : Fin 15) _ =>
          bigSep_univ_equiv (peerEquiv j) (fun c : Dev nD => (dutyTok ER (recvCell c j) 0 (0 : Fin 15) : sProp 𝕄))).trans
        (bigSep_univ_comm (fun (j : Fin 15) (c : Dev nD) => (dutyTok ER (recvCell (peerEquiv j c) j) 0 (0 : Fin 15) : sProp 𝕄))))
  unfold ownToks barToks cpyToks
  rw [bigSep_sep', bigSep_sep', bigSep_sep', bigSep_sep', hbar, hrecv]
  iintro ⟨H1, H2, H3⟩
  isplitl [H1]; · iexact H1
  isplitl [H3]; · iexact H3
  iexact H2

theorem regroup :
    (bigSep Finset.univ fun c : Dev nD => iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ ownToks c) : sProp 𝕄)
      ⊢ bigSep Finset.univ (G' (F := F) m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show iprop((bigSep Finset.univ fun c : Dev nD => bigSep Finset.univ fun k : CIx => (atPos ER (kcell (c, k)) 0 ∅ 0 : sProp 𝕄))
        ∗ bigSep Finset.univ fun c : Dev nD => iprop(barToks c ∗ cpyToks c)) = bigSep Finset.univ (linear (F := F)) from by
      unfold linear; exact (bigSep_sep' _ _ _).symm))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ### The launch credit -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c,
    ← Finset.add_sum_erase Finset.univ _ (Finset.mem_univ c), if_pos rfl, zero_add,
    Finset.sum_congr rfl (fun d hd => if_neg (Finset.ne_of_mem_erase hd)), Finset.sum_const,
    Finset.card_erase_of_mem (Finset.mem_univ c), Finset.card_univ, Fintype.card_fin]
  rfl

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (srcDev c j) fun _ => N, if_pos (Finset.mem_univ _)]

theorem recvLoc_injective : Function.Injective fun j : Fin 15 => (SemLoc.dma (recvSem j) : SemLoc sig) := fun j j' h =>
  (recv_eq_iff.mp (show recvCell (0 : Dev nD) j = recvCell (0 : Dev nD) j' from congrArg (Prod.mk ((0 : Dev nD) : Thread nD τ)) h)).2

/-- the launch credit of device `c`: fifteen units on its barrier cell, a row's credit on each receive cell -/
theorem creds (c : Dev nD) :
    (Pipeline.launchCred O₀ c : sProp 𝕄) ⊢ iprop(cred (tallyAt (barCell c) () 15) ∗ recvCreds c) := by
  unfold Pipeline.launchCred recvCreds
  rw [bigSep_univ_at _ (SemLoc.reg barS), launch_bar]
  refine sep_mono_right ?_
  have hsub : (Finset.univ.map ⟨fun j : Fin 15 => (SemLoc.dma (recvSem j) : SemLoc sig), recvLoc_injective⟩)
      ⊆ Finset.univ.erase (SemLoc.reg barS) := fun sm hsm => by
    obtain ⟨j, -, rfl⟩ := Finset.mem_map.mp hsm
    exact Finset.mem_erase.mpr ⟨fun h => (nomatch h), Finset.mem_univ _⟩
  refine (bigSep_subset hsub).trans ?_
  rw [bigSep_map]
  exact Entails.of_eq (bigSep_congr fun j _ => congrArg cred (launch_recv c j))

/-- info: 'Cert.KernelIdeal.Coll.fund_ring' depends on axioms: [propext, Classical.choice, Quot.sound] -/
#guard_msgs in #print axioms fund_ring
/-- info: 'Cert.KernelIdeal.Coll.glob' depends on axioms: [propext, Classical.choice, Quot.sound] -/
#guard_msgs in #print axioms glob
/-- info: 'Cert.KernelIdeal.Coll.creds' depends on axioms: [propext, Classical.choice, Quot.sound] -/
#guard_msgs in #print axioms creds

end Cert.KernelIdeal.Coll

end
-- ==== Proof.Launch.lean ====
import proofs.«901087_g7700000000001088_dist_sum_ax0_shard0_i_m4096_n1024_v7x_i16_bf16_1_alg».proof.Proof.Proto
import proofs.«901087_g7700000000001088_dist_sum_ax0_shard0_i_m4096_n1024_v7x_i16_bf16_1_alg».proof.Proof.Sched
import proofs.«901087_g7700000000001088_dist_sum_ax0_shard0_i_m4096_n1024_v7x_i16_bf16_1_alg».proof.Proof.Mem
import proofs.«901087_g7700000000001088_dist_sum_ax0_shard0_i_m4096_n1024_v7x_i16_bf16_1_alg».proof.Proof.Ghost
import proofs.«901087_g7700000000001088_dist_sum_ax0_shard0_i_m4096_n1024_v7x_i16_bf16_1_alg».proof.Proof.BodyDefs

/-!
# The launch: from the four body obligations to the run of the whole mesh

Every weakly fair execution of the sixteen devices terminates, each device's result array ends at its own partial
plus the fifteen it received, and its argument array ends as launched.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats (F := F) m ρ 0 c).share w = fullShare := by
  unfold Dat.share; split <;> rfl

/-- What device `c` routes into the pipeline's invariant: the ghost state, its launch credit, the levels. -/
def start (c : Dev nD) : sProp 𝕄 :=
  iprop(G' (F := F) m c ∗ cred (tallyAt (barCell c) () 15) ∗ recvCreds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start (F := F) m c ∗ emp) := by
  -- the launch credit is the barrier's fifteen units and a row's credit on each receive cell; the rest is kept as handed
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start (F := F) m c ∗ Pipeline.prefHeld Pipeline.Prefetch.none c (fun _ => fullShare.right) (fun k => k.elim0) ∗ Pipeline.scopedRest cfg0.spec c)
      ⊢ (dats (F := F) m ρ 0 c).Φ 0 := by
  -- the two scoped scratch buffers arrive whole at some contents; the partial buffer's points-to is its view's
  rw [show (dats (F := F) m ρ 0 c).Φ 0 = Φ₀ m c from rfl, scopedRest0_eq]
  unfold Φ₀ start G'
  iintro ⟨⟨⟨HK, Hpb, Hpx, Hbt, Hct⟩, Hcr, Hrc, Hlev⟩, -, ⟨%f, Hf⟩, ⟨%g, Hg⟩⟩
  isplitl [HK]; · iexact HK
  isplitl [Hpb]; · iexact Hpb
  isplitl [Hpx]; · iexact Hpx
  isplitl [Hbt]; · iexact Hbt
  isplitl [Hct]; · iexact Hct
  isplitl [Hcr]; · iexact Hcr
  isplitl [Hrc]; · iexact Hrc
  isplitl [Hlev]; · iexact Hlev
  isplitl [Hf]
  · iexists f; rw [partPts_full]; iexact Hf
  · iexists g; iexact Hg

theorem phi_exit (c : Dev nD) :
    (dats (F := F) m ρ 0 c).Φ (Fin.last cfg0.N) ⊢ iprop(emp ∗ Pipeline.ownSems0 osem c ∗ Pipeline.scopedRest cfg0.spec c) := by
  -- the thirty own semaphores are back at zero and both scratch buffers are whole again
  rw [show (dats (F := F) m ρ 0 c).Φ (Fin.last cfg0.N) = Φ₄ m c from rfl, scopedRest0_eq, ownSems0_eq]
  unfold Φ₄
  iintro ⟨Hp, Hc, Hs, Hr⟩
  isplitr; · iempintro
  isplitl [Hs Hr]
  · isplitl [Hs] <;> iassumption
  isplitl [Hp]
  · iexists (partF m c); rw [← partPts_full]; iexact Hp
  · iexists (commF m c); iexact Hc

theorem waits (c : Dev nD) : (levAts L lv : sProp 𝕄) ⊢ Pipeline.cellsWaits cfgs (dats (F := F) m ρ) () 0 c :=
  -- the staging cells are the DMA semaphores 0, 1, 2; before every point the device owes one of the three tallies
  Pipeline.cellsWaits_intro cfgs (dats (F := F) m ρ) () 0 c fun w s t =>
    mayWait_stage c _ (by fin_cases w <;> fin_cases s <;> decide) _ (by
      rcases t with ⟨_ | _ | _ | _ | _, ht⟩
      · exact Or.inl rfl
      · exact Or.inr (Or.inl rfl)
      · exact Or.inr (Or.inl rfl)
      · exact Or.inr (Or.inl rfl)
      · exact Or.inr (Or.inr rfl))

def finalA (c : Dev nD) (w : Fin cfg0.W) : Buf (Elt F) ((cfg0.win w).arr.view.loc (c : Thread nD τ)) := (dats (F := F) m ρ 0 c).arrAt w cfg0.N

set_option maxRecDepth 8000 in
/-- Every weakly fair execution of @main on the sixteen devices terminates, and every final state has each window's
    array at what the proof data computes. -/
theorem run_main (hbody : ∀ c t, BodyAt (F := F) m ρ c t) :
    θ_run defs (onTc (τ := τ) (main (F := F))) (s₀ m ρ) (fun r => ∀ c : Dev nD, ∀ w : Fin cfg0.W,
      r.2.mem ((cfg0.win w).arr.view.loc (c : Thread nD τ)) = finalA m ρ c w) :=
  Pipeline.θ_run_region_owing_glob_pf (fun p => (cfgs p).toPCfg) (fun p => (cfgs p).toPCfg_adm) (dats (F := F) m ρ) () cellOf_inj (0 : Fin 1)
    winFacts0.to₀ ownSemFacts (Pipeline.PreFacts.none _) EP defs₀ 𝒱₀ m ρ main
    (hmain := fun _ => rfl)
    (hbody := fun c => bodyObligation_of m ρ c (hbody c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      -- the launch element is a pair: the pipeline's half is handed on, the collective's half funds every device's cells
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi_exit m ρ)
    (QY := fun _ _ => True)
    (hY := fun c s' => by
      iintro ⟨-, -, HSI⟩
      imodintro
      isplitr; · ipureintro; trivial
      iexact HSI)
    (hQ := fun _ h c w => (h c).1 w)

/-- the argument array ends as launched -/
theorem finalA_x (c : Dev nD) : finalA (F := F) m ρ c (0 : Fin 2) = m ((c : Thread nD τ).loc main_arg0) :=
  -- window 0 is an input: no point writes its array back
  (dats (F := F) m ρ 0 c).arrAt_in (0 : Fin 2) rfl _
/-- the result array ends at the device's result -/
theorem finalA_out (c : Dev nD) : finalA (F := F) m ρ c (1 : Fin 2) = outAt m c := by
  -- only the last point writes window 1 back
  have hflush : (cfg0.win (1 : Fin 2)).flush t0_3 = true := (flush0_1 t0_3).mpr rfl
  have hstep := (dats (F := F) m ρ 0 c).arrAt_succ (1 : Fin 2) t0_3
  rw [if_pos hflush] at hstep
  -- and its block there sits at offset zero on both axes with the array's own sizes: the write replaces the whole array
  have hz : (fun a => win0_1.index t0_3 a * main_v1.ty.shape.size a) = fun _ => 0 := funext fun a => by fin_cases a <;> decide
  show (dats (F := F) m ρ 0 c).arrAt (1 : Fin 2) (t0_3.val + 1) = outAt m c
  rw [hstep]
  exact Memref.write_access_unit_zero_univ (Elt F) main_v1 hz (fun a => by rw [congrFun hz a]; simp) _ (outAt m c)

/-- THE RUN, with the result named. -/
theorem kernel_run (hbody : ∀ c t, BodyAt (F := F) m ρ c t) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ hbody)

/-- info: 'Cert.KernelIdeal.Coll.kernel_run' depends on axioms: [propext, Classical.choice, Quot.sound] -/
#guard_msgs in #print axioms kernel_run

end Cert.KernelIdeal.Coll

end
-- ==== Proof.FrameIdeal.lean ====
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.KernelIdeal
import proofs.«901087_g7700000000001088_dist_sum_ax0_shard0_i_m4096_n1024_v7x_i16_bf16_1_alg».proof.Proof.Gen.Pre_finite_inputs_Kernel
import proofs.«901087_g7700000000001088_dist_sum_ax0_shard0_i_m4096_n1024_v7x_i16_bf16_1_alg».proof.Proof.Launch

/-!
# The frame of the idealized kernel

From the four grid points' body obligations at the ideal instance: every weakly fair execution of the sixteen devices
terminates without a fault, and every device's argument array ends as launched. The run theorem gives this together
with the result array's contents; the frame keeps the second half. The precondition is not used: the run holds from
any launched memory.
-/

noncomputable section

namespace Cert.Proof

open Idealize.ShloMosaic Idealize.SL.Sem

theorem frame_KernelIdeal_holds
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD) (t : Fin Cert.KernelIdeal.cfg0.N),
      Cert.KernelIdeal.Coll.BodyAt (F := Ideal) m ρ c t) :
    Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.Coll.kernel_run (F := Ideal) m g (hbody m g))

/-- info: 'Cert.Proof.frame_KernelIdeal_holds' depends on axioms: [propext, Classical.choice, Quot.sound] -/
#guard_msgs in #print axioms frame_KernelIdeal_holds

end Cert.Proof

end
-- ==== Proof.GhostBits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits

/-!
# The collective's ghost state at launch

The launch element deals each device the round states, positions and duty tokens of its own thirty-one cells; one
update, for all devices at once, allocates every cell's invariant from the semaphores' counters at zero and deals the
duty tokens to the devices that pay them: the token of duty `i` of a device's barrier cell to the device `i + 1` places
after it, the token of receive cell `j` to the device `j + 1` places before it, a send cell's token to its own device.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- the duty tokens of device `c`'s own cells, as minted -/
def ownToks (c : Dev nD) : sProp 𝕄 :=
  iprop((bigSep Finset.univ fun i : Fin 15 => dutyTok ER (barCell c) 0 i)
    ∗ (bigSep Finset.univ fun j : Fin 15 => dutyTok ER (sendCell c j) 0 (0 : Fin 15))
    ∗ bigSep Finset.univ fun j : Fin 15 => dutyTok ER (recvCell c j) 0 (0 : Fin 15))

/-- What the launch element deals device `c` (the launch theorem's `G`). -/
def G (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ ownToks c)

/-- What the global step makes of it (`G'`): the ghost part of the invariant before point 0. -/
def G' (c : Dev nD) : sProp 𝕄 := iprop((∃ K, records m K) ∗ posBar c 0 ∗ posXfer c ∗ barToks c ∗ cpyToks c)

def ringCells : Finset (GSem nD τ sig) := Finset.univ.map ⟨kcell, kcell_injective⟩

/-- a device's own cells' duty tokens as minted: (device, cell, duty) -/
abbrev tokOf (x : Dev nD × (Fin 15 ⊕ Fin 15 ⊕ Fin 15)) : GSem nD τ sig × ℕ × Fin 15 := match x.2 with
  | .inl i => (barCell x.1, 0, i)
  | .inr (.inl j) => (sendCell x.1 j, 0, 0)
  | .inr (.inr j) => (recvCell x.1 j, 0, 0)
theorem tokOf_injective : Function.Injective (tokOf : Dev nD × (Fin 15 ⊕ Fin 15 ⊕ Fin 15) → GSem nD τ sig × ℕ × Fin 15) := by
  rintro ⟨c, x⟩ ⟨c', x'⟩ h
  rcases x with i | j | j <;> rcases x' with i' | j' | j'
  · have h1 : barCell c = barCell c' := congrArg Prod.fst h
    have h2 : i = i' := congrArg (fun x : GSem nD τ sig × ℕ × Fin 15 => x.2.2) h
    rw [bar_eq_iff.mp h1, h2]
  · exact absurd (show sendCell c' j' = barCell c from (congrArg Prod.fst h).symm) (send_ne_bar _ _ _)
  · exact absurd (show recvCell c' j' = barCell c from (congrArg Prod.fst h).symm) (recv_ne_bar _ _ _)
  · exact absurd (show sendCell c j = barCell c' from congrArg Prod.fst h) (send_ne_bar _ _ _)
  · obtain ⟨h1, h2⟩ := send_eq_iff.mp (show sendCell c j = sendCell c' j' from congrArg Prod.fst h)
    rw [h1, h2]
  · exact absurd (show sendCell c j = recvCell c' j' from congrArg Prod.fst h) (send_ne_recv _ _ _ _)
  · exact absurd (show recvCell c j = barCell c' from congrArg Prod.fst h) (recv_ne_bar _ _ _)
  · exact absurd (show sendCell c' j' = recvCell c j from (congrArg Prod.fst h).symm) (send_ne_recv _ _ _ _)
  · obtain ⟨h1, h2⟩ := recv_eq_iff.mp (show recvCell c j = recvCell c' j' from congrArg Prod.fst h)
    rw [h1, h2]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- a device's thirty-one cells listed: the barrier cell, the fifteen send cells, the fifteen receive cells -/
def cixEquiv : (Unit ⊕ Fin 15 ⊕ Fin 15) ≃ CIx where
  toFun x := match x with
    | .inl _ => .bar
    | .inr (.inl j) => .send j
    | .inr (.inr j) => .recv j
  invFun k := match k with
    | .bar => .inl ()
    | .send j => .inr (.inl j)
    | .recv j => .inr (.inr j)
  left_inv x := by rcases x with _ | j | j <;> rfl
  right_inv k := by cases k <;> rfl

theorem bigSep_cix (Φ : CIx → sProp 𝕄) :
    bigSep Finset.univ Φ
      = iprop(Φ .bar ∗ (bigSep Finset.univ fun j : Fin 15 => Φ (.send j)) ∗ bigSep Finset.univ fun j : Fin 15 => Φ (.recv j)) := by
  rw [bigSep_univ_equiv cixEquiv Φ, bigSep_univ_sum, bigSep_univ_sum, bigSep_univ_of_subsingleton ()]
  rfl

theorem fund_ring : BI.own (ER (F := F) (initOf ringCells ringToks)) ⊢ (|==> bigSep Finset.univ (G (F := F) m) : sProp 𝕄) := by
  have hX (Φ : GSem nD τ sig → sProp 𝕄) :
      bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

/-- The kernel's own semaphores: the fifteen send and the fifteen receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun j : Fin 15 => semVal (recvCell c j) 0) := by
  unfold Pipeline.ownSems0
  rw [bigSep_univ_prod, bigSep_univ_eq_bigSepL [false, true] (by decide) (by decide)]
  rfl
/-- the barrier semaphore is the launch's one unscoped semaphore -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ### The global step -/

/-- the counters of a device's thirty-one cells, all at zero -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cix]
  iintro ⟨⟨HS, HV⟩, HB⟩
  isplitl [HB]; · iexact HB
  isplitl [HS] <;> iassumption

/-- One device: each of its cells' counter at zero and round state at zero become the cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- what is not shared: a device's positions in its own cells, and the tokens of the duties it pays -/
def linear (c : Dev nD) : sProp 𝕄 :=
  iprop((bigSep Finset.univ fun k : CIx => atPos ER (kcell (c, k)) 0 ∅ 0) ∗ barToks c ∗ cpyToks c)

theorem ghost_intro (K : Dev nD × CIx → ℕ) (c : Dev nD) : iprop(records m K ∗ linear c) ⊢ G' m c := by
  unfold linear G' posBar posXfer
  rw [bigSep_cix]
  iintro ⟨#HR, ⟨HaB, HaS, HaV⟩, HtB, HtC⟩
  isplitr
  · iexists K; iexact HR
  isplitl [HaB]; · iexact HaB
  isplitl [HaS HaV]
  · isplitl [HaS] <;> iassumption
  isplitl [HtB] <;> iassumption

/-- the offsets j + 1 and 16 - (j + 1), exchanged -/
def revEquiv : Fin 15 ≃ Fin 15 := ⟨rev, rev, rev_rev, rev_rev⟩

/-- The tokens dealt to their payers: duty i of a device's barrier cell goes to the device i + 1 places after it (which
    sees that cell at its offset 16 - (i + 1)), the token of its receive cell j to the device j + 1 places before it; a
    send cell's token stays. -/
theorem toks_around :
    (bigSep Finset.univ fun c : Dev nD => (ownToks c : sProp 𝕄)) ⊢ bigSep Finset.univ fun c : Dev nD => iprop(barToks c ∗ cpyToks c) := by
  have hbar : (bigSep Finset.univ fun c : Dev nD => bigSep Finset.univ fun i : Fin 15 => (dutyTok ER (barCell c) 0 i : sProp 𝕄))
      = bigSep Finset.univ fun c : Dev nD => bigSep Finset.univ fun j : Fin 15 => dutyTok ER (barCell (peer c j)) 0 (rev j) :=
    (bigSep_congr fun (c : Dev nD) _ => bigSep_univ_equiv revEquiv (fun i : Fin 15 => (dutyTok ER (barCell c) 0 i : sProp 𝕄))).trans
      ((bigSep_univ_comm (fun (c : Dev nD) (j : Fin 15) => (dutyTok ER (barCell c) 0 (revEquiv j) : sProp 𝕄))).trans
        ((bigSep_congr fun (j : Fin 15) _ =>
            bigSep_univ_equiv (peerEquiv j) (fun c : Dev nD => (dutyTok ER (barCell c) 0 (revEquiv j) : sProp 𝕄))).trans
          (bigSep_univ_comm (fun (j : Fin 15) (c : Dev nD) => (dutyTok ER (barCell (peerEquiv j c)) 0 (revEquiv j) : sProp 𝕄)))))
  have hrecv : (bigSep Finset.univ fun c : Dev nD => bigSep Finset.univ fun j : Fin 15 => (dutyTok ER (recvCell c j) 0 (0 : Fin 15) : sProp 𝕄))
      = bigSep Finset.univ fun c : Dev nD => bigSep Finset.univ fun j : Fin 15 => dutyTok ER (recvCell (peer c j) j) 0 (0 : Fin 15) :=
    (bigSep_univ_comm (fun (c : Dev nD) (j : Fin 15) => (dutyTok ER (recvCell c j) 0 (0 : Fin 15) : sProp 𝕄))).trans
      ((bigSep_congr fun (j : Fin 15) _ =>
          bigSep_univ_equiv (peerEquiv j) (fun c : Dev nD => (dutyTok ER (recvCell c j) 0 (0 : Fin 15) : sProp 𝕄))).trans
        (bigSep_univ_comm (fun (j : Fin 15) (c : Dev nD) => (dutyTok ER (recvCell (peerEquiv j c) j) 0 (0 : Fin 15) : sProp 𝕄))))
  unfold ownToks barToks cpyToks
  rw [bigSep_sep', bigSep_sep', bigSep_sep', bigSep_sep', hbar, hrecv]
  iintro ⟨H1, H2, H3⟩
  isplitl [H1]; · iexact H1
  isplitl [H3]; · iexact H3
  iexact H2

theorem regroup :
    (bigSep Finset.univ fun c : Dev nD => iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ ownToks c) : sProp 𝕄)
      ⊢ bigSep Finset.univ (G' (F := F) m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show iprop((bigSep Finset.univ fun c : Dev nD => bigSep Finset.univ fun k : CIx => (atPos ER (kcell (c, k)) 0 ∅ 0 : sProp 𝕄))
        ∗ bigSep Finset.univ fun c : Dev nD => iprop(barToks c ∗ cpyToks c)) = bigSep Finset.univ (linear (F := F)) from by
      unfold linear; exact (bigSep_sep' _ _ _).symm))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ### The launch credit -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c,
    ← Finset.add_sum_erase Finset.univ _ (Finset.mem_univ c), if_pos rfl, zero_add,
    Finset.sum_congr rfl (fun d hd => if_neg (Finset.ne_of_mem_erase hd)), Finset.sum_const,
    Finset.card_erase_of_mem (Finset.mem_univ c), Finset.card_univ, Fintype.card_fin]
  rfl

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (srcDev c j) fun _ => N, if_pos (Finset.mem_univ _)]

theorem recvLoc_injective : Function.Injective fun j : Fin 15 => (SemLoc.dma (recvSem j) : SemLoc sig) := fun j j' h =>
  (recv_eq_iff.mp (show recvCell (0 : Dev nD) j = recvCell (0 : Dev nD) j' from congrArg (Prod.mk ((0 : Dev nD) : Thread nD τ)) h)).2

/-- the launch credit of device `c`: fifteen units on its barrier cell, a row's credit on each receive cell -/
theorem creds (c : Dev nD) :
    (Pipeline.launchCred O₀ c : sProp 𝕄) ⊢ iprop(cred (tallyAt (barCell c) () 15) ∗ recvCreds c) := by
  unfold Pipeline.launchCred recvCreds
  rw [bigSep_univ_at _ (SemLoc.reg barS), launch_bar]
  refine sep_mono_right ?_
  have hsub : (Finset.univ.map ⟨fun j : Fin 15 => (SemLoc.dma (recvSem j) : SemLoc sig), recvLoc_injective⟩)
      ⊆ Finset.univ.erase (SemLoc.reg barS) := fun sm hsm => by
    obtain ⟨j, -, rfl⟩ := Finset.mem_map.mp hsm
    exact Finset.mem_erase.mpr ⟨fun h => (nomatch h), Finset.mem_univ _⟩
  refine (bigSep_subset hsub).trans ?_
  rw [bigSep_map]
  exact Entails.of_eq (bigSep_congr fun j _ => congrArg cred (launch_recv c j))

/-- info: 'Cert.Kernel.Coll.fund_ring' depends on axioms: [propext, Classical.choice, Quot.sound] -/
#guard_msgs in #print axioms fund_ring
/-- info: 'Cert.Kernel.Coll.glob' depends on axioms: [propext, Classical.choice, Quot.sound] -/
#guard_msgs in #print axioms glob
/-- info: 'Cert.Kernel.Coll.creds' depends on axioms: [propext, Classical.choice, Quot.sound] -/
#guard_msgs in #print axioms creds

end Cert.Kernel.Coll

end
-- ==== Proof.LaunchBits.lean ====
import proofs.«901087_g7700000000001088_dist_sum_ax0_shard0_i_m4096_n1024_v7x_i16_bf16_1_alg».proof.Proof.ProtoBits
import proofs.«901087_g7700000000001088_dist_sum_ax0_shard0_i_m4096_n1024_v7x_i16_bf16_1_alg».proof.Proof.SchedBits
import proofs.«901087_g7700000000001088_dist_sum_ax0_shard0_i_m4096_n1024_v7x_i16_bf16_1_alg».proof.Proof.MemBits
import proofs.«901087_g7700000000001088_dist_sum_ax0_shard0_i_m4096_n1024_v7x_i16_bf16_1_alg».proof.Proof.GhostBits
import proofs.«901087_g7700000000001088_dist_sum_ax0_shard0_i_m4096_n1024_v7x_i16_bf16_1_alg».proof.Proof.BodyDefsBits

/-!
# The launch: from the four body obligations to the run of the whole mesh

Every weakly fair execution of the sixteen devices terminates, each device's result array ends at its own partial
plus the fifteen it received, and its argument array ends as launched.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats (F := F) m ρ 0 c).share w = fullShare := by
  unfold Dat.share; split <;> rfl

/-- What device `c` routes into the pipeline's invariant: the ghost state, its launch credit, the levels. -/
def start (c : Dev nD) : sProp 𝕄 :=
  iprop(G' (F := F) m c ∗ cred (tallyAt (barCell c) () 15) ∗ recvCreds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start (F := F) m c ∗ emp) := by
  -- the launch credit is the barrier's fifteen units and a row's credit on each receive cell; the rest is kept as handed
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start (F := F) m c ∗ Pipeline.prefHeld Pipeline.Prefetch.none c (fun _ => fullShare.right) (fun k => k.elim0) ∗ Pipeline.scopedRest cfg0.spec c)
      ⊢ (dats (F := F) m ρ 0 c).Φ 0 := by
  -- the two scoped scratch buffers arrive whole at some contents; the partial buffer's points-to is its view's
  rw [show (dats (F := F) m ρ 0 c).Φ 0 = Φ₀ m c from rfl, scopedRest0_eq]
  unfold Φ₀ start G'
  iintro ⟨⟨⟨HK, Hpb, Hpx, Hbt, Hct⟩, Hcr, Hrc, Hlev⟩, -, ⟨%f, Hf⟩, ⟨%g, Hg⟩⟩
  isplitl [HK]; · iexact HK
  isplitl [Hpb]; · iexact Hpb
  isplitl [Hpx]; · iexact Hpx
  isplitl [Hbt]; · iexact Hbt
  isplitl [Hct]; · iexact Hct
  isplitl [Hcr]; · iexact Hcr
  isplitl [Hrc]; · iexact Hrc
  isplitl [Hlev]; · iexact Hlev
  isplitl [Hf]
  · iexists f; rw [partPts_full]; iexact Hf
  · iexists g; iexact Hg

theorem phi_exit (c : Dev nD) :
    (dats (F := F) m ρ 0 c).Φ (Fin.last cfg0.N) ⊢ iprop(emp ∗ Pipeline.ownSems0 osem c ∗ Pipeline.scopedRest cfg0.spec c) := by
  -- the thirty own semaphores are back at zero and both scratch buffers are whole again
  rw [show (dats (F := F) m ρ 0 c).Φ (Fin.last cfg0.N) = Φ₄ m c from rfl, scopedRest0_eq, ownSems0_eq]
  unfold Φ₄
  iintro ⟨Hp, Hc, Hs, Hr⟩
  isplitr; · iempintro
  isplitl [Hs Hr]
  · isplitl [Hs] <;> iassumption
  isplitl [Hp]
  · iexists (partF m c); rw [← partPts_full]; iexact Hp
  · iexists (commF m c); iexact Hc

theorem waits (c : Dev nD) : (levAts L lv : sProp 𝕄) ⊢ Pipeline.cellsWaits cfgs (dats (F := F) m ρ) () 0 c :=
  -- the staging cells are the DMA semaphores 0, 1, 2; before every point the device owes one of the three tallies
  Pipeline.cellsWaits_intro cfgs (dats (F := F) m ρ) () 0 c fun w s t =>
    mayWait_stage c _ (by fin_cases w <;> fin_cases s <;> decide) _ (by
      rcases t with ⟨_ | _ | _ | _ | _, ht⟩
      · exact Or.inl rfl
      · exact Or.inr (Or.inl rfl)
      · exact Or.inr (Or.inl rfl)
      · exact Or.inr (Or.inl rfl)
      · exact Or.inr (Or.inr rfl))

def finalA (c : Dev nD) (w : Fin cfg0.W) : Buf (Elt F) ((cfg0.win w).arr.view.loc (c : Thread nD τ)) := (dats (F := F) m ρ 0 c).arrAt w cfg0.N

set_option maxRecDepth 8000 in
/-- Every weakly fair execution of @main on the sixteen devices terminates, and every final state has each window's
    array at what the proof data computes. -/
theorem run_main (hbody : ∀ c t, BodyAt (F := F) m ρ c t) :
    θ_run defs (onTc (τ := τ) (main (F := F))) (s₀ m ρ) (fun r => ∀ c : Dev nD, ∀ w : Fin cfg0.W,
      r.2.mem ((cfg0.win w).arr.view.loc (c : Thread nD τ)) = finalA m ρ c w) :=
  Pipeline.θ_run_region_owing_glob_pf (fun p => (cfgs p).toPCfg) (fun p => (cfgs p).toPCfg_adm) (dats (F := F) m ρ) () cellOf_inj (0 : Fin 1)
    winFacts0.to₀ ownSemFacts (Pipeline.PreFacts.none _) EP defs₀ 𝒱₀ m ρ main
    (hmain := fun _ => rfl)
    (hbody := fun c => bodyObligation_of m ρ c (hbody c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      -- the launch element is a pair: the pipeline's half is handed on, the collective's half funds every device's cells
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi_exit m ρ)
    (QY := fun _ _ => True)
    (hY := fun c s' => by
      iintro ⟨-, -, HSI⟩
      imodintro
      isplitr; · ipureintro; trivial
      iexact HSI)
    (hQ := fun _ h c w => (h c).1 w)

/-- the argument array ends as launched -/
theorem finalA_x (c : Dev nD) : finalA (F := F) m ρ c (0 : Fin 2) = m ((c : Thread nD τ).loc main_arg0) :=
  -- window 0 is an input: no point writes its array back
  (dats (F := F) m ρ 0 c).arrAt_in (0 : Fin 2) rfl _
/-- the result array ends at the device's result -/
theorem finalA_out (c : Dev nD) : finalA (F := F) m ρ c (1 : Fin 2) = outAt m c := by
  -- only the last point writes window 1 back
  have hflush : (cfg0.win (1 : Fin 2)).flush t0_3 = true := (flush0_1 t0_3).mpr rfl
  have hstep := (dats (F := F) m ρ 0 c).arrAt_succ (1 : Fin 2) t0_3
  rw [if_pos hflush] at hstep
  -- and its block there sits at offset zero on both axes with the array's own sizes: the write replaces the whole array
  have hz : (fun a => win0_1.index t0_3 a * main_v1.ty.shape.size a) = fun _ => 0 := funext fun a => by fin_cases a <;> decide
  show (dats (F := F) m ρ 0 c).arrAt (1 : Fin 2) (t0_3.val + 1) = outAt m c
  rw [hstep]
  exact Memref.write_access_unit_zero_univ (Elt F) main_v1 hz (fun a => by rw [congrFun hz a]; simp) _ (outAt m c)

/-- THE RUN, with the result named. -/
theorem kernel_run (hbody : ∀ c t, BodyAt (F := F) m ρ c t) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ hbody)

/-- info: 'Cert.Kernel.Coll.kernel_run' depends on axioms: [propext, Classical.choice, Quot.sound] -/
#guard_msgs in #print axioms kernel_run

end Cert.Kernel.Coll

end
-- ==== Proof.FrameBits.lean ====
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.Kernel
import proofs.«901087_g7700000000001088_dist_sum_ax0_shard0_i_m4096_n1024_v7x_i16_bf16_1_alg».proof.Proof.Gen.Pre_finite_inputs_Kernel
import proofs.«901087_g7700000000001088_dist_sum_ax0_shard0_i_m4096_n1024_v7x_i16_bf16_1_alg».proof.Proof.LaunchBits

/-!
# The frame of the kernel as printed

From the four grid points' body obligations at the bit-exact instance: every weakly fair execution of the sixteen
devices terminates without a fault, and every device's argument array ends as launched. The run theorem gives this
together with the result array's contents; the frame keeps the second half. The precondition is not used: the run
holds from any launched memory.
-/

noncomputable section

namespace Cert.Proof

open Idealize.ShloMosaic Idealize.SL.Sem

theorem frame_Kernel_holds
    (hbody : ∀ (m : (ℓ : Loc Cert.Kernel.nD Cert.Kernel.τ Cert.Kernel.sig) → Buf (Elt Bits) ℓ)
      (ρ : Dev Cert.Kernel.nD → PrngReg) (c : Dev Cert.Kernel.nD) (t : Fin Cert.Kernel.cfg0.N),
      Cert.Kernel.Coll.BodyAt (F := Bits) m ρ c t) :
    Cert.frame_Kernel (hKernel := Cert.Kernel.Gen.facts) (hPre_finite_inputs_Kernel := Cert.Pre_finite_inputs_Kernel.Gen.facts) :=
  fun m g _ => (θ_run _ _ _).mono (fun _ h c => (h c).2) (Cert.Kernel.Coll.kernel_run (F := Bits) m g (hbody m g))

/-- info: 'Cert.Proof.frame_Kernel_holds' depends on axioms: [propext, Classical.choice, Quot.sound] -/
#guard_msgs in #print axioms frame_Kernel_holds

end Cert.Proof

end
-- ==== Proof.lean ====
/-
  The sum over axis 0 of a [65536, 1024] array cut along its rows over sixteen devices, against one device's sum of the
  whole array.

  Each device adds the column sums of its four row blocks into a partial; tells the other fifteen over their barrier
  semaphores that it has entered; waits for their fifteen signals; copies its partial into a slot of each other
  device's receive buffer; and ends with its partial plus the fifteen rows copied to it. Over the extended reals that is
  the sum of all sixteen devices' partials, in some grouping and order, and so the column sums of all 65536 rows: the
  reference's result on every device. Addition of extended reals is associative and commutative on all of them, so the
  inputs' finiteness is not used.

  The three frames: the two kernels' from the run of the whole mesh (the body obligation at each of the four grid
  points, the cells' schedule and the launch), with the result's value dropped; the reference's from its run. The ideal
  pass rewrote nothing, so the idealization is the program's own text read at the ideal instance.
-/
import proofs.«901087_g7700000000001088_dist_sum_ax0_shard0_i_m4096_n1024_v7x_i16_bf16_1_alg».proof.Defs
import proofs.«901087_g7700000000001088_dist_sum_ax0_shard0_i_m4096_n1024_v7x_i16_bf16_1_alg».proof.Proof.Gen.Kernel
import proofs.«901087_g7700000000001088_dist_sum_ax0_shard0_i_m4096_n1024_v7x_i16_bf16_1_alg».proof.Proof.Gen.KernelIdeal
import proofs.«901087_g7700000000001088_dist_sum_ax0_shard0_i_m4096_n1024_v7x_i16_bf16_1_alg».proof.Proof.Gen.ReferenceIdeal
import proofs.«901087_g7700000000001088_dist_sum_ax0_shard0_i_m4096_n1024_v7x_i16_bf16_1_alg».proof.Proof.Gen.Pre_finite_inputs_Kernel
import proofs.«901087_g7700000000001088_dist_sum_ax0_shard0_i_m4096_n1024_v7x_i16_bf16_1_alg».proof.Proof.Gen.Pre_finite_inputs_ReferenceIdeal
import proofs.«901087_g7700000000001088_dist_sum_ax0_shard0_i_m4096_n1024_v7x_i16_bf16_1_alg».proof.Proof.Value
import proofs.«901087_g7700000000001088_dist_sum_ax0_shard0_i_m4096_n1024_v7x_i16_bf16_1_alg».proof.Proof.BodyAll
import proofs.«901087_g7700000000001088_dist_sum_ax0_shard0_i_m4096_n1024_v7x_i16_bf16_1_alg».proof.Proof.BodyAllBits
import proofs.«901087_g7700000000001088_dist_sum_ax0_shard0_i_m4096_n1024_v7x_i16_bf16_1_alg».proof.Proof.FrameIdeal
import proofs.«901087_g7700000000001088_dist_sum_ax0_shard0_i_m4096_n1024_v7x_i16_bf16_1_alg».proof.Proof.FrameBits
import Idealize.ShloMosaic.Adequacy
import Idealize.ShloMosaic.Init

noncomputable section

namespace Cert.Proof

open Idealize.ShloMosaic Idealize.SL.Sem

/-- the kernel as printed runs and leaves its argument arrays as launched -/
theorem frame_p : Cert.frame_Kernel (hKernel := Cert.Kernel.Gen.facts) (hPre_finite_inputs_Kernel := Cert.Pre_finite_inputs_Kernel.Gen.facts) :=
  frame_Kernel_holds fun m ρ c t => Cert.Kernel.Coll.body_all (F := Bits) m ρ c t

/-- so does its reading at the ideal instance -/
theorem frame_pi : Cert.frame_KernelIdeal (hKernelIdeal := Cert.KernelIdeal.Gen.facts) (hPre_finite_inputs_Kernel := Cert.Pre_finite_inputs_Kernel.Gen.facts) :=
  frame_KernelIdeal_holds fun m ρ c t => Cert.KernelIdeal.Coll.body_all (F := Ideal) m ρ c t

/-- every device's result is the column sums of the whole array: the reference's result -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  Cert.KernelIdeal.Val.algebraic_of_run Cert.KernelIdeal.Coll.srcDev Cert.KernelIdeal.Coll.srcDev_injective Cert.KernelIdeal.Coll.srcDev_ne_self
    fun m ρ => Cert.KernelIdeal.Coll.kernel_run (F := Ideal) m ρ fun c t => Cert.KernelIdeal.Coll.body_all (F := Ideal) m ρ c t

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, frame_pi, Cert.KernelIdeal.Val.frame_ReferenceIdeal_holds, trivial, algebraic⟩

end Cert.Proof

end
